-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2048 : Shape := ⟨2, ![10000, 2048]⟩
abbrev S2x320000 : Shape := ⟨2, ![2, 320000]⟩
abbrev S256x2048 : Shape := ⟨2, ![256, 2048]⟩
abbrev S256 : Shape := ⟨1, ![256]⟩
abbrev S3x256x256 : Shape := ⟨3, ![3, 256, 256]⟩
abbrev S3x256 : Shape := ⟨2, ![3, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S_ : Shape := ⟨0, ![]⟩

class Facts : Prop where
  bcast_S_S10000x2048 : S_.BroadcastsInDim S10000x2048 (![] : Fin 0 → Fin S10000x2048.rank)
  reducesTo_S10000x2048_S_d0_1 : S10000x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S10x64 : S_.BroadcastsInDim S10x64 (![] : Fin 0 → Fin S10x64.rank)
  reducesTo_S10x64_S_d0_1 : S10x64.ReducesTo [0, 1] S_
  bcast_S_S10 : S_.BroadcastsInDim S10 (![] : Fin 0 → Fin S10.rank)
  reducesTo_S10_S_d0 : S10.ReducesTo [0] S_
  bcast_S_S2x320000 : S_.BroadcastsInDim S2x320000 (![] : Fin 0 → Fin S2x320000.rank)
  reducesTo_S2x320000_S_d0_1 : S2x320000.ReducesTo [0, 1] S_

variable [Facts]

def fn_part5 {F : FTy → Type} [FloatOps F] (main_v81 : IVec S_ 1) (main_v83 : IVec S3x256 1) (main_c_33 : IVec S_ 1) : IVec S_ 1 :=
  let main_v84 : IVec S_ 1 := (fun x v => Host.reduce IntOp.andi x v reducesTo_S3x256_S_d0_1 h_S_) main_v83 main_c_33
  let main_v85 : IVec S_ 1 := andi main_v81 main_v84
  main_v85

def fn_part4 {F : FTy → Type} [FloatOps F] (main_arg1 : IVec S2x320000 32) (main_arg9 : FVec F S3x256 .f32) (main_arg15 : FVec F S10 .f32) (main_v63 : IVec S_ 1) (main_v67 : IVec S_ 1) : IVec S_ 1 :=
  let main_v68 : IVec S_ 1 := andi main_v63 main_v67
  let main_v69 : FVec F S10 .f32 := Host.absf main_arg15
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_c_28 : IVec S_ 32 := constantI S_ 32 0#32
  let main_v74 : IVec S2x320000 32 := broadcastInDim S2x320000 ![] bcast_S_S2x320000 main_c_28
  let main_v75 : IVec S2x320000 1 := cmpi .sge main_arg1 main_v74
  let main_c_29 : IVec S_ 1 := constantI S_ 1 1#1
  let main_v76 : IVec S_ 1 := (fun x v => Host.reduce IntOp.andi x v reducesTo_S2x320000_S_d0_1 h_S_) main_v75 main_c_29
  let main_v77 : IVec S_ 1 := andi main_v73 main_v76
  let main_c_30 : IVec S_ 32 := constantI S_ 32 10000#32
  let main_v78 : IVec S2x320000 32 := broadcastInDim S2x320000 ![] bcast_S_S2x320000 main_c_30
  let main_v79 : IVec S2x320000 1 := cmpi .slt main_arg1 main_v78
  let main_c_31 : IVec S_ 1 := constantI S_ 1 1#1
  let main_v80 : IVec S_ 1 := (fun x v => Host.reduce IntOp.andi x v reducesTo_S2x320000_S_d0_1 h_S_) main_v79 main_c_31
  let main_v81 : IVec S_ 1 := andi main_v77 main_v80
  let main_cst_32 : FVec F S_ .f32 := constant S_ .f32 0x00000000#32
  let main_v82 : FVec F S3x256 .f32 := broadcastInDim S3x256 ![] bcast_S_S3x256 main_cst_32
  let main_v83 : IVec S3x256 1 := cmpf .oge main_arg9 main_v82
  let main_c_33 : IVec S_ 1 := constantI S_ 1 1#1
  fn_part5 (F := F) main_v81 main_v83 main_c_33

def fn_part3 {F : FTy → Type} [FloatOps F] (main_arg1 : IVec S2x320000 32) (main_arg9 : FVec F S3x256 .f32) (main_arg12 : FVec F S64x128 .f32) (main_arg13 : FVec F S64 .f32) (main_arg14 : FVec F S10x64 .f32) (main_arg15 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S64x128 .f32 := Host.absf main_arg12
  let main_cst_20 : FVec F S_ .f32 := constant S_ .f32 0x7F800000#32
  let main_v55 : FVec F S64x128 .f32 := broadcastInDim S64x128 ![] bcast_S_S64x128 main_cst_20
  let main_v56 : IVec S64x128 1 := cmpf .olt main_v54 main_v55
  let main_c_21 : IVec S_ 1 := constantI S_ 1 1#1
  let main_v57 : IVec S_ 1 := (fun x v => Host.reduce IntOp.andi x v reducesTo_S64x128_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S10x64 .f32 := Host.absf main_arg14
  let main_cst_24 : FVec F S_ .f32 := constant S_ .f32 0x7F800000#32
  let main_v65 : FVec F S10x64 .f32 := broadcastInDim S10x64 ![] bcast_S_S10x64 main_cst_24
  let main_v66 : IVec S10x64 1 := cmpf .olt main_v64 main_v65
  let main_c_25 : IVec S_ 1 := constantI S_ 1 1#1
  let main_v67 : IVec S_ 1 := (fun x v => Host.reduce IntOp.andi x v reducesTo_S10x64_S_d0_1 h_S_) main_v66 main_c_25
  fn_part4 (F := F) main_arg1 main_arg9 main_arg15 main_v63 main_v67

def fn_part2 {F : FTy → Type} [FloatOps F] (main_arg1 : IVec S2x320000 32) (main_arg8 : FVec F S3x256 .f32) (main_arg9 : FVec F S3x256 .f32) (main_arg10 : FVec F S128x256 .f32) (main_arg11 : FVec F S128 .f32) (main_arg12 : FVec F S64x128 .f32) (main_arg13 : FVec F S64 .f32) (main_arg14 : FVec F S10x64 .f32) (main_arg15 : FVec F S10 .f32) (main_v33 : IVec S_ 1) : IVec S_ 1 :=
  let main_v34 : FVec F S3x256 .f32 := Host.absf main_arg8
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg9
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S128x256 .f32 := Host.absf main_arg10
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg1 main_arg9 main_arg12 main_arg13 main_arg14 main_arg15 main_v48 main_v49 main_v50

def fn_part1 {F : FTy → Type} [FloatOps F] (main_arg1 : IVec S2x320000 32) (main_arg5 : FVec F S3x256 .f32) (main_arg6 : FVec F S3x256 .f32) (main_arg7 : FVec F S3x256 .f32) (main_arg8 : FVec F S3x256 .f32) (main_arg9 : FVec F S3x256 .f32) (main_arg10 : FVec F S128x256 .f32) (main_arg11 : FVec F S128 .f32) (main_arg12 : FVec F S64x128 .f32) (main_arg13 : FVec F S64 .f32) (main_arg14 : FVec F S10x64 .f32) (main_arg15 : FVec F S10 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg5
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg6
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg7
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S10000x2048 .f32) (main_arg1 : IVec S2x320000 32) (main_arg2 : FVec F S256x2048 .f32) (main_arg3 : FVec F S256 .f32) (main_arg4 : FVec F S3x256x256 .f32) (main_arg5 : FVec F S3x256 .f32) (main_arg6 : FVec F S3x256 .f32) (main_arg7 : FVec F S3x256 .f32) (main_arg8 : FVec F S3x256 .f32) (main_arg9 : FVec F S3x256 .f32) (main_arg10 : FVec F S128x256 .f32) (main_arg11 : FVec F S128 .f32) (main_arg12 : FVec F S64x128 .f32) (main_arg13 : FVec F S64 .f32) (main_arg14 : FVec F S10x64 .f32) (main_arg15 : FVec F S10 .f32) : IVec S_ 1 :=
  let main_v0 : FVec F S10000x2048 .f32 := Host.absf main_arg0
  let main_cst : FVec F S_ .f32 := constant S_ .f32 0x7F800000#32
  let main_v1 : FVec F S10000x2048 .f32 := broadcastInDim S10000x2048 ![] bcast_S_S10000x2048 main_cst
  let main_v2 : IVec S10000x2048 1 := cmpf .olt main_v0 main_v1
  let main_c : IVec S_ 1 := constantI S_ 1 1#1
  let main_v3 : IVec S_ 1 := (fun x v => Host.reduce IntOp.andi x v reducesTo_S10000x2048_S_d0_1 h_S_) main_v2 main_c
  let main_v4 : FVec F S256x2048 .f32 := Host.absf main_arg2
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg4
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S10000x2048 : Shape := ⟨2, ![10000, 2048]⟩
abbrev S2x320000 : Shape := ⟨2, ![2, 320000]⟩
abbrev S256x2048 : Shape := ⟨2, ![256, 2048]⟩
abbrev S256 : Shape := ⟨1, ![256]⟩
abbrev S3x256x256 : Shape := ⟨3, ![3, 256, 256]⟩
abbrev S3x256 : Shape := ⟨2, ![3, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S10000x10000 : Shape := ⟨2, ![10000, 10000]⟩
abbrev S320000x2 : Shape := ⟨2, ![320000, 2]⟩
abbrev S10000x1 : Shape := ⟨2, ![10000, 1]⟩
abbrev S10000x2 : Shape := ⟨2, ![10000, 2]⟩
abbrev S2048x256 : Shape := ⟨2, ![2048, 256]⟩
abbrev S1x256 : Shape := ⟨2, ![1, 256]⟩
abbrev S10000x256 : Shape := ⟨2, ![10000, 256]⟩
abbrev S1000x2048 : Shape := ⟨2, ![1000, 2048]⟩
abbrev S1000x256 : Shape := ⟨2, ![1000, 256]⟩
abbrev S1x256x256 : Shape := ⟨3, ![1, 256, 256]⟩
abbrev S256x256 : Shape := ⟨2, ![256, 256]⟩
abbrev S400x10000 : Shape := ⟨2, ![400, 10000]⟩
abbrev S400x256 : Shape := ⟨2, ![400, 256]⟩
abbrev S256x128 : Shape := ⟨2, ![256, 128]⟩
abbrev S128x64 : Shape := ⟨2, ![128, 64]⟩
abbrev S64x10 : Shape := ⟨2, ![64, 10]⟩
abbrev S1x128 : Shape := ⟨2, ![1, 128]⟩
abbrev S1x64 : Shape := ⟨2, ![1, 64]⟩
abbrev S1x10 : Shape := ⟨2, ![1, 10]⟩
abbrev S10000x10 : Shape := ⟨2, ![10000, 10]⟩
abbrev S1000x10 : Shape := ⟨2, ![1000, 10]⟩
abbrev S1000x128 : Shape := ⟨2, ![1000, 128]⟩
abbrev S1000x64 : Shape := ⟨2, ![1000, 64]⟩

abbrev nBuf : Space → Nat
  | .hbm => 190
  | .vmem => 59
  | .smem => 0
  | _ => 0

abbrev hbmTy0_0 (i : Nat) : BufTy := match i % 128 with
  | 0 => ⟨S10000x2048, .f32⟩
  | 1 => ⟨S2x320000, .i32⟩
  | 2 => ⟨S256x2048, .f32⟩
  | 3 => ⟨S256, .f32⟩
  | 4 => ⟨S3x256x256, .f32⟩
  | 5 => ⟨S3x256, .f32⟩
  | 6 => ⟨S3x256, .f32⟩
  | 7 => ⟨S3x256, .f32⟩
  | 8 => ⟨S3x256, .f32⟩
  | 9 => ⟨S3x256, .f32⟩
  | 10 => ⟨S128x256, .f32⟩
  | 11 => ⟨S128, .f32⟩
  | 12 => ⟨S64x128, .f32⟩
  | 13 => ⟨S64, .f32⟩
  | 14 => ⟨S10x64, .f32⟩
  | 15 => ⟨S10, .f32⟩
  | 16 => ⟨S1x320000, .i32⟩
  | 17 => ⟨S320000, .i32⟩
  | 18 => ⟨S1x320000, .i32⟩
  | 19 => ⟨S320000, .i32⟩
  | 20 => ⟨S_, .f32⟩
  | 21 => ⟨S320000, .f32⟩
  | 22 => ⟨S_, .f32⟩
  | 23 => ⟨S10000, .f32⟩
  | 24 => ⟨S320000x1, .i32⟩
  | 25 => ⟨S10000, .f32⟩
  | 26 => ⟨S_, .f32⟩
  | 27 => ⟨S10000, .f32⟩
  | 28 => ⟨S10000, .f32⟩
  | 29 => ⟨S10000, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000, .f32⟩
  | 48 => ⟨S320000, .f32⟩
  | 49 => ⟨S10000, .f32⟩
  | 50 => ⟨S_, .f32⟩
  | 51 => ⟨S10000x10000, .f32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x1, .i32⟩
  | 68 => ⟨S320000x2, .i32⟩
  | 69 => ⟨S10000x10000, .f32⟩
  | 70 => ⟨S10000, .i32⟩
  | 71 => ⟨S_, .i32⟩
  | 72 => ⟨S10000, .i32⟩
  | 73 => ⟨S10000, .i1⟩
  | 74 => ⟨S_, .i32⟩
  | 75 => ⟨S10000, .i32⟩
  | 76 => ⟨S10000, .i32⟩
  | 77 => ⟨S10000, .i32⟩
  | 78 => ⟨S_, .i32⟩
  | 79 => ⟨S10000, .i32⟩
  | 80 => ⟨S10000, .i1⟩
  | 81 => ⟨S_, .i32⟩
  | 82 => ⟨S10000, .i32⟩
  | 83 => ⟨S10000, .i32⟩
  | 84 => ⟨S10000, .i32⟩
  | 85 => ⟨S10000x1, .i32⟩
  | 86 => ⟨S10000x1, .i32⟩
  | 87 => ⟨S10000x2, .i32⟩
  | 88 => ⟨S10000x10000, .f32⟩
  | 89 => ⟨S10000x10000, .bf16⟩
  | 90 => ⟨S2048x256, .f32⟩
  | 91 => ⟨S2048x256, .bf16⟩
  | 92 => ⟨S1x256, .f32⟩
  | 93 => ⟨S10000x256, .f32⟩
  | 94 => ⟨S_, .f32⟩
  | 95 => ⟨S256, .f32⟩
  | 96 => ⟨S1x256x256, .f32⟩
  | 97 => ⟨S256x256, .f32⟩
  | 98 => ⟨S256x256, .f32⟩
  | 99 => ⟨S256x256, .bf16⟩
  | 100 => ⟨S1x256, .f32⟩
  | 101 => ⟨S10000x256, .bf16⟩
  | 102 => ⟨S1x256, .f32⟩
  | 103 => ⟨S256, .f32⟩
  | 104 => ⟨S1x256, .f32⟩
  | 105 => ⟨S256, .f32⟩
  | 106 => ⟨S_, .f32⟩
  | 107 => ⟨S256, .f32⟩
  | 108 => ⟨S256, .f32⟩
  | 109 => ⟨S256, .f32⟩
  | 110 => ⟨S256, .f32⟩
  | 111 => ⟨S1x256, .f32⟩
  | 112 => ⟨S256, .f32⟩
  | 113 => ⟨S256, .f32⟩
  | 114 => ⟨S1x256, .f32⟩
  | 115 => ⟨S256, .f32⟩
  | 116 => ⟨S256, .f32⟩
  | 117 => ⟨S1x256, .f32⟩
  | 118 => ⟨S256, .f32⟩
  | 119 => ⟨S256, .f32⟩
  | 120 => ⟨S256, .f32⟩
  | 121 => ⟨S1x256, .f32⟩
  | 122 => ⟨S1x256, .f32⟩
  | 123 => ⟨S10000x256, .f32⟩
  | 124 => ⟨S1x256x256, .f32⟩
  | 125 => ⟨S256x256, .f32⟩
  | 126 => ⟨S256x256, .f32⟩
  | 127 => ⟨S256x256, .bf16⟩
  | _ => ⟨S10000x2048, .f32⟩

abbrev hbmTy0_1 (i : Nat) : BufTy := match i % 128 with
  | 0 => ⟨S1x256, .f32⟩
  | 1 => ⟨S10000x256, .bf16⟩
  | 2 => ⟨S1x256, .f32⟩
  | 3 => ⟨S256, .f32⟩
  | 4 => ⟨S1x256, .f32⟩
  | 5 => ⟨S256, .f32⟩
  | 6 => ⟨S_, .f32⟩
  | 7 => ⟨S256, .f32⟩
  | 8 => ⟨S256, .f32⟩
  | 9 => ⟨S256, .f32⟩
  | 10 => ⟨S256, .f32⟩
  | 11 => ⟨S1x256, .f32⟩
  | 12 => ⟨S256, .f32⟩
  | 13 => ⟨S256, .f32⟩
  | 14 => ⟨S1x256, .f32⟩
  | 15 => ⟨S256, .f32⟩
  | 16 => ⟨S256, .f32⟩
  | 17 => ⟨S1x256, .f32⟩
  | 18 => ⟨S256, .f32⟩
  | 19 => ⟨S256, .f32⟩
  | 20 => ⟨S256, .f32⟩
  | 21 => ⟨S1x256, .f32⟩
  | 22 => ⟨S1x256, .f32⟩
  | 23 => ⟨S10000x256, .f32⟩
  | 24 => ⟨S1x256x256, .f32⟩
  | 25 => ⟨S256x256, .f32⟩
  | 26 => ⟨S256x256, .f32⟩
  | 27 => ⟨S256x256, .bf16⟩
  | 28 => ⟨S1x256, .f32⟩
  | 29 => ⟨S10000x256, .bf16⟩
  | 30 => ⟨S1x256, .f32⟩
  | 31 => ⟨S256, .f32⟩
  | 32 => ⟨S1x256, .f32⟩
  | 33 => ⟨S256, .f32⟩
  | 34 => ⟨S_, .f32⟩
  | 35 => ⟨S256, .f32⟩
  | 36 => ⟨S256, .f32⟩
  | 37 => ⟨S256, .f32⟩
  | 38 => ⟨S256, .f32⟩
  | 39 => ⟨S1x256, .f32⟩
  | 40 => ⟨S256, .f32⟩
  | 41 => ⟨S256, .f32⟩
  | 42 => ⟨S1x256, .f32⟩
  | 43 => ⟨S256, .f32⟩
  | 44 => ⟨S256, .f32⟩
  | 45 => ⟨S1x256, .f32⟩
  | 46 => ⟨S256, .f32⟩
  | 47 => ⟨S256, .f32⟩
  | 48 => ⟨S256, .f32⟩
  | 49 => ⟨S1x256, .f32⟩
  | 50 => ⟨S1x256, .f32⟩
  | 51 => ⟨S10000x256, .f32⟩
  | 52 => ⟨S256x128, .f32⟩
  | 53 => ⟨S256x128, .bf16⟩
  | 54 => ⟨S128x64, .f32⟩
  | 55 => ⟨S128x64, .bf16⟩
  | 56 => ⟨S64x10, .f32⟩
  | 57 => ⟨S64x10, .bf16⟩
  | 58 => ⟨S1x128, .f32⟩
  | 59 => ⟨S1x64, .f32⟩
  | 60 => ⟨S1x10, .f32⟩
  | 61 => ⟨S10000x10, .f32⟩
  | _ => ⟨S10000x2048, .f32⟩

abbrev hbmTy (i : Nat) : BufTy := match i / 128 with
  | 0 => hbmTy0_0 i
  | 1 => hbmTy0_1 i
  | _ => ⟨S10000x2048, .f32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S2048x256, .bf16⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | .local _ .vmem, ⟨6, _⟩ => ⟨S1000x256, .f32⟩
  | .local _ .vmem, ⟨7, _⟩ => ⟨S1000x256, .f32⟩
  | .local _ .vmem, ⟨8, _⟩ => ⟨S256x256, .bf16⟩
  | .local _ .vmem, ⟨9, _⟩ => ⟨S1x256, .f32⟩
  | .local _ .vmem, ⟨10, _⟩ => ⟨S1000x256, .bf16⟩
  | .local _ .vmem, ⟨11, _⟩ => ⟨S1000x256, .bf16⟩
  | .local _ .vmem, ⟨12, _⟩ => ⟨S400x10000, .bf16⟩
  | .local _ .vmem, ⟨13, _⟩ => ⟨S400x10000, .bf16⟩
  | .local _ .vmem, ⟨14, _⟩ => ⟨S10000x256, .bf16⟩
  | .local _ .vmem, ⟨15, _⟩ => ⟨S1x256, .f32⟩
  | .local _ .vmem, ⟨16, _⟩ => ⟨S1x256, .f32⟩
  | .local _ .vmem, ⟨17, _⟩ => ⟨S400x256, .f32⟩
  | .local _ .vmem, ⟨18, _⟩ => ⟨S400x256, .f32⟩
  | .local _ .vmem, ⟨19, _⟩ => ⟨S1000x256, .f32⟩
  | .local _ .vmem, ⟨20, _⟩ => ⟨S1000x256, .f32⟩
  | .local _ .vmem, ⟨21, _⟩ => ⟨S256x256, .bf16⟩
  | .local _ .vmem, ⟨22, _⟩ => ⟨S1x256, .f32⟩
  | .local _ .vmem, ⟨23, _⟩ => ⟨S1000x256, .bf16⟩
  | .local _ .vmem, ⟨24, _⟩ => ⟨S1000x256, .bf16⟩
  | .local _ .vmem, ⟨25, _⟩ => ⟨S400x10000, .bf16⟩
  | .local _ .vmem, ⟨26, _⟩ => ⟨S400x10000, .bf16⟩
  | .local _ .vmem, ⟨27, _⟩ => ⟨S10000x256, .bf16⟩
  | .local _ .vmem, ⟨28, _⟩ => ⟨S1x256, .f32⟩
  | .local _ .vmem, ⟨29, _⟩ => ⟨S1x256, .f32⟩
  | .local _ .vmem, ⟨30, _⟩ => ⟨S400x256, .f32⟩
  | .local _ .vmem, ⟨31, _⟩ => ⟨S400x256, .f32⟩
  | .local _ .vmem, ⟨32, _⟩ => ⟨S400x256, .f32⟩
  | .local _ .vmem, ⟨33, _⟩ => ⟨S400x256, .f32⟩
  | .local _ .vmem, ⟨34, _⟩ => ⟨S1000x256, .f32⟩
  | .local _ .vmem, ⟨35, _⟩ => ⟨S1000x256, .f32⟩
  | .local _ .vmem, ⟨36, _⟩ => ⟨S256x256, .bf16⟩
  | .local _ .vmem, ⟨37, _⟩ => ⟨S1x256, .f32⟩
  | .local _ .vmem, ⟨38, _⟩ => ⟨S1000x256, .bf16⟩
  | .local _ .vmem, ⟨39, _⟩ => ⟨S1000x256, .bf16⟩
  | .local _ .vmem, ⟨40, _⟩ => ⟨S400x10000, .bf16⟩
  | .local _ .vmem, ⟨41, _⟩ => ⟨S400x10000, .bf16⟩
  | .local _ .vmem, ⟨42, _⟩ => ⟨S10000x256, .bf16⟩
  | .local _ .vmem, ⟨43, _⟩ => ⟨S1x256, .f32⟩
  | .local _ .vmem, ⟨44, _⟩ => ⟨S1x256, .f32⟩
  | .local _ .vmem, ⟨45, _⟩ => ⟨S400x256, .f32⟩
  | .local _ .vmem, ⟨46, _⟩ => ⟨S400x256, .f32⟩
  | .local _ .vmem, ⟨47, _⟩ => ⟨S400x256, .f32⟩
  | .local _ .vmem, ⟨48, _⟩ => ⟨S400x256, .f32⟩
  | .local _ .vmem, ⟨49, _⟩ => ⟨S1000x256, .f32⟩
  | .local _ .vmem, ⟨50, _⟩ => ⟨S1000x256, .f32⟩
  | .local _ .vmem, ⟨51, _⟩ => ⟨S256x128, .bf16⟩
  | .local _ .vmem, ⟨52, _⟩ => ⟨S1x128, .f32⟩
  | .local _ .vmem, ⟨53, _⟩ => ⟨S128x64, .bf16⟩
  | .local _ .vmem, ⟨54, _⟩ => ⟨S1x64, .f32⟩
  | .local _ .vmem, ⟨55, _⟩ => ⟨S64x10, .bf16⟩
  | .local _ .vmem, ⟨56, _⟩ => ⟨S1x10, .f32⟩
  | .local _ .vmem, ⟨57, _⟩ => ⟨S1000x10, .f32⟩
  | .local _ .vmem, ⟨58, _⟩ => ⟨S1000x10, .f32⟩
  | _, _ => ⟨S10000x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_c_6 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_c_9 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_12 : Ref sig .tc := ⟨.hbm, 78, rfl⟩
abbrev main_v48 : Ref sig .tc := ⟨.hbm, 79, rfl⟩
abbrev main_v49 : Ref sig .tc := ⟨.hbm, 80, rfl⟩
abbrev main_c_13 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_cst_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_17 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg4_1 : Ref sig .tc := ⟨.vmem, 46, rfl⟩
abbrev cc6_stg5_0 : Ref sig .tc := ⟨.vmem, 47, rfl⟩
abbrev cc6_stg5_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg2_0 : Ref sig .tc := ⟨.vmem, 52, rfl⟩
abbrev cc7_stg3_0 : Ref sig .tc := ⟨.vmem, 53, rfl⟩
abbrev cc7_stg4_0 : Ref sig .tc := ⟨.vmem, 54, rfl⟩
abbrev cc7_stg5_0 : Ref sig .tc := ⟨.vmem, 55, rfl⟩
abbrev cc7_stg6_0 : Ref sig .tc := ⟨.vmem, 56, rfl⟩
abbrev cc7_stg7_0 : Ref sig .tc := ⟨.vmem, 57, rfl⟩
abbrev cc7_stg7_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem3_0 : DmaSem sig := 29
abbrev cc4_sem4_0 : DmaSem sig := 30
abbrev cc4_sem4_1 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem4_0 : DmaSem sig := 45
abbrev cc6_sem4_1 : DmaSem sig := 46
abbrev cc6_sem5_0 : DmaSem sig := 47
abbrev cc6_sem5_1 : DmaSem sig := 48
abbrev cc7_sem0_0 : DmaSem sig := 49
abbrev cc7_sem0_1 : DmaSem sig := 50
abbrev cc7_sem1_0 : DmaSem sig := 51
abbrev cc7_sem2_0 : DmaSem sig := 52
abbrev cc7_sem3_0 : DmaSem sig := 53
abbrev cc7_sem4_0 : DmaSem sig := 54
abbrev cc7_sem5_0 : DmaSem sig := 55
abbrev cc7_sem6_0 : DmaSem sig := 56
abbrev cc7_sem7_0 : DmaSem sig := 57
abbrev cc7_sem7_1 : DmaSem sig := 58

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S400x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S400x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1000x256 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S400x10000 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S10000x256 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S400x256 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S400x256 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1000x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x64 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x10 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x10 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S1000x10 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S_S10000x10000 : S_.BroadcastsInDim S10000x10000 (![] : Fin 0 → Fin S10000x10000.rank)
  concatenates_S320000x1_S320000x1_S320000x2_d1 : Shape.Concatenates [S320000x1, S320000x1] S320000x2 1
  bcast_S10000_S10000x1_0 : S10000.BroadcastsInDim S10000x1 (![0] : Fin 1 → Fin S10000x1.rank)
  concatenates_S10000x1_S10000x1_S10000x2_d1 : Shape.Concatenates [S10000x1, S10000x1] S10000x2 1
  bitsLt_bf16_f32 : FTy.bits .bf16 < FTy.bits .f32
  transposes_S256x2048_S2048x256_1_0 : S256x2048.Transposes [1, 0] S2048x256
  shapeCasts_S256_S1x256 : S256.ShapeCasts S1x256
  inb_S1000x2048_S1000x2048_0_0 : ∀ a, (![0, 0] : Fin 2 → Nat) a + S1000x2048.size a ≤ S1000x2048.size a
  h_S1000x2048 : 0 < S1000x2048.numel
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  inb_S1000x256_S1000x256_0_0 : ∀ a, (![0, 0] : Fin 2 → Nat) a + S1000x256.size a ≤ S1000x256.size a
  h_S1000x256 : 0 < S1000x256.numel
  bcast_S_S256 : S_.BroadcastsInDim S256 (![] : Fin 0 → Fin S256.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S1000x256_S1000x256_0_0 : (Rect.unit (s := S1000x256) ![0, 0] S1000x256.size inb_S1000x256_S1000x256_0_0).PackedRows (EltTy.packing .bf16)
  slices_S3x256_S1x256_0_0 : S3x256.Slices ![0, 0] S1x256
  shapeCasts_S1x256_S256 : S1x256.ShapeCasts S256
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  broadcasts_S1x256_S400x256 : S1x256.Broadcasts S400x256
  inb_S400x256_S400x256_0_0 : ∀ a, (![0, 0] : Fin 2 → Nat) a + S400x256.size a ≤ S400x256.size a
  h_S400x256 : 0 < S400x256.numel
  slices_S3x256x256_S1x256x256_1_0_0 : S3x256x256.Slices ![1, 0, 0] S1x256x256
  slices_S3x256_S1x256_1_0 : S3x256.Slices ![1, 0] S1x256
  shapeCasts_S400x256_S400x256 : S400x256.ShapeCasts S400x256
  slices_S3x256x256_S1x256x256_2_0_0 : S3x256x256.Slices ![2, 0, 0] S1x256x256
  slices_S3x256_S1x256_2_0 : S3x256.Slices ![2, 0] S1x256
  transposes_S128x256_S256x128_1_0 : S128x256.Transposes [1, 0] S256x128
  transposes_S64x128_S128x64_1_0 : S64x128.Transposes [1, 0] S128x64
  transposes_S10x64_S64x10_1_0 : S10x64.Transposes [1, 0] S64x10
  shapeCasts_S128_S1x128 : S128.ShapeCasts S1x128
  shapeCasts_S64_S1x64 : S64.ShapeCasts S1x64
  shapeCasts_S10_S1x10 : S10.ShapeCasts S1x10
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x10_S64x10_0_0 : ∀ a, (![0, 0] : Fin 2 → Nat) a + S64x10.size a ≤ S64x10.size a
  h_S64x10 : 0 < S64x10.numel
  shapeCasts_S64x10_S64x10 : S64x10.ShapeCasts S64x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1000x10 : S1x10.Broadcasts S1000x10
  inb_S1000x10_S1000x10_0_0 : ∀ a, (![0, 0] : Fin 2 → Nat) a + S1000x10.size a ≤ S1000x10.size a
  h_S1000x10 : 0 < S1000x10.numel
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  scatter_S10000x10000_S320000x2_S320000_n_01_01_1_wf : ScatterDims.WF S10000x10000 S320000x2 S320000 [] [0, 1] [0, 1] 1
  scatter_S10000x10000_S10000x2_S10000_n_01_01_1_wf : ScatterDims.WF S10000x10000 S10000x2 S10000 [] [0, 1] [0, 1] 1
  dot_S1000x2048_S2048x256_S1000x256_1_0_0_1_n_n_wf : DotDims.WF S1000x2048 S2048x256 S1000x256 [1] [0] [0] [1] [] []
  dot_S1000x256_S256x256_S1000x256_1_0_0_1_n_n_wf : DotDims.WF S1000x256 S256x256 S1000x256 [1] [0] [0] [1] [] []
  dot_S400x10000_S10000x256_S400x256_1_0_0_1_n_n_wf : DotDims.WF S400x10000 S10000x256 S400x256 [1] [0] [0] [1] [] []
  dot_S1000x256_S256x128_S1000x128_1_0_0_1_n_n_wf : DotDims.WF S1000x256 S256x128 S1000x128 [1] [0] [0] [1] [] []
  dot_S1000x128_S128x64_S1000x64_1_0_0_1_n_n_wf : DotDims.WF S1000x128 S128x64 S1000x64 [1] [0] [0] [1] [] []
  dot_S1000x64_S64x10_S1000x10_1_0_0_1_n_n_wf : DotDims.WF S1000x64 S64x10 S1000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S10000x2048.size a
  hwx0_0 : ∀ i : grid0.Coords, EltTy.bits .f32 = 32 ∨ (Rect.block (s := S10000x2048) S1000x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .bf16 = 32 ∨ (Rect.block (s := S2048x256) S2048x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x256.size a ≤ S10000x256.size a
  hwx1_3 : ∀ i : grid1.Coords, EltTy.bits .bf16 = 32 ∨ (Rect.block (s := S10000x256) S1000x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x256.size a ≤ S10000x256.size a
  hwx2_1 : ∀ i : grid2.Coords, EltTy.bits .bf16 = 32 ∨ (Rect.block (s := S10000x256) S10000x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x256.size a ≤ S10000x256.size a
  hwx2_4 : ∀ i : grid2.Coords, EltTy.bits .f32 = 32 ∨ (Rect.block (s := S10000x256) S400x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x256.size a ≤ S10000x256.size a
  hwx3_0 : ∀ i : grid3.Coords, EltTy.bits .f32 = 32 ∨ (Rect.block (s := S10000x256) S1000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .bf16 = 32 ∨ (Rect.block (s := S256x256) S256x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x256.size a ≤ S10000x256.size a
  hwx3_3 : ∀ i : grid3.Coords, EltTy.bits .bf16 = 32 ∨ (Rect.block (s := S10000x256) S1000x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .bf16 = 32 ∨ (Rect.block (s := S10000x10000) S400x10000.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x256.size a ≤ S10000x256.size a
  hwx4_1 : ∀ i : grid4.Coords, EltTy.bits .bf16 = 32 ∨ (Rect.block (s := S10000x256) S10000x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x256.size a ≤ S10000x256.size a
  hwx4_4 : ∀ i : grid4.Coords, EltTy.bits .f32 = 32 ∨ (Rect.block (s := S10000x256) S400x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S400x256.size a ≤ S10000x256.size a
  hwx4_5 : ∀ i : grid4.Coords, EltTy.bits .f32 = 32 ∨ (Rect.block (s := S10000x256) S400x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1000x256.size a ≤ S10000x256.size a
  hwx5_0 : ∀ i : grid5.Coords, EltTy.bits .f32 = 32 ∨ (Rect.block (s := S10000x256) S1000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .bf16 = 32 ∨ (Rect.block (s := S256x256) S256x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1000x256.size a ≤ S10000x256.size a
  hwx5_3 : ∀ i : grid5.Coords, EltTy.bits .bf16 = 32 ∨ (Rect.block (s := S10000x256) S1000x256.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S400x10000.size a ≤ S10000x10000.size a
  hwx6_0 : ∀ i : grid6.Coords, EltTy.bits .bf16 = 32 ∨ (Rect.block (s := S10000x10000) S400x10000.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S10000x256.size a ≤ S10000x256.size a
  hwx6_1 : ∀ i : grid6.Coords, EltTy.bits .bf16 = 32 ∨ (Rect.block (s := S10000x256) S10000x256.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S400x256.size a ≤ S10000x256.size a
  hwx6_4 : ∀ i : grid6.Coords, EltTy.bits .f32 = 32 ∨ (Rect.block (s := S10000x256) S400x256.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S400x256.size a ≤ S10000x256.size a
  hwx6_5 : ∀ i : grid6.Coords, EltTy.bits .f32 = 32 ∨ (Rect.block (s := S10000x256) S400x256.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1000x256.size a ≤ S10000x256.size a
  hwx7_0 : ∀ i : grid7.Coords, EltTy.bits .f32 = 32 ∨ (Rect.block (s := S10000x256) S1000x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x128.size a ≤ S256x128.size a
  hwx7_1 : ∀ i : grid7.Coords, EltTy.bits .bf16 = 32 ∨ (Rect.block (s := S256x128) S256x128.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x64.size a ≤ S128x64.size a
  hwx7_3 : ∀ i : grid7.Coords, EltTy.bits .bf16 = 32 ∨ (Rect.block (s := S128x64) S128x64.size (cc7_transform_3 i) (hinb7_3 i)).WholeWords (EltTy.packing .bf16)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x10.size a ≤ S64x10.size a
  hwx7_5 : ∀ i : grid7.Coords, EltTy.bits .bf16 = 32 ∨ (Rect.block (s := S64x10) S64x10.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x10.size a ≤ S1x10.size a
  hwx7_6 : ∀ i : grid7.Coords, EltTy.bits .f32 = 32 ∨ (Rect.block (s := S1x10) S1x10.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S1000x10.size a ≤ S10000x10.size a
  hwx7_7 : ∀ i : grid7.Coords, EltTy.bits .f32 = 32 ∨ (Rect.block (s := S10000x10) S1000x10.size (cc7_transform_7 i) (hinb7_7 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def scatter_S10000x10000_S320000x2_S320000_n_01_01_1 : ScatterDims S10000x10000 S320000x2 S320000 where
  updateWindowDims := []
  insertedWindowDims := [0, 1]
  scatterDimsToOperandDims := [0, 1]
  indexVectorDim := 1
  wf := scatter_S10000x10000_S320000x2_S320000_n_01_01_1_wf
def scatter_S10000x10000_S10000x2_S10000_n_01_01_1 : ScatterDims S10000x10000 S10000x2 S10000 where
  updateWindowDims := []
  insertedWindowDims := [0, 1]
  scatterDimsToOperandDims := [0, 1]
  indexVectorDim := 1
  wf := scatter_S10000x10000_S10000x2_S10000_n_01_01_1_wf
def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def dot_S1000x64_S64x10_S1000x10_1_0_0_1_n_n : DotDims S1000x64 S64x10 S1000x10 where
  lhsContracting := [1]
  rhsContracting := [0]
  lhsNonContracting := [0]
  rhsNonContracting := [1]
  lhsBatch := []
  rhsBatch := []
  wf := dot_S1000x64_S64x10_S1000x10_1_0_0_1_n_n_wf

abbrev win0_0 : Pipeline.Window sig grid0 :=
  Pipeline.Window.ofSpec (Memref.whole main_arg0) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v61) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v67) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v68) S1000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v68) S10000x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v87) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v88) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v89) S400x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v89) S1000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v94) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S1000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v57) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S10000x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v114) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v115) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S400x256.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v116) S400x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v116) S1000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v120) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v121) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S1000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v57) S400x10000.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v122) S10000x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v141) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v142) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v116) S400x256.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v143) S400x256.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v143) S1000x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v145) S256x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v150) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v147) S128x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v151) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v149) S64x10.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v152) S1x10.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v153) S1000x10.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S10000x2048 : Shape := ⟨2, ![10000, 2048]⟩
abbrev S2x320000 : Shape := ⟨2, ![2, 320000]⟩
abbrev S256x2048 : Shape := ⟨2, ![256, 2048]⟩
abbrev S256 : Shape := ⟨1, ![256]⟩
abbrev S3x256x256 : Shape := ⟨3, ![3, 256, 256]⟩
abbrev S3x256 : Shape := ⟨2, ![3, 256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S10x64 : Shape := ⟨2, ![10, 64]⟩
abbrev S10 : Shape := ⟨1, ![10]⟩
abbrev S1x320000 : Shape := ⟨2, ![1, 320000]⟩
abbrev S320000 : Shape := ⟨1, ![320000]⟩
abbrev S2048x256 : Shape := ⟨2, ![2048, 256]⟩
abbrev S10000x256 : Shape := ⟨2, ![10000, 256]⟩
abbrev S1x256 : Shape := ⟨2, ![1, 256]⟩
abbrev S_ : Shape := ⟨0, ![]⟩
abbrev S1x256x256 : Shape := ⟨3, ![1, 256, 256]⟩
abbrev S256x256 : Shape := ⟨2, ![256, 256]⟩
abbrev S10000 : Shape := ⟨1, ![10000]⟩
abbrev S320000x1 : Shape := ⟨2, ![320000, 1]⟩
abbrev S320000x256 : Shape := ⟨2, ![320000, 256]⟩
abbrev S10000x1 : Shape := ⟨2, ![10000, 1]⟩
abbrev S256x128 : Shape := ⟨2, ![256, 128]⟩
abbrev S10000x128 : Shape := ⟨2, ![10000, 128]⟩
abbrev S1x128 : Shape := ⟨2, ![1, 128]⟩
abbrev S128x64 : Shape := ⟨2, ![128, 64]⟩
abbrev S10000x64 : Shape := ⟨2, ![10000, 64]⟩
abbrev S1x64 : Shape := ⟨2, ![1, 64]⟩
abbrev S64x10 : Shape := ⟨2, ![64, 10]⟩
abbrev S10000x10 : Shape := ⟨2, ![10000, 10]⟩
abbrev S1x10 : Shape := ⟨2, ![1, 10]⟩

abbrev nBuf : Space → Nat
  | .hbm => 309
  | .vmem => 0
  | .smem => 0
  | _ => 0

abbrev hbmTy0_0 (i : Nat) : BufTy := match i % 128 with
  | 0 => ⟨S10000x2048, .f32⟩
  | 1 => ⟨S2x320000, .i32⟩
  | 2 => ⟨S256x2048, .f32⟩
  | 3 => ⟨S256, .f32⟩
  | 4 => ⟨S3x256x256, .f32⟩
  | 5 => ⟨S3x256, .f32⟩
  | 6 => ⟨S3x256, .f32⟩
  | 7 => ⟨S3x256, .f32⟩
  | 8 => ⟨S3x256, .f32⟩
  | 9 => ⟨S3x256, .f32⟩
  | 10 => ⟨S128x256, .f32⟩
  | 11 => ⟨S128, .f32⟩
  | 12 => ⟨S64x128, .f32⟩
  | 13 => ⟨S64, .f32⟩
  | 14 => ⟨S10x64, .f32⟩
  | 15 => ⟨S10, .f32⟩
  | 16 => ⟨S1x320000, .i32⟩
  | 17 => ⟨S320000, .i32⟩
  | 18 => ⟨S1x320000, .i32⟩
  | 19 => ⟨S320000, .i32⟩
  | 20 => ⟨S2048x256, .f32⟩
  | 21 => ⟨S10000x256, .f32⟩
  | 22 => ⟨S1x256, .f32⟩
  | 23 => ⟨S10000x256, .f32⟩
  | 24 => ⟨S10000x256, .f32⟩
  | 25 => ⟨S_, .f32⟩
  | 26 => ⟨S10000x256, .f32⟩
  | 27 => ⟨S10000x256, .f32⟩
  | 28 => ⟨S1x256x256, .f32⟩
  | 29 => ⟨S256x256, .f32⟩
  | 30 => ⟨S1x256, .f32⟩
  | 31 => ⟨S256, .f32⟩
  | 32 => ⟨S256x256, .f32⟩
  | 33 => ⟨S10000x256, .f32⟩
  | 34 => ⟨S_, .f32⟩
  | 35 => ⟨S320000, .f32⟩
  | 36 => ⟨S_, .f32⟩
  | 37 => ⟨S10000, .f32⟩
  | 38 => ⟨S320000x1, .i32⟩
  | 39 => ⟨S10000, .f32⟩
  | 40 => ⟨S_, .f32⟩
  | 41 => ⟨S10000, .f32⟩
  | 42 => ⟨S10000, .f32⟩
  | 43 => ⟨S10000, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000, .f32⟩
  | 53 => ⟨S_, .i32⟩
  | 54 => ⟨S320000, .i32⟩
  | 55 => ⟨S320000, .i1⟩
  | 56 => ⟨S_, .i32⟩
  | 57 => ⟨S320000, .i32⟩
  | 58 => ⟨S320000, .i32⟩
  | 59 => ⟨S320000, .i32⟩
  | 60 => ⟨S320000x1, .i32⟩
  | 61 => ⟨S320000, .f32⟩
  | 62 => ⟨S320000, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x256, .f32⟩
  | 72 => ⟨S320000x1, .f32⟩
  | 73 => ⟨S320000x256, .f32⟩
  | 74 => ⟨S320000x256, .f32⟩
  | 75 => ⟨S_, .f32⟩
  | 76 => ⟨S10000x256, .f32⟩
  | 77 => ⟨S320000x1, .i32⟩
  | 78 => ⟨S10000x256, .f32⟩
  | 79 => ⟨S10000, .f32⟩
  | 80 => ⟨S10000x1, .f32⟩
  | 81 => ⟨S10000x256, .f32⟩
  | 82 => ⟨S10000x256, .f32⟩
  | 83 => ⟨S10000x256, .f32⟩
  | 84 => ⟨S1x256, .f32⟩
  | 85 => ⟨S10000x256, .f32⟩
  | 86 => ⟨S10000x256, .f32⟩
  | 87 => ⟨S1x256, .f32⟩
  | 88 => ⟨S256, .f32⟩
  | 89 => ⟨S1x256, .f32⟩
  | 90 => ⟨S10000x256, .f32⟩
  | 91 => ⟨S10000x256, .f32⟩
  | 92 => ⟨S1x256, .f32⟩
  | 93 => ⟨S256, .f32⟩
  | 94 => ⟨S_, .f32⟩
  | 95 => ⟨S256, .f32⟩
  | 96 => ⟨S256, .f32⟩
  | 97 => ⟨S256, .f32⟩
  | 98 => ⟨S1x256, .f32⟩
  | 99 => ⟨S10000x256, .f32⟩
  | 100 => ⟨S10000x256, .f32⟩
  | 101 => ⟨S1x256, .f32⟩
  | 102 => ⟨S256, .f32⟩
  | 103 => ⟨S1x256, .f32⟩
  | 104 => ⟨S10000x256, .f32⟩
  | 105 => ⟨S10000x256, .f32⟩
  | 106 => ⟨S1x256, .f32⟩
  | 107 => ⟨S256, .f32⟩
  | 108 => ⟨S1x256, .f32⟩
  | 109 => ⟨S10000x256, .f32⟩
  | 110 => ⟨S10000x256, .f32⟩
  | 111 => ⟨S_, .f32⟩
  | 112 => ⟨S10000x256, .f32⟩
  | 113 => ⟨S10000x256, .f32⟩
  | 114 => ⟨S1x256x256, .f32⟩
  | 115 => ⟨S256x256, .f32⟩
  | 116 => ⟨S1x256, .f32⟩
  | 117 => ⟨S256, .f32⟩
  | 118 => ⟨S256x256, .f32⟩
  | 119 => ⟨S10000x256, .f32⟩
  | 120 => ⟨S_, .f32⟩
  | 121 => ⟨S320000, .f32⟩
  | 122 => ⟨S_, .f32⟩
  | 123 => ⟨S10000, .f32⟩
  | 124 => ⟨S320000x1, .i32⟩
  | 125 => ⟨S10000, .f32⟩
  | 126 => ⟨S_, .f32⟩
  | 127 => ⟨S10000, .f32⟩
  | _ => ⟨S10000x2048, .f32⟩

abbrev hbmTy0_1 (i : Nat) : BufTy := match i % 128 with
  | 0 => ⟨S10000, .f32⟩
  | 1 => ⟨S10000, .f32⟩
  | 2 => ⟨S_, .i32⟩
  | 3 => ⟨S320000, .i32⟩
  | 4 => ⟨S320000, .i1⟩
  | 5 => ⟨S_, .i32⟩
  | 6 => ⟨S320000, .i32⟩
  | 7 => ⟨S320000, .i32⟩
  | 8 => ⟨S320000, .i32⟩
  | 9 => ⟨S320000x1, .i32⟩
  | 10 => ⟨S320000, .f32⟩
  | 11 => ⟨S_, .i32⟩
  | 12 => ⟨S320000, .i32⟩
  | 13 => ⟨S320000, .i1⟩
  | 14 => ⟨S_, .i32⟩
  | 15 => ⟨S320000, .i32⟩
  | 16 => ⟨S320000, .i32⟩
  | 17 => ⟨S320000, .i32⟩
  | 18 => ⟨S320000x1, .i32⟩
  | 19 => ⟨S320000, .f32⟩
  | 20 => ⟨S320000, .f32⟩
  | 21 => ⟨S_, .i32⟩
  | 22 => ⟨S320000, .i32⟩
  | 23 => ⟨S320000, .i1⟩
  | 24 => ⟨S_, .i32⟩
  | 25 => ⟨S320000, .i32⟩
  | 26 => ⟨S320000, .i32⟩
  | 27 => ⟨S320000, .i32⟩
  | 28 => ⟨S320000x1, .i32⟩
  | 29 => ⟨S320000x256, .f32⟩
  | 30 => ⟨S320000x1, .f32⟩
  | 31 => ⟨S320000x256, .f32⟩
  | 32 => ⟨S320000x256, .f32⟩
  | 33 => ⟨S_, .f32⟩
  | 34 => ⟨S10000x256, .f32⟩
  | 35 => ⟨S320000x1, .i32⟩
  | 36 => ⟨S10000x256, .f32⟩
  | 37 => ⟨S10000, .f32⟩
  | 38 => ⟨S10000x1, .f32⟩
  | 39 => ⟨S10000x256, .f32⟩
  | 40 => ⟨S10000x256, .f32⟩
  | 41 => ⟨S10000x256, .f32⟩
  | 42 => ⟨S1x256, .f32⟩
  | 43 => ⟨S10000x256, .f32⟩
  | 44 => ⟨S10000x256, .f32⟩
  | 45 => ⟨S1x256, .f32⟩
  | 46 => ⟨S256, .f32⟩
  | 47 => ⟨S1x256, .f32⟩
  | 48 => ⟨S10000x256, .f32⟩
  | 49 => ⟨S10000x256, .f32⟩
  | 50 => ⟨S1x256, .f32⟩
  | 51 => ⟨S256, .f32⟩
  | 52 => ⟨S_, .f32⟩
  | 53 => ⟨S256, .f32⟩
  | 54 => ⟨S256, .f32⟩
  | 55 => ⟨S256, .f32⟩
  | 56 => ⟨S1x256, .f32⟩
  | 57 => ⟨S10000x256, .f32⟩
  | 58 => ⟨S10000x256, .f32⟩
  | 59 => ⟨S1x256, .f32⟩
  | 60 => ⟨S256, .f32⟩
  | 61 => ⟨S1x256, .f32⟩
  | 62 => ⟨S10000x256, .f32⟩
  | 63 => ⟨S10000x256, .f32⟩
  | 64 => ⟨S1x256, .f32⟩
  | 65 => ⟨S256, .f32⟩
  | 66 => ⟨S1x256, .f32⟩
  | 67 => ⟨S10000x256, .f32⟩
  | 68 => ⟨S10000x256, .f32⟩
  | 69 => ⟨S_, .f32⟩
  | 70 => ⟨S10000x256, .f32⟩
  | 71 => ⟨S10000x256, .f32⟩
  | 72 => ⟨S10000x256, .f32⟩
  | 73 => ⟨S1x256x256, .f32⟩
  | 74 => ⟨S256x256, .f32⟩
  | 75 => ⟨S1x256, .f32⟩
  | 76 => ⟨S256, .f32⟩
  | 77 => ⟨S256x256, .f32⟩
  | 78 => ⟨S10000x256, .f32⟩
  | 79 => ⟨S_, .f32⟩
  | 80 => ⟨S320000, .f32⟩
  | 81 => ⟨S_, .f32⟩
  | 82 => ⟨S10000, .f32⟩
  | 83 => ⟨S320000x1, .i32⟩
  | 84 => ⟨S10000, .f32⟩
  | 85 => ⟨S_, .f32⟩
  | 86 => ⟨S10000, .f32⟩
  | 87 => ⟨S10000, .f32⟩
  | 88 => ⟨S10000, .f32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S320000, .f32⟩
  | 98 => ⟨S_, .i32⟩
  | 99 => ⟨S320000, .i32⟩
  | 100 => ⟨S320000, .i1⟩
  | 101 => ⟨S_, .i32⟩
  | 102 => ⟨S320000, .i32⟩
  | 103 => ⟨S320000, .i32⟩
  | 104 => ⟨S320000, .i32⟩
  | 105 => ⟨S320000x1, .i32⟩
  | 106 => ⟨S320000, .f32⟩
  | 107 => ⟨S320000, .f32⟩
  | 108 => ⟨S_, .i32⟩
  | 109 => ⟨S320000, .i32⟩
  | 110 => ⟨S320000, .i1⟩
  | 111 => ⟨S_, .i32⟩
  | 112 => ⟨S320000, .i32⟩
  | 113 => ⟨S320000, .i32⟩
  | 114 => ⟨S320000, .i32⟩
  | 115 => ⟨S320000x1, .i32⟩
  | 116 => ⟨S320000x256, .f32⟩
  | 117 => ⟨S320000x1, .f32⟩
  | 118 => ⟨S320000x256, .f32⟩
  | 119 => ⟨S320000x256, .f32⟩
  | 120 => ⟨S_, .f32⟩
  | 121 => ⟨S10000x256, .f32⟩
  | 122 => ⟨S320000x1, .i32⟩
  | 123 => ⟨S10000x256, .f32⟩
  | 124 => ⟨S10000, .f32⟩
  | 125 => ⟨S10000x1, .f32⟩
  | 126 => ⟨S10000x256, .f32⟩
  | 127 => ⟨S10000x256, .f32⟩
  | _ => ⟨S10000x2048, .f32⟩

abbrev hbmTy0_2 (i : Nat) : BufTy := match i % 128 with
  | 0 => ⟨S10000x256, .f32⟩
  | 1 => ⟨S1x256, .f32⟩
  | 2 => ⟨S10000x256, .f32⟩
  | 3 => ⟨S10000x256, .f32⟩
  | 4 => ⟨S1x256, .f32⟩
  | 5 => ⟨S256, .f32⟩
  | 6 => ⟨S1x256, .f32⟩
  | 7 => ⟨S10000x256, .f32⟩
  | 8 => ⟨S10000x256, .f32⟩
  | 9 => ⟨S1x256, .f32⟩
  | 10 => ⟨S256, .f32⟩
  | 11 => ⟨S_, .f32⟩
  | 12 => ⟨S256, .f32⟩
  | 13 => ⟨S256, .f32⟩
  | 14 => ⟨S256, .f32⟩
  | 15 => ⟨S1x256, .f32⟩
  | 16 => ⟨S10000x256, .f32⟩
  | 17 => ⟨S10000x256, .f32⟩
  | 18 => ⟨S1x256, .f32⟩
  | 19 => ⟨S256, .f32⟩
  | 20 => ⟨S1x256, .f32⟩
  | 21 => ⟨S10000x256, .f32⟩
  | 22 => ⟨S10000x256, .f32⟩
  | 23 => ⟨S1x256, .f32⟩
  | 24 => ⟨S256, .f32⟩
  | 25 => ⟨S1x256, .f32⟩
  | 26 => ⟨S10000x256, .f32⟩
  | 27 => ⟨S10000x256, .f32⟩
  | 28 => ⟨S_, .f32⟩
  | 29 => ⟨S10000x256, .f32⟩
  | 30 => ⟨S10000x256, .f32⟩
  | 31 => ⟨S10000x256, .f32⟩
  | 32 => ⟨S256x128, .f32⟩
  | 33 => ⟨S10000x128, .f32⟩
  | 34 => ⟨S1x128, .f32⟩
  | 35 => ⟨S10000x128, .f32⟩
  | 36 => ⟨S10000x128, .f32⟩
  | 37 => ⟨S_, .f32⟩
  | 38 => ⟨S10000x128, .f32⟩
  | 39 => ⟨S10000x128, .f32⟩
  | 40 => ⟨S128x64, .f32⟩
  | 41 => ⟨S10000x64, .f32⟩
  | 42 => ⟨S1x64, .f32⟩
  | 43 => ⟨S10000x64, .f32⟩
  | 44 => ⟨S10000x64, .f32⟩
  | 45 => ⟨S_, .f32⟩
  | 46 => ⟨S10000x64, .f32⟩
  | 47 => ⟨S10000x64, .f32⟩
  | 48 => ⟨S64x10, .f32⟩
  | 49 => ⟨S10000x10, .f32⟩
  | 50 => ⟨S1x10, .f32⟩
  | 51 => ⟨S10000x10, .f32⟩
  | 52 => ⟨S10000x10, .f32⟩
  | _ => ⟨S10000x2048, .f32⟩

abbrev hbmTy (i : Nat) : BufTy := match i / 128 with
  | 0 => hbmTy0_0 i
  | 1 => hbmTy0_1 i
  | 2 => hbmTy0_2 i
  | _ => ⟨S10000x2048, .f32⟩

abbrev bufTy : (tb : Table) → Fin (tcTables nBuf tb) → BufTy
  | .hbm, ⟨i, _⟩ => hbmTy i
  | _, _ => ⟨S10000x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_cst : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_cst_0 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_3 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_5 : Ref sig .tc := ⟨.hbm, 63, rfl⟩
abbrev main_v38 : Ref sig .tc := ⟨.hbm, 64, rfl⟩
abbrev main_v39 : Ref sig .tc := ⟨.hbm, 65, rfl⟩
abbrev main_c_6 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_8 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call1_cst : Ref sig .tc := ⟨.hbm, 111, rfl⟩
abbrev main_call1_v0 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_9 : Ref sig .tc := ⟨.hbm, 120, rfl⟩
abbrev main_v89 : Ref sig .tc := ⟨.hbm, 121, rfl⟩
abbrev main_cst_10 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_11 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_c_12 : Ref sig .tc := ⟨.hbm, 130, rfl⟩
abbrev main_v96 : Ref sig .tc := ⟨.hbm, 131, rfl⟩
abbrev main_v97 : Ref sig .tc := ⟨.hbm, 132, rfl⟩
abbrev main_c_13 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_14 : Ref sig .tc := ⟨.hbm, 139, rfl⟩
abbrev main_v103 : Ref sig .tc := ⟨.hbm, 140, rfl⟩
abbrev main_v104 : Ref sig .tc := ⟨.hbm, 141, rfl⟩
abbrev main_c_15 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_c_16 : Ref sig .tc := ⟨.hbm, 149, rfl⟩
abbrev main_v111 : Ref sig .tc := ⟨.hbm, 150, rfl⟩
abbrev main_v112 : Ref sig .tc := ⟨.hbm, 151, rfl⟩
abbrev main_c_17 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_cst_18 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_cst_19 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_call2_cst : Ref sig .tc := ⟨.hbm, 197, rfl⟩
abbrev main_call2_v0 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_20 : Ref sig .tc := ⟨.hbm, 207, rfl⟩
abbrev main_v163 : Ref sig .tc := ⟨.hbm, 208, rfl⟩
abbrev main_cst_21 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_cst_22 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_c_23 : Ref sig .tc := ⟨.hbm, 217, rfl⟩
abbrev main_v170 : Ref sig .tc := ⟨.hbm, 218, rfl⟩
abbrev main_v171 : Ref sig .tc := ⟨.hbm, 219, rfl⟩
abbrev main_c_24 : Ref sig .tc := ⟨.hbm, 220, rfl⟩
abbrev main_v172 : Ref sig .tc := ⟨.hbm, 221, rfl⟩
abbrev main_v173 : Ref sig .tc := ⟨.hbm, 222, rfl⟩
abbrev main_v174 : Ref sig .tc := ⟨.hbm, 223, rfl⟩
abbrev main_v175 : Ref sig .tc := ⟨.hbm, 224, rfl⟩
abbrev main_v176 : Ref sig .tc := ⟨.hbm, 225, rfl⟩
abbrev main_c_25 : Ref sig .tc := ⟨.hbm, 226, rfl⟩
abbrev main_v177 : Ref sig .tc := ⟨.hbm, 227, rfl⟩
abbrev main_v178 : Ref sig .tc := ⟨.hbm, 228, rfl⟩
abbrev main_c_26 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_c_27 : Ref sig .tc := ⟨.hbm, 236, rfl⟩
abbrev main_v185 : Ref sig .tc := ⟨.hbm, 237, rfl⟩
abbrev main_v186 : Ref sig .tc := ⟨.hbm, 238, rfl⟩
abbrev main_c_28 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_cst_29 : Ref sig .tc := ⟨.hbm, 248, rfl⟩
abbrev main_v195 : Ref sig .tc := ⟨.hbm, 249, rfl⟩
abbrev main_v196 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_cst_30 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_v219 : Ref sig .tc := ⟨.hbm, 274, rfl⟩
abbrev main_v220 : Ref sig .tc := ⟨.hbm, 275, rfl⟩
abbrev main_v221 : Ref sig .tc := ⟨.hbm, 276, rfl⟩
abbrev main_v222 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩
abbrev main_v228 : Ref sig .tc := ⟨.hbm, 283, rfl⟩
abbrev main_call3_cst : Ref sig .tc := ⟨.hbm, 284, rfl⟩
abbrev main_call3_v0 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_call4_cst : Ref sig .tc := ⟨.hbm, 293, rfl⟩
abbrev main_call4_v0 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_call5_cst : Ref sig .tc := ⟨.hbm, 301, rfl⟩
abbrev main_call5_v0 : Ref sig .tc := ⟨.hbm, 302, rfl⟩
abbrev main_v242 : Ref sig .tc := ⟨.hbm, 303, rfl⟩
abbrev main_v243 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  transposes_S256x2048_S2048x256_1_0 : S256x2048.Transposes [1, 0] S2048x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  slices_S3x256x256_S1x256x256_0_0_0 : S3x256x256.Slices ![0, 0, 0] S1x256x256
  shapeCasts_S1x256x256_S256x256 : S1x256x256.ShapeCasts S256x256
  slices_S3x256_S1x256_0_0 : S3x256.Slices ![0, 0] S1x256
  shapeCasts_S1x256_S256 : S1x256.ShapeCasts S256
  transposes_S256x256_S256x256_1_0 : S256x256.Transposes [1, 0] S256x256
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S320000x1_S320000x256_0_1 : S320000x1.BroadcastsInDim S320000x256 (![0, 1] : Fin 2 → Fin S320000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  transposes_S10x64_S64x10_1_0 : S10x64.Transposes [1, 0] S64x10
  bcast_S10_S1x10_1 : S10.BroadcastsInDim S1x10 (![1] : Fin 1 → Fin S1x10.rank)
  bcast_S1x10_S10000x10_0_1 : S1x10.BroadcastsInDim S10000x10 (![0, 1] : Fin 2 → Fin S10000x10.rank)
  dot_S10000x2048_S2048x256_S10000x256_1_0_0_1_n_n_wf : DotDims.WF S10000x2048 S2048x256 S10000x256 [1] [0] [0] [1] [] []
  dot_S10000x256_S256x256_S10000x256_1_0_0_1_n_n_wf : DotDims.WF S10000x256 S256x256 S10000x256 [1] [0] [0] [1] [] []
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x256_S256x128_S10000x128_1_0_0_1_n_n_wf : DotDims.WF S10000x256 S256x128 S10000x128 [1] [0] [0] [1] [] []
  dot_S10000x128_S128x64_S10000x64_1_0_0_1_n_n_wf : DotDims.WF S10000x128 S128x64 S10000x64 [1] [0] [0] [1] [] []
  dot_S10000x64_S64x10_S10000x10_1_0_0_1_n_n_wf : DotDims.WF S10000x64 S64x10 S10000x10 [1] [0] [0] [1] [] []

variable [Facts₀]

def dot_S10000x2048_S2048x256_S10000x256_1_0_0_1_n_n : DotDims S10000x2048 S2048x256 S10000x256 where
  lhsContracting := [1]
  rhsContracting := [0]
  lhsNonContracting := [0]
  rhsNonContracting := [1]
  lhsBatch := []
  rhsBatch := []
  wf := dot_S10000x2048_S2048x256_S10000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

class Facts : Prop extends Facts₀ where

variable [Facts]
-- ==== Proof.Spec.lean ====
/-
  The specification of the graph network, as pure functions of the argument arrays over the extended reals.

  Nodes n < 10000, edges e < 320000 with a source node and a destination node each. A node's degree is the number of
  edges that end in it plus one (its own loop), `dinv` the reciprocal square root of the degree, and an edge's weight
  `norm` the product of `dinv` at its two ends.

  Two spellings of one network are stated here. `knet` multiplies by the dense normalised adjacency matrix `adj`
  (entry (n, m): the sum of the weights of the edges m → n, plus dinv n ² on the diagonal) and applies the bias and
  the batch normalisation folded into one scale and one shift per feature. `rnet` sums the weighted source rows over
  the edges that end in n, adds the node's own row times dinv n ², then the bias, and normalises in the textbook
  order. That they agree on real inputs with non-negative variances is proved elsewhere.
-/
import Idealize.ShloMosaic.PureOps.Ideal
import Idealize.ShloMosaic.Lib.ValueIdx

noncomputable section

namespace Cert.Gcn.Spec

open Idealize.ShloMosaic Idealize.ShloMosaic.ValueIdx

/-- Arrays of rank 1, 2 and 3 over the extended reals. -/
abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal

abbrev NN : Nat := 10000
abbrev NE : Nat := 320000

/-- The variance's guard, the single-precision word nearest 1e-5, as the exact number it denotes. -/
def eps : EReal := Ideal.ofBits .f32 0x3727C5AC#32

/-! ## Layout -/

/-- The transpose of a matrix. -/
def transp {a b : Nat} (W : A2 a b) : A2 b a := fun i => W (ix2 (i 1) (i 0))
/-- A vector as a one-row matrix. -/
def row1 {a : Nat} (v : A1 a) : A2 1 a := fun i => v (ix1 (i 1))
/-- Layer `l`'s square weight matrix out of the stack of three. -/
def gslice (l : Fin 3) (G : A3 3 256 256) : A2 256 256 := fun i => G (ix3 l (i 0) (i 1))
/-- The all-zero one-row bias. -/
def zrow : A2 1 256 := fun _ => 0

/-! ## What each kernel launch computes, as a function of its whole operand arrays -/

/-- Rows times a matrix plus a bias row, clamped below at zero (2048 input features). -/
def rLinRelu (X : A2 10000 2048) (W : A2 2048 256) (b : A2 1 256) : A2 10000 256 :=
  fun i => max ((∑ k : Fin 2048, X (ix2 (i 0) k) * W (ix2 k (i 1))) + b (ix2 0 (i 1))) 0
/-- Rows times a matrix plus a bias row (256 input features). -/
def rLin (X : A2 10000 256) (W : A2 256 256) (b : A2 1 256) : A2 10000 256 :=
  fun i => (∑ k : Fin 256, X (ix2 (i 0) k) * W (ix2 k (i 1))) + b (ix2 0 (i 1))
/-- The adjacency matrix times the features, scaled and shifted per feature, clamped below at zero. -/
def rAgg (A : A2 10000 10000) (H : A2 10000 256) (sc sh : A2 1 256) : A2 10000 256 :=
  fun i => max ((∑ k : Fin 10000, A (ix2 (i 0) k) * H (ix2 k (i 1))) * sc (ix2 0 (i 1)) + sh (ix2 0 (i 1))) 0
/-- The same with the layer's input added back. -/
def rAggRes (A : A2 10000 10000) (H : A2 10000 256) (sc sh : A2 1 256) (R : A2 10000 256) : A2 10000 256 :=
  fun i => max ((∑ k : Fin 10000, A (ix2 (i 0) k) * H (ix2 k (i 1))) * sc (ix2 0 (i 1)) + sh (ix2 0 (i 1))) 0 + R i
/-- The three-layer head: two clamped affine layers and a last affine one. -/
def rMlp (X : A2 10000 256) (W1 : A2 256 128) (b1 : A2 1 128) (W2 : A2 128 64) (b2 : A2 1 64) (W3 : A2 64 10)
    (b3 : A2 1 10) : A2 10000 10 :=
  fun i => (∑ k3 : Fin 64,
      max ((∑ k2 : Fin 128,
          max ((∑ k1 : Fin 256, X (ix2 (i 0) k1) * W1 (ix2 k1 k2)) + b1 (ix2 0 k2)) 0 * W2 (ix2 k2 k3)) + b2 (ix2 0 k3)) 0
        * W3 (ix2 k3 (i 1))) + b3 (ix2 0 (i 1))

/-! ## The graph's normalisation -/

section Graph
variable (src dst : Fin NE → Fin NN)

/-- A node's degree: the edges ending in it, and one. -/
def deg (n : Fin NN) : EReal := (∑ _e ∈ Finset.univ.filter (fun e : Fin NE => dst e = n), (1 : EReal)) + 1
/-- The reciprocal square root of the degree. -/
def dinv (n : Fin NN) : EReal := Ideal.rsqrt (deg dst n)
/-- An edge's weight. -/
def norm (e : Fin NE) : EReal := dinv dst (src e) * dinv dst (dst e)
/-- The dense normalised adjacency matrix with self loops, at row n and column m. -/
def adjAt (n m : Fin NN) : EReal :=
  (∑ e ∈ Finset.univ.filter (fun e : Fin NE => dst e = n ∧ src e = m), norm src dst e)
    + ∑ k ∈ Finset.univ.filter (fun k : Fin NN => k = n ∧ k = m), dinv dst k * dinv dst k
/-- The same as an array. -/
def adj : A2 10000 10000 := fun i => adjAt src dst (i 0) (i 1)
/-- The sparse aggregation at node n and feature f: weighted source rows summed over the edges ending in n, plus
    the node's own row. -/
def convAt (hl : A2 10000 256) (n : Fin NN) (f : Fin 256) : EReal :=
  (∑ e ∈ Finset.univ.filter (fun e : Fin NE => dst e = n), hl (ix2 (src e) f) * norm src dst e)
    + hl (ix2 n f) * (dinv dst n * dinv dst n)
/-- The same as an array. -/
def conv (hl : A2 10000 256) : A2 10000 256 := fun i => convAt src dst hl (i 0) (i 1)

end Graph

/-! ## The batch normalisation, folded and unfolded -/

section Norm
variable (l : Fin 3) (gb gamma beta mean var : A2 3 256)

/-- The folded scale of layer `l`: gamma over the square root of the guarded variance. -/
def scaleK : A2 1 256 := fun i => gamma (ix2 l (i 1)) * Ideal.rsqrt (var (ix2 l (i 1)) + eps)
/-- The folded shift of layer `l`: the bias scaled, plus beta, minus the mean scaled. -/
def shiftK : A2 1 256 := fun i =>
  (gb (ix2 l (i 1)) * scaleK l gamma var i + beta (ix2 l (i 1))) - mean (ix2 l (i 1)) * scaleK l gamma var i
/-- Bias, normalisation in the textbook order, clamp. -/
def bnrelu (y : A2 10000 256) : A2 10000 256 := fun i =>
  max ((((y i + gb (ix2 l (i 1))) - mean (ix2 l (i 1))) * Ideal.rsqrt (var (ix2 l (i 1)) + eps)) * gamma (ix2 l (i 1))
    + beta (ix2 l (i 1))) 0

end Norm

/-- A matrix product against the transpose of a weight matrix. -/
def mmT {K J : Nat} (X : A2 10000 K) (W : A2 J K) : A2 10000 J := fun i => ∑ k : Fin K, X (ix2 (i 0) k) * W (ix2 (i 1) k)
/-- An affine layer against the transpose of a weight matrix, clamped below at zero. -/
def affRelu {K J : Nat} (X : A2 10000 K) (W : A2 J K) (b : A1 J) : A2 10000 J := fun i => max (mmT X W i + b (ix1 (i 1))) 0

/-! ## What the precondition says of the arguments -/

/-- An array of real numbers: no entry is infinite. -/
def IsReal {ι : Type} (f : ι → EReal) : Prop := ∀ i, ∃ r : ℝ, f i = (r : EReal)

/-- The edge list's two rows of index words, read signed, are the nodes `src e` and `dst e`. -/
def EdgesAre (ei : (⟨2, ![2, 320000]⟩ : Shape).Idx → BitVec 32) (src dst : Fin NE → Fin NN) : Prop :=
  (∀ e : Fin NE, (ei (ix2 0 e)).toInt = ((src e).val : Int)) ∧ (∀ e : Fin NE, (ei (ix2 1 e)).toInt = ((dst e).val : Int))

/-- The arguments the precondition admits: every float array real, every edge end a node, no variance negative. -/
structure Admissible (x : A2 10000 2048) (ei : (⟨2, ![2, 320000]⟩ : Shape).Idx → BitVec 32) (inW : A2 256 2048)
    (inb : A1 256) (gW : A3 3 256 256) (gb gamma beta mean var : A2 3 256) (c1W : A2 128 256) (c1b : A1 128)
    (c2W : A2 64 128) (c2b : A1 64) (c3W : A2 10 64) (c3b : A1 10) : Prop where
  x_real : IsReal x
  inW_real : IsReal inW
  inb_real : IsReal inb
  gW_real : IsReal gW
  gb_real : IsReal gb
  gamma_real : IsReal gamma
  beta_real : IsReal beta
  mean_real : IsReal mean
  var_real : IsReal var
  c1W_real : IsReal c1W
  c1b_real : IsReal c1b
  c2W_real : IsReal c2W
  c2b_real : IsReal c2b
  c3W_real : IsReal c3W
  c3b_real : IsReal c3b
  var_nonneg : ∀ i, 0 ≤ var i
  edges : ∃ src dst : Fin NE → Fin NN, EdgesAre ei src dst

/-! ## The two spellings of the network -/

section Net
variable (src dst : Fin NE → Fin NN) (x : A2 10000 2048) (inW : A2 256 2048) (inb : A1 256) (gW : A3 3 256 256)
  (gb gamma beta mean var : A2 3 256) (c1W : A2 128 256) (c1b : A1 128) (c2W : A2 64 128) (c2b : A1 64)
  (c3W : A2 10 64) (c3b : A1 10)

/-- The input projection (both spellings start from it in their own form). -/
def kh0 : A2 10000 256 := rLinRelu x (transp inW) (row1 inb)
def kh1 : A2 10000 256 :=
  rAgg (adj src dst) (rLin (kh0 x inW inb) (transp (gslice 0 gW)) zrow) (scaleK 0 gamma var) (shiftK 0 gb gamma beta mean var)
def kh2 : A2 10000 256 :=
  rAggRes (adj src dst) (rLin (kh1 src dst x inW inb gW gb gamma beta mean var) (transp (gslice 1 gW)) zrow)
    (scaleK 1 gamma var) (shiftK 1 gb gamma beta mean var) (kh1 src dst x inW inb gW gb gamma beta mean var)
def kh3 : A2 10000 256 :=
  rAggRes (adj src dst) (rLin (kh2 src dst x inW inb gW gb gamma beta mean var) (transp (gslice 2 gW)) zrow)
    (scaleK 2 gamma var) (shiftK 2 gb gamma beta mean var) (kh2 src dst x inW inb gW gb gamma beta mean var)
/-- The network with the dense adjacency and the folded normalisation. -/
def knet : A2 10000 10 :=
  rMlp (kh3 src dst x inW inb gW gb gamma beta mean var) (transp c1W) (row1 c1b) (transp c2W) (row1 c2b) (transp c3W) (row1 c3b)

def rh0 : A2 10000 256 := affRelu x inW inb
def rh1 : A2 10000 256 := bnrelu 0 gb gamma beta mean var (conv src dst (mmT (rh0 x inW inb) (gslice 0 gW)))
def rh2 : A2 10000 256 := fun i =>
  bnrelu 1 gb gamma beta mean var (conv src dst (mmT (rh1 src dst x inW inb gW gb gamma beta mean var) (gslice 1 gW))) i
    + rh1 src dst x inW inb gW gb gamma beta mean var i
def rh3 : A2 10000 256 := fun i =>
  bnrelu 2 gb gamma beta mean var (conv src dst (mmT (rh2 src dst x inW inb gW gb gamma beta mean var) (gslice 2 gW))) i
    + rh2 src dst x inW inb gW gb gamma beta mean var i
/-- The network with the sparse aggregation and the textbook normalisation. -/
def rnet : A2 10000 10 := fun i =>
  mmT (affRelu (affRelu (rh3 src dst x inW inb gW gb gamma beta mean var) c1W c1b) c2W c2b) c3W i + c3b (ix1 (i 1))

end Net

end Cert.Gcn.Spec

end
-- ==== Proof.RegLin.lean ====
/-
  What the four affine launches leave in their output arrays, as functions of their whole operand arrays.

  Each launch walks ten grid points. Point t stages rows 1000 t … 1000 t + 999 of the row operand, the whole weight
  matrix and the whole bias row, and stores one 1000 × 256 block: at row p and column q the sum over the features k of
  (row operand at (1000 t + p, k)) · (weights at (k, q)), plus the bias at (0, q) — clamped below at zero in the input
  projection. Over the extended reals a change of float format is the identity and a product into a zero accumulator is
  the plain sum, so that block is rows 1000 t … 1000 t + 999 of the whole-array function; the ten blocks tile the
  10000 rows (row r lies in block r / 1000), hence the output array is the whole-array function.
-/
import proofs.«424132_j19705309954162_2_alg».proof.Proof.Gen.KernelIdeal.Frame
import proofs.«424132_j19705309954162_2_alg».proof.Proof.Spec
import Idealize.ShloMosaic.Lib.Pipeline.Value
import Idealize.ShloMosaic.Lib.ValueIdx
import Idealize.ShloMosaic.PureOps.Ideal.Laws

noncomputable section

namespace Cert.Gcn.K

open Idealize.ShloMosaic Idealize.ShloMosaic.TcCoe Idealize.SL.Sem Idealize.ShloMosaic.ValueIdx
open Cert.KernelIdeal Cert.KernelIdeal.Gen Cert.Gcn

variable (V : (c : Dev nD) → (b : Ref sig .tc) → Buf (Elt Ideal) ((c : Thread nD τ).loc b))

/-! ## Shared by the four launches -/

/-- The zero offset of a whole-block access. -/
private theorem hz2 : (![0, 0] : Fin 2 → Nat) = fun _ => 0 := funext fun a => by
  match a with
  | ⟨0, _⟩ => rfl
  | ⟨1, _⟩ => rfl

/-- The bias row broadcast down the 1000 rows of a block reads the row's entry in the same column. -/
private theorem bias_row_apply (b : FVec Ideal S1x256 .f32) (p : Fin 1000) (q : Fin 256) :
    broadcastTo S1000x256 b broadcasts_S1x256_S1000x256 (ix2 p q) = b (ix2 0 q) := by
  refine broadcastTo_apply b broadcasts_S1x256_S1000x256 (ix2 p q) (ix2 0 q) (fun a => ?_)
  match a with
  | ⟨0, _⟩ => rfl
  | ⟨1, _⟩ => rfl

/-! ## The input projection (2048 features, clamped) -/

/-! ### The product's operand indices: at output (p, q) and contraction coordinate k the left operand is read at (p, k)
    and the right at (k, q) -/
private theorem lhs_d2048_0 (i : S1000x256.Idx) (q : dot_S1000x2048_S2048x256_S1000x256_1_0_0_1_n_n.contr.Idx) :
    (dot_S1000x2048_S2048x256_S1000x256_1_0_0_1_n_n.lhsIdx i q 0).val = (i 0).val := by
  unfold DotDims.lhsIdx
  rw [dif_neg (show ¬(0 : Fin S1000x2048.rank) ∈ dot_S1000x2048_S2048x256_S1000x256_1_0_0_1_n_n.lhsBatch by decide), dif_pos (show (0 : Fin S1000x2048.rank) ∈ dot_S1000x2048_S2048x256_S1000x256_1_0_0_1_n_n.lhsNonContracting by decide)]
  rfl
private theorem lhs_d2048_1 (i : S1000x256.Idx) (q : dot_S1000x2048_S2048x256_S1000x256_1_0_0_1_n_n.contr.Idx) :
    (dot_S1000x2048_S2048x256_S1000x256_1_0_0_1_n_n.lhsIdx i q 1).val = (q ⟨0, by decide⟩).val :=
  dot_S1000x2048_S2048x256_S1000x256_1_0_0_1_n_n.lhsIdx_val_of_single rfl i q
private theorem rhs_d2048_0 (i : S1000x256.Idx) (q : dot_S1000x2048_S2048x256_S1000x256_1_0_0_1_n_n.contr.Idx) :
    (dot_S1000x2048_S2048x256_S1000x256_1_0_0_1_n_n.rhsIdx i q 0).val = (q ⟨0, by decide⟩).val :=
  dot_S1000x2048_S2048x256_S1000x256_1_0_0_1_n_n.rhsIdx_val_of_single rfl i q
private theorem rhs_d2048_1 (i : S1000x256.Idx) (q : dot_S1000x2048_S2048x256_S1000x256_1_0_0_1_n_n.contr.Idx) :
    (dot_S1000x2048_S2048x256_S1000x256_1_0_0_1_n_n.rhsIdx i q 1).val = (i 1).val := by
  unfold DotDims.rhsIdx
  rw [dif_neg (show ¬(1 : Fin S2048x256.rank) ∈ dot_S1000x2048_S2048x256_S1000x256_1_0_0_1_n_n.rhsBatch by decide), dif_pos (show (1 : Fin S2048x256.rank) ∈ dot_S1000x2048_S2048x256_S1000x256_1_0_0_1_n_n.rhsNonContracting by decide)]
  rfl

/-- The block product into a zero accumulator, at row p and column q: the sum over the 2048 features. -/
private theorem matmul2048_apply (l : FVec Ideal S1000x2048 .bf16) (r : FVec Ideal S2048x256 .bf16) (p : Fin 1000) (q : Fin 256) :
    matmul dot_S1000x2048_S2048x256_S1000x256_1_0_0_1_n_n none l r (constant S1000x256 .f32 0x00000000#32) (ix2 p q)
      = ∑ k : Fin 2048, l (ix2 p k) * r (ix2 k q) := by
  simp only [matmul]
  rw [Ideal.matmul_constant_zero_apply, ← Equiv.sum_comp (contrEquiv1 dot_S1000x2048_S2048x256_S1000x256_1_0_0_1_n_n 2048 rfl rfl).symm]
  refine Finset.sum_congr rfl fun k _ => ?_
  have hk := contrEquiv1_symm_val dot_S1000x2048_S2048x256_S1000x256_1_0_0_1_n_n 2048 rfl rfl k
  have el : dot_S1000x2048_S2048x256_S1000x256_1_0_0_1_n_n.lhsIdx (ix2 p q) ((contrEquiv1 dot_S1000x2048_S2048x256_S1000x256_1_0_0_1_n_n 2048 rfl rfl).symm k) = ix2 p k := funext fun a => Fin.ext (by
    match a with
    | ⟨0, _⟩ => exact lhs_d2048_0 _ _
    | ⟨1, _⟩ => exact (lhs_d2048_1 _ _).trans hk)
  have er : dot_S1000x2048_S2048x256_S1000x256_1_0_0_1_n_n.rhsIdx (ix2 p q) ((contrEquiv1 dot_S1000x2048_S2048x256_S1000x256_1_0_0_1_n_n 2048 rfl rfl).symm k) = ix2 k q := funext fun a => Fin.ext (by
    match a with
    | ⟨0, _⟩ => exact (rhs_d2048_0 _ _).trans hk
    | ⟨1, _⟩ => exact rhs_d2048_1 _ _)
  rw [el, er]

/-- The body of the input projection at row p and column q of a block. -/
private theorem k0_pay1_apply (x0 : Vec Ideal S1000x2048 .f32) (x1 : Vec Ideal S2048x256 .bf16) (x2 : Vec Ideal S1x256 .f32) (p : Fin 1000) (q : Fin 256) :
    k0_pay1 (F := Ideal) x0 x1 x2 (ix2 p q) = max ((∑ k : Fin 2048, x0 (ix2 p k) * x1 (ix2 k q)) + x2 (ix2 0 q)) 0 := by
  unfold k0_pay1
  simp only [shapeCast_self]
  rw [maximumf_apply, addf_apply, matmul2048_apply, bias_row_apply, broadcast_apply]
  show max _ (Ideal.ofBits .f32 0x00000000#32) = _
  rw [Ideal.ofBits_zero_f32]
  rfl

/-- One block of the input projection: a block whose rows are rows 1000 T … 1000 T + 999 of X, against all of W and b,
    is the same rows of the whole-array function. -/
private theorem relu_block (x0 : Vec Ideal S1000x2048 .f32) (x1 : Vec Ideal S2048x256 .bf16) (x2 : Vec Ideal S1x256 .f32)
    (X : Spec.A2 10000 2048) (W : Spec.A2 2048 256) (b : Spec.A2 1 256) (T : Nat)
    (h0 : ∀ (y : S1000x2048.Idx) (k : S10000x2048.Idx), (k 0).val = 1000 * T + (y 0).val → (k 1).val = (y 1).val → x0 y = X k)
    (h1 : ∀ y : S2048x256.Idx, x1 y = W y) (h2 : ∀ y : S1x256.Idx, x2 y = b y)
    (j : S1000x256.Idx) (i : S10000x256.Idx) (hi0 : (i 0).val = 1000 * T + (j 0).val) (hi1 : (i 1).val = (j 1).val) :
    k0_pay1 (F := Ideal) x0 x1 x2 j = Spec.rLinRelu X W b i := by
  obtain ⟨p, q, rfl⟩ : ∃ (p : Fin 1000) (q : Fin 256), j = ix2 p q := ⟨j 0, j 1, eq_ix2 j⟩
  rw [k0_pay1_apply]
  unfold Spec.rLinRelu
  have e1 : i 1 = q := Fin.ext hi1
  rw [e1, h2]
  congr 2
  refine Finset.sum_congr rfl fun k _ => ?_
  rw [h0 (ix2 p k) (ix2 (i 0) k) hi0 rfl, h1]

private theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row window's block at point t is rows 1000 t … 1000 t + 999 of its array. -/
private theorem iblk0_0_apply (c : Dev nD) (t : Fin cfg0.N) (y : S1000x2048.Idx) (k : S10000x2048.Idx)
    (hk0 : (k 0).val = 1000 * t.val + (y 0).val) (hk1 : (k 1).val = (y 1).val) :
    (iblk0 V c 0 t : Vec Ideal S1000x2048 .f32) y = (V c (Pipeline.arrRef spec0 0) : S10000x2048.Idx → EReal) k := by
  obtain ⟨e00, e01, -⟩ := idx_facts0 t
  unfold iblk0
  rw [View.read_apply]
  refine congrArg (V c (Pipeline.arrRef spec0 0) : S10000x2048.Idx → EReal) (funext fun a => Fin.ext ?_)
  match a with
  | ⟨0, _⟩ => show win0_0.index t (0 : Fin 2) * 1000 + 1 * (y 0).val = (k 0).val; omega
  | ⟨1, _⟩ => show win0_0.index t (1 : Fin 2) * 2048 + 1 * (y 1).val = (k 1).val; omega

/-- The weight window's block is its whole array at every point. -/
private theorem iblk0_1_apply (c : Dev nD) (t : Fin cfg0.N) (y : S2048x256.Idx) :
    (iblk0 V c 1 t : Vec Ideal S2048x256 .bf16) y = (V c (Pipeline.arrRef spec0 1) : S2048x256.Idx → EReal) y := by
  obtain ⟨-, -, e10, e11, -⟩ := idx_facts0 t
  unfold iblk0
  rw [View.read_apply]
  refine congrArg (V c (Pipeline.arrRef spec0 1) : S2048x256.Idx → EReal) (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

/-- The bias window's block is its whole array at every point. -/
private theorem iblk0_2_apply (c : Dev nD) (t : Fin cfg0.N) (y : S1x256.Idx) :
    (iblk0 V c 2 t : Vec Ideal S1x256 .f32) y = (V c (Pipeline.arrRef spec0 2) : S1x256.Idx → EReal) y := by
  obtain ⟨-, -, -, -, e20, e21, -⟩ := idx_facts0 t
  unfold iblk0
  rw [View.read_apply]
  refine congrArg (V c (Pipeline.arrRef spec0 2) : S1x256.Idx → EReal) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- What point t writes back is block t of the whole-array function. -/
private theorem flushed0_eq (c : Dev nD) (t : Fin cfg0.N) :
    (dat0 (F := Ideal) V c).flushed 3 t = ((cfg0.win 3).blk t).view.read (Elt Ideal)
      (Spec.rLinRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S1000x2048) hz2, View.ld_unit_zero (S := S2048x256) hz2, View.ld_unit_zero (S := S1x256) hz2]
  obtain ⟨-, -, -, -, -, -, e30, e31⟩ := idx_facts0 t
  funext j
  show k0_pay1 (F := Ideal) (iblk0 V c 0 t) (iblk0 V c 1 t) (iblk0 V c 2 t) j
    = Spec.rLinRelu (V c (Pipeline.arrRef spec0 0)) (V c (Pipeline.arrRef spec0 1)) (V c (Pipeline.arrRef spec0 2)) (((cfg0.win 3).blk t).view.emb j)
  refine relu_block (iblk0 V c 0 t) (iblk0 V c 1 t) (iblk0 V c 2 t) (V c (Pipeline.arrRef spec0 0)) (V c (Pipeline.arrRef spec0 1))
    (V c (Pipeline.arrRef spec0 2)) t.val (iblk0_0_apply V c t) (iblk0_1_apply V c t) (iblk0_2_apply V c t) j (((cfg0.win 3).blk t).view.emb j) ?_ ?_
  · show win0_3.index t (0 : Fin 2) * 1000 + 1 * (j 0).val = 1000 * t.val + (j 0).val; omega
  · show win0_3.index t (1 : Fin 2) * 256 + 1 * (j 1).val = (j 1).val; omega

/-- An index of the output array lies in point t's block iff each coordinate lies in the block's range. -/
private theorem mem_blk0 (t : Fin cfg0.N) (i : S10000x256.Idx) :
    i ∈ ((cfg0.win 3).blk t).view.set ↔ ∀ a : Fin 2, win0_3.index t a * S1000x256.size a ≤ (i a).val ∧ (i a).val < win0_3.index t a * S1000x256.size a + S1000x256.size a := by
  show i ∈ ((View.whole main_v61).slice (win0_3.rect t)).set ↔ _
  rw [View.set_slice_whole, Rect.mem_set_unit]
  exact Iff.rfl

/-- Row r lies in the block of point r / 1000. -/
private theorem cover0 (i : S10000x256.Idx) : ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := N_0
  obtain ⟨t, ht⟩ : ∃ t : Fin cfg0.N, t.val = (i 0).val / 1000 := ⟨⟨(i 0).val / 1000, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 256 ≤ (i 1).val ∧ (i 1).val < win0_3.index t (1 : Fin 2) * 256 + 256; omega

/-- The input projection: rows of x times the transposed weights, plus the bias row, clamped below at zero. -/
theorem reg0_value (c : Dev nD) :
    (dat0 (F := Ideal) V c).arrAt 3 cfg0.N
      = Spec.rLinRelu (V c (Pipeline.arrRef spec0 0)) (V c (Pipeline.arrRef spec0 1)) (V c (Pipeline.arrRef spec0 2)) :=
  (dat0 (F := Ideal) V c).arrAt_eq_of_cover 3 _ (fun t _ => flushed0_eq V c t) cover0

/-! ## The three layer maps (256 features, no clamp): one body under three names -/

/-! ### The product's operand indices -/

private theorem lhs_d256_0 (i : S1000x256.Idx) (q : dot_S1000x256_S256x256_S1000x256_1_0_0_1_n_n.contr.Idx) :
    (dot_S1000x256_S256x256_S1000x256_1_0_0_1_n_n.lhsIdx i q 0).val = (i 0).val := by
  unfold DotDims.lhsIdx
  rw [dif_neg (show ¬(0 : Fin S1000x256.rank) ∈ dot_S1000x256_S256x256_S1000x256_1_0_0_1_n_n.lhsBatch by decide), dif_pos (show (0 : Fin S1000x256.rank) ∈ dot_S1000x256_S256x256_S1000x256_1_0_0_1_n_n.lhsNonContracting by decide)]
  rfl
private theorem lhs_d256_1 (i : S1000x256.Idx) (q : dot_S1000x256_S256x256_S1000x256_1_0_0_1_n_n.contr.Idx) :
    (dot_S1000x256_S256x256_S1000x256_1_0_0_1_n_n.lhsIdx i q 1).val = (q ⟨0, by decide⟩).val :=
  dot_S1000x256_S256x256_S1000x256_1_0_0_1_n_n.lhsIdx_val_of_single rfl i q
private theorem rhs_d256_0 (i : S1000x256.Idx) (q : dot_S1000x256_S256x256_S1000x256_1_0_0_1_n_n.contr.Idx) :
    (dot_S1000x256_S256x256_S1000x256_1_0_0_1_n_n.rhsIdx i q 0).val = (q ⟨0, by decide⟩).val :=
  dot_S1000x256_S256x256_S1000x256_1_0_0_1_n_n.rhsIdx_val_of_single rfl i q
private theorem rhs_d256_1 (i : S1000x256.Idx) (q : dot_S1000x256_S256x256_S1000x256_1_0_0_1_n_n.contr.Idx) :
    (dot_S1000x256_S256x256_S1000x256_1_0_0_1_n_n.rhsIdx i q 1).val = (i 1).val := by
  unfold DotDims.rhsIdx
  rw [dif_neg (show ¬(1 : Fin S256x256.rank) ∈ dot_S1000x256_S256x256_S1000x256_1_0_0_1_n_n.rhsBatch by decide), dif_pos (show (1 : Fin S256x256.rank) ∈ dot_S1000x256_S256x256_S1000x256_1_0_0_1_n_n.rhsNonContracting by decide)]
  rfl

/-- The block product into a zero accumulator, at row p and column q: the sum over the 256 features. -/
private theorem matmul256_apply (l : FVec Ideal S1000x256 .bf16) (r : FVec Ideal S256x256 .bf16) (p : Fin 1000) (q : Fin 256) :
    matmul dot_S1000x256_S256x256_S1000x256_1_0_0_1_n_n none l r (constant S1000x256 .f32 0x00000000#32) (ix2 p q)
      = ∑ k : Fin 256, l (ix2 p k) * r (ix2 k q) := by
  simp only [matmul]
  rw [Ideal.matmul_constant_zero_apply, ← Equiv.sum_comp (contrEquiv1 dot_S1000x256_S256x256_S1000x256_1_0_0_1_n_n 256 rfl rfl).symm]
  refine Finset.sum_congr rfl fun k _ => ?_
  have hk := contrEquiv1_symm_val dot_S1000x256_S256x256_S1000x256_1_0_0_1_n_n 256 rfl rfl k
  have el : dot_S1000x256_S256x256_S1000x256_1_0_0_1_n_n.lhsIdx (ix2 p q) ((contrEquiv1 dot_S1000x256_S256x256_S1000x256_1_0_0_1_n_n 256 rfl rfl).symm k) = ix2 p k := funext fun a => Fin.ext (by
    match a with
    | ⟨0, _⟩ => exact lhs_d256_0 _ _
    | ⟨1, _⟩ => exact (lhs_d256_1 _ _).trans hk)
  have er : dot_S1000x256_S256x256_S1000x256_1_0_0_1_n_n.rhsIdx (ix2 p q) ((contrEquiv1 dot_S1000x256_S256x256_S1000x256_1_0_0_1_n_n 256 rfl rfl).symm k) = ix2 k q := funext fun a => Fin.ext (by
    match a with
    | ⟨0, _⟩ => exact (rhs_d256_0 _ _).trans hk
    | ⟨1, _⟩ => exact rhs_d256_1 _ _)
  rw [el, er]

/-- The body of a layer map at row p and column q of a block (the two format changes are the identity here). -/
private theorem k1_pay1_apply (x0 : Vec Ideal S1000x256 .f32) (x1 : Vec Ideal S256x256 .bf16) (x2 : Vec Ideal S1x256 .f32) (p : Fin 1000) (q : Fin 256) :
    k1_pay1 (F := Ideal) x0 x1 x2 (ix2 p q) = (∑ k : Fin 256, x0 (ix2 p k) * x1 (ix2 k q)) + x2 (ix2 0 q) := by
  unfold k1_pay1
  simp only [shapeCast_self]
  rw [truncf_apply, addf_apply, matmul256_apply, bias_row_apply]
  rfl

/-- One block of the affine map: a block whose rows are rows 1000 T … 1000 T + 999 of X, against all of W and b,
    is the same rows of the whole-array function. -/
private theorem lin_block (x0 : Vec Ideal S1000x256 .f32) (x1 : Vec Ideal S256x256 .bf16) (x2 : Vec Ideal S1x256 .f32)
    (X : Spec.A2 10000 256) (W : Spec.A2 256 256) (b : Spec.A2 1 256) (T : Nat)
    (h0 : ∀ (y : S1000x256.Idx) (k : S10000x256.Idx), (k 0).val = 1000 * T + (y 0).val → (k 1).val = (y 1).val → x0 y = X k)
    (h1 : ∀ y : S256x256.Idx, x1 y = W y) (h2 : ∀ y : S1x256.Idx, x2 y = b y)
    (j : S1000x256.Idx) (i : S10000x256.Idx) (hi0 : (i 0).val = 1000 * T + (j 0).val) (hi1 : (i 1).val = (j 1).val) :
    k1_pay1 (F := Ideal) x0 x1 x2 j = Spec.rLin X W b i := by
  obtain ⟨p, q, rfl⟩ : ∃ (p : Fin 1000) (q : Fin 256), j = ix2 p q := ⟨j 0, j 1, eq_ix2 j⟩
  rw [k1_pay1_apply]
  unfold Spec.rLin
  have e1 : i 1 = q := Fin.ext hi1
  rw [e1, h2]
  congr 1
  refine Finset.sum_congr rfl fun k _ => ?_
  rw [h0 (ix2 p k) (ix2 (i 0) k) hi0 rfl, h1]

/-! ### Layer 0 -/

private theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row window's block at point t is rows 1000 t … 1000 t + 999 of its array. -/
private theorem iblk1_0_apply (c : Dev nD) (t : Fin cfg1.N) (y : S1000x256.Idx) (k : S10000x256.Idx)
    (hk0 : (k 0).val = 1000 * t.val + (y 0).val) (hk1 : (k 1).val = (y 1).val) :
    (iblk1 V c 0 t : Vec Ideal S1000x256 .f32) y = (V c (Pipeline.arrRef spec1 0) : S10000x256.Idx → EReal) k := by
  obtain ⟨e00, e01, -⟩ := idx_facts1 t
  unfold iblk1
  rw [View.read_apply]
  refine congrArg (V c (Pipeline.arrRef spec1 0) : S10000x256.Idx → EReal) (funext fun a => Fin.ext ?_)
  match a with
  | ⟨0, _⟩ => show win1_0.index t (0 : Fin 2) * 1000 + 1 * (y 0).val = (k 0).val; omega
  | ⟨1, _⟩ => show win1_0.index t (1 : Fin 2) * 256 + 1 * (y 1).val = (k 1).val; omega

/-- The weight window's block is its whole array at every point. -/
private theorem iblk1_1_apply (c : Dev nD) (t : Fin cfg1.N) (y : S256x256.Idx) :
    (iblk1 V c 1 t : Vec Ideal S256x256 .bf16) y = (V c (Pipeline.arrRef spec1 1) : S256x256.Idx → EReal) y := by
  obtain ⟨-, -, e10, e11, -⟩ := idx_facts1 t
  unfold iblk1
  rw [View.read_apply]
  refine congrArg (V c (Pipeline.arrRef spec1 1) : S256x256.Idx → EReal) (funext fun a => Fin.ext ?_)
  match a with
  | ⟨0, _⟩ => show win1_1.index t (0 : Fin 2) * 256 + 1 * (y 0).val = (y 0).val; omega
  | ⟨1, _⟩ => show win1_1.index t (1 : Fin 2) * 256 + 1 * (y 1).val = (y 1).val; omega

/-- The bias window's block is its whole array at every point. -/
private theorem iblk1_2_apply (c : Dev nD) (t : Fin cfg1.N) (y : S1x256.Idx) :
    (iblk1 V c 2 t : Vec Ideal S1x256 .f32) y = (V c (Pipeline.arrRef spec1 2) : S1x256.Idx → EReal) y := by
  obtain ⟨-, -, -, -, e20, e21, -⟩ := idx_facts1 t
  unfold iblk1
  rw [View.read_apply]
  refine congrArg (V c (Pipeline.arrRef spec1 2) : S1x256.Idx → EReal) (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point t writes back is block t of the whole-array affine map. -/
private theorem flushed1_eq (c : Dev nD) (t : Fin cfg1.N) :
    (dat1 (F := Ideal) V c).flushed 3 t = ((cfg1.win 3).blk t).view.read (Elt Ideal)
      (Spec.rLin (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S1000x256) hz2, View.ld_unit_zero (S := S256x256) hz2, View.ld_unit_zero (S := S1x256) hz2]
  obtain ⟨-, -, -, -, -, -, e30, e31⟩ := idx_facts1 t
  funext j
  show k1_pay1 (F := Ideal) (iblk1 V c 0 t) (iblk1 V c 1 t) (iblk1 V c 2 t) j
    = Spec.rLin (V c (Pipeline.arrRef spec1 0)) (V c (Pipeline.arrRef spec1 1)) (V c (Pipeline.arrRef spec1 2)) (((cfg1.win 3).blk t).view.emb j)
  refine lin_block (iblk1 V c 0 t) (iblk1 V c 1 t) (iblk1 V c 2 t) (V c (Pipeline.arrRef spec1 0)) (V c (Pipeline.arrRef spec1 1))
    (V c (Pipeline.arrRef spec1 2)) t.val (iblk1_0_apply V c t) (iblk1_1_apply V c t) (iblk1_2_apply V c t) j (((cfg1.win 3).blk t).view.emb j) ?_ ?_
  · show win1_3.index t (0 : Fin 2) * 1000 + 1 * (j 0).val = 1000 * t.val + (j 0).val; omega
  · show win1_3.index t (1 : Fin 2) * 256 + 1 * (j 1).val = (j 1).val; omega

/-- An index of the output array lies in point t's block iff each coordinate lies in the block's range. -/
private theorem mem_blk1 (t : Fin cfg1.N) (i : S10000x256.Idx) :
    i ∈ ((cfg1.win 3).blk t).view.set ↔ ∀ a : Fin 2, win1_3.index t a * S1000x256.size a ≤ (i a).val ∧ (i a).val < win1_3.index t a * S1000x256.size a + S1000x256.size a := by
  show i ∈ ((View.whole main_v68).slice (win1_3.rect t)).set ↔ _
  rw [View.set_slice_whole, Rect.mem_set_unit]
  exact Iff.rfl

/-- Row r lies in the block of point r / 1000. -/
private theorem cover1 (i : S10000x256.Idx) : ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 10 := N_1
  obtain ⟨t, ht⟩ : ∃ t : Fin cfg1.N, t.val = (i 0).val / 1000 := ⟨⟨(i 0).val / 1000, by rw [hN]; omega⟩, rfl⟩
  obtain ⟨-, -, -, -, -, -, e30, e31⟩ := idx_facts1 t
  refine ⟨t, flush1_3 t, ?_⟩
  rw [mem_blk1]
  intro a
  match a with
  | ⟨0, _⟩ => show win1_3.index t (0 : Fin 2) * 1000 ≤ (i 0).val ∧ (i 0).val < win1_3.index t (0 : Fin 2) * 1000 + 1000; omega
  | ⟨1, _⟩ => show win1_3.index t (1 : Fin 2) * 256 ≤ (i 1).val ∧ (i 1).val < win1_3.index t (1 : Fin 2) * 256 + 256; omega

/-- Layer 0's linear map: rows times the transposed weights plus the bias row. -/
theorem reg1_value (c : Dev nD) :
    (dat1 (F := Ideal) V c).arrAt 3 cfg1.N
      = Spec.rLin (V c (Pipeline.arrRef spec1 0)) (V c (Pipeline.arrRef spec1 1)) (V c (Pipeline.arrRef spec1 2)) :=
  (dat1 (F := Ideal) V c).arrAt_eq_of_cover 3 _ (fun t _ => flushed1_eq V c t) cover1

/-! ### Layer 1 (the same body: its payload unfolds to the same term) -/

private theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row window's block at point t is rows 1000 t … 1000 t + 999 of its array. -/
private theorem iblk3_0_apply (c : Dev nD) (t : Fin cfg3.N) (y : S1000x256.Idx) (k : S10000x256.Idx)
    (hk0 : (k 0).val = 1000 * t.val + (y 0).val) (hk1 : (k 1).val = (y 1).val) :
    (iblk3 V c 0 t : Vec Ideal S1000x256 .f32) y = (V c (Pipeline.arrRef spec3 0) : S10000x256.Idx → EReal) k := by
  obtain ⟨e00, e01, -⟩ := idx_facts3 t
  unfold iblk3
  rw [View.read_apply]
  refine congrArg (V c (Pipeline.arrRef spec3 0) : S10000x256.Idx → EReal) (funext fun a => Fin.ext ?_)
  match a with
  | ⟨0, _⟩ => show win3_0.index t (0 : Fin 2) * 1000 + 1 * (y 0).val = (k 0).val; omega
  | ⟨1, _⟩ => show win3_0.index t (1 : Fin 2) * 256 + 1 * (y 1).val = (k 1).val; omega

/-- The weight window's block is its whole array at every point. -/
private theorem iblk3_1_apply (c : Dev nD) (t : Fin cfg3.N) (y : S256x256.Idx) :
    (iblk3 V c 1 t : Vec Ideal S256x256 .bf16) y = (V c (Pipeline.arrRef spec3 1) : S256x256.Idx → EReal) y := by
  obtain ⟨-, -, e10, e11, -⟩ := idx_facts3 t
  unfold iblk3
  rw [View.read_apply]
  refine congrArg (V c (Pipeline.arrRef spec3 1) : S256x256.Idx → EReal) (funext fun a => Fin.ext ?_)
  match a with
  | ⟨0, _⟩ => show win3_1.index t (0 : Fin 2) * 256 + 1 * (y 0).val = (y 0).val; omega
  | ⟨1, _⟩ => show win3_1.index t (1 : Fin 2) * 256 + 1 * (y 1).val = (y 1).val; omega

/-- The bias window's block is its whole array at every point. -/
private theorem iblk3_2_apply (c : Dev nD) (t : Fin cfg3.N) (y : S1x256.Idx) :
    (iblk3 V c 2 t : Vec Ideal S1x256 .f32) y = (V c (Pipeline.arrRef spec3 2) : S1x256.Idx → EReal) y := by
  obtain ⟨-, -, -, -, e20, e21, -⟩ := idx_facts3 t
  unfold iblk3
  rw [View.read_apply]
  refine congrArg (V c (Pipeline.arrRef spec3 2) : S1x256.Idx → EReal) (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- What point t writes back is block t of the whole-array affine map. -/
private theorem flushed3_eq (c : Dev nD) (t : Fin cfg3.N) :
    (dat3 (F := Ideal) V c).flushed 3 t = ((cfg3.win 3).blk t).view.read (Elt Ideal)
      (Spec.rLin (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S1000x256) hz2, View.ld_unit_zero (S := S256x256) hz2, View.ld_unit_zero (S := S1x256) hz2]
  obtain ⟨-, -, -, -, -, -, e30, e31⟩ := idx_facts3 t
  funext j
  show k1_pay1 (F := Ideal) (iblk3 V c 0 t) (iblk3 V c 1 t) (iblk3 V c 2 t) j
    = Spec.rLin (V c (Pipeline.arrRef spec3 0)) (V c (Pipeline.arrRef spec3 1)) (V c (Pipeline.arrRef spec3 2)) (((cfg3.win 3).blk t).view.emb j)
  refine lin_block (iblk3 V c 0 t) (iblk3 V c 1 t) (iblk3 V c 2 t) (V c (Pipeline.arrRef spec3 0)) (V c (Pipeline.arrRef spec3 1))
    (V c (Pipeline.arrRef spec3 2)) t.val (iblk3_0_apply V c t) (iblk3_1_apply V c t) (iblk3_2_apply V c t) j (((cfg3.win 3).blk t).view.emb j) ?_ ?_
  · show win3_3.index t (0 : Fin 2) * 1000 + 1 * (j 0).val = 1000 * t.val + (j 0).val; omega
  · show win3_3.index t (1 : Fin 2) * 256 + 1 * (j 1).val = (j 1).val; omega

/-- An index of the output array lies in point t's block iff each coordinate lies in the block's range. -/
private theorem mem_blk3 (t : Fin cfg3.N) (i : S10000x256.Idx) :
    i ∈ ((cfg3.win 3).blk t).view.set ↔ ∀ a : Fin 2, win3_3.index t a * S1000x256.size a ≤ (i a).val ∧ (i a).val < win3_3.index t a * S1000x256.size a + S1000x256.size a := by
  show i ∈ ((View.whole main_v95).slice (win3_3.rect t)).set ↔ _
  rw [View.set_slice_whole, Rect.mem_set_unit]
  exact Iff.rfl

/-- Row r lies in the block of point r / 1000. -/
private theorem cover3 (i : S10000x256.Idx) : ∃ t : Fin cfg3.N, (cfg3.win 3).flush t = true ∧ i ∈ ((cfg3.win 3).blk t).view.set := by
  have hi0 : (i 0).val < 10000 := (i 0).isLt
  have hi1 : (i 1).val < 256 := (i 1).isLt
  have hN : cfg3.N = 10 := N_3
  obtain ⟨t, ht⟩ : ∃ t : Fin cfg3.N, t.val = (i 0).val / 1000 := ⟨⟨(i 0).val / 1000, by rw [hN]; omega⟩, rfl⟩
  obtain ⟨-, -, -, -, -, -, e30, e31⟩ := idx_facts3 t
  refine ⟨t, flush3_3 t, ?_⟩
  rw [mem_blk3]
  intro a
  match a with
  | ⟨0, _⟩ => show win3_3.index t (0 : Fin 2) * 1000 ≤ (i 0).val ∧ (i 0).val < win3_3.index t (0 : Fin 2) * 1000 + 1000; omega
  | ⟨1, _⟩ => show win3_3.index t (1 : Fin 2) * 256 ≤ (i 1).val ∧ (i 1).val < win3_3.index t (1 : Fin 2) * 256 + 256; omega

/-- Layer 1's linear map. -/
theorem reg3_value (c : Dev nD) :
    (dat3 (F := Ideal) V c).arrAt 3 cfg3.N
      = Spec.rLin (V c (Pipeline.arrRef spec3 0)) (V c (Pipeline.arrRef spec3 1)) (V c (Pipeline.arrRef spec3 2)) :=
  (dat3 (F := Ideal) V c).arrAt_eq_of_cover 3 _ (fun t _ => flushed3_eq V c t) cover3

/-! ### Layer 2 (likewise) -/

private theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The row window's block at point t is rows 1000 t … 1000 t + 999 of its array. -/
private theorem iblk5_0_apply (c : Dev nD) (t : Fin cfg5.N) (y : S1000x256.Idx) (k : S10000x256.Idx)
    (hk0 : (k 0).val = 1000 * t.val + (y 0).val) (hk1 : (k 1).val = (y 1).val) :
    (iblk5 V c 0 t : Vec Ideal S1000x256 .f32) y = (V c (Pipeline.arrRef spec5 0) : S10000x256.Idx → EReal) k := by
  obtain ⟨e00, e01, -⟩ := idx_facts5 t
  unfold iblk5
  rw [View.read_apply]
  refine congrArg (V c (Pipeline.arrRef spec5 0) : S10000x256.Idx → EReal) (funext fun a => Fin.ext ?_)
  match a with
  | ⟨0, _⟩ => show win5_0.index t (0 : Fin 2) * 1000 + 1 * (y 0).val = (k 0).val; omega
  | ⟨1, _⟩ => show win5_0.index t (1 : Fin 2) * 256 + 1 * (y 1).val = (k 1).val; omega

/-- The weight window's block is its whole array at every point. -/
private theorem iblk5_1_apply (c : Dev nD) (t : Fin cfg5.N) (y : S256x256.Idx) :
    (iblk5 V c 1 t : Vec Ideal S256x256 .bf16) y = (V c (Pipeline.arrRef spec5 1) : S256x256.Idx → EReal) y := by
  obtain ⟨-, -, e10, e11, -⟩ := idx_facts5 t
  unfold iblk5
  rw [View.read_apply]
  refine congrArg (V c (Pipeline.arrRef spec5 1) : S256x256.Idx → EReal) (funext fun a => Fin.ext ?_)
  match a with
  | ⟨0, _⟩ => show win5_1.index t (0 : Fin 2) * 256 + 1 * (y 0).val = (y 0).val; omega
  | ⟨1, _⟩ => show win5_1.index t (1 : Fin 2) * 256 + 1 * (y 1).val = (y 1).val; omega

/-- The bias window's block is its whole array at every point. -/
private theorem iblk5_2_apply (c : Dev nD) (t : Fin cfg5.N) (y : S1x256.Idx) :
    (iblk5 V c 2 t : Vec Ideal S1x256 .f32) y = (V c (Pipeline.arrRef spec5 2) : S1x256.Idx → EReal) y := by
  obtain ⟨-, -, -, -, e20, e21, -⟩ := idx_facts5 t
  unfold iblk5
  rw [View.read_apply]
  refine congrArg (V c (Pipeline.arrRef spec5 2) : S1x256.Idx → EReal) (funext fun a => Fin.ext ?_)
  match a with
  | ⟨0, _⟩ => show win5_2.index t (0 : Fin 2) * 1 + 1 * (y 0).val = (y 0).val; omega
  | ⟨1, _⟩ => show win5_2.index t (1 : Fin 2) * 256 + 1 * (y 1).val = (y 1).val; omega

/-- What point t writes back is block t of the whole-array affine map. -/
private theorem flushed5_eq (c : Dev nD) (t : Fin cfg5.N) :
    (dat5 (F := Ideal) V c).flushed 3 t = ((cfg5.win 3).blk t).view.read (Elt Ideal)
      (Spec.rLin (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz2]
  simp only [View.ld_unit_zero (S := S1000x256) hz2, View.ld_unit_zero (S := S256x256) hz2, View.ld_unit_zero (S := S1x256) hz2]
  obtain ⟨-, -, -, -, -, -, e30, e31⟩ := idx_facts5 t
  funext j
  show k1_pay1 (F := Ideal) (iblk5 V c 0 t) (iblk5 V c 1 t) (iblk5 V c 2 t) j
    = Spec.rLin (V c (Pipeline.arrRef spec5 0)) (V c (Pipeline.arrRef spec5 1)) (V c (Pipeline.arrRef spec5 2)) (((cfg5.win 3).blk t).view.emb j)
  refine lin_block (iblk5 V c 0 t) (iblk5 V c 1 t) (iblk5 V c 2 t) (V c (Pipeline.arrRef spec5 0)) (V c (Pipeline.arrRef spec5 1))
    (V c (Pipeline.arrRef spec5 2)) t.val (iblk5_0_apply V c t) (iblk5_1_apply V c t) (iblk5_2_apply V c t) j (((cfg5.win 3).blk t).view.emb j) ?_ ?_
  · show win5_3.index t (0 : Fin 2) * 1000 + 1 * (j 0).val = 1000 * t.val + (j 0).val; omega
  · show win5_3.index t (1 : Fin 2) * 256 + 1 * (j 1).val = (j 1).val; omega

/-- An index of the output array lies in point t's block iff each coordinate lies in the block's range. -/
private theorem mem_blk5 (t : Fin cfg5.N) (i : S10000x256.Idx) :
    i ∈ ((cfg5.win 3).blk t).view.set ↔ ∀ a : Fin 2, win5_3.index t a * S1000x256.size a ≤ (i a).val ∧ (i a).val < win5_3.index t a * S1000x256.size a + S1000x256.size a := by
  show i ∈ ((View.whole main_v122).slice (win5_3.rect t)).set ↔ _
  rw [View.set_slice_whole, Rect.mem_set_unit]
  exact Iff.rfl

/-- Row r lies in the block of point r / 1000. -/
private theorem cover5 (i : S10000x256.Idx) : ∃ t : Fin cfg5.N, (cfg5.win 3).flush t = true ∧ i ∈ ((cfg5.win 3).blk t).view.set := by
  have hi0 : (i 0).val < 10000 := (i 0).isLt
  have hi1 : (i 1).val < 256 := (i 1).isLt
  have hN : cfg5.N = 10 := N_5
  obtain ⟨t, ht⟩ : ∃ t : Fin cfg5.N, t.val = (i 0).val / 1000 := ⟨⟨(i 0).val / 1000, by rw [hN]; omega⟩, rfl⟩
  obtain ⟨-, -, -, -, -, -, e30, e31⟩ := idx_facts5 t
  refine ⟨t, flush5_3 t, ?_⟩
  rw [mem_blk5]
  intro a
  match a with
  | ⟨0, _⟩ => show win5_3.index t (0 : Fin 2) * 1000 ≤ (i 0).val ∧ (i 0).val < win5_3.index t (0 : Fin 2) * 1000 + 1000; omega
  | ⟨1, _⟩ => show win5_3.index t (1 : Fin 2) * 256 ≤ (i 1).val ∧ (i 1).val < win5_3.index t (1 : Fin 2) * 256 + 256; omega

/-- Layer 2's linear map. -/
theorem reg5_value (c : Dev nD) :
    (dat5 (F := Ideal) V c).arrAt 3 cfg5.N
      = Spec.rLin (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.Gcn.K

end
-- ==== Proof.RegAgg.lean ====
/-
  What the three aggregation launches leave in their output arrays, as functions of their whole operand arrays.

  Each launch runs 25 grid points; point t reads rows 400 t, ..., 400 t + 399 of the adjacency matrix (and, in layers 1 and 2,
  of the residual array), the whole feature array and the whole scale and shift rows, and writes rows 400 t, ..., 400 t + 399
  of the output. The body at (p, q) is the sum over the 10000 columns k of matrix (p, k) times features (k, q), times
  scale q, plus shift q, clamped below at zero (plus the residual's (p, q) in layers 1 and 2). Read at the array's row
  400 t + p this is the layer's function of the whole arrays, and the 25 blocks of 400 rows cover the 10000 rows.
-/
import proofs.«424132_j19705309954162_2_alg».proof.Proof.Gen.KernelIdeal.Frame
import proofs.«424132_j19705309954162_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.K

open Idealize.ShloMosaic Idealize.ShloMosaic.TcCoe Idealize.SL.Sem Idealize.ShloMosaic.ValueIdx
open Cert.KernelIdeal Cert.KernelIdeal.Gen Cert.Gcn

variable (V : (c : Dev nD) → (b : Ref sig .tc) → Buf (Elt Ideal) ((c : Thread nD τ).loc b))

/-! ## The product of a block of rows with the whole feature array, at an index -/

/-- The left operand's row is the output's row. -/
theorem aggL0 (i : S400x256.Idx) (q : dot_S400x10000_S10000x256_S400x256_1_0_0_1_n_n.contr.Idx) :
    (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
/-- The left operand's column is the summation index. -/
theorem aggL1 (i : S400x256.Idx) (q : dot_S400x10000_S10000x256_S400x256_1_0_0_1_n_n.contr.Idx) :
    (dot_S400x10000_S10000x256_S400x256_1_0_0_1_n_n.lhsIdx i q 1).val = (q ⟨0, by decide⟩).val :=
  dot_S400x10000_S10000x256_S400x256_1_0_0_1_n_n.lhsIdx_val_of_single rfl i q
/-- The right operand's row is the summation index. -/
theorem aggR0 (i : S400x256.Idx) (q : dot_S400x10000_S10000x256_S400x256_1_0_0_1_n_n.contr.Idx) :
    (dot_S400x10000_S10000x256_S400x256_1_0_0_1_n_n.rhsIdx i q 0).val = (q ⟨0, by decide⟩).val :=
  dot_S400x10000_S10000x256_S400x256_1_0_0_1_n_n.rhsIdx_val_of_single rfl i q
/-- The right operand's column is the output's column. -/
theorem aggR1 (i : S400x256.Idx) (q : dot_S400x10000_S10000x256_S400x256_1_0_0_1_n_n.contr.Idx) :
    (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- A 400-row block times the 10000x256 array into a zero accumulator, at (p, q): the sum over the 10000 columns of the
    block's row p against the array's column q. -/
theorem aggDot_apply (x0 : FVec Ideal S400x10000 .bf16) (x1 : FVec Ideal S10000x256 .bf16) (p : Fin 400) (q : Fin 256) :
    (matmul dot_S400x10000_S10000x256_S400x256_1_0_0_1_n_n none x0 x1 (constant (F := Ideal) S400x256 .f32 0x00000000#32) : FVec Ideal S400x256 .f32) (ix2 p q)
      = ∑ k : Fin 10000, x0 (ix2 p k) * x1 (ix2 k q) := by
  show FloatOps.matmul dot_S400x10000_S10000x256_S400x256_1_0_0_1_n_n none x0 x1 (constant (F := Ideal) S400x256 .f32 0x00000000#32) (ix2 p q) = _
  rw [Ideal.matmul_constant_zero_apply, ← Equiv.sum_comp (ValueIdx.contrEquiv1 dot_S400x10000_S10000x256_S400x256_1_0_0_1_n_n 10000 rfl rfl).symm]
  refine Finset.sum_congr rfl fun k _ => ?_
  have hk := ValueIdx.contrEquiv1_symm_val dot_S400x10000_S10000x256_S400x256_1_0_0_1_n_n 10000 rfl rfl k
  have el : dot_S400x10000_S10000x256_S400x256_1_0_0_1_n_n.lhsIdx (ix2 p q) ((ValueIdx.contrEquiv1 dot_S400x10000_S10000x256_S400x256_1_0_0_1_n_n 10000 rfl rfl).symm k) = ix2 p k := funext fun a => Fin.ext (by
    match a with
    | ⟨0, _⟩ => exact aggL0 _ _
    | ⟨1, _⟩ => exact (aggL1 _ _).trans hk)
  have er : dot_S400x10000_S10000x256_S400x256_1_0_0_1_n_n.rhsIdx (ix2 p q) ((ValueIdx.contrEquiv1 dot_S400x10000_S10000x256_S400x256_1_0_0_1_n_n 10000 rfl rfl).symm k) = ix2 k q := funext fun a => Fin.ext (by
    match a with
    | ⟨0, _⟩ => exact (aggR0 _ _).trans hk
    | ⟨1, _⟩ => exact aggR1 _ _)
  rw [el, er]

/-! ## The bodies' arithmetic at an index -/

/-- Layer 0's body at (p, q): the product's entry times the scale row's entry q, plus the shift row's, clamped below at
    zero. A shape cast to the same shape is the identity, a one-row array broadcast over 400 rows reads its row, and the
    zero word is the number zero. -/
theorem pay2_apply (x0 : Vec Ideal S400x10000 .bf16) (x1 : Vec Ideal S10000x256 .bf16) (x2 x3 : Vec Ideal S1x256 .f32)
    (p : Fin 400) (q : Fin 256) :
    k2_pay1 (F := Ideal) x0 x1 x2 x3 (ix2 p q)
      = max ((∑ k : Fin 10000, x0 (ix2 p k) * x1 (ix2 k q)) * x2 (ix2 (0 : Fin 1) q) + x3 (ix2 (0 : Fin 1) q)) 0 := by
  unfold k2_pay1
  simp only [shapeCast_self]
  rw [maximumf_apply, addf_apply, mulf_apply, broadcast_apply, aggDot_apply, broadcastTo_1b_ab_apply, broadcastTo_1b_ab_apply]
  show max _ (Ideal.ofBits .f32 0x00000000#32) = _
  rw [Ideal.ofBits_zero_f32]

/-- Layer 0's body over a block of rows is the layer's function on those rows: when the first block is rows
    400 b, ..., 400 b + 399 of the matrix and the other three blocks are the whole arrays, the body at (p, q) is the
    layer at (400 b + p, q). -/
theorem pay2_rows (x0 : Vec Ideal S400x10000 .bf16) (x1 : Vec Ideal S10000x256 .bf16) (x2 x3 : Vec Ideal S1x256 .f32)
    (A : Spec.A2 10000 10000) (H : Spec.A2 10000 256) (sc sh : Spec.A2 1 256) (b : Nat)
    (h0 : ∀ (p : Fin 400) (k r : Fin 10000), r.val = 400 * b + p.val → x0 (ix2 p k) = A (ix2 r k))
    (h1 : ∀ (k : Fin 10000) (q : Fin 256), x1 (ix2 k q) = H (ix2 k q))
    (h2 : ∀ q : Fin 256, x2 (ix2 (0 : Fin 1) q) = sc (ix2 0 q))
    (h3 : ∀ q : Fin 256, x3 (ix2 (0 : Fin 1) q) = sh (ix2 0 q))
    (j : S400x256.Idx) (i : S10000x256.Idx) (hi0 : (i 0).val = 400 * b + (j 0).val) (hi1 : (i 1).val = (j 1).val) :
    k2_pay1 (F := Ideal) x0 x1 x2 x3 j = Spec.rAgg A H sc sh i := by
  obtain ⟨p, q, rfl⟩ : ∃ (p : Fin 400) (q : Fin 256), j = ix2 p q := ⟨j 0, j 1, eq_ix2 j⟩
  rw [pay2_apply]
  show _ = max ((∑ k : Fin 10000, A (ix2 (i 0) k) * H (ix2 k (i 1))) * sc (ix2 0 (i 1)) + sh (ix2 0 (i 1))) 0
  have e1 : i 1 = q := Fin.ext hi1
  have hs : (∑ k : Fin 10000, x0 (ix2 p k) * x1 (ix2 k q)) = ∑ k : Fin 10000, A (ix2 (i 0) k) * H (ix2 k q) :=
    Finset.sum_congr rfl fun k _ => by rw [h0 p k (i 0) hi0, h1]
  rw [e1, hs, h2, h3]

/-- Layer 1's body is layer 0's with the residual block added. -/
theorem pay4_eq (x0 : Vec Ideal S400x10000 .bf16) (x1 : Vec Ideal S10000x256 .bf16) (x2 x3 : Vec Ideal S1x256 .f32)
    (x4 : Vec Ideal S400x256 .f32) :
    k4_pay1 (F := Ideal) x0 x1 x2 x3 x4 = addf (k2_pay1 (F := Ideal) x0 x1 x2 x3) x4 := by
  unfold k4_pay1 k2_pay1
  simp only [shapeCast_self]

/-- Layer 1's body over a block of rows is the layer's function on those rows: the matrix's and the residual's blocks
    rows 400 b, ..., 400 b + 399 of their arrays, the other three blocks the whole arrays. -/
theorem pay4_rows (x0 : Vec Ideal S400x10000 .bf16) (x1 : Vec Ideal S10000x256 .bf16) (x2 x3 : Vec Ideal S1x256 .f32)
    (x4 : Vec Ideal S400x256 .f32)
    (A : Spec.A2 10000 10000) (H : Spec.A2 10000 256) (sc sh : Spec.A2 1 256) (R : Spec.A2 10000 256) (b : Nat)
    (h0 : ∀ (p : Fin 400) (k r : Fin 10000), r.val = 400 * b + p.val → x0 (ix2 p k) = A (ix2 r k))
    (h1 : ∀ (k : Fin 10000) (q : Fin 256), x1 (ix2 k q) = H (ix2 k q))
    (h2 : ∀ q : Fin 256, x2 (ix2 (0 : Fin 1) q) = sc (ix2 0 q))
    (h3 : ∀ q : Fin 256, x3 (ix2 (0 : Fin 1) q) = sh (ix2 0 q))
    (h4 : ∀ (p : Fin 400) (q : Fin 256) (r : Fin 10000), r.val = 400 * b + p.val → x4 (ix2 p q) = R (ix2 r q))
    (j : S400x256.Idx) (i : S10000x256.Idx) (hi0 : (i 0).val = 400 * b + (j 0).val) (hi1 : (i 1).val = (j 1).val) :
    k4_pay1 (F := Ideal) x0 x1 x2 x3 x4 j = Spec.rAggRes A H sc sh R i := by
  rw [pay4_eq, addf_apply, pay2_rows x0 x1 x2 x3 A H sc sh b h0 h1 h2 h3 j i hi0 hi1]
  show Spec.rAgg A H sc sh i + x4 j = Spec.rAgg A H sc sh i + R i
  obtain ⟨p, q, rfl⟩ : ∃ (p : Fin 400) (q : Fin 256), j = ix2 p q := ⟨j 0, j 1, eq_ix2 j⟩
  obtain ⟨r, q', rfl⟩ : ∃ (r : Fin 10000) (q' : Fin 256), i = ix2 r q' := ⟨i 0, i 1, eq_ix2 i⟩
  obtain rfl : q' = q := Fin.ext hi1
  rw [h4 p q' r hi0]

/-- Layer 2's body is layer 1's: the same operations in the same order. -/
theorem pay6_rows (x0 : Vec Ideal S400x10000 .bf16) (x1 : Vec Ideal S10000x256 .bf16) (x2 x3 : Vec Ideal S1x256 .f32)
    (x4 : Vec Ideal S400x256 .f32)
    (A : Spec.A2 10000 10000) (H : Spec.A2 10000 256) (sc sh : Spec.A2 1 256) (R : Spec.A2 10000 256) (b : Nat)
    (h0 : ∀ (p : Fin 400) (k r : Fin 10000), r.val = 400 * b + p.val → x0 (ix2 p k) = A (ix2 r k))
    (h1 : ∀ (k : Fin 10000) (q : Fin 256), x1 (ix2 k q) = H (ix2 k q))
    (h2 : ∀ q : Fin 256, x2 (ix2 (0 : Fin 1) q) = sc (ix2 0 q))
    (h3 : ∀ q : Fin 256, x3 (ix2 (0 : Fin 1) q) = sh (ix2 0 q))
    (h4 : ∀ (p : Fin 400) (q : Fin 256) (r : Fin 10000), r.val = 400 * b + p.val → x4 (ix2 p q) = R (ix2 r q))
    (j : S400x256.Idx) (i : S10000x256.Idx) (hi0 : (i 0).val = 400 * b + (j 0).val) (hi1 : (i 1).val = (j 1).val) :
    k6_pay1 (F := Ideal) x0 x1 x2 x3 x4 j = Spec.rAggRes A H sc sh R i :=
  pay4_rows x0 x1 x2 x3 x4 A H sc sh R b h0 h1 h2 h3 h4 j i hi0 hi1

/-- The zero offsets of a whole-block access, however spelt. -/
theorem hz : (![0, 0] : Fin 2 → Nat) = fun _ => 0 := funext fun a => by fin_cases a <;> rfl

/-! ## Layer 0: from the blocks to the array -/

/-- The index maps over the grid: the matrix's block and the output's block are the point's, on the row axis; every
    other block index is zero. -/
theorem idx2_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The matrix's block at point t is its rows 400 t, ..., 400 t + 399. -/
theorem blk2_0_apply (c : Dev nD) (t : Fin cfg2.N) (p : Fin 400) (k r : Fin 10000) (hr : r.val = 400 * t.val + p.val) :
    (iblk2 (F := Ideal) V c 0 t : Vec Ideal S400x10000 .bf16) (ix2 p k)
      = (V c (Pipeline.arrRef spec2 0) : Spec.A2 10000 10000) (ix2 r k) := by
  obtain ⟨e0, e1, -⟩ := idx2_facts t
  unfold iblk2
  rw [View.read_apply]
  refine congrArg (V c (Pipeline.arrRef spec2 0) : Spec.A2 10000 10000) (funext fun a => Fin.ext ?_)
  match a with
  | ⟨0, _⟩ => show win2_0.index t (0 : Fin 2) * 400 + 1 * p.val = r.val; omega
  | ⟨1, _⟩ => show win2_0.index t (1 : Fin 2) * 10000 + 1 * k.val = k.val; omega

/-- The feature array's block at every point is the whole array. -/
theorem blk2_1_apply (c : Dev nD) (t : Fin cfg2.N) (k : Fin 10000) (q : Fin 256) :
    (iblk2 (F := Ideal) V c 1 t : Vec Ideal S10000x256 .bf16) (ix2 k q)
      = (V c (Pipeline.arrRef spec2 1) : Spec.A2 10000 256) (ix2 k q) := by
  obtain ⟨-, -, e2, e3, -⟩ := idx2_facts t
  unfold iblk2
  rw [View.read_apply]
  refine congrArg (V c (Pipeline.arrRef spec2 1) : Spec.A2 10000 256) (funext fun a => Fin.ext ?_)
  match a with
  | ⟨0, _⟩ => show win2_1.index t (0 : Fin 2) * 10000 + 1 * k.val = k.val; omega
  | ⟨1, _⟩ => show win2_1.index t (1 : Fin 2) * 256 + 1 * q.val = q.val; omega

/-- The scale row's block at every point is the whole row. -/
theorem blk2_2_apply (c : Dev nD) (t : Fin cfg2.N) (q : Fin 256) :
    (iblk2 (F := Ideal) V c 2 t : Vec Ideal S1x256 .f32) (ix2 (0 : Fin 1) q)
      = (V c (Pipeline.arrRef spec2 2) : Spec.A2 1 256) (ix2 0 q) := by
  obtain ⟨-, -, -, -, e4, e5, -⟩ := idx2_facts t
  unfold iblk2
  rw [View.read_apply]
  refine congrArg (V c (Pipeline.arrRef spec2 2) : Spec.A2 1 256) (funext fun a => Fin.ext ?_)
  match a with
  | ⟨0, _⟩ => show win2_2.index t (0 : Fin 2) * 1 + 1 * 0 = 0; omega
  | ⟨1, _⟩ => show win2_2.index t (1 : Fin 2) * 256 + 1 * q.val = q.val; omega

/-- The shift row's block at every point is the whole row. -/
theorem blk2_3_apply (c : Dev nD) (t : Fin cfg2.N) (q : Fin 256) :
    (iblk2 (F := Ideal) V c 3 t : Vec Ideal S1x256 .f32) (ix2 (0 : Fin 1) q)
      = (V c (Pipeline.arrRef spec2 3) : Spec.A2 1 256) (ix2 0 q) := by
  obtain ⟨-, -, -, -, -, -, e6, e7, -⟩ := idx2_facts t
  unfold iblk2
  rw [View.read_apply]
  refine congrArg (V c (Pipeline.arrRef spec2 3) : Spec.A2 1 256) (funext fun a => Fin.ext ?_)
  match a with
  | ⟨0, _⟩ => show win2_3.index t (0 : Fin 2) * 1 + 1 * 0 = 0; omega
  | ⟨1, _⟩ => show win2_3.index t (1 : Fin 2) * 256 + 1 * q.val = q.val; omega

/-- What point t writes back is block t of the layer's function of the four arrays as the launch finds them. -/
theorem flushed2_eq (c : Dev nD) (t : Fin cfg2.N) :
    (dat2 (F := Ideal) V c).flushed 4 t = ((cfg2.win 4).blk t).view.read (Elt Ideal)
      (Spec.rAgg (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x256) hz, View.ld_unit_zero (S := S1x256) hz]
  obtain ⟨-, -, -, -, -, -, -, -, e8, e9⟩ := idx2_facts t
  funext j
  rw [View.read_apply]
  refine pay2_rows (iblk2 V c 0 t) (iblk2 V c 1 t) (iblk2 V c 2 t) (iblk2 V c 3 t) (V c (Pipeline.arrRef spec2 0))
    (V c (Pipeline.arrRef spec2 1)) (V c (Pipeline.arrRef spec2 2)) (V c (Pipeline.arrRef spec2 3)) t.val
    (fun p k r hr => blk2_0_apply V c t p k r hr) (fun k q => blk2_1_apply V c t k q) (fun q => blk2_2_apply V c t q)
    (fun q => blk2_3_apply V c t q) j (((cfg2.win 4).blk t).view.emb j) ?_ ?_
  · show win2_4.index t (0 : Fin 2) * 400 + 1 * (j 0).val = 400 * t.val + (j 0).val; omega
  · show win2_4.index t (1 : Fin 2) * 256 + 1 * (j 1).val = (j 1).val; omega

/-- An index of the output array is in point t's block iff each coordinate is in the block's range on its axis. -/
theorem mem_blk2 (t : Fin cfg2.N) (i : S10000x256.Idx) :
    i ∈ ((cfg2.win 4).blk t).view.set ↔ ∀ a : Fin 2, win2_4.index t a * S400x256.size a ≤ (i a).val ∧ (i a).val < win2_4.index t a * S400x256.size a + S400x256.size a := by
  show i ∈ ((View.whole main_v89).slice (win2_4.rect t)).set ↔ _
  rw [View.set_slice_whole, Rect.mem_set_unit]
  exact Iff.rfl

/-- Every row r of the output array is written back by point r / 400. -/
theorem cover2 (i : S10000x256.Idx) : ∃ t : Fin cfg2.N, (cfg2.win 4).flush t = true ∧ i ∈ ((cfg2.win 4).blk t).view.set := by
  have hi0 : (i 0).val < 10000 := (i 0).isLt
  have hi1 : (i 1).val < 256 := (i 1).isLt
  have hN : cfg2.N = 25 := N_2
  have ht : (i 0).val / 400 < cfg2.N := by rw [hN]; omega
  obtain ⟨-, -, -, -, -, -, -, -, e8, e9⟩ := idx2_facts ⟨(i 0).val / 400, ht⟩
  refine ⟨⟨(i 0).val / 400, ht⟩, flush2_4 _, ?_⟩
  rw [mem_blk2]
  intro a
  match a with
  | ⟨0, _⟩ =>
    show win2_4.index ⟨(i 0).val / 400, ht⟩ (0 : Fin 2) * 400 ≤ (i 0).val ∧ (i 0).val < win2_4.index ⟨(i 0).val / 400, ht⟩ (0 : Fin 2) * 400 + 400
    rw [e8]; show (i 0).val / 400 * 400 ≤ (i 0).val ∧ (i 0).val < (i 0).val / 400 * 400 + 400; omega
  | ⟨1, _⟩ =>
    show win2_4.index ⟨(i 0).val / 400, ht⟩ (1 : Fin 2) * 256 ≤ (i 1).val ∧ (i 1).val < win2_4.index ⟨(i 0).val / 400, ht⟩ (1 : Fin 2) * 256 + 256
    omega

/-- Layer 0: the adjacency matrix times the features, scaled and shifted per feature, clamped below at zero. -/
theorem reg2_value (c : Dev nD) :
    (dat2 (F := Ideal) V c).arrAt 4 cfg2.N
      = Spec.rAgg (V c (Pipeline.arrRef spec2 0)) (V c (Pipeline.arrRef spec2 1)) (V c (Pipeline.arrRef spec2 2))
          (V c (Pipeline.arrRef spec2 3)) := by
  exact (dat2 (F := Ideal) V c).arrAt_eq_of_cover 4 _ (fun t _ => flushed2_eq V c t) cover2

/-! ## Layer 1: from the blocks to the array -/

/-- The index maps over the grid: the matrix's, the residual's and the output's blocks are the point's, on the row
    axis; every other block index is zero. -/
theorem idx4_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- The matrix's block at point t is its rows 400 t, ..., 400 t + 399. -/
theorem blk4_0_apply (c : Dev nD) (t : Fin cfg4.N) (p : Fin 400) (k r : Fin 10000) (hr : r.val = 400 * t.val + p.val) :
    (iblk4 (F := Ideal) V c 0 t : Vec Ideal S400x10000 .bf16) (ix2 p k)
      = (V c (Pipeline.arrRef spec4 0) : Spec.A2 10000 10000) (ix2 r k) := by
  obtain ⟨e0, e1, -⟩ := idx4_facts t
  unfold iblk4
  rw [View.read_apply]
  refine congrArg (V c (Pipeline.arrRef spec4 0) : Spec.A2 10000 10000) (funext fun a => Fin.ext ?_)
  match a with
  | ⟨0, _⟩ => show win4_0.index t (0 : Fin 2) * 400 + 1 * p.val = r.val; omega
  | ⟨1, _⟩ => show win4_0.index t (1 : Fin 2) * 10000 + 1 * k.val = k.val; omega

/-- The feature array's block at every point is the whole array. -/
theorem blk4_1_apply (c : Dev nD) (t : Fin cfg4.N) (k : Fin 10000) (q : Fin 256) :
    (iblk4 (F := Ideal) V c 1 t : Vec Ideal S10000x256 .bf16) (ix2 k q)
      = (V c (Pipeline.arrRef spec4 1) : Spec.A2 10000 256) (ix2 k q) := by
  obtain ⟨-, -, e2, e3, -⟩ := idx4_facts t
  unfold iblk4
  rw [View.read_apply]
  refine congrArg (V c (Pipeline.arrRef spec4 1) : Spec.A2 10000 256) (funext fun a => Fin.ext ?_)
  match a with
  | ⟨0, _⟩ => show win4_1.index t (0 : Fin 2) * 10000 + 1 * k.val = k.val; omega
  | ⟨1, _⟩ => show win4_1.index t (1 : Fin 2) * 256 + 1 * q.val = q.val; omega

/-- The scale row's block at every point is the whole row. -/
theorem blk4_2_apply (c : Dev nD) (t : Fin cfg4.N) (q : Fin 256) :
    (iblk4 (F := Ideal) V c 2 t : Vec Ideal S1x256 .f32) (ix2 (0 : Fin 1) q)
      = (V c (Pipeline.arrRef spec4 2) : Spec.A2 1 256) (ix2 0 q) := by
  obtain ⟨-, -, -, -, e4, e5, -⟩ := idx4_facts t
  unfold iblk4
  rw [View.read_apply]
  refine congrArg (V c (Pipeline.arrRef spec4 2) : Spec.A2 1 256) (funext fun a => Fin.ext ?_)
  match a with
  | ⟨0, _⟩ => show win4_2.index t (0 : Fin 2) * 1 + 1 * 0 = 0; omega
  | ⟨1, _⟩ => show win4_2.index t (1 : Fin 2) * 256 + 1 * q.val = q.val; omega

/-- The shift row's block at every point is the whole row. -/
theorem blk4_3_apply (c : Dev nD) (t : Fin cfg4.N) (q : Fin 256) :
    (iblk4 (F := Ideal) V c 3 t : Vec Ideal S1x256 .f32) (ix2 (0 : Fin 1) q)
      = (V c (Pipeline.arrRef spec4 3) : Spec.A2 1 256) (ix2 0 q) := by
  obtain ⟨-, -, -, -, -, -, e6, e7, -⟩ := idx4_facts t
  unfold iblk4
  rw [View.read_apply]
  refine congrArg (V c (Pipeline.arrRef spec4 3) : Spec.A2 1 256) (funext fun a => Fin.ext ?_)
  match a with
  | ⟨0, _⟩ => show win4_3.index t (0 : Fin 2) * 1 + 1 * 0 = 0; omega
  | ⟨1, _⟩ => show win4_3.index t (1 : Fin 2) * 256 + 1 * q.val = q.val; omega

/-- The residual array's block at point t is its rows 400 t, ..., 400 t + 399. -/
theorem blk4_4_apply (c : Dev nD) (t : Fin cfg4.N) (p : Fin 400) (q : Fin 256) (r : Fin 10000) (hr : r.val = 400 * t.val + p.val) :
    (iblk4 (F := Ideal) V c 4 t : Vec Ideal S400x256 .f32) (ix2 p q)
      = (V c (Pipeline.arrRef spec4 4) : Spec.A2 10000 256) (ix2 r q) := by
  obtain ⟨-, -, -, -, -, -, -, -, e8, e9, -⟩ := idx4_facts t
  unfold iblk4
  rw [View.read_apply]
  refine congrArg (V c (Pipeline.arrRef spec4 4) : Spec.A2 10000 256) (funext fun a => Fin.ext ?_)
  match a with
  | ⟨0, _⟩ => show win4_4.index t (0 : Fin 2) * 400 + 1 * p.val = r.val; omega
  | ⟨1, _⟩ => show win4_4.index t (1 : Fin 2) * 256 + 1 * q.val = q.val; omega

/-- What point t writes back is block t of the layer's function of the five arrays as the launch finds them. -/
theorem flushed4_eq (c : Dev nD) (t : Fin cfg4.N) :
    (dat4 (F := Ideal) V c).flushed 5 t = ((cfg4.win 5).blk t).view.read (Elt Ideal)
      (Spec.rAggRes (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S400x10000) hz, View.ld_unit_zero (S := S10000x256) hz, View.ld_unit_zero (S := S1x256) hz,
    View.ld_unit_zero (S := S400x256) hz]
  obtain ⟨-, -, -, -, -, -, -, -, -, -, e10, e11⟩ := idx4_facts t
  funext j
  rw [View.read_apply]
  refine pay4_rows (iblk4 V c 0 t) (iblk4 V c 1 t) (iblk4 V c 2 t) (iblk4 V c 3 t) (iblk4 V c 4 t)
    (V c (Pipeline.arrRef spec4 0)) (V c (Pipeline.arrRef spec4 1)) (V c (Pipeline.arrRef spec4 2))
    (V c (Pipeline.arrRef spec4 3)) (V c (Pipeline.arrRef spec4 4)) t.val
    (fun p k r hr => blk4_0_apply V c t p k r hr) (fun k q => blk4_1_apply V c t k q) (fun q => blk4_2_apply V c t q)
    (fun q => blk4_3_apply V c t q) (fun p q r hr => blk4_4_apply V c t p q r hr) j (((cfg4.win 5).blk t).view.emb j) ?_ ?_
  · show win4_5.index t (0 : Fin 2) * 400 + 1 * (j 0).val = 400 * t.val + (j 0).val; omega
  · show win4_5.index t (1 : Fin 2) * 256 + 1 * (j 1).val = (j 1).val; omega

/-- An index of the output array is in point t's block iff each coordinate is in the block's range on its axis. -/
theorem mem_blk4 (t : Fin cfg4.N) (i : S10000x256.Idx) :
    i ∈ ((cfg4.win 5).blk t).view.set ↔ ∀ a : Fin 2, win4_5.index t a * S400x256.size a ≤ (i a).val ∧ (i a).val < win4_5.index t a * S400x256.size a + S400x256.size a := by
  show i ∈ ((View.whole main_v116).slice (win4_5.rect t)).set ↔ _
  rw [View.set_slice_whole, Rect.mem_set_unit]
  exact Iff.rfl

/-- Every row r of the output array is written back by point r / 400. -/
theorem cover4 (i : S10000x256.Idx) : ∃ t : Fin cfg4.N, (cfg4.win 5).flush t = true ∧ i ∈ ((cfg4.win 5).blk t).view.set := by
  have hi0 : (i 0).val < 10000 := (i 0).isLt
  have hi1 : (i 1).val < 256 := (i 1).isLt
  have hN : cfg4.N = 25 := N_4
  have ht : (i 0).val / 400 < cfg4.N := by rw [hN]; omega
  obtain ⟨-, -, -, -, -, -, -, -, -, -, e10, e11⟩ := idx4_facts ⟨(i 0).val / 400, ht⟩
  refine ⟨⟨(i 0).val / 400, ht⟩, flush4_5 _, ?_⟩
  rw [mem_blk4]
  intro a
  match a with
  | ⟨0, _⟩ =>
    show win4_5.index ⟨(i 0).val / 400, ht⟩ (0 : Fin 2) * 400 ≤ (i 0).val ∧ (i 0).val < win4_5.index ⟨(i 0).val / 400, ht⟩ (0 : Fin 2) * 400 + 400
    rw [e10]; show (i 0).val / 400 * 400 ≤ (i 0).val ∧ (i 0).val < (i 0).val / 400 * 400 + 400; omega
  | ⟨1, _⟩ =>
    show win4_5.index ⟨(i 0).val / 400, ht⟩ (1 : Fin 2) * 256 ≤ (i 1).val ∧ (i 1).val < win4_5.index ⟨(i 0).val / 400, ht⟩ (1 : Fin 2) * 256 + 256
    omega

/-- Layer 1: the same with the layer's input added back. -/
theorem reg4_value (c : Dev nD) :
    (dat4 (F := Ideal) V c).arrAt 5 cfg4.N
      = Spec.rAggRes (V c (Pipeline.arrRef spec4 0)) (V c (Pipeline.arrRef spec4 1)) (V c (Pipeline.arrRef spec4 2))
          (V c (Pipeline.arrRef spec4 3)) (V c (Pipeline.arrRef spec4 4)) := by
  exact (dat4 (F := Ideal) V c).arrAt_eq_of_cover 5 _ (fun t _ => flushed4_eq V c t) cover4

/-! ## Layer 2: from the blocks to the array -/

/-- The index maps over the grid: the matrix's, the residual's and the output's blocks are the point's, on the row
    axis; every other block index is zero. -/
theorem idx6_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- The matrix's block at point t is its rows 400 t, ..., 400 t + 399. -/
theorem blk6_0_apply (c : Dev nD) (t : Fin cfg6.N) (p : Fin 400) (k r : Fin 10000) (hr : r.val = 400 * t.val + p.val) :
    (iblk6 (F := Ideal) V c 0 t : Vec Ideal S400x10000 .bf16) (ix2 p k)
      = (V c (Pipeline.arrRef spec6 0) : Spec.A2 10000 10000) (ix2 r k) := by
  obtain ⟨e0, e1, -⟩ := idx6_facts t
  unfold iblk6
  rw [View.read_apply]
  refine congrArg (V c (Pipeline.arrRef spec6 0) : Spec.A2 10000 10000) (funext fun a => Fin.ext ?_)
  match a with
  | ⟨0, _⟩ => show win6_0.index t (0 : Fin 2) * 400 + 1 * p.val = r.val; omega
  | ⟨1, _⟩ => show win6_0.index t (1 : Fin 2) * 10000 + 1 * k.val = k.val; omega

/-- The feature array's block at every point is the whole array. -/
theorem blk6_1_apply (c : Dev nD) (t : Fin cfg6.N) (k : Fin 10000) (q : Fin 256) :
    (iblk6 (F := Ideal) V c 1 t : Vec Ideal S10000x256 .bf16) (ix2 k q)
      = (V c (Pipeline.arrRef spec6 1) : Spec.A2 10000 256) (ix2 k q) := by
  obtain ⟨-, -, e2, e3, -⟩ := idx6_facts t
  unfold iblk6
  rw [View.read_apply]
  refine congrArg (V c (Pipeline.arrRef spec6 1) : Spec.A2 10000 256) (funext fun a => Fin.ext ?_)
  match a with
  | ⟨0, _⟩ => show win6_1.index t (0 : Fin 2) * 10000 + 1 * k.val = k.val; omega
  | ⟨1, _⟩ => show win6_1.index t (1 : Fin 2) * 256 + 1 * q.val = q.val; omega

/-- The scale row's block at every point is the whole row. -/
theorem blk6_2_apply (c : Dev nD) (t : Fin cfg6.N) (q : Fin 256) :
    (iblk6 (F := Ideal) V c 2 t : Vec Ideal S1x256 .f32) (ix2 (0 : Fin 1) q)
      = (V c (Pipeline.arrRef spec6 2) : Spec.A2 1 256) (ix2 0 q) := by
  obtain ⟨-, -, -, -, e4, e5, -⟩ := idx6_facts t
  unfold iblk6
  rw [View.read_apply]
  refine congrArg (V c (Pipeline.arrRef spec6 2) : Spec.A2 1 256) (funext fun a => Fin.ext ?_)
  match a with
  | ⟨0, _⟩ => show win6_2.index t (0 : Fin 2) * 1 + 1 * 0 = 0; omega
  | ⟨1, _⟩ => show win6_2.index t (1 : Fin 2) * 256 + 1 * q.val = q.val; omega

/-- The shift row's block at every point is the whole row. -/
theorem blk6_3_apply (c : Dev nD) (t : Fin cfg6.N) (q : Fin 256) :
    (iblk6 (F := Ideal) V c 3 t : Vec Ideal S1x256 .f32) (ix2 (0 : Fin 1) q)
      = (V c (Pipeline.arrRef spec6 3) : Spec.A2 1 256) (ix2 0 q) := by
  obtain ⟨-, -, -, -, -, -, e6, e7, -⟩ := idx6_facts t
  unfold iblk6
  rw [View.read_apply]
  refine congrArg (V c (Pipeline.arrRef spec6 3) : Spec.A2 1 256) (funext fun a => Fin.ext ?_)
  match a with
  | ⟨0, _⟩ => show win6_3.index t (0 : Fin 2) * 1 + 1 * 0 = 0; omega
  | ⟨1, _⟩ => show win6_3.index t (1 : Fin 2) * 256 + 1 * q.val = q.val; omega

/-- The residual array's block at point t is its rows 400 t, ..., 400 t + 399. -/
theorem blk6_4_apply (c : Dev nD) (t : Fin cfg6.N) (p : Fin 400) (q : Fin 256) (r : Fin 10000) (hr : r.val = 400 * t.val + p.val) :
    (iblk6 (F := Ideal) V c 4 t : Vec Ideal S400x256 .f32) (ix2 p q)
      = (V c (Pipeline.arrRef spec6 4) : Spec.A2 10000 256) (ix2 r q) := by
  obtain ⟨-, -, -, -, -, -, -, -, e8, e9, -⟩ := idx6_facts t
  unfold iblk6
  rw [View.read_apply]
  refine congrArg (V c (Pipeline.arrRef spec6 4) : Spec.A2 10000 256) (funext fun a => Fin.ext ?_)
  match a with
  | ⟨0, _⟩ => show win6_4.index t (0 : Fin 2) * 400 + 1 * p.val = r.val; omega
  | ⟨1, _⟩ => show win6_4.index t (1 : Fin 2) * 256 + 1 * q.val = q.val; omega

/-- What point t writes back is block t of the layer's function of the five arrays as the launch finds them. -/
theorem flushed6_eq (c : Dev nD) (t : Fin cfg6.N) :
    (dat6 (F := Ideal) V c).flushed 5 t = ((cfg6.win 5).blk t).view.read (Elt Ideal)
      (Spec.rAggRes (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5]
  unfold out6_5
  rw [View.canon_unit_zero hz]
  simp only [View.ld_unit_zero (S := S400x10000) hz, View.ld_unit_zero (S := S10000x256) hz, View.ld_unit_zero (S := S1x256) hz,
    View.ld_unit_zero (S := S400x256) hz]
  obtain ⟨-, -, -, -, -, -, -, -, -, -, e10, e11⟩ := idx6_facts t
  funext j
  rw [View.read_apply]
  refine pay6_rows (iblk6 V c 0 t) (iblk6 V c 1 t) (iblk6 V c 2 t) (iblk6 V c 3 t) (iblk6 V c 4 t)
    (V c (Pipeline.arrRef spec6 0)) (V c (Pipeline.arrRef spec6 1)) (V c (Pipeline.arrRef spec6 2))
    (V c (Pipeline.arrRef spec6 3)) (V c (Pipeline.arrRef spec6 4)) t.val
    (fun p k r hr => blk6_0_apply V c t p k r hr) (fun k q => blk6_1_apply V c t k q) (fun q => blk6_2_apply V c t q)
    (fun q => blk6_3_apply V c t q) (fun p q r hr => blk6_4_apply V c t p q r hr) j (((cfg6.win 5).blk t).view.emb j) ?_ ?_
  · show win6_5.index t (0 : Fin 2) * 400 + 1 * (j 0).val = 400 * t.val + (j 0).val; omega
  · show win6_5.index t (1 : Fin 2) * 256 + 1 * (j 1).val = (j 1).val; omega

/-- An index of the output array is in point t's block iff each coordinate is in the block's range on its axis. -/
theorem mem_blk6 (t : Fin cfg6.N) (i : S10000x256.Idx) :
    i ∈ ((cfg6.win 5).blk t).view.set ↔ ∀ a : Fin 2, win6_5.index t a * S400x256.size a ≤ (i a).val ∧ (i a).val < win6_5.index t a * S400x256.size a + S400x256.size a := by
  show i ∈ ((View.whole main_v143).slice (win6_5.rect t)).set ↔ _
  rw [View.set_slice_whole, Rect.mem_set_unit]
  exact Iff.rfl

/-- Every row r of the output array is written back by point r / 400. -/
theorem cover6 (i : S10000x256.Idx) : ∃ t : Fin cfg6.N, (cfg6.win 5).flush t = true ∧ i ∈ ((cfg6.win 5).blk t).view.set := by
  have hi0 : (i 0).val < 10000 := (i 0).isLt
  have hi1 : (i 1).val < 256 := (i 1).isLt
  have hN : cfg6.N = 25 := N_6
  have ht : (i 0).val / 400 < cfg6.N := by rw [hN]; omega
  obtain ⟨-, -, -, -, -, -, -, -, -, -, e10, e11⟩ := idx6_facts ⟨(i 0).val / 400, ht⟩
  refine ⟨⟨(i 0).val / 400, ht⟩, flush6_5 _, ?_⟩
  rw [mem_blk6]
  intro a
  match a with
  | ⟨0, _⟩ =>
    show win6_5.index ⟨(i 0).val / 400, ht⟩ (0 : Fin 2) * 400 ≤ (i 0).val ∧ (i 0).val < win6_5.index ⟨(i 0).val / 400, ht⟩ (0 : Fin 2) * 400 + 400
    rw [e10]; show (i 0).val / 400 * 400 ≤ (i 0).val ∧ (i 0).val < (i 0).val / 400 * 400 + 400; omega
  | ⟨1, _⟩ =>
    show win6_5.index ⟨(i 0).val / 400, ht⟩ (1 : Fin 2) * 256 ≤ (i 1).val ∧ (i 1).val < win6_5.index ⟨(i 0).val / 400, ht⟩ (1 : Fin 2) * 256 + 256
    omega

/-- Layer 2: the same. -/
theorem reg6_value (c : Dev nD) :
    (dat6 (F := Ideal) V c).arrAt 5 cfg6.N
      = Spec.rAggRes (V c (Pipeline.arrRef spec6 0)) (V c (Pipeline.arrRef spec6 1)) (V c (Pipeline.arrRef spec6 2))
          (V c (Pipeline.arrRef spec6 3)) (V c (Pipeline.arrRef spec6 4)) := by
  exact (dat6 (F := Ideal) V c).arrAt_eq_of_cover 5 _ (fun t _ => flushed6_eq V c t) cover6

end Cert.Gcn.K

end
-- ==== Proof.RegMlp.lean ====
/-
  What the head's launch leaves in its output array, as a function of its whole operand arrays.

  The launch has ten points; point t reads rows 1000 t … 1000 t + 999 of the feature array, the three weight matrices
  and the three bias rows whole, and writes rows 1000 t … 1000 t + 999 of the output array. Entry (p, q) of what a
  point stores is three nested sums: the feature row against the first weights plus the first bias, clamped below at
  zero; that against the second weights plus the second bias, clamped; that against the third weights plus the third
  bias. The changes of float format between the layers are the identity on the extended reals, so the entry is the
  specification's entry (1000 t + p, q), and the ten blocks of rows fill the array.
-/
import proofs.«424132_j19705309954162_2_alg».proof.Proof.Gen.KernelIdeal.Frame
import proofs.«424132_j19705309954162_2_alg».proof.Proof.Spec
import Idealize.ShloMosaic.Lib.Pipeline.Value
import Idealize.ShloMosaic.Lib.ValueIdx
import Idealize.ShloMosaic.PureOps.Ideal.Laws

noncomputable section

namespace Cert.Gcn.K

open Idealize.ShloMosaic Idealize.ShloMosaic.TcCoe Idealize.SL.Sem Idealize.ShloMosaic.ValueIdx
open Cert.KernelIdeal Cert.KernelIdeal.Gen Cert.Gcn

variable (V : (c : Dev nD) → (b : Ref sig .tc) → Buf (Elt Ideal) ((c : Thread nD τ).loc b))

namespace Head

/-! ### The first product: 1000 rows of 256 features against the 256 × 128 weights -/

theorem lhs_mm1_0 (i : S1000x128.Idx) (q : dot_S1000x256_S256x128_S1000x128_1_0_0_1_n_n.contr.Idx) :
    (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide),
    dif_pos (show (0 : Fin S1000x256.rank) ∈ dot_S1000x256_S256x128_S1000x128_1_0_0_1_n_n.lhsNonContracting by decide)]
  rfl
theorem lhs_mm1_1 (i : S1000x128.Idx) (q : dot_S1000x256_S256x128_S1000x128_1_0_0_1_n_n.contr.Idx) :
    (dot_S1000x256_S256x128_S1000x128_1_0_0_1_n_n.lhsIdx i q 1).val = (q ⟨0, by decide⟩).val :=
  dot_S1000x256_S256x128_S1000x128_1_0_0_1_n_n.lhsIdx_val_of_single rfl i q
theorem rhs_mm1_0 (i : S1000x128.Idx) (q : dot_S1000x256_S256x128_S1000x128_1_0_0_1_n_n.contr.Idx) :
    (dot_S1000x256_S256x128_S1000x128_1_0_0_1_n_n.rhsIdx i q 0).val = (q ⟨0, by decide⟩).val :=
  dot_S1000x256_S256x128_S1000x128_1_0_0_1_n_n.rhsIdx_val_of_single rfl i q
theorem rhs_mm1_1 (i : S1000x128.Idx) (q : dot_S1000x256_S256x128_S1000x128_1_0_0_1_n_n.contr.Idx) :
    (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide),
    dif_pos (show (1 : Fin S256x128.rank) ∈ dot_S1000x256_S256x128_S1000x128_1_0_0_1_n_n.rhsNonContracting by decide)]
  rfl

/-- Entry (p, q) of the product into the zero accumulator: row p of the left factor against column q of the right one. -/
theorem mm1_apply (a : FVec Ideal S1000x256 .bf16) (b : FVec Ideal S256x128 .bf16) (p : Fin 1000) (q : Fin 128) :
    matmul dot_S1000x256_S256x128_S1000x128_1_0_0_1_n_n none a b (constant S1000x128 .f32 0x00000000#32) (ix2 p q)
      = ∑ k : Fin 256, a (ix2 p k) * b (ix2 k q) := by
  simp only [matmul]
  rw [Ideal.matmul_constant_zero_apply,
    ← Equiv.sum_comp (contrEquiv1 dot_S1000x256_S256x128_S1000x128_1_0_0_1_n_n 256 rfl rfl).symm]
  refine Finset.sum_congr rfl fun k _ => ?_
  have hk := contrEquiv1_symm_val dot_S1000x256_S256x128_S1000x128_1_0_0_1_n_n 256 rfl rfl k
  have el : dot_S1000x256_S256x128_S1000x128_1_0_0_1_n_n.lhsIdx (ix2 p q)
      ((contrEquiv1 dot_S1000x256_S256x128_S1000x128_1_0_0_1_n_n 256 rfl rfl).symm k) = ix2 p k :=
    funext fun a => Fin.ext (by
      match a with
      | ⟨0, _⟩ => exact lhs_mm1_0 _ _
      | ⟨1, _⟩ => exact (lhs_mm1_1 _ _).trans hk)
  have er : dot_S1000x256_S256x128_S1000x128_1_0_0_1_n_n.rhsIdx (ix2 p q)
      ((contrEquiv1 dot_S1000x256_S256x128_S1000x128_1_0_0_1_n_n 256 rfl rfl).symm k) = ix2 k q :=
    funext fun a => Fin.ext (by
      match a with
      | ⟨0, _⟩ => exact (rhs_mm1_0 _ _).trans hk
      | ⟨1, _⟩ => exact rhs_mm1_1 _ _)
  rw [el, er]

/-! ### The second product: 1000 rows of 128 features against the 128 × 64 weights -/

theorem lhs_mm2_0 (i : S1000x64.Idx) (q : dot_S1000x128_S128x64_S1000x64_1_0_0_1_n_n.contr.Idx) :
    (dot_S1000x128_S128x64_S1000x64_1_0_0_1_n_n.lhsIdx i q 0).val = (i 0).val := by
  unfold DotDims.lhsIdx
  rw [dif_neg (show ¬(0 : Fin S1000x128.rank) ∈ dot_S1000x128_S128x64_S1000x64_1_0_0_1_n_n.lhsBatch by decide),
    dif_pos (show (0 : Fin S1000x128.rank) ∈ dot_S1000x128_S128x64_S1000x64_1_0_0_1_n_n.lhsNonContracting by decide)]
  rfl
theorem lhs_mm2_1 (i : S1000x64.Idx) (q : dot_S1000x128_S128x64_S1000x64_1_0_0_1_n_n.contr.Idx) :
    (dot_S1000x128_S128x64_S1000x64_1_0_0_1_n_n.lhsIdx i q 1).val = (q ⟨0, by decide⟩).val :=
  dot_S1000x128_S128x64_S1000x64_1_0_0_1_n_n.lhsIdx_val_of_single rfl i q
theorem rhs_mm2_0 (i : S1000x64.Idx) (q : dot_S1000x128_S128x64_S1000x64_1_0_0_1_n_n.contr.Idx) :
    (dot_S1000x128_S128x64_S1000x64_1_0_0_1_n_n.rhsIdx i q 0).val = (q ⟨0, by decide⟩).val :=
  dot_S1000x128_S128x64_S1000x64_1_0_0_1_n_n.rhsIdx_val_of_single rfl i q
theorem rhs_mm2_1 (i : S1000x64.Idx) (q : dot_S1000x128_S128x64_S1000x64_1_0_0_1_n_n.contr.Idx) :
    (dot_S1000x128_S128x64_S1000x64_1_0_0_1_n_n.rhsIdx i q 1).val = (i 1).val := by
  unfold DotDims.rhsIdx
  rw [dif_neg (show ¬(1 : Fin S128x64.rank) ∈ dot_S1000x128_S128x64_S1000x64_1_0_0_1_n_n.rhsBatch by decide),
    dif_pos (show (1 : Fin S128x64.rank) ∈ dot_S1000x128_S128x64_S1000x64_1_0_0_1_n_n.rhsNonContracting by decide)]
  rfl

/-- Entry (p, q) of the product into the zero accumulator: row p of the left factor against column q of the right one. -/
theorem mm2_apply (a : FVec Ideal S1000x128 .bf16) (b : FVec Ideal S128x64 .bf16) (p : Fin 1000) (q : Fin 64) :
    matmul dot_S1000x128_S128x64_S1000x64_1_0_0_1_n_n none a b (constant S1000x64 .f32 0x00000000#32) (ix2 p q)
      = ∑ k : Fin 128, a (ix2 p k) * b (ix2 k q) := by
  simp only [matmul]
  rw [Ideal.matmul_constant_zero_apply,
    ← Equiv.sum_comp (contrEquiv1 dot_S1000x128_S128x64_S1000x64_1_0_0_1_n_n 128 rfl rfl).symm]
  refine Finset.sum_congr rfl fun k _ => ?_
  have hk := contrEquiv1_symm_val dot_S1000x128_S128x64_S1000x64_1_0_0_1_n_n 128 rfl rfl k
  have el : dot_S1000x128_S128x64_S1000x64_1_0_0_1_n_n.lhsIdx (ix2 p q)
      ((contrEquiv1 dot_S1000x128_S128x64_S1000x64_1_0_0_1_n_n 128 rfl rfl).symm k) = ix2 p k :=
    funext fun a => Fin.ext (by
      match a with
      | ⟨0, _⟩ => exact lhs_mm2_0 _ _
      | ⟨1, _⟩ => exact (lhs_mm2_1 _ _).trans hk)
  have er : dot_S1000x128_S128x64_S1000x64_1_0_0_1_n_n.rhsIdx (ix2 p q)
      ((contrEquiv1 dot_S1000x128_S128x64_S1000x64_1_0_0_1_n_n 128 rfl rfl).symm k) = ix2 k q :=
    funext fun a => Fin.ext (by
      match a with
      | ⟨0, _⟩ => exact (rhs_mm2_0 _ _).trans hk
      | ⟨1, _⟩ => exact rhs_mm2_1 _ _)
  rw [el, er]

/-! ### The third product: 1000 rows of 64 features against the 64 × 10 weights -/

theorem lhs_mm3_0 (i : S1000x10.Idx) (q : dot_S1000x64_S64x10_S1000x10_1_0_0_1_n_n.contr.Idx) :
    (dot_S1000x64_S64x10_S1000x10_1_0_0_1_n_n.lhsIdx i q 0).val = (i 0).val := by
  unfold DotDims.lhsIdx
  rw [dif_neg (show ¬(0 : Fin S1000x64.rank) ∈ dot_S1000x64_S64x10_S1000x10_1_0_0_1_n_n.lhsBatch by decide),
    dif_pos (show (0 : Fin S1000x64.rank) ∈ dot_S1000x64_S64x10_S1000x10_1_0_0_1_n_n.lhsNonContracting by decide)]
  rfl
theorem lhs_mm3_1 (i : S1000x10.Idx) (q : dot_S1000x64_S64x10_S1000x10_1_0_0_1_n_n.contr.Idx) :
    (dot_S1000x64_S64x10_S1000x10_1_0_0_1_n_n.lhsIdx i q 1).val = (q ⟨0, by decide⟩).val :=
  dot_S1000x64_S64x10_S1000x10_1_0_0_1_n_n.lhsIdx_val_of_single rfl i q
theorem rhs_mm3_0 (i : S1000x10.Idx) (q : dot_S1000x64_S64x10_S1000x10_1_0_0_1_n_n.contr.Idx) :
    (dot_S1000x64_S64x10_S1000x10_1_0_0_1_n_n.rhsIdx i q 0).val = (q ⟨0, by decide⟩).val :=
  dot_S1000x64_S64x10_S1000x10_1_0_0_1_n_n.rhsIdx_val_of_single rfl i q
theorem rhs_mm3_1 (i : S1000x10.Idx) (q : dot_S1000x64_S64x10_S1000x10_1_0_0_1_n_n.contr.Idx) :
    (dot_S1000x64_S64x10_S1000x10_1_0_0_1_n_n.rhsIdx i q 1).val = (i 1).val := by
  unfold DotDims.rhsIdx
  rw [dif_neg (show ¬(1 : Fin S64x10.rank) ∈ dot_S1000x64_S64x10_S1000x10_1_0_0_1_n_n.rhsBatch by decide),
    dif_pos (show (1 : Fin S64x10.rank) ∈ dot_S1000x64_S64x10_S1000x10_1_0_0_1_n_n.rhsNonContracting by decide)]
  rfl

/-- Entry (p, q) of the product into the zero accumulator: row p of the left factor against column q of the right one. -/
theorem mm3_apply (a : FVec Ideal S1000x64 .bf16) (b : FVec Ideal S64x10 .bf16) (p : Fin 1000) (q : Fin 10) :
    matmul dot_S1000x64_S64x10_S1000x10_1_0_0_1_n_n none a b (constant S1000x10 .f32 0x00000000#32) (ix2 p q)
      = ∑ k : Fin 64, a (ix2 p k) * b (ix2 k q) := by
  simp only [matmul]
  rw [Ideal.matmul_constant_zero_apply,
    ← Equiv.sum_comp (contrEquiv1 dot_S1000x64_S64x10_S1000x10_1_0_0_1_n_n 64 rfl rfl).symm]
  refine Finset.sum_congr rfl fun k _ => ?_
  have hk := contrEquiv1_symm_val dot_S1000x64_S64x10_S1000x10_1_0_0_1_n_n 64 rfl rfl k
  have el : dot_S1000x64_S64x10_S1000x10_1_0_0_1_n_n.lhsIdx (ix2 p q)
      ((contrEquiv1 dot_S1000x64_S64x10_S1000x10_1_0_0_1_n_n 64 rfl rfl).symm k) = ix2 p k :=
    funext fun a => Fin.ext (by
      match a with
      | ⟨0, _⟩ => exact lhs_mm3_0 _ _
      | ⟨1, _⟩ => exact (lhs_mm3_1 _ _).trans hk)
  have er : dot_S1000x64_S64x10_S1000x10_1_0_0_1_n_n.rhsIdx (ix2 p q)
      ((contrEquiv1 dot_S1000x64_S64x10_S1000x10_1_0_0_1_n_n 64 rfl rfl).symm k) = ix2 k q :=
    funext fun a => Fin.ext (by
      match a with
      | ⟨0, _⟩ => exact (rhs_mm3_0 _ _).trans hk
      | ⟨1, _⟩ => exact rhs_mm3_1 _ _)
  rw [el, er]

/-! ### The body's arithmetic at one entry -/

/-- A one-row block broadcast down the rows reads its row 0 at the entry's column. -/
theorem bias128_apply (x : Vec Ideal S1x128 .f32) (p : Fin 1000) (q : Fin 128) :
    broadcastTo S1000x128 x broadcasts_S1x128_S1000x128 (ix2 p q) = x (ix2 0 q) :=
  broadcastTo_apply x _ _ _ (fun a => by match a with | ⟨0, _⟩ => rfl | ⟨1, _⟩ => rfl)
theorem bias64_apply (x : Vec Ideal S1x64 .f32) (p : Fin 1000) (q : Fin 64) :
    broadcastTo S1000x64 x broadcasts_S1x64_S1000x64 (ix2 p q) = x (ix2 0 q) :=
  broadcastTo_apply x _ _ _ (fun a => by match a with | ⟨0, _⟩ => rfl | ⟨1, _⟩ => rfl)
theorem bias10_apply (x : Vec Ideal S1x10 .f32) (p : Fin 1000) (q : Fin 10) :
    broadcastTo S1000x10 x broadcasts_S1x10_S1000x10 (ix2 p q) = x (ix2 0 q) :=
  broadcastTo_apply x _ _ _ (fun a => by match a with | ⟨0, _⟩ => rfl | ⟨1, _⟩ => rfl)

/-- The clamp's lower bound, the single-precision zero word, is the number zero. -/
theorem zero_word : (FloatOps.ofBits (F := Ideal) FTy.f32 0x00000000#32 : EReal) = 0 := Ideal.ofBits_zero_f32

/-- Entry (p, q) of what the body stores, from its seven loaded blocks: the three affine layers nested, the first two
    clamped below at zero; the changes of float format in between are the identity on extended reals. -/
theorem pay7_apply (x0 : Vec Ideal S1000x256 .f32) (x1 : Vec Ideal S256x128 .bf16) (x2 : Vec Ideal S1x128 .f32)
    (x3 : Vec Ideal S128x64 .bf16) (x4 : Vec Ideal S1x64 .f32) (x5 : Vec Ideal S64x10 .bf16) (x6 : Vec Ideal S1x10 .f32)
    (p : Fin 1000) (q : Fin 10) :
    k7_pay1 x0 x1 x2 x3 x4 x5 x6 (ix2 p q)
      = (∑ k3 : Fin 64,
          max ((∑ k2 : Fin 128,
              max ((∑ k1 : Fin 256, x0 (ix2 p k1) * x1 (ix2 k1 k2)) + x2 (ix2 0 k2)) 0 * x3 (ix2 k2 k3)) + x4 (ix2 0 k3)) 0
            * x5 (ix2 k3 q)) + x6 (ix2 0 q) := by
  unfold k7_pay1
  simp only [shapeCast_self]
  rw [addf_apply, mm3_apply, bias10_apply]
  refine congrArg (· + x6 (ix2 0 q)) (Finset.sum_congr rfl fun k3 _ => ?_)
  rw [truncf_apply, maximumf_apply, addf_apply, mm2_apply, bias64_apply, broadcast_apply, zero_word]
  refine congrArg (fun s => max (s + x4 (ix2 0 k3)) 0 * x5 (ix2 k3 q)) (Finset.sum_congr rfl fun k2 _ => ?_)
  rw [truncf_apply, maximumf_apply, addf_apply, mm1_apply, bias128_apply, broadcast_apply]
  rfl

/-! ### From blocks to the arrays -/

theorem hz7 : (![0, 0] : Fin 2 → Nat) = fun _ => 0 := funext fun a => by fin_cases a <;> rfl

/-- The index maps over the grid: the feature rows and the output rows move with the point, block t being rows
    1000 t … 1000 t + 999; every weight matrix and bias row is its one whole block at every point. -/
theorem idx_facts7 : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row p of the feature block at point t is row 1000 t + p of the feature array. -/
theorem blk7_0_apply (c : Dev nD) (t : Fin cfg7.N) (p : Fin 1000) (k : Fin 256) (r : Fin 10000)
    (hr : r.val = 1000 * t.val + p.val) :
    (iblk7 V c 0 t : Vec Ideal S1000x256 .f32) (ix2 p k) = (V c (Pipeline.arrRef spec7 0) : Spec.A2 10000 256) (ix2 r k) := by
  obtain ⟨e0, e1, -⟩ := idx_facts7 t
  unfold iblk7
  rw [View.read_apply]
  show (V c (Pipeline.arrRef spec7 0) : Spec.A2 10000 256) _ = _
  congr 1
  funext a
  apply Fin.ext
  match a with
  | ⟨0, _⟩ => show win7_0.index t (0 : Fin 2) * 1000 + 1 * p.val = r.val; omega
  | ⟨1, _⟩ => show win7_0.index t (1 : Fin 2) * 256 + 1 * k.val = k.val; omega

/-- A weight matrix or bias row is one block, the same at every point: the block read at an entry is the array there. -/
theorem blk7_1_apply (c : Dev nD) (t : Fin cfg7.N) (a : Fin 256) (b : Fin 128) :
    (iblk7 V c 1 t : Vec Ideal S256x128 .bf16) (ix2 a b) = (V c (Pipeline.arrRef spec7 1) : Spec.A2 256 128) (ix2 a b) := by
  obtain ⟨-, -, e0, e1, -⟩ := idx_facts7 t
  unfold iblk7
  rw [View.read_apply]
  show (V c (Pipeline.arrRef spec7 1) : Spec.A2 256 128) _ = _
  congr 1
  funext d
  apply Fin.ext
  match d with
  | ⟨0, _⟩ => show win7_1.index t (0 : Fin 2) * 256 + 1 * a.val = a.val; omega
  | ⟨1, _⟩ => show win7_1.index t (1 : Fin 2) * 128 + 1 * b.val = b.val; omega
theorem blk7_2_apply (c : Dev nD) (t : Fin cfg7.N) (a : Fin 1) (b : Fin 128) :
    (iblk7 V c 2 t : Vec Ideal S1x128 .f32) (ix2 a b) = (V c (Pipeline.arrRef spec7 2) : Spec.A2 1 128) (ix2 a b) := by
  obtain ⟨-, -, -, -, e0, e1, -⟩ := idx_facts7 t
  unfold iblk7
  rw [View.read_apply]
  show (V c (Pipeline.arrRef spec7 2) : Spec.A2 1 128) _ = _
  congr 1
  funext d
  apply Fin.ext
  match d with
  | ⟨0, _⟩ => show win7_2.index t (0 : Fin 2) * 1 + 1 * a.val = a.val; omega
  | ⟨1, _⟩ => show win7_2.index t (1 : Fin 2) * 128 + 1 * b.val = b.val; omega
theorem blk7_3_apply (c : Dev nD) (t : Fin cfg7.N) (a : Fin 128) (b : Fin 64) :
    (iblk7 V c 3 t : Vec Ideal S128x64 .bf16) (ix2 a b) = (V c (Pipeline.arrRef spec7 3) : Spec.A2 128 64) (ix2 a b) := by
  obtain ⟨-, -, -, -, -, -, e0, e1, -⟩ := idx_facts7 t
  unfold iblk7
  rw [View.read_apply]
  show (V c (Pipeline.arrRef spec7 3) : Spec.A2 128 64) _ = _
  congr 1
  funext d
  apply Fin.ext
  match d with
  | ⟨0, _⟩ => show win7_3.index t (0 : Fin 2) * 128 + 1 * a.val = a.val; omega
  | ⟨1, _⟩ => show win7_3.index t (1 : Fin 2) * 64 + 1 * b.val = b.val; omega
theorem blk7_4_apply (c : Dev nD) (t : Fin cfg7.N) (a : Fin 1) (b : Fin 64) :
    (iblk7 V c 4 t : Vec Ideal S1x64 .f32) (ix2 a b) = (V c (Pipeline.arrRef spec7 4) : Spec.A2 1 64) (ix2 a b) := by
  obtain ⟨-, -, -, -, -, -, -, -, e0, e1, -⟩ := idx_facts7 t
  unfold iblk7
  rw [View.read_apply]
  show (V c (Pipeline.arrRef spec7 4) : Spec.A2 1 64) _ = _
  congr 1
  funext d
  apply Fin.ext
  match d with
  | ⟨0, _⟩ => show win7_4.index t (0 : Fin 2) * 1 + 1 * a.val = a.val; omega
  | ⟨1, _⟩ => show win7_4.index t (1 : Fin 2) * 64 + 1 * b.val = b.val; omega
theorem blk7_5_apply (c : Dev nD) (t : Fin cfg7.N) (a : Fin 64) (b : Fin 10) :
    (iblk7 V c 5 t : Vec Ideal S64x10 .bf16) (ix2 a b) = (V c (Pipeline.arrRef spec7 5) : Spec.A2 64 10) (ix2 a b) := by
  obtain ⟨-, -, -, -, -, -, -, -, -, -, e0, e1, -⟩ := idx_facts7 t
  unfold iblk7
  rw [View.read_apply]
  show (V c (Pipeline.arrRef spec7 5) : Spec.A2 64 10) _ = _
  congr 1
  funext d
  apply Fin.ext
  match d with
  | ⟨0, _⟩ => show win7_5.index t (0 : Fin 2) * 64 + 1 * a.val = a.val; omega
  | ⟨1, _⟩ => show win7_5.index t (1 : Fin 2) * 10 + 1 * b.val = b.val; omega
theorem blk7_6_apply (c : Dev nD) (t : Fin cfg7.N) (a : Fin 1) (b : Fin 10) :
    (iblk7 V c 6 t : Vec Ideal S1x10 .f32) (ix2 a b) = (V c (Pipeline.arrRef spec7 6) : Spec.A2 1 10) (ix2 a b) := by
  obtain ⟨-, -, -, -, -, -, -, -, -, -, -, -, e0, e1, -⟩ := idx_facts7 t
  unfold iblk7
  rw [View.read_apply]
  show (V c (Pipeline.arrRef spec7 6) : Spec.A2 1 10) _ = _
  congr 1
  funext d
  apply Fin.ext
  match d with
  | ⟨0, _⟩ => show win7_6.index t (0 : Fin 2) * 1 + 1 * a.val = a.val; omega
  | ⟨1, _⟩ => show win7_6.index t (1 : Fin 2) * 10 + 1 * b.val = b.val; omega

/-- One entry of the head: if the seven blocks read rows and entries of seven arrays as stated — row p of the feature
    block is row r of the feature array, every other block is its array — then entry (p, q) of what the body stores is
    entry (r, q) of the head's function of the arrays. -/
theorem point7 (X : Spec.A2 10000 256) (W1 : Spec.A2 256 128) (b1 : Spec.A2 1 128) (W2 : Spec.A2 128 64)
    (b2 : Spec.A2 1 64) (W3 : Spec.A2 64 10) (b3 : Spec.A2 1 10)
    (x0 : Vec Ideal S1000x256 .f32) (x1 : Vec Ideal S256x128 .bf16) (x2 : Vec Ideal S1x128 .f32)
    (x3 : Vec Ideal S128x64 .bf16) (x4 : Vec Ideal S1x64 .f32) (x5 : Vec Ideal S64x10 .bf16) (x6 : Vec Ideal S1x10 .f32)
    (p : Fin 1000) (q : Fin 10) (r : Fin 10000)
    (h0 : ∀ k, x0 (ix2 p k) = X (ix2 r k)) (h1 : ∀ a b, x1 (ix2 a b) = W1 (ix2 a b))
    (h2 : ∀ a b, x2 (ix2 a b) = b1 (ix2 a b)) (h3 : ∀ a b, x3 (ix2 a b) = W2 (ix2 a b))
    (h4 : ∀ a b, x4 (ix2 a b) = b2 (ix2 a b)) (h5 : ∀ a b, x5 (ix2 a b) = W3 (ix2 a b))
    (h6 : ∀ a b, x6 (ix2 a b) = b3 (ix2 a b)) :
    k7_pay1 x0 x1 x2 x3 x4 x5 x6 (ix2 p q) = Spec.rMlp X W1 b1 W2 b2 W3 b3 (ix2 r q) := by
  show _ = (∑ k3 : Fin 64,
      max ((∑ k2 : Fin 128,
          max ((∑ k1 : Fin 256, X (ix2 r k1) * W1 (ix2 k1 k2)) + b1 (ix2 0 k2)) 0 * W2 (ix2 k2 k3)) + b2 (ix2 0 k3)) 0
        * W3 (ix2 k3 q)) + b3 (ix2 0 q)
  rw [pay7_apply]
  simp only [h0, h1, h2, h3, h4, h5, h6]

/-- The output window's block at point t, entry by entry: a block whose entry (p, q) is entry (1000 t + p, q) of an
    array is what reading block t of that array gives (the window is never cut, so all of the block is written back). -/
theorem block7_eq (t : Fin cfg7.N) (Y : Vec Ideal S1000x10 .f32) (G : Spec.A2 10000 10)
    (h : ∀ (p : Fin 1000) (q : Fin 10) (r : Fin 10000), r.val = 1000 * t.val + p.val → Y (ix2 p q) = G (ix2 r q)) :
    (cfg7.win 7).cut (grid7.coords t) Y = ((cfg7.win 7).blk t).view.read (Elt Ideal) G := by
  obtain ⟨-, -, -, -, -, -, -, -, -, -, -, -, -, -, e0, e1⟩ := idx_facts7 t
  have ht : t.val < 10 := lt_of_lt_of_eq t.isLt N_7
  funext j
  obtain ⟨p, q, rfl⟩ : ∃ (p : Fin 1000) (q : Fin 10), j = ix2 p q := ⟨j 0, j 1, eq_ix2 j⟩
  rw [View.read_apply]
  show Y (ix2 p q) = G (((cfg7.win 7).blk t).view.emb (ix2 p q))
  refine (h p q ⟨1000 * t.val + p.val, by omega⟩ rfl).trans ?_
  congr 1
  funext a
  apply Fin.ext
  match a with
  | ⟨0, _⟩ => show 1000 * t.val + p.val = win7_7.index t (0 : Fin 2) * 1000 + 1 * p.val; omega
  | ⟨1, _⟩ => show q.val = win7_7.index t (1 : Fin 2) * 10 + 1 * q.val; omega

/-- What point t writes back is block t of the head's function of the operand arrays. -/
theorem flushed7_eq (c : Dev nD) (t : Fin cfg7.N) :
    (dat7 (F := Ideal) V c).flushed 7 t
      = ((cfg7.win 7).blk t).view.read (Elt Ideal)
          (Spec.rMlp (V c (Pipeline.arrRef spec7 0)) (V c (Pipeline.arrRef spec7 1)) (V c (Pipeline.arrRef spec7 2))
            (V c (Pipeline.arrRef spec7 3)) (V c (Pipeline.arrRef spec7 4)) (V c (Pipeline.arrRef spec7 5))
            (V c (Pipeline.arrRef spec7 6))) := by
  show (cfg7.win 7).cut (grid7.coords t) ((dat7 V c).after 7 t) = _
  rw [after7_7]
  unfold out7_7
  rw [View.canon_unit_zero hz7]
  simp only [View.ld_unit_zero (S := S1000x256) hz7, View.ld_unit_zero (S := S256x128) hz7, View.ld_unit_zero (S := S1x128) hz7,
    View.ld_unit_zero (S := S128x64) hz7, View.ld_unit_zero (S := S1x64) hz7, View.ld_unit_zero (S := S64x10) hz7,
    View.ld_unit_zero (S := S1x10) hz7]
  exact block7_eq t _ _ fun p q r hr =>
    point7 (V c (Pipeline.arrRef spec7 0)) (V c (Pipeline.arrRef spec7 1)) (V c (Pipeline.arrRef spec7 2))
      (V c (Pipeline.arrRef spec7 3)) (V c (Pipeline.arrRef spec7 4)) (V c (Pipeline.arrRef spec7 5))
      (V c (Pipeline.arrRef spec7 6))
      (iblk7 V c 0 t) (iblk7 V c 1 t) (iblk7 V c 2 t) (iblk7 V c 3 t) (iblk7 V c 4 t) (iblk7 V c 5 t) (iblk7 V c 6 t)
      p q r
      (fun k => blk7_0_apply V c t p k r hr)
      (blk7_1_apply V c t) (blk7_2_apply V c t) (blk7_3_apply V c t) (blk7_4_apply V c t) (blk7_5_apply V c t)
      (blk7_6_apply V c t)

/-- An entry of the output array is in point t's block iff its row is among the block's 1000 rows. -/
theorem mem_blk7 (t : Fin cfg7.N) (i : S10000x10.Idx) :
    i ∈ ((cfg7.win 7).blk t).view.set ↔ ∀ a : Fin 2, win7_7.index t a * S1000x10.size a ≤ (i a).val
      ∧ (i a).val < win7_7.index t a * S1000x10.size a + S1000x10.size a := by
  show i ∈ ((View.whole main_v153).slice (win7_7.rect t)).set ↔ _
  rw [View.set_slice_whole, Rect.mem_set_unit]
  exact Iff.rfl

/-- Every entry of the output array is written back: row r by point r / 1000. -/
theorem cover7 (i : S10000x10.Idx) :
    ∃ t : Fin cfg7.N, (cfg7.win 7).flush t = true ∧ i ∈ ((cfg7.win 7).blk t).view.set := by
  have hi0 : (i 0).val < 10000 := (i 0).isLt
  have hi1 : (i 1).val < 10 := (i 1).isLt
  have hN : cfg7.N = 10 := N_7
  obtain ⟨t, htv⟩ : ∃ t : Fin cfg7.N, t.val = (i 0).val / 1000 := ⟨⟨(i 0).val / 1000, by rw [hN]; omega⟩, rfl⟩
  obtain ⟨-, -, -, -, -, -, -, -, -, -, -, -, -, -, e0, e1⟩ := idx_facts7 t
  refine ⟨t, flush7_7 t, ?_⟩
  rw [mem_blk7]
  intro a
  match a with
  | ⟨0, _⟩ =>
    show win7_7.index t (0 : Fin 2) * 1000 ≤ (i 0).val ∧ (i 0).val < win7_7.index t (0 : Fin 2) * 1000 + 1000
    omega
  | ⟨1, _⟩ =>
    show win7_7.index t (1 : Fin 2) * 10 ≤ (i 1).val ∧ (i 1).val < win7_7.index t (1 : Fin 2) * 10 + 10
    omega

end Head

/-- The three-layer head: two clamped affine layers and a last affine one. -/
theorem reg7_value (c : Dev nD) :
    (dat7 (F := Ideal) V c).arrAt 7 cfg7.N
      = Spec.rMlp (V c (Pipeline.arrRef spec7 0)) (V c (Pipeline.arrRef spec7 1)) (V c (Pipeline.arrRef spec7 2))
          (V c (Pipeline.arrRef spec7 3)) (V c (Pipeline.arrRef spec7 4)) (V c (Pipeline.arrRef spec7 5))
          (V c (Pipeline.arrRef spec7 6)) :=
  (dat7 (F := Ideal) V c).arrAt_eq_of_cover 7 _ (fun t _ => Head.flushed7_eq V c t) Head.cover7

end Cert.Gcn.K

end
-- ==== Proof.LibGather.lean ====
/-
  How the host's row gather reads at an index.

  A gather of whole rows reads the operand at the row its start word names (read signed, a negative word to row 0,
  a word past the end cut to the last row); with two start words per update it names a row and a second coordinate
  the same way.
-/
import Idealize.ShloMosaic.PureOps.Ideal
import Idealize.ShloMosaic.PureOps.Ideal.Laws
import Idealize.ShloMosaic.Lib.ValueIdx

noncomputable section

namespace Cert.Rgcn.Lib

open Idealize.ShloMosaic Idealize.ShloMosaic.ValueIdx

/-- Rows gathered by one start word each. -/
theorem gather_rows_apply {α : Type} {N C E : Nat} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ 32) (e : Fin E) (c : Fin C) :
    Host.gather d x idx (ix2 e c)
      = x (ix2 (⟨min (idx (ix2 e (0 : Fin 1))).toInt.toNat (N - 1), by omega⟩ : Fin N) c) := by
  -- the record's fields are the printed lists: name them and compute on the literal record
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word of update e sits at [e, 0]: the batch coordinate e, component 0 on the index vector's axis
    have hsi : GatherDims.siIdx (⟨[1], [0], [], [], [0], 1, ![1, C], wf⟩ :
          GatherDims ⟨2, ![N, C]⟩ ⟨2, ![E, 1]⟩ ⟨2, ![E, C]⟩) (ix2 e c)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column axis: neither collapsed nor start-indexed, so the coordinate is the offset c alone
    show GatherDims.start _ _ idx 1 + GatherDims.batchCoord _ _ 1 + GatherDims.offCoord _ _ 1 = c.val
    rw [GatherDims.batchCoord_eq_zero _ _ _ List.not_mem_nil]
    unfold GatherDims.start
    rw [dif_neg (show (1 : Fin 2) ∉ ([0] : List (Fin 2)) by decide)]
    have hk : (1 : Fin 2) ∈ GatherDims.sKept (⟨[1], [0], [], [], [0], 1, ![1, C], wf⟩ :
          GatherDims ⟨2, ![N, C]⟩ ⟨2, ![E, 1]⟩ ⟨2, ![E, C]⟩) :=
      (GatherDims.mem_sKept _ _).mpr
        ⟨show (1 : Fin 2) ∉ ([0] : List (Fin 2)) by decide, List.not_mem_nil⟩
    unfold GatherDims.offCoord
    rw [dif_pos hk, Nat.add_zero, Nat.zero_add]
    rfl

/-- Rows of a rank-3 operand gathered by two start words each (the row and the second coordinate). -/
theorem gather_rows2_apply {α : Type} {N R C E : Nat} (hN : 0 < N) (hR : 0 < R)
    (d : GatherDims ⟨3, ![N, R, C]⟩ ⟨2, ![E, 2]⟩ ⟨2, ![E, C]⟩)
    (h1 : d.offsetDims = [1]) (h2 : d.collapsedSliceDims = [0, 1]) (h3 : d.operandBatchingDims = [])
    (h4 : d.startIndicesBatchingDims = []) (h5 : d.startIndexMap = [0, 1]) (h6 : d.indexVectorDim = 1)
    (h7 : d.sliceSizes = ![1, 1, C])
    (x : (⟨3, ![N, R, C]⟩ : Shape).Idx → α) (idx : IVec ⟨2, ![E, 2]⟩ 32) (e : Fin E) (c : Fin C) :
    Host.gather d x idx (ix2 e c)
      = x (ix3 (⟨min (idx (ix2 e (0 : Fin 2))).toInt.toNat (N - 1), by omega⟩ : Fin N)
               (⟨min (idx (ix2 e (1 : Fin 2))).toInt.toNat (R - 1), by omega⟩ : Fin R) c) := by
  -- the record's fields are the printed lists: name them and compute on the literal record
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the row axis: collapsed, its start the first word of the update's pair, at [e, 0]
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1
        (show (0 : Fin 3) ∈ ([0, 1] : List (Fin 3)) by decide))]
    simp only [Nat.add_zero]
    unfold GatherDims.start
    rw [dif_pos (show (0 : Fin 3) ∈ ([0, 1] : List (Fin 3)) by decide)]
    have hsi : GatherDims.siIdx (⟨[1], [0, 1], [], [], [0, 1], 1, ![1, 1, C], wf⟩ :
          GatherDims ⟨3, ![N, R, C]⟩ ⟨2, ![E, 2]⟩ ⟨2, ![E, C]⟩) (ix2 e c)
        ⟨List.idxOf (0 : Fin 3) [0, 1], List.idxOf_lt_length_iff.2 (by decide)⟩ = ix2 e (0 : Fin 2) := by
      funext b; refine Fin.ext ?_
      match b with
      | ⟨0, _⟩ => rfl
      | ⟨1, _⟩ => rfl
    rw [hsi]
    rfl
  | ⟨1, _⟩ =>
    -- the second axis: collapsed, its start the second word of the pair, at [e, 1]
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1
        (show (1 : Fin 3) ∈ ([0, 1] : List (Fin 3)) by decide))]
    simp only [Nat.add_zero]
    unfold GatherDims.start
    rw [dif_pos (show (1 : Fin 3) ∈ ([0, 1] : List (Fin 3)) by decide)]
    have hsi : GatherDims.siIdx (⟨[1], [0, 1], [], [], [0, 1], 1, ![1, 1, C], wf⟩ :
          GatherDims ⟨3, ![N, R, C]⟩ ⟨2, ![E, 2]⟩ ⟨2, ![E, C]⟩) (ix2 e c)
        ⟨List.idxOf (1 : Fin 3) [0, 1], List.idxOf_lt_length_iff.2 (by decide)⟩ = ix2 e (1 : Fin 2) := by
      funext b; refine Fin.ext ?_
      match b with
      | ⟨0, _⟩ => rfl
      | ⟨1, _⟩ => rfl
    rw [hsi]
    rfl
  | ⟨2, _⟩ =>
    -- the last axis: neither collapsed nor start-indexed, so the coordinate is the offset c alone
    show GatherDims.start _ _ idx 2 + GatherDims.batchCoord _ _ 2 + GatherDims.offCoord _ _ 2 = c.val
    rw [GatherDims.batchCoord_eq_zero _ _ _ List.not_mem_nil]
    unfold GatherDims.start
    rw [dif_neg (show (2 : Fin 3) ∉ ([0, 1] : List (Fin 3)) by decide)]
    have hk : (2 : Fin 3) ∈ GatherDims.sKept (⟨[1], [0, 1], [], [], [0, 1], 1, ![1, 1, C], wf⟩ :
          GatherDims ⟨3, ![N, R, C]⟩ ⟨2, ![E, 2]⟩ ⟨2, ![E, C]⟩) :=
      (GatherDims.mem_sKept _ _).mpr
        ⟨show (2 : Fin 3) ∉ ([0, 1] : List (Fin 3)) by decide, List.not_mem_nil⟩
    unfold GatherDims.offCoord
    rw [dif_pos hk, Nat.add_zero, Nat.zero_add]
    rfl

end Cert.Rgcn.Lib

end
-- ==== Proof.LibScatter.lean ====
/-
  How the host's accumulating scatter reads at an index, over the extended reals.

  An accumulating scatter of rows leaves at (n, c) the operand's element plus the sum of the updates' column c over
  the update rows whose start word IS n as a signed integer (a start word outside the operand drops its row); of
  scalars, the same without the column.

  The road: with one start word per update row, sent to the operand's axis 0, and the updates' axis 1 (if any) the
  window on the operand's axis 1, update index (e, c') starts at (word e, 0) and has window coordinate (0, c'), so it
  lands at (word e, c') when 0 ≤ word e < N and nowhere otherwise. The update indices that land at (n, c) are then
  exactly the (e, c) with word e = n, and the sum over them is re-indexed by e.
-/
import Idealize.ShloMosaic.PureOps.Ideal
import Idealize.ShloMosaic.PureOps.Ideal.Laws
import Idealize.ShloMosaic.Lib.ValueIdx

noncomputable section

namespace Cert.Rgcn.Lib

open Idealize.ShloMosaic Idealize.ShloMosaic.ValueIdx

/-! ## Rows: operand (N, C), one start word per update row, updates (E, C) -/

section Rows

variable {N C E : Nat} (d : ScatterDims ⟨2, ![N, C]⟩ ⟨2, ![E, 1]⟩ ⟨2, ![E, C]⟩)
  (h1 : d.updateWindowDims = [1]) (h2 : d.insertedWindowDims = [0]) (h3 : d.scatterDimsToOperandDims = [0])
  (h4 : d.indexVectorDim = 1)

include h1 h2 h3 h4

/-- On the operand's axis 0 the window of update index `j` starts at the start word of `j`'s row, read signed. -/
theorem rows_start0 (idx : IVec ⟨2, ![E, 1]⟩ 32) (j : (⟨2, ![E, C]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  rw [dif_pos (show (0 : Fin 2) ∈ ([0] : List (Fin 2)) by decide)]
  congr 2
  funext b
  match b with
  | ⟨0, _⟩ => rfl
  | ⟨1, _⟩ => rfl

/-- On the operand's axis 1, which no start word names, the window starts at 0. -/
theorem rows_start1 (idx : IVec ⟨2, ![E, 1]⟩ 32) (j : (⟨2, ![E, C]⟩ : Shape).Idx) :
    d.start j idx 1 = 0 := by
  obtain ⟨uw, iw, sd, iv, wf⟩ := d
  dsimp only at h1 h2 h3 h4
  subst h1 h2 h3 h4
  unfold ScatterDims.start
  rw [dif_neg (show (1 : Fin 2) ∉ ([0] : List (Fin 2)) by decide)]

/-- The operand's axis 0 is an inserted axis: the window coordinate on it is 0. -/
theorem rows_window0 (j : (⟨2, ![E, C]⟩ : Shape).Idx) : d.window j 0 = 0 := by
  obtain ⟨uw, iw, sd, iv, wf⟩ := d
  dsimp only at h1 h2 h3 h4
  subst h1 h2 h3 h4
  unfold ScatterDims.window
  exact dif_neg (show (0 : Fin 2) ∉ List.filter (fun a => decide (a ∉ ([0] : List (Fin 2)))) (List.finRange 2) by decide)

/-- The window coordinate on the operand's axis 1 is the update index's column. -/
theorem rows_window1 (j : (⟨2, ![E, C]⟩ : Shape).Idx) : d.window j 1 = (j 1).val := by
  obtain ⟨uw, iw, sd, iv, wf⟩ := d
  dsimp only at h1 h2 h3 h4
  subst h1 h2 h3 h4
  unfold ScatterDims.window
  exact (dif_pos (show (1 : Fin 2) ∈ List.filter (fun a => decide (a ∉ ([0] : List (Fin 2)))) (List.finRange 2) by decide)).trans rfl

/-- Update index `j` lands at (n, c) exactly when its row's start word is n as a signed integer and its column is c. -/
theorem rows_resultIdx?_eq_some (idx : IVec ⟨2, ![E, 1]⟩ 32) (j : (⟨2, ![E, C]⟩ : Shape).Idx) (n : Fin N) (c : Fin C) :
    d.resultIdx? j idx = some (ix2 n c) ↔ (idx (ix2 (j 0) (0 : Fin 1))).toInt = (n.val : Int) ∧ j 1 = c := by
  have s0 := rows_start0 d h1 h2 h3 h4 idx j
  have s1 := rows_start1 d h1 h2 h3 h4 idx j
  have w0 := rows_window0 d h1 h2 h3 h4 j
  have w1 := rows_window1 d h1 h2 h3 h4 j
  have hn : n.val < N := n.isLt
  have hc : c.val < C := c.isLt
  have hj : (j 1).val < C := (j 1).isLt
  unfold ScatterDims.resultIdx?
  constructor
  · intro h
    split at h
    · rename_i hall
      have h' := Option.some.inj h
      have e0 : (d.start j idx 0 + (d.window j 0 : Int)).toNat = n.val := congrArg Fin.val (congrFun h' 0)
      have e1 : (d.start j idx 1 + (d.window j 1 : Int)).toNat = c.val := congrArg Fin.val (congrFun h' 1)
      have b0 : 0 ≤ d.start j idx 0 + (d.window j 0 : Int) := (hall 0).1
      rw [s0, w0] at e0 b0
      rw [s1, w1] at e1
      refine ⟨by omega, Fin.ext (by omega)⟩
    · exact absurd h (by simp)
  · rintro ⟨ht, hjc⟩
    have hjc' : (j 1).val = c.val := congrArg Fin.val hjc
    have hall : ∀ a, 0 ≤ d.start j idx a + (d.window j a : Int) ∧
        d.start j idx a + (d.window j a : Int) < ((⟨2, ![N, C]⟩ : Shape).size a : Int) := by
      intro a
      match a with
      | ⟨0, _⟩ =>
        show 0 ≤ d.start j idx 0 + (d.window j 0 : Int) ∧ d.start j idx 0 + (d.window j 0 : Int) < (N : Int)
        rw [s0, w0, ht]; omega
      | ⟨1, _⟩ =>
        show 0 ≤ d.start j idx 1 + (d.window j 1 : Int) ∧ d.start j idx 1 + (d.window j 1 : Int) < (C : Int)
        rw [s1, w1]; omega
    rw [dif_pos hall]
    congr 1
    funext a
    match a with
    | ⟨0, _⟩ =>
      apply Fin.ext
      show (d.start j idx 0 + (d.window j 0 : Int)).toNat = n.val
      rw [s0, w0, ht]; omega
    | ⟨1, _⟩ =>
      apply Fin.ext
      show (d.start j idx 1 + (d.window j 1 : Int)).toNat = c.val
      rw [s1, w1]; omega

end Rows

/-- Rows accumulated by one start word each. -/
theorem scatterAdd_rows_apply {N C E : Nat}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : (⟨2, ![N, C]⟩ : Shape).Idx → EReal) (idx : IVec ⟨2, ![E, 1]⟩ 32)
    (upd : (⟨2, ![E, C]⟩ : Shape).Idx → EReal) (n : Fin N) (c : Fin C) :
    Ideal.hostScatterAdd d x idx upd (ix2 n c)
      = x (ix2 n c) + ∑ e ∈ Finset.univ.filter (fun e : Fin E => (idx (ix2 e (0 : Fin 1))).toInt = (n.val : Int)),
          upd (ix2 e c) := by
  unfold Ideal.hostScatterAdd
  congr 1
  refine Finset.sum_nbij' (fun j => j 0) (fun e => ix2 e c) ?_ ?_ ?_ ?_ ?_
  · intro j hj
    have hj' := (Finset.mem_filter.1 hj).2
    exact Finset.mem_filter.2 ⟨Finset.mem_univ _, ((rows_resultIdx?_eq_some d h1 h2 h3 h4 idx j n c).1 hj').1⟩
  · intro e he
    have he' := (Finset.mem_filter.1 he).2
    exact Finset.mem_filter.2
      ⟨Finset.mem_univ _, (rows_resultIdx?_eq_some d h1 h2 h3 h4 idx (ix2 e c) n c).2 ⟨he', rfl⟩⟩
  · intro j hj
    rw [Finset.mem_filter] at hj
    have hjc := ((rows_resultIdx?_eq_some d h1 h2 h3 h4 idx j n c).1 hj.2).2
    rw [← hjc]; exact (eq_ix2 j).symm
  · intro e _
    rfl
  · intro j hj
    rw [Finset.mem_filter] at hj
    have hjc := ((rows_resultIdx?_eq_some d h1 h2 h3 h4 idx j n c).1 hj.2).2
    rw [← hjc]; exact congrArg upd (eq_ix2 j)

/-! ## Scalars: operand (N), one start word per update, updates (E) -/

section Vec

variable {N E : Nat} (d : ScatterDims ⟨1, ![N]⟩ ⟨2, ![E, 1]⟩ ⟨1, ![E]⟩)
  (h1 : d.updateWindowDims = []) (h2 : d.insertedWindowDims = [0]) (h3 : d.scatterDimsToOperandDims = [0])
  (h4 : d.indexVectorDim = 1)

include h1 h2 h3 h4

/-- On the operand's one axis the window of update index `j` starts at `j`'s start word, read signed. -/
theorem vec_start0 (idx : IVec ⟨2, ![E, 1]⟩ 32) (j : (⟨1, ![E]⟩ : Shape).Idx) :
    d.start j idx 0 = (idx (ix2 (j 0) (0 : Fin 1))).toInt := by
  obtain ⟨uw, iw, sd, iv, wf⟩ := d
  dsimp only at h1 h2 h3 h4
  subst h1 h2 h3 h4
  unfold ScatterDims.start
  rw [dif_pos (show (0 : Fin 1) ∈ ([0] : List (Fin 1)) by decide)]
  congr 2
  funext b
  match b with
  | ⟨0, _⟩ => rfl
  | ⟨1, _⟩ => rfl

/-- The operand's one axis is an inserted axis: the window coordinate on it is 0. -/
theorem vec_window0 (j : (⟨1, ![E]⟩ : Shape).Idx) : d.window j 0 = 0 := by
  obtain ⟨uw, iw, sd, iv, wf⟩ := d
  dsimp only at h1 h2 h3 h4
  subst h1 h2 h3 h4
  unfold ScatterDims.window
  exact dif_neg (show (0 : Fin 1) ∉ List.filter (fun a => decide (a ∉ ([0] : List (Fin 1)))) (List.finRange 1) by decide)

/-- Update index `j` lands at n exactly when its start word is n as a signed integer. -/
theorem vec_resultIdx?_eq_some (idx : IVec ⟨2, ![E, 1]⟩ 32) (j : (⟨1, ![E]⟩ : Shape).Idx) (n : Fin N) :
    d.resultIdx? j idx = some (ix1 n) ↔ (idx (ix2 (j 0) (0 : Fin 1))).toInt = (n.val : Int) := by
  have s0 := vec_start0 d h1 h2 h3 h4 idx j
  have w0 := vec_window0 d h1 h2 h3 h4 j
  have hn : n.val < N := n.isLt
  unfold ScatterDims.resultIdx?
  constructor
  · intro h
    split at h
    · rename_i hall
      have h' := Option.some.inj h
      have e0 : (d.start j idx 0 + (d.window j 0 : Int)).toNat = n.val := congrArg Fin.val (congrFun h' 0)
      have b0 : 0 ≤ d.start j idx 0 + (d.window j 0 : Int) := (hall 0).1
      rw [s0, w0] at e0 b0
      omega
    · exact absurd h (by simp)
  · intro ht
    have hall : ∀ a, 0 ≤ d.start j idx a + (d.window j a : Int) ∧
        d.start j idx a + (d.window j a : Int) < ((⟨1, ![N]⟩ : Shape).size a : Int) := by
      intro a
      match a with
      | ⟨0, _⟩ =>
        show 0 ≤ d.start j idx 0 + (d.window j 0 : Int) ∧ d.start j idx 0 + (d.window j 0 : Int) < (N : Int)
        rw [s0, w0, ht]; omega
    rw [dif_pos hall]
    congr 1
    funext a
    match a with
    | ⟨0, _⟩ =>
      apply Fin.ext
      show (d.start j idx 0 + (d.window j 0 : Int)).toNat = n.val
      rw [s0, w0, ht]; omega

end Vec

/-- Scalars accumulated by one start word each. -/
theorem scatterAdd_vec_apply {N E : Nat}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : IVec ⟨2, ![E, 1]⟩ 32)
    (upd : (⟨1, ![E]⟩ : Shape).Idx → EReal) (n : Fin N) :
    Ideal.hostScatterAdd d x idx upd (ix1 n)
      = x (ix1 n) + ∑ e ∈ Finset.univ.filter (fun e : Fin E => (idx (ix2 e (0 : Fin 1))).toInt = (n.val : Int)),
          upd (ix1 e) := by
  unfold Ideal.hostScatterAdd
  congr 1
  refine Finset.sum_nbij' (fun j => j 0) (fun e => ix1 e) ?_ ?_ ?_ ?_ ?_
  · intro j hj
    have hj' := (Finset.mem_filter.1 hj).2
    exact Finset.mem_filter.2 ⟨Finset.mem_univ _, (vec_resultIdx?_eq_some d h1 h2 h3 h4 idx j n).1 hj'⟩
  · intro e he
    have he' := (Finset.mem_filter.1 he).2
    exact Finset.mem_filter.2 ⟨Finset.mem_univ _, (vec_resultIdx?_eq_some d h1 h2 h3 h4 idx (ix1 e) n).2 he'⟩
  · intro j _
    exact (eq_ix1 j).symm
  · intro e _
    rfl
  · intro j _
    exact congrArg upd (eq_ix1 j)

end Cert.Rgcn.Lib

end
-- ==== Proof.LibScatter2.lean ====
/-
  How the host's accumulating scatter of scalars into a matrix reads at an index, over the extended reals, and how the
  host's gather of scalars out of a vector reads at an index.

  With two start words per update (row, column) the update e lands at (n, m) exactly when its two words, read signed,
  are n and m; a pair outside the matrix drops the update. A gather of scalars reads the operand at its start word,
  read signed, a negative word to entry 0 and a word past the end cut to the last entry.
-/
import Idealize.ShloMosaic.PureOps.Ideal
import Idealize.ShloMosaic.PureOps.Ideal.Laws
import Idealize.ShloMosaic.Lib.ValueIdx

noncomputable section

namespace Cert.Gcn.Lib

open Idealize.ShloMosaic Idealize.ShloMosaic.ValueIdx

/-! ## Scalars into a matrix: operand (N, M), two start words per update, updates (E) -/

section Mat

variable {N M E : Nat} (d : ScatterDims ⟨2, ![N, M]⟩ ⟨2, ![E, 2]⟩ ⟨1, ![E]⟩)
  (h1 : d.updateWindowDims = []) (h2 : d.insertedWindowDims = [0, 1]) (h3 : d.scatterDimsToOperandDims = [0, 1])
  (h4 : d.indexVectorDim = 1)

include h1 h2 h3 h4

/-- On the operand's axis 0 the window of update index `j` starts at the first word of `j`'s pair, read signed. -/
theorem mat_start0 (idx : IVec ⟨2, ![E, 2]⟩ 32) (j : (⟨1, ![E]⟩ : Shape).Idx) :
    d.start j idx 0 = (idx (ix2 (j 0) (0 : Fin 2))).toInt := by
  obtain ⟨uw, iw, sd, iv, wf⟩ := d
  dsimp only at h1 h2 h3 h4
  subst h1 h2 h3 h4
  unfold ScatterDims.start
  rw [dif_pos (show (0 : Fin 2) ∈ ([0, 1] : List (Fin 2)) by decide)]
  congr 2
  funext b
  match b with
  | ⟨0, _⟩ => rfl
  | ⟨1, _⟩ => rfl

/-- On the operand's axis 1 the window of update index `j` starts at the second word of `j`'s pair, read signed. -/
theorem mat_start1 (idx : IVec ⟨2, ![E, 2]⟩ 32) (j : (⟨1, ![E]⟩ : Shape).Idx) :
    d.start j idx 1 = (idx (ix2 (j 0) (1 : Fin 2))).toInt := by
  obtain ⟨uw, iw, sd, iv, wf⟩ := d
  dsimp only at h1 h2 h3 h4
  subst h1 h2 h3 h4
  unfold ScatterDims.start
  rw [dif_pos (show (1 : Fin 2) ∈ ([0, 1] : List (Fin 2)) by decide)]
  congr 2
  funext b
  match b with
  | ⟨0, _⟩ => rfl
  | ⟨1, _⟩ => rfl

/-- Both of the operand's axes are inserted axes: the window coordinate is 0 on each. -/
theorem mat_window (j : (⟨1, ![E]⟩ : Shape).Idx) (a : Fin 2) : d.window j a = 0 := by
  obtain ⟨uw, iw, sd, iv, wf⟩ := d
  dsimp only at h1 h2 h3 h4
  subst h1 h2 h3 h4
  unfold ScatterDims.window
  match a with
  | ⟨0, _⟩ =>
    exact dif_neg (show (0 : Fin 2) ∉ List.filter (fun a => decide (a ∉ ([0, 1] : List (Fin 2)))) (List.finRange 2) by decide)
  | ⟨1, _⟩ =>
    exact dif_neg (show (1 : Fin 2) ∉ List.filter (fun a => decide (a ∉ ([0, 1] : List (Fin 2)))) (List.finRange 2) by decide)

/-- Update index `j` lands at (n, m) exactly when the two words of its pair are n and m as signed integers. -/
theorem mat_resultIdx?_eq_some (idx : IVec ⟨2, ![E, 2]⟩ 32) (j : (⟨1, ![E]⟩ : Shape).Idx) (n : Fin N) (m : Fin M) :
    d.resultIdx? j idx = some (ix2 n m)
      ↔ (idx (ix2 (j 0) (0 : Fin 2))).toInt = (n.val : Int) ∧ (idx (ix2 (j 0) (1 : Fin 2))).toInt = (m.val : Int) := by
  have s0 := mat_start0 d h1 h2 h3 h4 idx j
  have s1 := mat_start1 d h1 h2 h3 h4 idx j
  have w0 := mat_window d h1 h2 h3 h4 j 0
  have w1 := mat_window d h1 h2 h3 h4 j 1
  have hn : n.val < N := n.isLt
  have hm : m.val < M := m.isLt
  unfold ScatterDims.resultIdx?
  constructor
  · intro h
    split at h
    · rename_i hall
      have h' := Option.some.inj h
      have e0 : (d.start j idx 0 + (d.window j 0 : Int)).toNat = n.val := congrArg Fin.val (congrFun h' 0)
      have e1 : (d.start j idx 1 + (d.window j 1 : Int)).toNat = m.val := congrArg Fin.val (congrFun h' 1)
      have b0 : 0 ≤ d.start j idx 0 + (d.window j 0 : Int) := (hall 0).1
      have b1 : 0 ≤ d.start j idx 1 + (d.window j 1 : Int) := (hall 1).1
      rw [s0, w0] at e0 b0
      rw [s1, w1] at e1 b1
      refine ⟨by omega, by omega⟩
    · exact absurd h (by simp)
  · rintro ⟨ht0, ht1⟩
    have hall : ∀ a, 0 ≤ d.start j idx a + (d.window j a : Int) ∧
        d.start j idx a + (d.window j a : Int) < ((⟨2, ![N, M]⟩ : Shape).size a : Int) := by
      intro a
      match a with
      | ⟨0, _⟩ =>
        show 0 ≤ d.start j idx 0 + (d.window j 0 : Int) ∧ d.start j idx 0 + (d.window j 0 : Int) < (N : Int)
        rw [s0, w0, ht0]; omega
      | ⟨1, _⟩ =>
        show 0 ≤ d.start j idx 1 + (d.window j 1 : Int) ∧ d.start j idx 1 + (d.window j 1 : Int) < (M : Int)
        rw [s1, w1, ht1]; omega
    rw [dif_pos hall]
    congr 1
    funext a
    match a with
    | ⟨0, _⟩ =>
      apply Fin.ext
      show (d.start j idx 0 + (d.window j 0 : Int)).toNat = n.val
      rw [s0, w0, ht0]; omega
    | ⟨1, _⟩ =>
      apply Fin.ext
      show (d.start j idx 1 + (d.window j 1 : Int)).toNat = m.val
      rw [s1, w1, ht1]; omega

end Mat

/-- Scalars accumulated into a matrix by two start words each. -/
theorem scatterAdd_mat_apply {N M E : Nat}
    (d : ScatterDims ⟨2, ![N, M]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (x : (⟨2, ![N, M]⟩ : Shape).Idx → EReal) (idx : IVec ⟨2, ![E, 2]⟩ 32)
    (upd : (⟨1, ![E]⟩ : Shape).Idx → EReal) (n : Fin N) (m : Fin M) :
    Ideal.hostScatterAdd d x idx upd (ix2 n m)
      = x (ix2 n m) + ∑ e ∈ Finset.univ.filter (fun e : Fin E =>
            (idx (ix2 e (0 : Fin 2))).toInt = (n.val : Int) ∧ (idx (ix2 e (1 : Fin 2))).toInt = (m.val : Int)),
          upd (ix1 e) := by
  unfold Ideal.hostScatterAdd
  congr 1
  -- the update indices landing at (n, m) are the (e) whose pair of words is (n, m): re-index the sum by e
  refine Finset.sum_nbij' (fun j => j 0) (fun e => ix1 e) ?_ ?_ ?_ ?_ ?_
  · intro j hj
    have hj' := (Finset.mem_filter.1 hj).2
    exact Finset.mem_filter.2 ⟨Finset.mem_univ _, (mat_resultIdx?_eq_some d h1 h2 h3 h4 idx j n m).1 hj'⟩
  · intro e he
    have he' := (Finset.mem_filter.1 he).2
    exact Finset.mem_filter.2 ⟨Finset.mem_univ _, (mat_resultIdx?_eq_some d h1 h2 h3 h4 idx (ix1 e) n m).2 he'⟩
  · intro j _
    exact (eq_ix1 j).symm
  · intro e _
    rfl
  · intro j _
    exact congrArg upd (eq_ix1 j)

/-- Scalars gathered out of a vector by one start word each. -/
theorem gather_vec_apply {α : Type} {N E : Nat} (hN : 0 < N)
    (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ 32) (e : Fin E) :
    Host.gather d x idx (ix1 e)
      = x (ix1 (⟨min (idx (ix2 e (0 : Fin 1))).toInt.toNat (N - 1), by omega⟩ : Fin N)) := by
  -- the record's fields are the printed lists: name them and compute on the literal record
  obtain ⟨od, cd, ob, sb, sm, iv, ss, wf⟩ := d
  simp only at h1 h2 h3 h4 h5 h6 h7
  subst h1 h2 h3 h4 h5 h6 h7
  unfold Host.gather
  congr 1
  funext a
  refine Fin.ext ?_
  match a with
  | ⟨0, _⟩ =>
    -- the one axis: collapsed and start-indexed, so the coordinate is the clamped start alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    -- the start word of result index e sits at [e, 0]: the batch coordinate e, component 0 on the index vector's axis
    have hsi : GatherDims.siIdx (⟨[], [0], [], [], [0], 1, ![1], wf⟩ :
          GatherDims ⟨1, ![N]⟩ ⟨2, ![E, 1]⟩ ⟨1, ![E]⟩) (ix1 e)
        ⟨List.idxOf (0 : Fin 1) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.Gcn.Lib

end
-- ==== Proof.KHostAdj.lean ====
/-
  The host operations before the first launch, read as functions of the arguments: the dense normalised adjacency
  matrix built by two accumulating scatters (the edges' weights at (dst, src), then dinv² on the diagonal), the
  transposed input weights and the input bias as a row.
-/
import proofs.«424132_j19705309954162_2_alg».proof.Proof.Gen.KernelIdeal.Launch
import proofs.«424132_j19705309954162_2_alg».proof.Proof.Spec
import proofs.«424132_j19705309954162_2_alg».proof.Proof.LibGather
import proofs.«424132_j19705309954162_2_alg».proof.Proof.LibScatter
import proofs.«424132_j19705309954162_2_alg».proof.Proof.LibScatter2
import Idealize.ShloMosaic.Lib.StableHlo.Run
import Idealize.ShloMosaic.Lib.Pipeline.Value
import Idealize.ShloMosaic.Lib.IdealHost
import Idealize.ShloMosaic.Lib.StableHlo.Predicate

noncomputable section

namespace Cert.Gcn.K

open Idealize.ShloMosaic Idealize.ShloMosaic.TcCoe Idealize.SL.Sem Idealize.ShloMosaic.ValueIdx
open Cert.KernelIdeal Cert.KernelIdeal.Gen Cert.Gcn

/-! ## Layout operations read at an index -/

/-- A vector recast as a one-row matrix reads the vector at the column. -/
theorem row_read {n : Nat} (v : (⟨1, ![n]⟩ : Shape).Idx → EReal) (h : (⟨1, ![n]⟩ : Shape).ShapeCasts ⟨2, ![1, n]⟩)
    (i : (⟨2, ![1, n]⟩ : Shape).Idx) : shapeCast ⟨2, ![1, n]⟩ v h i = v (ix1 (i 1)) := by
  refine shapeCast_apply v h i (ix1 (i 1)) ?_
  rw [Shape.rowMajor_val_one, Shape.rowMajor_val_two]
  have h0 : (i 0).val < 1 := (i 0).isLt
  show (i 1).val = (i 0).val * n + (i 1).val
  rw [show (i 0).val = 0 by omega]; omega

/-- A transposed matrix reads the matrix at the swapped index. -/
theorem transp_read {a b : Nat} (x : (⟨2, ![a, b]⟩ : Shape).Idx → EReal)
    (h : (⟨2, ![a, b]⟩ : Shape).Transposes [1, 0] ⟨2, ![b, a]⟩) (i : (⟨2, ![b, a]⟩ : Shape).Idx) :
    transpose ⟨2, ![b, a]⟩ [1, 0] x h i = x (ix2 (i 1) (i 0)) :=
  transpose_apply [1, 0] x h i (ix2 (i 1) (i 0)) (fun c => match c with
    | ⟨0, _⟩ => rfl
    | ⟨1, _⟩ => rfl)

section Reads
variable {α : Type}

/-- Row `r` of a two-row table, cut out and flattened, reads the table at (r, e). -/
theorem tableRow_read {E : Nat} (r : Fin 2) (off : Fin 2 → Nat) (h0 : off 0 = r.val) (h1 : off 1 = 0)
    (x : (⟨2, ![2, E]⟩ : Shape).Idx → α) (hs : (⟨2, ![2, E]⟩ : Shape).Slices off ⟨2, ![1, E]⟩)
    (hc : (⟨2, ![1, E]⟩ : Shape).ShapeCasts ⟨1, ![E]⟩) (e : Fin E) :
    shapeCast ⟨1, ![E]⟩ (extractStridedSlice ⟨2, ![1, E]⟩ off x hs) hc (ix1 e) = x (ix2 r e) := by
  rw [shapeCast_apply _ hc (ix1 e) (ix2 (0 : Fin 1) e)
    (by rw [Shape.rowMajor_val_two, Shape.rowMajor_val_one]; show 0 * E + e.val = e.val; omega)]
  exact extractStridedSlice_apply off x hs (ix2 (0 : Fin 1) e) (ix2 r e) (fun a => match a with
    | ⟨0, _⟩ => by show r.val = off 0 + 0; omega
    | ⟨1, _⟩ => by show e.val = off 1 + e.val; omega)

/-- A vector laid out as a one-column matrix reads the vector at the row. -/
theorem col_read {E : Nat} (v : (⟨1, ![E]⟩ : Shape).Idx → α)
    (h : (⟨1, ![E]⟩ : Shape).BroadcastsInDim ⟨2, ![E, 1]⟩ ![0]) (e : Fin E) (z : Fin 1) :
    broadcastInDim ⟨2, ![E, 1]⟩ ![0] h v (ix2 e z) = v (ix1 e) :=
  broadcastInDim_apply _ h v (ix2 e z) (ix1 e) (fun a => match a with
    | ⟨0, _⟩ => by show e.val = if E = 1 then 0 else e.val; split <;> omega)

/-- A scalar spread over any shape reads the scalar. -/
theorem scalar_read {t : Shape} (h : (⟨0, ![]⟩ : Shape).BroadcastsInDim t ![]) (v : (⟨0, ![]⟩ : Shape).Idx → α)
    (j : t.Idx) : broadcastInDim t ![] h v j = v ix0 :=
  broadcastInDim_apply _ h v j ix0 (fun a => a.elim0)

/-- Two one-column matrices side by side: column 0 is the first. -/
theorem pair_read0 {E : Nat} (a b : (⟨2, ![E, 1]⟩ : Shape).Idx → α)
    (h : Shape.Concatenates [⟨2, ![E, 1]⟩, ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e 0) = a (ix2 e 0) :=
  concatenate_pair_apply_left 1 a b h (ix2 e 0) rfl (ix2 e 0) (fun c => match c with
    | ⟨0, _⟩ => rfl
    | ⟨1, _⟩ => rfl)

/-- Two one-column matrices side by side: column 1 is the second. -/
theorem pair_read1 {E : Nat} (a b : (⟨2, ![E, 1]⟩ : Shape).Idx → α)
    (h : Shape.Concatenates [⟨2, ![E, 1]⟩, ⟨2, ![E, 1]⟩] ⟨2, ![E, 2]⟩ 1) (e : Fin E) :
    concatenate ⟨2, ![E, 2]⟩ 1 [⟨⟨2, ![E, 1]⟩, a⟩, ⟨⟨2, ![E, 1]⟩, b⟩] h (ix2 e 1) = b (ix2 e 0) :=
  concatenate_pair_apply_right 1 a b h (ix2 e 1) rfl rfl (ix2 e 0) (fun c hc => match c with
    | ⟨0, _⟩ => rfl
    | ⟨1, _⟩ => absurd rfl hc) (by show 0 + 1 = 1; rfl)

end Reads

/-! ## Index words -/

/-- A word that is not negative, read signed, is kept by the negative-index wrap (add the extent if negative). -/
theorem wrap_read {s : Shape} (v : IVec s 32) (hb0 hb1 : (⟨0, ![]⟩ : Shape).BroadcastsInDim s ![]) (N : BitVec 32)
    (i : s.Idx) (hi : 0 ≤ (v i).toInt) :
    select (cmpi .slt v (broadcastInDim s ![] hb0 (constantI ⟨0, ![]⟩ 32 0#32)))
      (addi v (broadcastInDim s ![] hb1 (constantI ⟨0, ![]⟩ 32 N))) v i = v i := by
  rw [select_apply]
  have hc : cmpi .slt v (broadcastInDim s ![] hb0 (constantI ⟨0, ![]⟩ 32 0#32)) i = 0#1 := by
    show IntOp.cmpi .slt (v i) (broadcastInDim s ![] hb0 (constantI ⟨0, ![]⟩ 32 0#32) i) = 0#1
    rw [scalar_read]
    show BitVec.ofBool ((v i).slt 0#32) = 0#1
    have : (v i).slt 0#32 = false := by
      rw [BitVec.slt_eq_decide]
      simp only [BitVec.toInt_zero, decide_eq_false_iff_not, not_lt]
      exact hi
    rw [this]; rfl
  rw [hc, select_zero]

/-- The diagonal's words: position k, read signed, is k. -/
theorem iota_toInt {n : Nat} (hn : n ≤ 2 ^ 31) (k : Fin n) :
    (iotaInDim (⟨1, ![n]⟩ : Shape) 32 0 (ix1 k)).toInt = (k.val : Int) := by
  show (BitVec.ofNat 32 k.val).toInt = (k.val : Int)
  exact StableHlo.Predicate.toInt_ofNat_small k.val (by have := k.isLt; omega)

/-- A column of wrapped words whose signed values are nodes reads, signed, the node. -/
theorem wrapcol_toInt {E M : Nat} (w : IVec ⟨1, ![E]⟩ 32) (node : Fin E → Fin M)
    (hw : ∀ e : Fin E, (w (ix1 e)).toInt = ((node e).val : Int))
    (hb0 hb1 : (⟨0, ![]⟩ : Shape).BroadcastsInDim ⟨1, ![E]⟩ ![]) (N : BitVec 32)
    (hbC : (⟨1, ![E]⟩ : Shape).BroadcastsInDim ⟨2, ![E, 1]⟩ ![0]) (e : Fin E) (z : Fin 1) :
    (broadcastInDim ⟨2, ![E, 1]⟩ ![0] hbC
        (select (cmpi .slt w (broadcastInDim ⟨1, ![E]⟩ ![] hb0 (constantI ⟨0, ![]⟩ 32 0#32)))
          (addi w (broadcastInDim ⟨1, ![E]⟩ ![] hb1 (constantI ⟨0, ![]⟩ 32 N))) w) (ix2 e z)).toInt
      = ((node e).val : Int) := by
  rw [col_read, wrap_read _ _ _ _ _ (by rw [hw]; omega), hw]

/-! ## The host's accumulating scatter and gather at the extended reals -/

theorem scatterAdd_ideal {s si u : Shape} {w : Nat} (d : ScatterDims s si u) (x : FVec Ideal s .f32) (idx : IVec si w)
    (upd : FVec Ideal u .f32) : Host.scatterAdd (F := Ideal) d x idx upd = Ideal.hostScatterAdd d x idx upd := rfl

/-- Scalars accumulated into a matrix at the pairs (row word, column word) given as two one-column matrices side by
    side: entry (n, m) gains the updates whose row node is n and column node is m. -/
theorem pairs_scatter_read {N E : Nat} (x : FVec Ideal ⟨2, ![N, N]⟩ .f32) (a b : IVec ⟨2, ![E, 1]⟩ 32)
    (upd : FVec Ideal ⟨1, ![E]⟩ .f32) (rowN colN : Fin E → Fin N)
    (ha : ∀ (e : Fin E) (z : Fin 1), (a (ix2 e z)).toInt = ((rowN e).val : Int))
    (hb : ∀ (e : Fin E) (z : Fin 1), (b (ix2 e z)).toInt = ((colN e).val : Int))
    (d : ScatterDims ⟨2, ![N, N]⟩ ⟨2, ![E, 2]⟩ ⟨1, ![E]⟩)
    (h1 : d.updateWindowDims = []) (h2 : d.insertedWindowDims = [0, 1]) (h3 : d.scatterDimsToOperandDims = [0, 1])
    (h4 : d.indexVectorDim = 1)
    (hc : Shape.Concatenates [⟨2, ![E, 1]⟩, ⟨2, ![E, 1]⟩] ⟨2, ![E, 2]⟩ 1) (n m : Fin N) :
    Host.scatterAdd (F := Ideal) d x (concatenate ⟨2, ![E, 2]⟩ 1 [⟨⟨2, ![E, 1]⟩, a⟩, ⟨⟨2, ![E, 1]⟩, b⟩] hc) upd (ix2 n m)
      = x (ix2 n m) + ∑ e ∈ Finset.univ.filter (fun e : Fin E => rowN e = n ∧ colN e = m), upd (ix1 e) := by
  rw [scatterAdd_ideal, Cert.Gcn.Lib.scatterAdd_mat_apply d h1 h2 h3 h4]
  congr 1
  refine Finset.sum_congr (Finset.filter_congr fun e _ => ?_) (fun _ _ => rfl)
  rw [pair_read0, pair_read1, ha, hb]
  exact ⟨fun h => ⟨Fin.ext (by omega), Fin.ext (by omega)⟩, fun h => by rw [h.1, h.2]; exact ⟨rfl, rfl⟩⟩

/-- The same for the diagonal: both words of update k are k itself. -/
theorem diag_scatter_read {N : Nat} (x : FVec Ideal ⟨2, ![N, N]⟩ .f32) (a b : IVec ⟨2, ![N, 1]⟩ 32)
    (upd : FVec Ideal ⟨1, ![N]⟩ .f32)
    (ha : ∀ (k : Fin N) (z : Fin 1), (a (ix2 k z)).toInt = (k.val : Int))
    (hb : ∀ (k : Fin N) (z : Fin 1), (b (ix2 k z)).toInt = (k.val : Int))
    (d : ScatterDims ⟨2, ![N, N]⟩ ⟨2, ![N, 2]⟩ ⟨1, ![N]⟩)
    (h1 : d.updateWindowDims = []) (h2 : d.insertedWindowDims = [0, 1]) (h3 : d.scatterDimsToOperandDims = [0, 1])
    (h4 : d.indexVectorDim = 1)
    (hc : Shape.Concatenates [⟨2, ![N, 1]⟩, ⟨2, ![N, 1]⟩] ⟨2, ![N, 2]⟩ 1) (n m : Fin N) :
    Host.scatterAdd (F := Ideal) d x (concatenate ⟨2, ![N, 2]⟩ 1 [⟨⟨2, ![N, 1]⟩, a⟩, ⟨⟨2, ![N, 1]⟩, b⟩] hc) upd (ix2 n m)
      = x (ix2 n m) + ∑ k ∈ Finset.univ.filter (fun k : Fin N => k = n ∧ k = m), upd (ix1 k) :=
  pairs_scatter_read x a b upd (fun k => k) (fun k => k) ha hb d h1 h2 h3 h4 hc n m

/-! ## The graph's normalisation, stage by stage -/

section Graph
variable (src dst : Fin Spec.NE → Fin Spec.NN)

/-- The degree: ones accumulated at the destination words, and one. -/
theorem deg_read (dstw : IVec ⟨1, ![320000]⟩ 32) (hd : ∀ e : Fin 320000, (dstw (ix1 e)).toInt = ((dst e).val : Int))
    (d : ScatterDims ⟨1, ![10000]⟩ ⟨2, ![320000, 1]⟩ ⟨1, ![320000]⟩)
    (h1 : d.updateWindowDims = []) (h2 : d.insertedWindowDims = [0]) (h3 : d.scatterDimsToOperandDims = [0])
    (h4 : d.indexVectorDim = 1)
    (hbN : (⟨0, ![]⟩ : Shape).BroadcastsInDim ⟨1, ![10000]⟩ ![])
    (hbE : (⟨0, ![]⟩ : Shape).BroadcastsInDim ⟨1, ![320000]⟩ ![])
    (hbC : (⟨1, ![320000]⟩ : Shape).BroadcastsInDim ⟨2, ![320000, 1]⟩ ![0]) (n : Fin 10000) :
    addf (Host.scatterAdd (F := Ideal) d
          (broadcastInDim ⟨1, ![10000]⟩ ![] hbN (constant (F := Ideal) ⟨0, ![]⟩ .f32 0x00000000#32))
          (broadcastInDim ⟨2, ![320000, 1]⟩ ![0] hbC dstw)
          (broadcastInDim ⟨1, ![320000]⟩ ![] hbE (constant (F := Ideal) ⟨0, ![]⟩ .f32 0x3F800000#32)))
        (broadcastInDim ⟨1, ![10000]⟩ ![] hbN (constant (F := Ideal) ⟨0, ![]⟩ .f32 0x3F800000#32)) (ix1 n)
      = Spec.deg dst n := by
  rw [addf_apply, scatterAdd_ideal, Cert.Rgcn.Lib.scatterAdd_vec_apply d h1 h2 h3 h4, scalar_read, scalar_read,
    constant_apply, constant_apply, Ideal.ofBits_zero_f32, Ideal.ofBits_one_f32, zero_add]
  unfold Spec.deg
  refine congrArg (fun t : EReal => t + 1) ?_
  refine Finset.sum_congr (Finset.filter_congr fun e _ => ?_) (fun e _ => ?_)
  · rw [col_read, hd]
    exact ⟨fun h => Fin.ext (by omega), fun h => by rw [h]⟩
  · rw [scalar_read, constant_apply, Ideal.ofBits_one_f32]

/-- The reciprocal square root of the degree. -/
theorem dinv_read (dstw : IVec ⟨1, ![320000]⟩ 32) (hd : ∀ e : Fin 320000, (dstw (ix1 e)).toInt = ((dst e).val : Int))
    (d : ScatterDims ⟨1, ![10000]⟩ ⟨2, ![320000, 1]⟩ ⟨1, ![320000]⟩)
    (h1 : d.updateWindowDims = []) (h2 : d.insertedWindowDims = [0]) (h3 : d.scatterDimsToOperandDims = [0])
    (h4 : d.indexVectorDim = 1)
    (hbN : (⟨0, ![]⟩ : Shape).BroadcastsInDim ⟨1, ![10000]⟩ ![])
    (hbE : (⟨0, ![]⟩ : Shape).BroadcastsInDim ⟨1, ![320000]⟩ ![])
    (hbC : (⟨1, ![320000]⟩ : Shape).BroadcastsInDim ⟨2, ![320000, 1]⟩ ![0]) (n : Fin 10000) :
    Host.rsqrt (F := Ideal) (addf (Host.scatterAdd (F := Ideal) d
          (broadcastInDim ⟨1, ![10000]⟩ ![] hbN (constant (F := Ideal) ⟨0, ![]⟩ .f32 0x00000000#32))
          (broadcastInDim ⟨2, ![320000, 1]⟩ ![0] hbC dstw)
          (broadcastInDim ⟨1, ![320000]⟩ ![] hbE (constant (F := Ideal) ⟨0, ![]⟩ .f32 0x3F800000#32)))
        (broadcastInDim ⟨1, ![10000]⟩ ![] hbN (constant (F := Ideal) ⟨0, ![]⟩ .f32 0x3F800000#32))) (ix1 n)
      = Spec.dinv dst n := by
  unfold Spec.dinv Host.rsqrt
  rw [Ideal.hostUnary_rsqrt_def, deg_read dst dstw hd d h1 h2 h3 h4 hbN hbE hbC n]

/-- A vector over the nodes gathered at a column of wrapped node words reads the vector at the node. -/
theorem gather_node_read (dv : FVec Ideal ⟨1, ![10000]⟩ .f32) (w : IVec ⟨1, ![320000]⟩ 32)
    (node : Fin 320000 → Fin 10000) (hw : ∀ e : Fin 320000, (w (ix1 e)).toInt = ((node e).val : Int))
    (g : GatherDims ⟨1, ![10000]⟩ ⟨2, ![320000, 1]⟩ ⟨1, ![320000]⟩)
    (g1 : g.offsetDims = []) (g2 : g.collapsedSliceDims = [0]) (g3 : g.operandBatchingDims = [])
    (g4 : g.startIndicesBatchingDims = []) (g5 : g.startIndexMap = [0]) (g6 : g.indexVectorDim = 1)
    (g7 : g.sliceSizes = ![1])
    (hb0 hb1 : (⟨0, ![]⟩ : Shape).BroadcastsInDim ⟨1, ![320000]⟩ ![]) (N : BitVec 32)
    (hbC : (⟨1, ![320000]⟩ : Shape).BroadcastsInDim ⟨2, ![320000, 1]⟩ ![0]) (e : Fin 320000) :
    Host.gather g dv (broadcastInDim ⟨2, ![320000, 1]⟩ ![0] hbC
        (select (cmpi .slt w (broadcastInDim ⟨1, ![320000]⟩ ![] hb0 (constantI ⟨0, ![]⟩ 32 0#32)))
          (addi w (broadcastInDim ⟨1, ![320000]⟩ ![] hb1 (constantI ⟨0, ![]⟩ 32 N))) w)) (ix1 e)
      = dv (ix1 (node e)) := by
  rw [Cert.Gcn.Lib.gather_vec_apply (by omega : 0 < 10000) g g1 g2 g3 g4 g5 g6 g7]
  refine congrArg dv (congrArg ix1 (Fin.ext ?_))
  have hword := wrapcol_toInt w node hw hb0 hb1 N hbC e 0
  show min (_ : BitVec 32).toInt.toNat (10000 - 1) = (node e).val
  rw [hword]
  have := (node e).isLt
  omega

end Graph

/-! ## The stretch, cut before each concatenate -/

/-- A line of operations run in two parts. -/
theorem after_split {τ : Topo} {sig : RefSig} {Val : EltTy → Type} (n : Nat) (ops : List (HloOp τ sig Val))
    (V : Valuation τ sig Val) :
    StableHlo.after ops V = StableHlo.after (ops.drop n) (StableHlo.after (ops.take n) V) := by
  rw [← StableHlo.after_append, List.take_append_drop]

variable (W : Valuation τ sig (Elt Ideal))

set_option maxHeartbeats 1000000 in
/-- The adjacency matrix the launches read is `Spec.adj` of the edge list's nodes. -/
theorem host0_adj (src dst : Fin Spec.NE → Fin Spec.NN) (hE : Spec.EdgesAre (W (Proc.devRef .tc main_arg1)) src dst) :
    StableHlo.after hostOps0 W (Proc.devRef .tc main_v57) = Spec.adj src dst := by
  obtain ⟨hS, hD⟩ := hE
  -- stage 1: the two rows of the edge list
  rw [after_split 4 hostOps0 W]
  have s1 : ∀ e : Fin 320000, ((StableHlo.after (List.take 4 hostOps0) W (Proc.devRef .tc main_v1) : IVec S320000 32)
      (ix1 e)).toInt = ((src e).val : Int) := by
    simp only [hostOps0, List.take_succ_cons, List.take_zero]
    after_results_simp
    intro e
    exact (congrArg BitVec.toInt (tableRow_read 0 ![0, 0] rfl rfl _ _ _ e)).trans (hS e)
  have s3 : ∀ e : Fin 320000, ((StableHlo.after (List.take 4 hostOps0) W (Proc.devRef .tc main_v3) : IVec S320000 32)
      (ix1 e)).toInt = ((dst e).val : Int) := by
    simp only [hostOps0, List.take_succ_cons, List.take_zero]
    after_results_simp
    intro e
    exact (congrArg BitVec.toInt (tableRow_read 1 ![1, 0] rfl rfl _ _ _ e)).trans (hD e)
  generalize StableHlo.after (List.take 4 hostOps0) W = V1 at s1 s3 ⊢
  -- stage 2: the degree and its reciprocal square root
  rw [after_split 10 (List.drop 4 hostOps0) V1]
  have d10 : ∀ n : Fin 10000, (StableHlo.after (List.take 10 (List.drop 4 hostOps0)) V1 (Proc.devRef .tc main_v10)
      : FVec Ideal S10000 .f32) (ix1 n) = Spec.dinv dst n := by
    simp only [hostOps0, List.drop_succ_cons, List.drop_zero, List.take_succ_cons, List.take_zero]
    after_results_simp
    intro n
    exact dinv_read dst _ s3 _ rfl rfl rfl rfl _ _ _ n
  have k1 : StableHlo.after (List.take 10 (List.drop 4 hostOps0)) V1 (Proc.devRef .tc main_v1)
      = V1 (Proc.devRef .tc main_v1) := by
    simp only [hostOps0, List.drop_succ_cons, List.drop_zero, List.take_succ_cons, List.take_zero]
    after_results_simp
  have k3 : StableHlo.after (List.take 10 (List.drop 4 hostOps0)) V1 (Proc.devRef .tc main_v3)
      = V1 (Proc.devRef .tc main_v3) := by
    simp only [hostOps0, List.drop_succ_cons, List.drop_zero, List.take_succ_cons, List.take_zero]
    after_results_simp
  rw [← k1] at s1
  rw [← k3] at s3
  generalize StableHlo.after (List.take 10 (List.drop 4 hostOps0)) V1 = V2 at s1 s3 d10 ⊢
  clear k1 k3 V1
  -- stage 3: the edges' weights, the index pairs' columns, the zero matrix, the diagonal's updates
  rw [after_split 38 (List.drop 10 (List.drop 4 hostOps0)) V2]
  have z27 : ∀ n m : Fin 10000, (StableHlo.after (List.take 38 (List.drop 10 (List.drop 4 hostOps0))) V2
      (Proc.devRef .tc main_v27) : FVec Ideal S10000x10000 .f32) (ix2 n m) = (0 : EReal) := by
    simp only [hostOps0, List.drop_succ_cons, List.drop_zero, List.take_succ_cons, List.take_zero]
    after_results_simp
    intro n m
    exact (scalar_read _ _ _).trans Ideal.ofBits_zero_f32
  have w38 : ∀ (e : Fin 320000) (z : Fin 1), ((StableHlo.after (List.take 38 (List.drop 10 (List.drop 4 hostOps0))) V2
      (Proc.devRef .tc main_v38) : IVec S320000x1 32) (ix2 e z)).toInt = ((dst e).val : Int) := by
    simp only [hostOps0, List.drop_succ_cons, List.drop_zero, List.take_succ_cons, List.take_zero]
    after_results_simp
    intro e z
    exact wrapcol_toInt _ dst s3 _ _ _ _ e z
  have w39 : ∀ (e : Fin 320000) (z : Fin 1), ((StableHlo.after (List.take 38 (List.drop 10 (List.drop 4 hostOps0))) V2
      (Proc.devRef .tc main_v39) : IVec S320000x1 32) (ix2 e z)).toInt = ((src e).val : Int) := by
    simp only [hostOps0, List.drop_succ_cons, List.drop_zero, List.take_succ_cons, List.take_zero]
    after_results_simp
    intro e z
    exact wrapcol_toInt _ src s1 _ _ _ _ e z
  have n25 : ∀ e : Fin 320000, (StableHlo.after (List.take 38 (List.drop 10 (List.drop 4 hostOps0))) V2
      (Proc.devRef .tc main_v25) : FVec Ideal S320000 .f32) (ix1 e) = Spec.norm src dst e := by
    simp only [hostOps0, List.drop_succ_cons, List.drop_zero, List.take_succ_cons, List.take_zero]
    after_results_simp
    intro e
    refine (congrArg₂ (fun a b : EReal => a * b)
      (gather_node_read _ _ src s1 _ rfl rfl rfl rfl rfl rfl rfl _ _ _ _ e)
      (gather_node_read _ _ dst s3 _ rfl rfl rfl rfl rfl rfl rfl _ _ _ _ e)).trans ?_
    rw [d10, d10]
    rfl
  have q26 : ∀ k : Fin 10000, (StableHlo.after (List.take 38 (List.drop 10 (List.drop 4 hostOps0))) V2
      (Proc.devRef .tc main_v26) : FVec Ideal S10000 .f32) (ix1 k) = Spec.dinv dst k * Spec.dinv dst k := by
    simp only [hostOps0, List.drop_succ_cons, List.drop_zero, List.take_succ_cons, List.take_zero]
    after_results_simp
    intro k
    exact congrArg₂ (fun a b : EReal => a * b) (d10 k) (d10 k)
  generalize StableHlo.after (List.take 38 (List.drop 10 (List.drop 4 hostOps0))) V2 = V3 at z27 w38 w39 n25 q26 ⊢
  clear s1 s3 d10 V2
  -- stage 4: the edges' weights accumulated at (dst, src); the diagonal's index pairs
  rw [after_split 19 (List.drop 38 (List.drop 10 (List.drop 4 hostOps0))) V3]
  have m41 : ∀ n m : Fin 10000, (StableHlo.after (List.take 19 (List.drop 38 (List.drop 10 (List.drop 4 hostOps0)))) V3
      (Proc.devRef .tc main_v41) : FVec Ideal S10000x10000 .f32) (ix2 n m)
      = ∑ e ∈ Finset.univ.filter (fun e : Fin 320000 => dst e = n ∧ src e = m), Spec.norm src dst e := by
    simp only [hostOps0, List.drop_succ_cons, List.drop_zero, List.take_succ_cons, List.take_zero]
    after_results_simp
    intro n m
    refine (pairs_scatter_read _ _ _ _ dst src w38 w39 _ rfl rfl rfl rfl _ n m).trans ?_
    rw [z27, zero_add]
    exact Finset.sum_congr rfl fun e _ => n25 e
  have i53 : ∀ (k : Fin 10000) (z : Fin 1), ((StableHlo.after (List.take 19 (List.drop 38 (List.drop 10 (List.drop 4 hostOps0)))) V3
      (Proc.devRef .tc main_v53) : IVec S10000x1 32) (ix2 k z)).toInt = (k.val : Int) := by
    simp only [hostOps0, List.drop_succ_cons, List.drop_zero, List.take_succ_cons, List.take_zero]
    after_results_simp
    intro k z
    exact wrapcol_toInt _ (fun k => k) (iota_toInt (by norm_num)) _ _ _ _ k z
  have i54 : ∀ (k : Fin 10000) (z : Fin 1), ((StableHlo.after (List.take 19 (List.drop 38 (List.drop 10 (List.drop 4 hostOps0)))) V3
      (Proc.devRef .tc main_v54) : IVec S10000x1 32) (ix2 k z)).toInt = (k.val : Int) := by
    simp only [hostOps0, List.drop_succ_cons, List.drop_zero, List.take_succ_cons, List.take_zero]
    after_results_simp
    intro k z
    exact wrapcol_toInt _ (fun k => k) (iota_toInt (by norm_num)) _ _ _ _ k z
  have k26 : StableHlo.after (List.take 19 (List.drop 38 (List.drop 10 (List.drop 4 hostOps0)))) V3 (Proc.devRef .tc main_v26)
      = V3 (Proc.devRef .tc main_v26) := by
    simp only [hostOps0, List.drop_succ_cons, List.drop_zero, List.take_succ_cons, List.take_zero]
    after_results_simp
  rw [← k26] at q26
  generalize StableHlo.after (List.take 19 (List.drop 38 (List.drop 10 (List.drop 4 hostOps0)))) V3 = V4 at m41 i53 i54 q26 ⊢
  clear k26 z27 w38 w39 n25 V3
  -- stage 5: dinv² accumulated on the diagonal; the format change keeps the number
  simp only [hostOps0, List.drop_succ_cons, List.drop_zero]
  after_results_simp
  funext i
  obtain ⟨n, m, rfl⟩ : ∃ (n m : Fin 10000), i = ix2 n m := ⟨i 0, i 1, eq_ix2 i⟩
  rw [truncf_apply]
  refine (diag_scatter_read _ _ _ _ i53 i54 _ rfl rfl rfl rfl _ n m).trans ?_
  rw [m41]
  show _ = Spec.adjAt src dst n m
  unfold Spec.adjAt
  exact congrArg (fun t : EReal => (∑ e ∈ Finset.univ.filter (fun e : Fin 320000 => dst e = n ∧ src e = m),
    Spec.norm src dst e) + t) (Finset.sum_congr rfl fun k _ => q26 k)

/-- The input weights, transposed. -/
theorem host0_wT : StableHlo.after hostOps0 W (Proc.devRef .tc main_v59) = Spec.transp (W (Proc.devRef .tc main_arg2)) := by
  dsimp only [hostOps0]
  after_results_simp
  funext i
  rw [truncf_apply]
  exact transp_read _ _ i

/-- The input bias as a row. -/
theorem host0_b : StableHlo.after hostOps0 W (Proc.devRef .tc main_v60) = Spec.row1 (W (Proc.devRef .tc main_arg3)) := by
  dsimp only [hostOps0]
  after_results_simp
  funext i
  exact row_read _ _ i

end Cert.Gcn.K

end
-- ==== Proof.KHostSmall.lean ====
/-
  The short stretches of host operations between the launches, read as functions of the arguments: each layer's
  transposed weights and zero bias row, each layer's folded scale and shift, and the head's transposed weights and
  bias rows.
-/
import proofs.«424132_j19705309954162_2_alg».proof.Proof.Gen.KernelIdeal.Launch
import proofs.«424132_j19705309954162_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.Gcn.K

open Idealize.ShloMosaic Idealize.ShloMosaic.TcCoe Idealize.SL.Sem Idealize.ShloMosaic.ValueIdx
open Cert.KernelIdeal Cert.KernelIdeal.Gen Cert.Gcn

variable (W : Valuation τ sig (Elt Ideal))

/-! ## The layout operations of these stretches, read at an index -/

/-- A vector recast as a one-row matrix: entry (0, c) is the vector's entry c (both sit at row-major position c). -/
private theorem cast_row {n : Nat} (v : (⟨1, ![n]⟩ : Shape).Idx → EReal)
    (h : (⟨1, ![n]⟩ : Shape).ShapeCasts ⟨2, ![1, n]⟩) (i : (⟨2, ![1, n]⟩ : Shape).Idx) :
    shapeCast ⟨2, ![1, n]⟩ v h i = v (ix1 (i 1)) := by
  refine shapeCast_apply v h i (ix1 (i 1)) ?_
  rw [Shape.rowMajor_val_one, Shape.rowMajor_val_two]
  have h0 : (i 0).val < 1 := idx2_lt0 i
  have e0 : (i 0).val = 0 := by omega
  show (i 1).val = (i 0).val * n + (i 1).val
  rw [e0, Nat.zero_mul, Nat.zero_add]

/-- A one-row matrix recast as a vector: entry c is the matrix's entry (0, c). -/
private theorem cast_vec {n : Nat} (r : (⟨2, ![1, n]⟩ : Shape).Idx → EReal)
    (h : (⟨2, ![1, n]⟩ : Shape).ShapeCasts ⟨1, ![n]⟩) (i : (⟨1, ![n]⟩ : Shape).Idx) :
    shapeCast ⟨1, ![n]⟩ r h i = r (ix2 0 (i 0)) := by
  refine shapeCast_apply r h i (ix2 0 (i 0)) ?_
  rw [Shape.rowMajor_val_one, Shape.rowMajor_val_two]
  show (0 : Nat) * n + (i 0).val = (i 0).val
  rw [Nat.zero_mul, Nat.zero_add]

/-- The transpose of a matrix read at (p, q) is the matrix at (q, p). -/
private theorem transpose_ix2 {a b : Nat} (x : (⟨2, ![a, b]⟩ : Shape).Idx → EReal)
    (h : (⟨2, ![a, b]⟩ : Shape).Transposes [1, 0] ⟨2, ![b, a]⟩) (i : (⟨2, ![b, a]⟩ : Shape).Idx) :
    transpose ⟨2, ![b, a]⟩ [1, 0] x h i = x (ix2 (i 1) (i 0)) :=
  transpose_apply [1, 0] x h i (ix2 (i 1) (i 0)) (fun c => match c with | ⟨0, _⟩ => rfl | ⟨1, _⟩ => rfl)

/-- Row `l` of a three-row matrix, sliced out (offsets `(l, 0)`) and recast as a vector: entry c is the matrix's
    entry (l, c). -/
private theorem rowvec_apply (l : Fin 3) (off : Fin 2 → Nat) (h : S3x256.Slices off S1x256) (h0 : off 0 = l.val)
    (h1 : off 1 = 0) (x : FVec Ideal S3x256 .f32) (i : S256.Idx) :
    shapeCast S256 (extractStridedSlice S1x256 off x h) shapeCasts_S1x256_S256 i = x (ix2 l (i 0)) := by
  refine (cast_vec _ shapeCasts_S1x256_S256 i).trans ?_
  exact extractStridedSlice_apply off x h (ix2 0 (i 0)) (ix2 l (i 0)) (fun c => match c with
    | ⟨0, _⟩ => by show l.val = off 0 + 0; omega
    | ⟨1, _⟩ => by show (i 0).val = off 1 + (i 0).val; omega)

/-- The constant `c` spread over a vector reads `c`'s value at every entry. -/
private theorem splat_apply (c : BitVec 32) (i : S256.Idx) :
    broadcastInDim S256 ![] bcast_S_S256 (constant (F := Ideal) S_ .f32 c) i = Ideal.ofBits .f32 c :=
  broadcastInDim_apply _ bcast_S_S256 _ i ix0 (fun c => c.elim0)

/-! ## The three shapes of stretch -/

/-- Block `l` of the stack of weights (offsets `(l, 0, 0)`), its unit axis dropped, transposed; the change of format
    keeps every entry. Entry (p, q) of the result is the stack's entry (l, q, p). -/
private theorem weights_eq (l : Fin 3) (off : Fin 3 → Nat) (h : S3x256x256.Slices off S1x256x256) (h0 : off 0 = l.val)
    (h1 : off 1 = 0) (h2 : off 2 = 0) (x : FVec Ideal S3x256x256 .f32) :
    truncf .bf16 (transpose S256x256 [1, 0]
        (shapeCast S256x256 (extractStridedSlice S1x256x256 off x h) shapeCasts_S1x256x256_S256x256)
        transposes_S256x256_S256x256_1_0) bitsLt_bf16_f32
      = Spec.transp (Spec.gslice l x) := by
  funext i
  obtain ⟨p, q, rfl⟩ : ∃ (p q : Fin 256), i = ix2 p q := ⟨i 0, i 1, eq_ix2 i⟩
  rw [truncf_apply]
  refine (transpose_ix2 _ transposes_S256x256_S256x256_1_0 (ix2 p q)).trans ?_
  refine (shapeCast_apply _ shapeCasts_S1x256x256_S256x256 (ix2 q p) (ix3 0 q p) ?_).trans ?_
  · rw [Shape.rowMajor_val_three, Shape.rowMajor_val_two]
    show ((0 : Nat) * 256 + q.val) * 256 + p.val = q.val * 256 + p.val
    omega
  exact extractStridedSlice_apply off x h (ix3 0 q p) (ix3 l q p) (fun c => match c with
    | ⟨0, _⟩ => by show l.val = off 0 + 0; omega
    | ⟨1, _⟩ => by show q.val = off 1 + q.val; omega
    | ⟨2, _⟩ => by show p.val = off 2 + p.val; omega)

/-- The folded scale in the operations' own order: row `l` of gamma times the reciprocal square root of row `l` of the
    variance plus the guard. -/
private abbrev scaleVec (off : Fin 2 → Nat) (h : S3x256.Slices off S1x256) (g v : FVec Ideal S3x256 .f32) : FVec Ideal S256 .f32 :=
  mulf (shapeCast S256 (extractStridedSlice S1x256 off g h) shapeCasts_S1x256_S256)
    (Host.rsqrt (addf (shapeCast S256 (extractStridedSlice S1x256 off v h) shapeCasts_S1x256_S256)
      (broadcastInDim S256 ![] bcast_S_S256 (constant (F := Ideal) S_ .f32 0x3727C5AC#32))))

/-- Its entry c: gamma (l, c) over the square root of the guarded variance (l, c); the guard's word is `Spec.eps` by
    definition. -/
private theorem scaleVec_apply (l : Fin 3) (off : Fin 2 → Nat) (h : S3x256.Slices off S1x256) (h0 : off 0 = l.val)
    (h1 : off 1 = 0) (g v : FVec Ideal S3x256 .f32) (i : S256.Idx) :
    scaleVec off h g v i = g (ix2 l (i 0)) * Ideal.rsqrt (v (ix2 l (i 0)) + Spec.eps) := by
  unfold scaleVec Host.rsqrt Spec.eps
  rw [mulf_apply, Ideal.hostUnary_rsqrt_def, addf_apply, rowvec_apply l off h h0 h1 g, rowvec_apply l off h h0 h1 v,
    splat_apply]

/-- The scale as a row is `Spec.scaleK`. -/
private theorem scale_eq (l : Fin 3) (off : Fin 2 → Nat) (h : S3x256.Slices off S1x256) (h0 : off 0 = l.val)
    (h1 : off 1 = 0) (g v : FVec Ideal S3x256 .f32) :
    shapeCast S1x256 (scaleVec off h g v) shapeCasts_S256_S1x256 = Spec.scaleK l g v := by
  funext i
  rw [cast_row, scaleVec_apply l off h h0 h1]
  rfl

/-- The shift as a row is `Spec.shiftK`: the bias row times the scale, plus beta's row, minus the mean's row times the
    scale, entry by entry in that order. -/
private theorem shift_eq (l : Fin 3) (off : Fin 2 → Nat) (h : S3x256.Slices off S1x256) (h0 : off 0 = l.val)
    (h1 : off 1 = 0) (b g be m v : FVec Ideal S3x256 .f32) :
    shapeCast S1x256
        (subf (addf (mulf (shapeCast S256 (extractStridedSlice S1x256 off b h) shapeCasts_S1x256_S256) (scaleVec off h g v))
            (shapeCast S256 (extractStridedSlice S1x256 off be h) shapeCasts_S1x256_S256))
          (mulf (shapeCast S256 (extractStridedSlice S1x256 off m h) shapeCasts_S1x256_S256) (scaleVec off h g v)))
        shapeCasts_S256_S1x256
      = Spec.shiftK l b g be m v := by
  funext i
  rw [cast_row, subf_apply, addf_apply, mulf_apply, mulf_apply, scaleVec_apply l off h h0 h1,
    rowvec_apply l off h h0 h1 b, rowvec_apply l off h h0 h1 be, rowvec_apply l off h h0 h1 m]
  rfl

/-- A vector recast as a one-row matrix is `Spec.row1` of it. -/
private theorem row_eq {n : Nat} (v : FVec Ideal ⟨1, ![n]⟩ .f32) (h : (⟨1, ![n]⟩ : Shape).ShapeCasts ⟨2, ![1, n]⟩) :
    shapeCast ⟨2, ![1, n]⟩ v h = Spec.row1 v :=
  funext fun i => cast_row v h i

/-- The transpose of a matrix, its format changed (which keeps every entry), is `Spec.transp` of it. -/
private theorem transp_eq {a b : Nat} (x : FVec Ideal ⟨2, ![a, b]⟩ .f32)
    (h : (⟨2, ![a, b]⟩ : Shape).Transposes [1, 0] ⟨2, ![b, a]⟩) :
    truncf .bf16 (transpose ⟨2, ![b, a]⟩ [1, 0] x h) bitsLt_bf16_f32 = Spec.transp x := by
  funext i
  rw [truncf_apply, transpose_ix2]
  rfl

/-- The zero word spread over a vector is the zero vector. -/
private theorem zvec_eq :
    broadcastInDim S256 ![] bcast_S_S256 (constant (F := Ideal) S_ .f32 0x00000000#32) = fun _ => (0 : EReal) := by
  funext i
  rw [splat_apply, Ideal.ofBits_zero_f32]

/-- The zero vector recast as a row is the zero row. -/
private theorem zrow_eq (v : FVec Ideal S256 .f32) (hv : v = fun _ => (0 : EReal)) :
    shapeCast S1x256 v shapeCasts_S256_S1x256 = Spec.zrow := by
  funext i
  rw [cast_row, hv]
  rfl

/-- Layer 0's weights, sliced out of the stack and transposed. -/
theorem host1_w : StableHlo.after hostOps1 W (Proc.devRef .tc main_v66)
    = Spec.transp (Spec.gslice 0 (W (Proc.devRef .tc main_arg4))) := by
  after_results
  exact weights_eq 0 ![0, 0, 0] slices_S3x256x256_S1x256x256_0_0_0 rfl rfl rfl _

/-- The zero bias vector. -/
theorem host1_zvec : StableHlo.after hostOps1 W (Proc.devRef .tc main_v62) = fun _ => (0 : EReal) := by
  after_results
  exact zvec_eq

/-- The zero bias as a row. -/
theorem host1_z : StableHlo.after hostOps1 W (Proc.devRef .tc main_v67) = Spec.zrow := by
  after_results
  exact zrow_eq _ zvec_eq

/-- Layer 0's folded scale as a row. -/
theorem host2_scale : StableHlo.after hostOps2 W (Proc.devRef .tc main_v87)
    = Spec.scaleK 0 (W (Proc.devRef .tc main_arg6)) (W (Proc.devRef .tc main_arg9)) := by
  after_results_simp
  exact scale_eq 0 ![0, 0] slices_S3x256_S1x256_0_0 rfl rfl _ _

/-- Layer 0's folded shift as a row. -/
theorem host2_shift : StableHlo.after hostOps2 W (Proc.devRef .tc main_v88)
    = Spec.shiftK 0 (W (Proc.devRef .tc main_arg5)) (W (Proc.devRef .tc main_arg6)) (W (Proc.devRef .tc main_arg7))
        (W (Proc.devRef .tc main_arg8)) (W (Proc.devRef .tc main_arg9)) := by
  after_results_simp
  exact shift_eq 0 ![0, 0] slices_S3x256_S1x256_0_0 rfl rfl _ _ _ _ _

/-- Layer 1's weights, sliced out of the stack and transposed. -/
theorem host3_w : StableHlo.after hostOps3 W (Proc.devRef .tc main_v93)
    = Spec.transp (Spec.gslice 1 (W (Proc.devRef .tc main_arg4))) := by
  after_results
  exact weights_eq 1 ![1, 0, 0] slices_S3x256x256_S1x256x256_1_0_0 rfl rfl rfl _

/-- The zero bias as a row, from the zero bias vector computed earlier. -/
theorem host3_z (hz : W (Proc.devRef .tc main_v62) = fun _ => (0 : EReal)) :
    StableHlo.after hostOps3 W (Proc.devRef .tc main_v94) = Spec.zrow := by
  after_results
  exact zrow_eq _ hz

/-- Layer 1's folded scale as a row. -/
theorem host4_scale : StableHlo.after hostOps4 W (Proc.devRef .tc main_v114)
    = Spec.scaleK 1 (W (Proc.devRef .tc main_arg6)) (W (Proc.devRef .tc main_arg9)) := by
  after_results_simp
  exact scale_eq 1 ![1, 0] slices_S3x256_S1x256_1_0 rfl rfl _ _

/-- Layer 1's folded shift as a row. -/
theorem host4_shift : StableHlo.after hostOps4 W (Proc.devRef .tc main_v115)
    = Spec.shiftK 1 (W (Proc.devRef .tc main_arg5)) (W (Proc.devRef .tc main_arg6)) (W (Proc.devRef .tc main_arg7))
        (W (Proc.devRef .tc main_arg8)) (W (Proc.devRef .tc main_arg9)) := by
  after_results_simp
  exact shift_eq 1 ![1, 0] slices_S3x256_S1x256_1_0 rfl rfl _ _ _ _ _

/-- Layer 2's weights, sliced out of the stack and transposed. -/
theorem host5_w : StableHlo.after hostOps5 W (Proc.devRef .tc main_v120)
    = Spec.transp (Spec.gslice 2 (W (Proc.devRef .tc main_arg4))) := by
  after_results
  exact weights_eq 2 ![2, 0, 0] slices_S3x256x256_S1x256x256_2_0_0 rfl rfl rfl _

/-- The zero bias as a row, from the zero bias vector computed earlier. -/
theorem host5_z (hz : W (Proc.devRef .tc main_v62) = fun _ => (0 : EReal)) :
    StableHlo.after hostOps5 W (Proc.devRef .tc main_v121) = Spec.zrow := by
  after_results
  exact zrow_eq _ hz

/-- Layer 2's folded scale as a row. -/
theorem host6_scale : StableHlo.after hostOps6 W (Proc.devRef .tc main_v141)
    = Spec.scaleK 2 (W (Proc.devRef .tc main_arg6)) (W (Proc.devRef .tc main_arg9)) := by
  after_results_simp
  exact scale_eq 2 ![2, 0] slices_S3x256_S1x256_2_0 rfl rfl _ _

/-- Layer 2's folded shift as a row. -/
theorem host6_shift : StableHlo.after hostOps6 W (Proc.devRef .tc main_v142)
    = Spec.shiftK 2 (W (Proc.devRef .tc main_arg5)) (W (Proc.devRef .tc main_arg6)) (W (Proc.devRef .tc main_arg7))
        (W (Proc.devRef .tc main_arg8)) (W (Proc.devRef .tc main_arg9)) := by
  after_results_simp
  exact shift_eq 2 ![2, 0] slices_S3x256_S1x256_2_0 rfl rfl _ _ _ _ _

/-- The head's first weights, transposed. -/
theorem host7_w1 : StableHlo.after hostOps7 W (Proc.devRef .tc main_v145) = Spec.transp (W (Proc.devRef .tc main_arg10)) := by
  after_results
  exact transp_eq _ _
/-- The head's second weights, transposed. -/
theorem host7_w2 : StableHlo.after hostOps7 W (Proc.devRef .tc main_v147) = Spec.transp (W (Proc.devRef .tc main_arg12)) := by
  after_results
  exact transp_eq _ _
/-- The head's third weights, transposed. -/
theorem host7_w3 : StableHlo.after hostOps7 W (Proc.devRef .tc main_v149) = Spec.transp (W (Proc.devRef .tc main_arg14)) := by
  after_results
  exact transp_eq _ _
/-- The head's first bias as a row. -/
theorem host7_b1 : StableHlo.after hostOps7 W (Proc.devRef .tc main_v150) = Spec.row1 (W (Proc.devRef .tc main_arg11)) := by
  after_results
  exact row_eq _ _
/-- The head's second bias as a row. -/
theorem host7_b2 : StableHlo.after hostOps7 W (Proc.devRef .tc main_v151) = Spec.row1 (W (Proc.devRef .tc main_arg13)) := by
  after_results
  exact row_eq _ _
/-- The head's third bias as a row. -/
theorem host7_b3 : StableHlo.after hostOps7 W (Proc.devRef .tc main_v152) = Spec.row1 (W (Proc.devRef .tc main_arg15)) := by
  after_results
  exact row_eq _ _

end Cert.Gcn.K

end
-- ==== Proof.KChain.lean ====
/-
  The result array at the last boundary, walked back through the launches and the host stretches to the arguments:
  it is the network `Spec.knet` of the argument arrays.

  Each launch's output array is its region function of the arrays it read (RegLin, RegAgg, RegMlp); each array a
  launch reads was written by an earlier launch, by a host stretch (KHostAdj, KHostSmall) or is an argument; a buffer
  that a launch or stretch does not write is unchanged across it.

  The lemmas below go boundary by boundary. `W0` is the launch memory, `W(2k+1)` the contents after the k-th host
  stretch (launch k's entry) and `W(2k+2)` the contents at launch k's exit. A lemma `b_Wj` says what buffer `b`
  holds at boundary `Wj`, as a term of the specification over the launch memory's argument arrays.
-/
import proofs.«424132_j19705309954162_2_alg».proof.Proof.Gen.KernelIdeal.Frame
import proofs.«424132_j19705309954162_2_alg».proof.Proof.Spec
import proofs.«424132_j19705309954162_2_alg».proof.Proof.RegLin
import proofs.«424132_j19705309954162_2_alg».proof.Proof.RegAgg
import proofs.«424132_j19705309954162_2_alg».proof.Proof.RegMlp
import proofs.«424132_j19705309954162_2_alg».proof.Proof.KHostAdj
import proofs.«424132_j19705309954162_2_alg».proof.Proof.KHostSmall

noncomputable section

namespace Cert.Gcn.K

open Idealize.ShloMosaic Idealize.ShloMosaic.TcCoe Idealize.SL.Sem Idealize.ShloMosaic.ValueIdx
open Cert.KernelIdeal Cert.KernelIdeal.Gen Cert.Gcn

variable (m : (ℓ : Loc nD τ sig) → Buf (Elt Ideal) ℓ) (ρ : Dev nD → PrngReg)

-- Which buffer a launch's w-th array is, and which shape it has, is found by evaluating the launch's window table;
-- the lemmas over four and more windows need more than the default budget for it.
set_option maxHeartbeats 1000000

namespace Chain

/-- A stretch of host operations leaves a buffer that none of its operations writes: every operation's written
    set is a singleton, and the buffer differs from each. -/
local macro "hostKeeps " ops:ident b:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Names for the terms of the specification at the launch memory -/

/-- Argument `b` on core `c`, as the launch memory holds it. -/
abbrev arg (c : Dev nD) (b : Ref sig .tc) : Buf (Elt Ideal) ((c.tc : Thread nD τ).loc b) :=
  m ((c.tc : Thread nD τ).loc b)

section Hidden
variable (c : Dev nD) (src dst : Fin Spec.NE → Fin Spec.NN)

/-- The input projection of the argument arrays. -/
abbrev hid0 : Spec.A2 10000 256 := Spec.kh0 (arg m c main_arg0) (arg m c main_arg2) (arg m c main_arg3)
/-- The first graph layer's output. -/
abbrev hid1 : Spec.A2 10000 256 :=
  Spec.kh1 src dst (arg m c main_arg0) (arg m c main_arg2) (arg m c main_arg3) (arg m c main_arg4) (arg m c main_arg5) (arg m c main_arg6) (arg m c main_arg7) (arg m c main_arg8) (arg m c main_arg9)
/-- The second graph layer's output. -/
abbrev hid2 : Spec.A2 10000 256 :=
  Spec.kh2 src dst (arg m c main_arg0) (arg m c main_arg2) (arg m c main_arg3) (arg m c main_arg4) (arg m c main_arg5) (arg m c main_arg6) (arg m c main_arg7) (arg m c main_arg8) (arg m c main_arg9)
/-- The third graph layer's output. -/
abbrev hid3 : Spec.A2 10000 256 :=
  Spec.kh3 src dst (arg m c main_arg0) (arg m c main_arg2) (arg m c main_arg3) (arg m c main_arg4) (arg m c main_arg5) (arg m c main_arg6) (arg m c main_arg7) (arg m c main_arg8) (arg m c main_arg9)
/-- Layer `l`'s folded scale row. -/
abbrev scl (l : Fin 3) : Spec.A2 1 256 := Spec.scaleK l (arg m c main_arg6) (arg m c main_arg9)
/-- Layer `l`'s folded shift row. -/
abbrev shf (l : Fin 3) : Spec.A2 1 256 := Spec.shiftK l (arg m c main_arg5) (arg m c main_arg6) (arg m c main_arg7) (arg m c main_arg8) (arg m c main_arg9)
/-- Layer `l`'s weights, transposed. -/
abbrev gwT (l : Fin 3) : Spec.A2 256 256 := Spec.transp (Spec.gslice l (arg m c main_arg4))

end Hidden

/-! ## The arguments, unchanged up to the boundaries where a host stretch reads them

No host operation writes an argument and only the first launch holds one (argument 0, as an input window). -/

section Args
variable (c : Dev nD)

theorem arg0_W1 : W1 m ρ c (Proc.devRef .tc main_arg0) = arg m c main_arg0 :=
  hostKeeps hostOps0 main_arg0

/-! ### The stacked layer weights: read by the host stretches before launches 1, 3 and 5 -/

theorem arg4_W2 : W2 m ρ c (Proc.devRef .tc main_arg4) = arg m c main_arg4 :=
  (W2_of_ne m ρ c main_arg4 (by decide)).trans (hostKeeps hostOps0 main_arg4)
theorem arg4_W6 : W6 m ρ c (Proc.devRef .tc main_arg4) = arg m c main_arg4 :=
  (W6_of_ne m ρ c main_arg4 (by decide)).trans <| (hostKeeps hostOps2 main_arg4).trans <|
    (W4_of_ne m ρ c main_arg4 (by decide)).trans <| (hostKeeps hostOps1 main_arg4).trans (arg4_W2 m ρ c)
theorem arg4_W10 : W10 m ρ c (Proc.devRef .tc main_arg4) = arg m c main_arg4 :=
  (W10_of_ne m ρ c main_arg4 (by decide)).trans <| (hostKeeps hostOps4 main_arg4).trans <|
    (W8_of_ne m ρ c main_arg4 (by decide)).trans <| (hostKeeps hostOps3 main_arg4).trans (arg4_W6 m ρ c)

/-! ### The layers' bias and normalisation parameters: read by the host stretches before launches 2, 4 and 6 -/

theorem arg5_W4 : W4 m ρ c (Proc.devRef .tc main_arg5) = arg m c main_arg5 :=
  (W4_of_ne m ρ c main_arg5 (by decide)).trans <| (hostKeeps hostOps1 main_arg5).trans <|
    (W2_of_ne m ρ c main_arg5 (by decide)).trans (hostKeeps hostOps0 main_arg5)
theorem arg6_W4 : W4 m ρ c (Proc.devRef .tc main_arg6) = arg m c main_arg6 :=
  (W4_of_ne m ρ c main_arg6 (by decide)).trans <| (hostKeeps hostOps1 main_arg6).trans <|
    (W2_of_ne m ρ c main_arg6 (by decide)).trans (hostKeeps hostOps0 main_arg6)
theorem arg7_W4 : W4 m ρ c (Proc.devRef .tc main_arg7) = arg m c main_arg7 :=
  (W4_of_ne m ρ c main_arg7 (by decide)).trans <| (hostKeeps hostOps1 main_arg7).trans <|
    (W2_of_ne m ρ c main_arg7 (by decide)).trans (hostKeeps hostOps0 main_arg7)
theorem arg8_W4 : W4 m ρ c (Proc.devRef .tc main_arg8) = arg m c main_arg8 :=
  (W4_of_ne m ρ c main_arg8 (by decide)).trans <| (hostKeeps hostOps1 main_arg8).trans <|
    (W2_of_ne m ρ c main_arg8 (by decide)).trans (hostKeeps hostOps0 main_arg8)
theorem arg9_W4 : W4 m ρ c (Proc.devRef .tc main_arg9) = arg m c main_arg9 :=
  (W4_of_ne m ρ c main_arg9 (by decide)).trans <| (hostKeeps hostOps1 main_arg9).trans <|
    (W2_of_ne m ρ c main_arg9 (by decide)).trans (hostKeeps hostOps0 main_arg9)

theorem arg5_W8 : W8 m ρ c (Proc.devRef .tc main_arg5) = arg m c main_arg5 :=
  (W8_of_ne m ρ c main_arg5 (by decide)).trans <| (hostKeeps hostOps3 main_arg5).trans <|
    (W6_of_ne m ρ c main_arg5 (by decide)).trans <| (hostKeeps hostOps2 main_arg5).trans (arg5_W4 m ρ c)
theorem arg6_W8 : W8 m ρ c (Proc.devRef .tc main_arg6) = arg m c main_arg6 :=
  (W8_of_ne m ρ c main_arg6 (by decide)).trans <| (hostKeeps hostOps3 main_arg6).trans <|
    (W6_of_ne m ρ c main_arg6 (by decide)).trans <| (hostKeeps hostOps2 main_arg6).trans (arg6_W4 m ρ c)
theorem arg7_W8 : W8 m ρ c (Proc.devRef .tc main_arg7) = arg m c main_arg7 :=
  (W8_of_ne m ρ c main_arg7 (by decide)).trans <| (hostKeeps hostOps3 main_arg7).trans <|
    (W6_of_ne m ρ c main_arg7 (by decide)).trans <| (hostKeeps hostOps2 main_arg7).trans (arg7_W4 m ρ c)
theorem arg8_W8 : W8 m ρ c (Proc.devRef .tc main_arg8) = arg m c main_arg8 :=
  (W8_of_ne m ρ c main_arg8 (by decide)).trans <| (hostKeeps hostOps3 main_arg8).trans <|
    (W6_of_ne m ρ c main_arg8 (by decide)).trans <| (hostKeeps hostOps2 main_arg8).trans (arg8_W4 m ρ c)
theorem arg9_W8 : W8 m ρ c (Proc.devRef .tc main_arg9) = arg m c main_arg9 :=
  (W8_of_ne m ρ c main_arg9 (by decide)).trans <| (hostKeeps hostOps3 main_arg9).trans <|
    (W6_of_ne m ρ c main_arg9 (by decide)).trans <| (hostKeeps hostOps2 main_arg9).trans (arg9_W4 m ρ c)

theorem arg5_W12 : W12 m ρ c (Proc.devRef .tc main_arg5) = arg m c main_arg5 :=
  (W12_of_ne m ρ c main_arg5 (by decide)).trans <| (hostKeeps hostOps5 main_arg5).trans <|
    (W10_of_ne m ρ c main_arg5 (by decide)).trans <| (hostKeeps hostOps4 main_arg5).trans (arg5_W8 m ρ c)
theorem arg6_W12 : W12 m ρ c (Proc.devRef .tc main_arg6) = arg m c main_arg6 :=
  (W12_of_ne m ρ c main_arg6 (by decide)).trans <| (hostKeeps hostOps5 main_arg6).trans <|
    (W10_of_ne m ρ c main_arg6 (by decide)).trans <| (hostKeeps hostOps4 main_arg6).trans (arg6_W8 m ρ c)
theorem arg7_W12 : W12 m ρ c (Proc.devRef .tc main_arg7) = arg m c main_arg7 :=
  (W12_of_ne m ρ c main_arg7 (by decide)).trans <| (hostKeeps hostOps5 main_arg7).trans <|
    (W10_of_ne m ρ c main_arg7 (by decide)).trans <| (hostKeeps hostOps4 main_arg7).trans (arg7_W8 m ρ c)
theorem arg8_W12 : W12 m ρ c (Proc.devRef .tc main_arg8) = arg m c main_arg8 :=
  (W12_of_ne m ρ c main_arg8 (by decide)).trans <| (hostKeeps hostOps5 main_arg8).trans <|
    (W10_of_ne m ρ c main_arg8 (by decide)).trans <| (hostKeeps hostOps4 main_arg8).trans (arg8_W8 m ρ c)
theorem arg9_W12 : W12 m ρ c (Proc.devRef .tc main_arg9) = arg m c main_arg9 :=
  (W12_of_ne m ρ c main_arg9 (by decide)).trans <| (hostKeeps hostOps5 main_arg9).trans <|
    (W10_of_ne m ρ c main_arg9 (by decide)).trans <| (hostKeeps hostOps4 main_arg9).trans (arg9_W8 m ρ c)

/-! ### The head's weights and biases: read by the host stretch before the last launch. They end as launched
    (the generated `W16_main_arg…`), and neither the last stretch nor the last launch writes them. -/

theorem arg10_W14 : W14 m ρ c (Proc.devRef .tc main_arg10) = arg m c main_arg10 :=
  ((hostKeeps hostOps7 main_arg10 :
      W15 m ρ c (Proc.devRef .tc main_arg10) = W14 m ρ c (Proc.devRef .tc main_arg10)).symm.trans
    (W16_of_ne m ρ c main_arg10 (by decide)).symm).trans (W16_main_arg10 m ρ c)
theorem arg11_W14 : W14 m ρ c (Proc.devRef .tc main_arg11) = arg m c main_arg11 :=
  ((hostKeeps hostOps7 main_arg11 :
      W15 m ρ c (Proc.devRef .tc main_arg11) = W14 m ρ c (Proc.devRef .tc main_arg11)).symm.trans
    (W16_of_ne m ρ c main_arg11 (by decide)).symm).trans (W16_main_arg11 m ρ c)
theorem arg12_W14 : W14 m ρ c (Proc.devRef .tc main_arg12) = arg m c main_arg12 :=
  ((hostKeeps hostOps7 main_arg12 :
      W15 m ρ c (Proc.devRef .tc main_arg12) = W14 m ρ c (Proc.devRef .tc main_arg12)).symm.trans
    (W16_of_ne m ρ c main_arg12 (by decide)).symm).trans (W16_main_arg12 m ρ c)
theorem arg13_W14 : W14 m ρ c (Proc.devRef .tc main_arg13) = arg m c main_arg13 :=
  ((hostKeeps hostOps7 main_arg13 :
      W15 m ρ c (Proc.devRef .tc main_arg13) = W14 m ρ c (Proc.devRef .tc main_arg13)).symm.trans
    (W16_of_ne m ρ c main_arg13 (by decide)).symm).trans (W16_main_arg13 m ρ c)
theorem arg14_W14 : W14 m ρ c (Proc.devRef .tc main_arg14) = arg m c main_arg14 :=
  ((hostKeeps hostOps7 main_arg14 :
      W15 m ρ c (Proc.devRef .tc main_arg14) = W14 m ρ c (Proc.devRef .tc main_arg14)).symm.trans
    (W16_of_ne m ρ c main_arg14 (by decide)).symm).trans (W16_main_arg14 m ρ c)
theorem arg15_W14 : W14 m ρ c (Proc.devRef .tc main_arg15) = arg m c main_arg15 :=
  ((hostKeeps hostOps7 main_arg15 :
      W15 m ρ c (Proc.devRef .tc main_arg15) = W14 m ρ c (Proc.devRef .tc main_arg15)).symm.trans
    (W16_of_ne m ρ c main_arg15 (by decide)).symm).trans (W16_main_arg15 m ρ c)

end Args

/-! ## The buffers the launches read and write, boundary by boundary -/

section Buffers
variable (c : Dev nD) (src dst : Fin Spec.NE → Fin Spec.NN)

/-! ### Launch 0: the input projection. It reads the input rows, the transposed input weights and the bias row. -/

theorem v59_W1 : W1 m ρ c (Proc.devRef .tc main_v59) = Spec.transp (arg m c main_arg2) :=
  host0_wT (W0 m ρ c)
theorem v60_W1 : W1 m ρ c (Proc.devRef .tc main_v60) = Spec.row1 (arg m c main_arg3) :=
  host0_b (W0 m ρ c)
theorem v57_W1 (hE : Spec.EdgesAre (m ((c.tc : Thread nD τ).loc main_arg1)) src dst) :
    W1 m ρ c (Proc.devRef .tc main_v57) = Spec.adj src dst :=
  host0_adj (W0 m ρ c) src dst hE

theorem v61_W2 : W2 m ρ c (Proc.devRef .tc main_v61) = hid0 m c := by
  have h := (W2_arr m ρ c 3).trans (reg0_value (V1 m ρ) c)
  have e0 : V1 m ρ c (Pipeline.arrRef spec0 0) = arg m c main_arg0 := arg0_W1 m ρ c
  have e1 : V1 m ρ c (Pipeline.arrRef spec0 1) = Spec.transp (arg m c main_arg2) := v59_W1 m ρ c
  have e2 : V1 m ρ c (Pipeline.arrRef spec0 2) = Spec.row1 (arg m c main_arg3) := v60_W1 m ρ c
  rw [e0, e1, e2] at h
  exact h
theorem v57_W2 (hE : Spec.EdgesAre (m ((c.tc : Thread nD τ).loc main_arg1)) src dst) :
    W2 m ρ c (Proc.devRef .tc main_v57) = Spec.adj src dst :=
  (W2_of_ne m ρ c main_v57 (by decide)).trans (v57_W1 m ρ c src dst hE)

/-! ### Launch 1: layer 0's linear map. Its weights are sliced and transposed and its zero bias row is made by
    the host stretch before it; that stretch also makes the zero bias vector the later layers reuse. -/

theorem v61_W3 : W3 m ρ c (Proc.devRef .tc main_v61) = hid0 m c :=
  (hostKeeps hostOps1 main_v61).trans (v61_W2 m ρ c)
theorem v66_W3 : W3 m ρ c (Proc.devRef .tc main_v66) = gwT m c 0 := by
  have h := host1_w (W2 m ρ c)
  rw [arg4_W2 m ρ c] at h
  exact h
theorem v67_W3 : W3 m ρ c (Proc.devRef .tc main_v67) = Spec.zrow :=
  host1_z (W2 m ρ c)
theorem v62_W3 : W3 m ρ c (Proc.devRef .tc main_v62) = fun _ => (0 : EReal) :=
  host1_zvec (W2 m ρ c)
theorem v57_W3 (hE : Spec.EdgesAre (m ((c.tc : Thread nD τ).loc main_arg1)) src dst) :
    W3 m ρ c (Proc.devRef .tc main_v57) = Spec.adj src dst :=
  (hostKeeps hostOps1 main_v57).trans (v57_W2 m ρ c src dst hE)

theorem v68_W4 : W4 m ρ c (Proc.devRef .tc main_v68) = Spec.rLin (hid0 m c) (gwT m c 0) Spec.zrow := by
  have h := (W4_arr m ρ c 3).trans (reg1_value (V3 m ρ) c)
  have e0 : V3 m ρ c (Pipeline.arrRef spec1 0) = hid0 m c := v61_W3 m ρ c
  have e1 : V3 m ρ c (Pipeline.arrRef spec1 1) = gwT m c 0 := v66_W3 m ρ c
  have e2 : V3 m ρ c (Pipeline.arrRef spec1 2) = Spec.zrow := v67_W3 m ρ c
  rw [e0, e1, e2] at h
  exact h
theorem v57_W4 (hE : Spec.EdgesAre (m ((c.tc : Thread nD τ).loc main_arg1)) src dst) :
    W4 m ρ c (Proc.devRef .tc main_v57) = Spec.adj src dst :=
  (W4_of_ne m ρ c main_v57 (by decide)).trans (v57_W3 m ρ c src dst hE)
theorem v62_W4 : W4 m ρ c (Proc.devRef .tc main_v62) = fun _ => (0 : EReal) :=
  (W4_of_ne m ρ c main_v62 (by decide)).trans (v62_W3 m ρ c)

/-! ### Launch 2: layer 0's aggregation. The host stretch before it folds the layer's scale and shift rows. -/

theorem v68_W5 : W5 m ρ c (Proc.devRef .tc main_v68) = Spec.rLin (hid0 m c) (gwT m c 0) Spec.zrow :=
  (hostKeeps hostOps2 main_v68).trans (v68_W4 m ρ c)
theorem v57_W5 (hE : Spec.EdgesAre (m ((c.tc : Thread nD τ).loc main_arg1)) src dst) :
    W5 m ρ c (Proc.devRef .tc main_v57) = Spec.adj src dst :=
  (hostKeeps hostOps2 main_v57).trans (v57_W4 m ρ c src dst hE)
theorem v62_W5 : W5 m ρ c (Proc.devRef .tc main_v62) = fun _ => (0 : EReal) :=
  (hostKeeps hostOps2 main_v62).trans (v62_W4 m ρ c)
theorem v87_W5 : W5 m ρ c (Proc.devRef .tc main_v87) = scl m c 0 := by
  have h := host2_scale (W4 m ρ c)
  rw [arg6_W4 m ρ c, arg9_W4 m ρ c] at h
  exact h
theorem v88_W5 : W5 m ρ c (Proc.devRef .tc main_v88) = shf m c 0 := by
  have h := host2_shift (W4 m ρ c)
  rw [arg5_W4 m ρ c, arg6_W4 m ρ c, arg7_W4 m ρ c, arg8_W4 m ρ c, arg9_W4 m ρ c] at h
  exact h

theorem v89_W6 (hE : Spec.EdgesAre (m ((c.tc : Thread nD τ).loc main_arg1)) src dst) :
    W6 m ρ c (Proc.devRef .tc main_v89) = hid1 m c src dst := by
  have h := (W6_arr m ρ c 4).trans (reg2_value (V5 m ρ) c)
  have e0 : V5 m ρ c (Pipeline.arrRef spec2 0) = Spec.adj src dst := v57_W5 m ρ c src dst hE
  have e1 : V5 m ρ c (Pipeline.arrRef spec2 1) = Spec.rLin (hid0 m c) (gwT m c 0) Spec.zrow := v68_W5 m ρ c
  have e2 : V5 m ρ c (Pipeline.arrRef spec2 2) = scl m c 0 := v87_W5 m ρ c
  have e3 : V5 m ρ c (Pipeline.arrRef spec2 3) = shf m c 0 := v88_W5 m ρ c
  rw [e0, e1, e2, e3] at h
  exact h
/-- The adjacency matrix is an input window of this launch: its array ends as it entered. -/
theorem v57_W6 (hE : Spec.EdgesAre (m ((c.tc : Thread nD τ).loc main_arg1)) src dst) :
    W6 m ρ c (Proc.devRef .tc main_v57) = Spec.adj src dst :=
  ((W6_arr m ρ c 0).trans (((dat2 (V5 m ρ) c).arrAt_in 0 rfl _).trans (A_eq2 (V5 m ρ) c 0))).trans
    (v57_W5 m ρ c src dst hE)
theorem v62_W6 : W6 m ρ c (Proc.devRef .tc main_v62) = fun _ => (0 : EReal) :=
  (W6_of_ne m ρ c main_v62 (by decide)).trans (v62_W5 m ρ c)

/-! ### Launch 3: layer 1's linear map -/

theorem v89_W7 (hE : Spec.EdgesAre (m ((c.tc : Thread nD τ).loc main_arg1)) src dst) :
    W7 m ρ c (Proc.devRef .tc main_v89) = hid1 m c src dst :=
  (hostKeeps hostOps3 main_v89).trans (v89_W6 m ρ c src dst hE)
theorem v93_W7 : W7 m ρ c (Proc.devRef .tc main_v93) = gwT m c 1 := by
  have h := host3_w (W6 m ρ c)
  rw [arg4_W6 m ρ c] at h
  exact h
theorem v94_W7 : W7 m ρ c (Proc.devRef .tc main_v94) = Spec.zrow :=
  host3_z (W6 m ρ c) (v62_W6 m ρ c)
theorem v57_W7 (hE : Spec.EdgesAre (m ((c.tc : Thread nD τ).loc main_arg1)) src dst) :
    W7 m ρ c (Proc.devRef .tc main_v57) = Spec.adj src dst :=
  (hostKeeps hostOps3 main_v57).trans (v57_W6 m ρ c src dst hE)
theorem v62_W7 : W7 m ρ c (Proc.devRef .tc main_v62) = fun _ => (0 : EReal) :=
  (hostKeeps hostOps3 main_v62).trans (v62_W6 m ρ c)

theorem v95_W8 (hE : Spec.EdgesAre (m ((c.tc : Thread nD τ).loc main_arg1)) src dst) :
    W8 m ρ c (Proc.devRef .tc main_v95) = Spec.rLin (hid1 m c src dst) (gwT m c 1) Spec.zrow := by
  have h := (W8_arr m ρ c 3).trans (reg3_value (V7 m ρ) c)
  have e0 : V7 m ρ c (Pipeline.arrRef spec3 0) = hid1 m c src dst := v89_W7 m ρ c src dst hE
  have e1 : V7 m ρ c (Pipeline.arrRef spec3 1) = gwT m c 1 := v93_W7 m ρ c
  have e2 : V7 m ρ c (Pipeline.arrRef spec3 2) = Spec.zrow := v94_W7 m ρ c
  rw [e0, e1, e2] at h
  exact h
/-- The layer's input is an input window of this launch: its array ends as it entered. -/
theorem v89_W8 (hE : Spec.EdgesAre (m ((c.tc : Thread nD τ).loc main_arg1)) src dst) :
    W8 m ρ c (Proc.devRef .tc main_v89) = hid1 m c src dst :=
  ((W8_arr m ρ c 0).trans (((dat3 (V7 m ρ) c).arrAt_in 0 rfl _).trans (A_eq3 (V7 m ρ) c 0))).trans
    (v89_W7 m ρ c src dst hE)
theorem v57_W8 (hE : Spec.EdgesAre (m ((c.tc : Thread nD τ).loc main_arg1)) src dst) :
    W8 m ρ c (Proc.devRef .tc main_v57) = Spec.adj src dst :=
  (W8_of_ne m ρ c main_v57 (by decide)).trans (v57_W7 m ρ c src dst hE)
theorem v62_W8 : W8 m ρ c (Proc.devRef .tc main_v62) = fun _ => (0 : EReal) :=
  (W8_of_ne m ρ c main_v62 (by decide)).trans (v62_W7 m ρ c)

/-! ### Launch 4: layer 1's aggregation, with the layer's input added back -/

theorem v95_W9 (hE : Spec.EdgesAre (m ((c.tc : Thread nD τ).loc main_arg1)) src dst) :
    W9 m ρ c (Proc.devRef .tc main_v95) = Spec.rLin (hid1 m c src dst) (gwT m c 1) Spec.zrow :=
  (hostKeeps hostOps4 main_v95).trans (v95_W8 m ρ c src dst hE)
theorem v89_W9 (hE : Spec.EdgesAre (m ((c.tc : Thread nD τ).loc main_arg1)) src dst) :
    W9 m ρ c (Proc.devRef .tc main_v89) = hid1 m c src dst :=
  (hostKeeps hostOps4 main_v89).trans (v89_W8 m ρ c src dst hE)
theorem v57_W9 (hE : Spec.EdgesAre (m ((c.tc : Thread nD τ).loc main_arg1)) src dst) :
    W9 m ρ c (Proc.devRef .tc main_v57) = Spec.adj src dst :=
  (hostKeeps hostOps4 main_v57).trans (v57_W8 m ρ c src dst hE)
theorem v62_W9 : W9 m ρ c (Proc.devRef .tc main_v62) = fun _ => (0 : EReal) :=
  (hostKeeps hostOps4 main_v62).trans (v62_W8 m ρ c)
theorem v114_W9 : W9 m ρ c (Proc.devRef .tc main_v114) = scl m c 1 := by
  have h := host4_scale (W8 m ρ c)
  rw [arg6_W8 m ρ c, arg9_W8 m ρ c] at h
  exact h
theorem v115_W9 : W9 m ρ c (Proc.devRef .tc main_v115) = shf m c 1 := by
  have h := host4_shift (W8 m ρ c)
  rw [arg5_W8 m ρ c, arg6_W8 m ρ c, arg7_W8 m ρ c, arg8_W8 m ρ c, arg9_W8 m ρ c] at h
  exact h

theorem v116_W10 (hE : Spec.EdgesAre (m ((c.tc : Thread nD τ).loc main_arg1)) src dst) :
    W10 m ρ c (Proc.devRef .tc main_v116) = hid2 m c src dst := by
  have h := (W10_arr m ρ c 5).trans (reg4_value (V9 m ρ) c)
  have e0 : V9 m ρ c (Pipeline.arrRef spec4 0) = Spec.adj src dst := v57_W9 m ρ c src dst hE
  have e1 : V9 m ρ c (Pipeline.arrRef spec4 1) = Spec.rLin (hid1 m c src dst) (gwT m c 1) Spec.zrow :=
    v95_W9 m ρ c src dst hE
  have e2 : V9 m ρ c (Pipeline.arrRef spec4 2) = scl m c 1 := v114_W9 m ρ c
  have e3 : V9 m ρ c (Pipeline.arrRef spec4 3) = shf m c 1 := v115_W9 m ρ c
  have e4 : V9 m ρ c (Pipeline.arrRef spec4 4) = hid1 m c src dst := v89_W9 m ρ c src dst hE
  rw [e0, e1, e2, e3, e4] at h
  exact h
theorem v57_W10 (hE : Spec.EdgesAre (m ((c.tc : Thread nD τ).loc main_arg1)) src dst) :
    W10 m ρ c (Proc.devRef .tc main_v57) = Spec.adj src dst :=
  ((W10_arr m ρ c 0).trans (((dat4 (V9 m ρ) c).arrAt_in 0 rfl _).trans (A_eq4 (V9 m ρ) c 0))).trans
    (v57_W9 m ρ c src dst hE)
theorem v62_W10 : W10 m ρ c (Proc.devRef .tc main_v62) = fun _ => (0 : EReal) :=
  (W10_of_ne m ρ c main_v62 (by decide)).trans (v62_W9 m ρ c)

/-! ### Launch 5: layer 2's linear map -/

theorem v116_W11 (hE : Spec.EdgesAre (m ((c.tc : Thread nD τ).loc main_arg1)) src dst) :
    W11 m ρ c (Proc.devRef .tc main_v116) = hid2 m c src dst :=
  (hostKeeps hostOps5 main_v116).trans (v116_W10 m ρ c src dst hE)
theorem v120_W11 : W11 m ρ c (Proc.devRef .tc main_v120) = gwT m c 2 := by
  have h := host5_w (W10 m ρ c)
  rw [arg4_W10 m ρ c] at h
  exact h
theorem v121_W11 : W11 m ρ c (Proc.devRef .tc main_v121) = Spec.zrow :=
  host5_z (W10 m ρ c) (v62_W10 m ρ c)
theorem v57_W11 (hE : Spec.EdgesAre (m ((c.tc : Thread nD τ).loc main_arg1)) src dst) :
    W11 m ρ c (Proc.devRef .tc main_v57) = Spec.adj src dst :=
  (hostKeeps hostOps5 main_v57).trans (v57_W10 m ρ c src dst hE)

theorem v122_W12 (hE : Spec.EdgesAre (m ((c.tc : Thread nD τ).loc main_arg1)) src dst) :
    W12 m ρ c (Proc.devRef .tc main_v122) = Spec.rLin (hid2 m c src dst) (gwT m c 2) Spec.zrow := by
  have h := (W12_arr m ρ c 3).trans (reg5_value (V11 m ρ) c)
  have e0 : V11 m ρ c (Pipeline.arrRef spec5 0) = hid2 m c src dst := v116_W11 m ρ c src dst hE
  have e1 : V11 m ρ c (Pipeline.arrRef spec5 1) = gwT m c 2 := v120_W11 m ρ c
  have e2 : V11 m ρ c (Pipeline.arrRef spec5 2) = Spec.zrow := v121_W11 m ρ c
  rw [e0, e1, e2] at h
  exact h
theorem v116_W12 (hE : Spec.EdgesAre (m ((c.tc : Thread nD τ).loc main_arg1)) src dst) :
    W12 m ρ c (Proc.devRef .tc main_v116) = hid2 m c src dst :=
  ((W12_arr m ρ c 0).trans (((dat5 (V11 m ρ) c).arrAt_in 0 rfl _).trans (A_eq5 (V11 m ρ) c 0))).trans
    (v116_W11 m ρ c src dst hE)
theorem v57_W12 (hE : Spec.EdgesAre (m ((c.tc : Thread nD τ).loc main_arg1)) src dst) :
    W12 m ρ c (Proc.devRef .tc main_v57) = Spec.adj src dst :=
  (W12_of_ne m ρ c main_v57 (by decide)).trans (v57_W11 m ρ c src dst hE)

/-! ### Launch 6: layer 2's aggregation, with the layer's input added back -/

theorem v122_W13 (hE : Spec.EdgesAre (m ((c.tc : Thread nD τ).loc main_arg1)) src dst) :
    W13 m ρ c (Proc.devRef .tc main_v122) = Spec.rLin (hid2 m c src dst) (gwT m c 2) Spec.zrow :=
  (hostKeeps hostOps6 main_v122).trans (v122_W12 m ρ c src dst hE)
theorem v116_W13 (hE : Spec.EdgesAre (m ((c.tc : Thread nD τ).loc main_arg1)) src dst) :
    W13 m ρ c (Proc.devRef .tc main_v116) = hid2 m c src dst :=
  (hostKeeps hostOps6 main_v116).trans (v116_W12 m ρ c src dst hE)
theorem v57_W13 (hE : Spec.EdgesAre (m ((c.tc : Thread nD τ).loc main_arg1)) src dst) :
    W13 m ρ c (Proc.devRef .tc main_v57) = Spec.adj src dst :=
  (hostKeeps hostOps6 main_v57).trans (v57_W12 m ρ c src dst hE)
theorem v141_W13 : W13 m ρ c (Proc.devRef .tc main_v141) = scl m c 2 := by
  have h := host6_scale (W12 m ρ c)
  rw [arg6_W12 m ρ c, arg9_W12 m ρ c] at h
  exact h
theorem v142_W13 : W13 m ρ c (Proc.devRef .tc main_v142) = shf m c 2 := by
  have h := host6_shift (W12 m ρ c)
  rw [arg5_W12 m ρ c, arg6_W12 m ρ c, arg7_W12 m ρ c, arg8_W12 m ρ c, arg9_W12 m ρ c] at h
  exact h

theorem v143_W14 (hE : Spec.EdgesAre (m ((c.tc : Thread nD τ).loc main_arg1)) src dst) :
    W14 m ρ c (Proc.devRef .tc main_v143) = hid3 m c src dst := by
  have h := (W14_arr m ρ c 5).trans (reg6_value (V13 m ρ) c)
  have e0 : V13 m ρ c (Pipeline.arrRef spec6 0) = Spec.adj src dst := v57_W13 m ρ c src dst hE
  have e1 : V13 m ρ c (Pipeline.arrRef spec6 1) = Spec.rLin (hid2 m c src dst) (gwT m c 2) Spec.zrow :=
    v122_W13 m ρ c src dst hE
  have e2 : V13 m ρ c (Pipeline.arrRef spec6 2) = scl m c 2 := v141_W13 m ρ c
  have e3 : V13 m ρ c (Pipeline.arrRef spec6 3) = shf m c 2 := v142_W13 m ρ c
  have e4 : V13 m ρ c (Pipeline.arrRef spec6 4) = hid2 m c src dst := v116_W13 m ρ c src dst hE
  rw [e0, e1, e2, e3, e4] at h
  exact h

/-! ### Launch 7: the head. The host stretch before it transposes the three weight matrices and makes the three
    bias rows. -/

theorem v143_W15 (hE : Spec.EdgesAre (m ((c.tc : Thread nD τ).loc main_arg1)) src dst) :
    W15 m ρ c (Proc.devRef .tc main_v143) = hid3 m c src dst :=
  (hostKeeps hostOps7 main_v143).trans (v143_W14 m ρ c src dst hE)
theorem v145_W15 : W15 m ρ c (Proc.devRef .tc main_v145) = Spec.transp (arg m c main_arg10) := by
  have h := host7_w1 (W14 m ρ c)
  rw [arg10_W14 m ρ c] at h
  exact h
theorem v150_W15 : W15 m ρ c (Proc.devRef .tc main_v150) = Spec.row1 (arg m c main_arg11) := by
  have h := host7_b1 (W14 m ρ c)
  rw [arg11_W14 m ρ c] at h
  exact h
theorem v147_W15 : W15 m ρ c (Proc.devRef .tc main_v147) = Spec.transp (arg m c main_arg12) := by
  have h := host7_w2 (W14 m ρ c)
  rw [arg12_W14 m ρ c] at h
  exact h
theorem v151_W15 : W15 m ρ c (Proc.devRef .tc main_v151) = Spec.row1 (arg m c main_arg13) := by
  have h := host7_b2 (W14 m ρ c)
  rw [arg13_W14 m ρ c] at h
  exact h
theorem v149_W15 : W15 m ρ c (Proc.devRef .tc main_v149) = Spec.transp (arg m c main_arg14) := by
  have h := host7_w3 (W14 m ρ c)
  rw [arg14_W14 m ρ c] at h
  exact h
theorem v152_W15 : W15 m ρ c (Proc.devRef .tc main_v152) = Spec.row1 (arg m c main_arg15) := by
  have h := host7_b3 (W14 m ρ c)
  rw [arg15_W14 m ρ c] at h
  exact h

end Buffers

end Chain

open Chain in
/-- The result array after the last launch is the network of the launch memory's argument arrays. -/
theorem w16_value (c : Dev nD) (src dst : Fin Spec.NE → Fin Spec.NN)
    (hE : Spec.EdgesAre (m ((c.tc : Thread nD τ).loc main_arg1)) src dst) :
    W16 m ρ c (Proc.devRef .tc main_v153)
      = Spec.knet src dst
        (m ((c.tc : Thread nD τ).loc main_arg0))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
        (m ((c.tc : Thread nD τ).loc main_arg13))
        (m ((c.tc : Thread nD τ).loc main_arg14))
        (m ((c.tc : Thread nD τ).loc main_arg15)) := by
  have h := (W16_arr m ρ c 7).trans (reg7_value (V15 m ρ) c)
  have e0 : V15 m ρ c (Pipeline.arrRef spec7 0) = hid3 m c src dst := v143_W15 m ρ c src dst hE
  have e1 : V15 m ρ c (Pipeline.arrRef spec7 1) = Spec.transp (arg m c main_arg10) := v145_W15 m ρ c
  have e2 : V15 m ρ c (Pipeline.arrRef spec7 2) = Spec.row1 (arg m c main_arg11) := v150_W15 m ρ c
  have e3 : V15 m ρ c (Pipeline.arrRef spec7 3) = Spec.transp (arg m c main_arg12) := v147_W15 m ρ c
  have e4 : V15 m ρ c (Pipeline.arrRef spec7 4) = Spec.row1 (arg m c main_arg13) := v151_W15 m ρ c
  have e5 : V15 m ρ c (Pipeline.arrRef spec7 5) = Spec.transp (arg m c main_arg14) := v149_W15 m ρ c
  have e6 : V15 m ρ c (Pipeline.arrRef spec7 6) = Spec.row1 (arg m c main_arg15) := v152_W15 m ρ c
  rw [e0, e1, e2, e3, e4, e5, e6] at h
  exact h

end Cert.Gcn.K

end
-- ==== Proof.RefEnds.lean ====
/-
  The reference's two ends read as functions of the arguments: the input projection (clamped affine map of x) and the
  three-layer head over the last graph layer's output.
-/
import proofs.«424132_j19705309954162_2_alg».proof.Proof.Gen.ReferenceIdeal.Read
import proofs.«424132_j19705309954162_2_alg».proof.Proof.Spec

noncomputable section

namespace Cert.Gcn.R

open Idealize.ShloMosaic Idealize.ShloMosaic.ValueIdx
open Cert.ReferenceIdeal Cert.ReferenceIdeal.Gen Cert.ReferenceIdeal.Read Cert.Gcn

/-- The input projection. -/
theorem ref_h0 (x0 : Spec.A2 10000 2048) (x2 : Spec.A2 256 2048) (x3 : Spec.A1 256) :
    val_main_v9 (F := Ideal) x0 x2 x3 = Spec.rh0 x0 x2 x3 := by
  funext i
  obtain ⟨n, j, rfl⟩ : ∃ (n : Fin 10000) (j : Fin 256), i = ix2 n j := ⟨i 0, i 1, eq_ix2 i⟩
  -- the left operand of the product is read at row n, column k
  have el : ∀ k : Fin 2048, lidx_main_v5 (ix2 n j) k = ix2 n k := fun k =>
    funext fun a => Fin.ext (by match a with | ⟨0, _⟩ => rfl | ⟨1, _⟩ => rfl)
  -- the transposed weight at (k, j) is the weight at (j, k)
  have er : ∀ k : Fin 2048, idx_main_v4 (ridx_main_v5 (ix2 n j) k) = ix2 j k := fun k =>
    funext fun a => Fin.ext (by match a with | ⟨0, _⟩ => rfl | ⟨1, _⟩ => rfl)
  -- the bias, made a row and repeated down the rows, is the bias at the column
  have eb : idx_main_v6 (idx_main_v7 (ix2 n j)) = ix1 j :=
    funext fun a => Fin.ext (by match a with | ⟨0, _⟩ => rfl)
  rw [val_main_v9_apply, val_main_v8_apply, val_main_v5_apply, val_main_v7_apply, val_main_v6_apply,
    val_main_call0_v0_apply, val_main_call0_cst_apply]
  -- at the extended reals the sum is +, the clamp is max against the zero word, which is 0
  simp only [val_main_v4_apply, el, er, eb, Ideal.maximumf_def, Ideal.addf_def, Ideal.ofBits_def, Ideal.ofBits_zero_f32]
  rfl

/-- The head, over whatever the last graph layer's output is. -/
theorem ref_head (x0 : Spec.A2 10000 2048) (x1 : (⟨2, ![2, 320000]⟩ : Shape).Idx → BitVec 32) (x2 : Spec.A2 256 2048) (x3 : Spec.A1 256)
    (x4 : Spec.A3 3 256 256) (x5 x6 x7 x8 x9 : Spec.A2 3 256)
    (x10 : Spec.A2 128 256) (x11 : Spec.A1 128) (x12 : Spec.A2 64 128) (x13 : Spec.A1 64) (x14 : Spec.A2 10 64) (x15 : Spec.A1 10)
    (h3 : Spec.A2 10000 256) (hh : val_main_v230 (F := Ideal) x0 x1 x2 x3 x4 x5 x6 x7 x8 x9 = h3) :
    val_main_v247 (F := Ideal) x0 x1 x2 x3 x4 x5 x6 x7 x8 x9 x10 x11 x12 x13 x14 x15
      = fun i => Spec.mmT (Spec.affRelu (Spec.affRelu h3 x10 x11) x12 x13) x14 i + x15 (ix1 (i 1)) := by
  -- first layer: 256 features to 128, clamped
  have s1 : val_main_v236 (F := Ideal) x0 x1 x2 x3 x4 x5 x6 x7 x8 x9 x10 x11 = Spec.affRelu h3 x10 x11 := by
    funext i
    obtain ⟨n, j, rfl⟩ : ∃ (n : Fin 10000) (j : Fin 128), i = ix2 n j := ⟨i 0, i 1, eq_ix2 i⟩
    have el : ∀ k : Fin 256, lidx_main_v232 (ix2 n j) k = ix2 n k := fun k =>
      funext fun a => Fin.ext (by match a with | ⟨0, _⟩ => rfl | ⟨1, _⟩ => rfl)
    have er : ∀ k : Fin 256, idx_main_v231 (ridx_main_v232 (ix2 n j) k) = ix2 j k := fun k =>
      funext fun a => Fin.ext (by match a with | ⟨0, _⟩ => rfl | ⟨1, _⟩ => rfl)
    have eb : idx_main_v233 (idx_main_v234 (ix2 n j)) = ix1 j :=
      funext fun a => Fin.ext (by match a with | ⟨0, _⟩ => rfl)
    rw [val_main_v236_apply, val_main_v235_apply, val_main_v232_apply, val_main_v234_apply, val_main_v233_apply,
      val_main_call4_v0_apply, val_main_call4_cst_apply, hh]
    simp only [val_main_v231_apply, el, er, eb, Ideal.maximumf_def, Ideal.addf_def, Ideal.ofBits_def, Ideal.ofBits_zero_f32]
    rfl
  -- second layer: 128 features to 64, clamped
  have s2 : val_main_v242 (F := Ideal) x0 x1 x2 x3 x4 x5 x6 x7 x8 x9 x10 x11 x12 x13
      = Spec.affRelu (Spec.affRelu h3 x10 x11) x12 x13 := by
    funext i
    obtain ⟨n, j, rfl⟩ : ∃ (n : Fin 10000) (j : Fin 64), i = ix2 n j := ⟨i 0, i 1, eq_ix2 i⟩
    have el : ∀ k : Fin 128, lidx_main_v238 (ix2 n j) k = ix2 n k := fun k =>
      funext fun a => Fin.ext (by match a with | ⟨0, _⟩ => rfl | ⟨1, _⟩ => rfl)
    have er : ∀ k : Fin 128, idx_main_v237 (ridx_main_v238 (ix2 n j) k) = ix2 j k := fun k =>
      funext fun a => Fin.ext (by match a with | ⟨0, _⟩ => rfl | ⟨1, _⟩ => rfl)
    have eb : idx_main_v239 (idx_main_v240 (ix2 n j)) = ix1 j :=
      funext fun a => Fin.ext (by match a with | ⟨0, _⟩ => rfl)
    rw [val_main_v242_apply, val_main_v241_apply, val_main_v238_apply, val_main_v240_apply, val_main_v239_apply,
      val_main_call5_v0_apply, val_main_call5_cst_apply, s1]
    simp only [val_main_v237_apply, el, er, eb, Ideal.maximumf_def, Ideal.addf_def, Ideal.ofBits_def, Ideal.ofBits_zero_f32]
    rfl
  -- last layer: 64 features to 10, no clamp
  funext i
  obtain ⟨n, j, rfl⟩ : ∃ (n : Fin 10000) (j : Fin 10), i = ix2 n j := ⟨i 0, i 1, eq_ix2 i⟩
  have el : ∀ k : Fin 64, lidx_main_v244 (ix2 n j) k = ix2 n k := fun k =>
    funext fun a => Fin.ext (by match a with | ⟨0, _⟩ => rfl | ⟨1, _⟩ => rfl)
  have er : ∀ k : Fin 64, idx_main_v243 (ridx_main_v244 (ix2 n j) k) = ix2 j k := fun k =>
    funext fun a => Fin.ext (by match a with | ⟨0, _⟩ => rfl | ⟨1, _⟩ => rfl)
  have eb : idx_main_v245 (idx_main_v246 (ix2 n j)) = ix1 j :=
    funext fun a => Fin.ext (by match a with | ⟨0, _⟩ => rfl)
  rw [val_main_v247_apply, val_main_v244_apply, val_main_v246_apply, val_main_v245_apply, s2]
  simp only [val_main_v243_apply, el, er, eb, Ideal.addf_def]
  rfl

end Cert.Gcn.R

end
-- ==== Proof.RefL1.lean ====
/-
  The reference's graph layer 0 read as a function of its input features and the arguments: the linear map, the
  degrees and edge weights recomputed from the edge list, the sparse aggregation (a gather of source rows, a product
  with the weights, an accumulating scatter to the destinations, the node's own row), the bias, the batch
  normalisation and the clamp.

  The order of the lemmas follows the data: the two rows of index words; a node's degree (ones accumulated at the
  destination words, plus one) and its reciprocal square root; the wrap of a negative index, which returns a node's
  word unchanged; the reciprocal square roots read at an edge's two ends and their product, the edge's weight; the
  linear map as a sum over the contracted axis; the aggregation at a node and a feature; the five per-feature rows
  (bias, mean, guarded variance, gamma, beta) read at layer 0; and the layer.
-/
import proofs.«424132_j19705309954162_2_alg».proof.Proof.Gen.ReferenceIdeal.Read
import proofs.«424132_j19705309954162_2_alg».proof.Proof.Spec
import proofs.«424132_j19705309954162_2_alg».proof.Proof.LibGather
import proofs.«424132_j19705309954162_2_alg».proof.Proof.LibScatter
import proofs.«424132_j19705309954162_2_alg».proof.Proof.LibScatter2
import Idealize.ShloMosaic.Lib.IdealHost

noncomputable section

namespace Cert.Gcn.R.L1

open Idealize.ShloMosaic Idealize.ShloMosaic.ValueIdx
open Cert.ReferenceIdeal Cert.ReferenceIdeal.Gen Cert.ReferenceIdeal.Read Cert.Gcn

/-! ## Words -/

/-- A word whose signed reading is a natural number is not below the zero word. -/
theorem slt_zero_eq (w : BitVec 32) (k : Nat) (h : w.toInt = (k : Int)) : IntOp.cmpi .slt w 0#32 = 0#1 := by
  have h0 : (0#32 : BitVec 32).toInt = 0 := by decide
  have hs : w.slt 0#32 = false := by
    unfold BitVec.slt
    rw [h, h0]
    exact decide_eq_false (by omega)
  exact (congrArg BitVec.ofBool hs).trans rfl

/-- A word whose signed reading is a node, cut to the last node, is that node. -/
theorem clamp_node (w : BitVec 32) (n : Fin 10000) (h : w.toInt = (n.val : Int))
    (hp : min w.toInt.toNat (10000 - 1) < 10000) : (⟨min w.toInt.toNat (10000 - 1), hp⟩ : Fin 10000) = n := by
  apply Fin.ext
  show min w.toInt.toNat (10000 - 1) = n.val
  have := n.isLt
  rw [h]
  omega

/-! ## The edge list's two rows -/

/-- Row 0 of the edge list, sliced out and flattened, at edge e: the source word. -/
theorem src_word (x1 : (⟨2, ![2, 320000]⟩ : Shape).Idx → BitVec 32) (e : Fin 320000) :
    val_main_v1 (F := Ideal) x1 (ix1 e) = x1 (ix2 0 e) := by
  rw [val_main_v1_apply, val_main_v0_apply]
  exact congrArg x1 (funext fun a => Fin.ext (by
    match a with
    | ⟨0, _⟩ => rfl
    | ⟨1, _⟩ => exact Nat.mod_eq_of_lt e.isLt))

/-- Row 1 of the edge list, sliced out and flattened, at edge e: the destination word. -/
theorem dst_word (x1 : (⟨2, ![2, 320000]⟩ : Shape).Idx → BitVec 32) (e : Fin 320000) :
    val_main_v3 (F := Ideal) x1 (ix1 e) = x1 (ix2 1 e) := by
  rw [val_main_v3_apply, val_main_v2_apply]
  exact congrArg x1 (funext fun a => Fin.ext (by
    match a with
    | ⟨0, _⟩ => rfl
    | ⟨1, _⟩ => exact Nat.mod_eq_of_lt e.isLt))

/-! ## Degrees -/

/-- Ones accumulated into zeros at the destination words, plus one: the number of edges ending in n, and one. -/
theorem deg_at (x1 : (⟨2, ![2, 320000]⟩ : Shape).Idx → BitVec 32) (src dst : Fin Spec.NE → Fin Spec.NN)
    (hE : Spec.EdgesAre x1 src dst) (n : Fin 10000) :
    val_main_v21 (F := Ideal) x1 (ix1 n) = Spec.deg dst n := by
  have key := Cert.Rgcn.Lib.scatterAdd_vec_apply scatter_S10000_S320000x1_S320000_n_0_0_1 rfl rfl rfl rfl
    (val_main_v17 (F := Ideal)) (val_main_v18 (F := Ideal) x1) (val_main_v16 (F := Ideal)) n
  have unf : val_main_v19 (F := Ideal) x1 = Ideal.hostScatterAdd scatter_S10000_S320000x1_S320000_n_0_0_1
      (val_main_v17 (F := Ideal)) (val_main_v18 (F := Ideal) x1) (val_main_v16 (F := Ideal)) := by
    unfold val_main_v19 Host.scatterAdd
    exact Ideal.hostScatterAdd_def _ _ _ _ _
  rw [val_main_v21_apply, val_main_v20_apply, val_main_cst_1_apply, unf, key]
  simp only [val_main_v17_apply, val_main_cst_0_apply, val_main_v16_apply, val_main_cst_apply, Ideal.ofBits_def,
    Ideal.ofBits_zero_f32, Ideal.ofBits_one_f32, Ideal.addf_def, zero_add]
  unfold Spec.deg
  refine congrArg (fun t : EReal => t + 1) ?_
  refine Finset.sum_congr (Finset.filter_congr fun e _ => ?_) (fun _ _ => rfl)
  have hi : idx_main_v18 (ix2 e (0 : Fin 1)) = ix1 e := funext fun a => Fin.ext (by match a with | ⟨0, _⟩ => rfl)
  rw [val_main_v18_apply, hi, dst_word x1 e, hE.2 e]
  exact ⟨fun h => Fin.ext (by omega), fun h => by rw [h]⟩

/-- The reciprocal square root of the degree. -/
theorem dinv_at (x1 : (⟨2, ![2, 320000]⟩ : Shape).Idx → BitVec 32) (src dst : Fin Spec.NE → Fin Spec.NN)
    (hE : Spec.EdgesAre x1 src dst) (n : Fin 10000) :
    val_main_v22 (F := Ideal) x1 (ix1 n) = Spec.dinv dst n := by
  rw [val_main_v22_apply, Ideal.hostUnary_rsqrt_def, deg_at x1 src dst hE n]
  rfl

/-! ## The wrap of a negative index: a node's word comes back unchanged -/

/-- The source word is not negative, so the select keeps it (first gather of the layer). -/
theorem src_wrap (x1 : (⟨2, ![2, 320000]⟩ : Shape).Idx → BitVec 32) (src dst : Fin Spec.NE → Fin Spec.NN)
    (hE : Spec.EdgesAre x1 src dst) (e : Fin 320000) :
    val_main_v27 (F := Ideal) x1 (ix1 e) = x1 (ix2 0 e) := by
  rw [val_main_v27_apply, val_main_v24_apply, val_main_v23_apply, val_main_c_apply, src_word x1 e,
    slt_zero_eq _ _ (hE.1 e), select_zero]

/-- The destination word is not negative, so the select keeps it. -/
theorem dst_wrap (x1 : (⟨2, ![2, 320000]⟩ : Shape).Idx → BitVec 32) (src dst : Fin Spec.NE → Fin Spec.NN)
    (hE : Spec.EdgesAre x1 src dst) (e : Fin 320000) :
    val_main_v34 (F := Ideal) x1 (ix1 e) = x1 (ix2 1 e) := by
  rw [val_main_v34_apply, val_main_v31_apply, val_main_v30_apply, val_main_c_3_apply, dst_word x1 e,
    slt_zero_eq _ _ (hE.2 e), select_zero]

/-- The source word again, for the gather of rows. -/
theorem src_wrap_rows (x1 : (⟨2, ![2, 320000]⟩ : Shape).Idx → BitVec 32) (src dst : Fin Spec.NE → Fin Spec.NN)
    (hE : Spec.EdgesAre x1 src dst) (e : Fin 320000) :
    val_main_v42 (F := Ideal) x1 (ix1 e) = x1 (ix2 0 e) := by
  rw [val_main_v42_apply, val_main_v39_apply, val_main_v38_apply, val_main_c_5_apply, src_word x1 e,
    slt_zero_eq _ _ (hE.1 e), select_zero]

/-! ## An edge's weight -/

/-- The reciprocal square roots gathered at the source words: at edge e, that of the node src e. -/
theorem dinv_src (x1 : (⟨2, ![2, 320000]⟩ : Shape).Idx → BitVec 32) (src dst : Fin Spec.NE → Fin Spec.NN)
    (hE : Spec.EdgesAre x1 src dst) (e : Fin 320000) :
    val_main_v29 (F := Ideal) x1 (ix1 e) = Spec.dinv dst (src e) := by
  have hi : idx_main_v28 (ix2 e (0 : Fin 1)) = ix1 e := funext fun a => Fin.ext (by match a with | ⟨0, _⟩ => rfl)
  have hw : (val_main_v28 (F := Ideal) x1 (ix2 e (0 : Fin 1))).toInt = ((src e).val : Int) := by
    rw [val_main_v28_apply, hi, src_wrap x1 src dst hE e]
    exact hE.1 e
  have key := Cert.Gcn.Lib.gather_vec_apply (by decide : 0 < 10000) gather_S10000_S320000x1_S320000_n_0_n_n_0_1_1
    rfl rfl rfl rfl rfl rfl rfl (val_main_v22 (F := Ideal) x1) (val_main_v28 (F := Ideal) x1) e
  have key' : val_main_v29 (F := Ideal) x1 (ix1 e) = _ := key
  rw [key', ← dinv_at x1 src dst hE (src e)]
  exact congrArg (fun k => val_main_v22 (F := Ideal) x1 (ix1 k)) (clamp_node _ _ hw _)

/-- The reciprocal square roots gathered at the destination words: at edge e, that of the node dst e. -/
theorem dinv_dst (x1 : (⟨2, ![2, 320000]⟩ : Shape).Idx → BitVec 32) (src dst : Fin Spec.NE → Fin Spec.NN)
    (hE : Spec.EdgesAre x1 src dst) (e : Fin 320000) :
    val_main_v36 (F := Ideal) x1 (ix1 e) = Spec.dinv dst (dst e) := by
  have hi : idx_main_v35 (ix2 e (0 : Fin 1)) = ix1 e := funext fun a => Fin.ext (by match a with | ⟨0, _⟩ => rfl)
  have hw : (val_main_v35 (F := Ideal) x1 (ix2 e (0 : Fin 1))).toInt = ((dst e).val : Int) := by
    rw [val_main_v35_apply, hi, dst_wrap x1 src dst hE e]
    exact hE.2 e
  have key := Cert.Gcn.Lib.gather_vec_apply (by decide : 0 < 10000) gather_S10000_S320000x1_S320000_n_0_n_n_0_1_1
    rfl rfl rfl rfl rfl rfl rfl (val_main_v22 (F := Ideal) x1) (val_main_v35 (F := Ideal) x1) e
  have key' : val_main_v36 (F := Ideal) x1 (ix1 e) = _ := key
  rw [key', ← dinv_at x1 src dst hE (dst e)]
  exact congrArg (fun k => val_main_v22 (F := Ideal) x1 (ix1 k)) (clamp_node _ _ hw _)

/-- The product of the two: the edge's weight. -/
theorem norm_at (x1 : (⟨2, ![2, 320000]⟩ : Shape).Idx → BitVec 32) (src dst : Fin Spec.NE → Fin Spec.NN)
    (hE : Spec.EdgesAre x1 src dst) (e : Fin 320000) :
    val_main_v37 (F := Ideal) x1 (ix1 e) = Spec.norm src dst e := by
  rw [val_main_v37_apply, dinv_src x1 src dst hE e, dinv_dst x1 src dst hE e]
  rfl

/-! ## The linear map -/

/-- The layer's input times the transpose of slice 0 of the weight stack: entry (n, f) sums the input's row n
    against the slice's row f (the slice read through a reshape of [1, 256, 256], whose flat position
    f · 256 + k has quotient f and remainder k). -/
theorem hl_eq (x0 : Spec.A2 10000 2048) (x2 : Spec.A2 256 2048) (x3 : Spec.A1 256) (x4 : Spec.A3 3 256 256)
    (hin : Spec.A2 10000 256) (hh : val_main_v9 (F := Ideal) x0 x2 x3 = hin) :
    val_main_v15 (F := Ideal) x0 x2 x3 x4 = Spec.mmT hin (Spec.gslice 0 x4) := by
  funext i
  obtain ⟨n, f, rfl⟩ : ∃ (n : Fin 10000) (f : Fin 256), i = ix2 n f := ⟨i 0, i 1, eq_ix2 i⟩
  rw [val_main_v15_apply, hh]
  show _ = ∑ k : Fin 256, hin (ix2 n k) * x4 (ix3 0 f k)
  refine Finset.sum_congr rfl fun k _ => ?_
  have hl : lidx_main_v15 (ix2 n f) k = ix2 n k :=
    funext fun a => Fin.ext (by match a with | ⟨0, _⟩ => rfl | ⟨1, _⟩ => rfl)
  have hr : idx_main_v10 (idx_main_v11 (idx_main_v14 (ridx_main_v15 (ix2 n f) k))) = ix3 0 f k :=
    funext fun a => Fin.ext (by
      match a with
      | ⟨0, _⟩ => rfl
      | ⟨1, _⟩ =>
        show (f.val * 256 + k.val) / 256 % 256 = f.val
        have := f.isLt
        have := k.isLt
        omega
      | ⟨2, _⟩ =>
        show (f.val * 256 + k.val) % 256 = k.val
        have := f.isLt
        have := k.isLt
        omega)
  rw [val_main_v14_apply, val_main_v11_apply, val_main_v10_apply, hl]
  exact congrArg (fun t => hin (ix2 n k) * x4 t) hr

/-! ## The aggregation -/

/-- At node n and feature f: the source rows of the linear map gathered along the edges, each times its edge's weight,
    accumulated into zeros at the destination words, plus the node's own row times its own weight. -/
theorem agg_at (x0 : Spec.A2 10000 2048) (x1 : (⟨2, ![2, 320000]⟩ : Shape).Idx → BitVec 32) (x2 : Spec.A2 256 2048)
    (x3 : Spec.A1 256) (x4 : Spec.A3 3 256 256) (src dst : Fin Spec.NE → Fin Spec.NN) (hE : Spec.EdgesAre x1 src dst)
    (hl : Spec.A2 10000 256) (hhl : val_main_v15 (F := Ideal) x0 x2 x3 x4 = hl) (n : Fin 10000) (f : Fin 256) :
    val_main_v55 (F := Ideal) x0 x1 x2 x3 x4 (ix2 n f) = Spec.convAt src dst hl n f := by
  -- the row gathered for edge e is the row of its source node
  have hrow : ∀ e : Fin 320000, val_main_v44 (F := Ideal) x0 x1 x2 x3 x4 (ix2 e f) = hl (ix2 (src e) f) := by
    intro e
    have hi : idx_main_v43 (ix2 e (0 : Fin 1)) = ix1 e := funext fun a => Fin.ext (by match a with | ⟨0, _⟩ => rfl)
    have hw : (val_main_v43 (F := Ideal) x1 (ix2 e (0 : Fin 1))).toInt = ((src e).val : Int) := by
      rw [val_main_v43_apply, hi, src_wrap_rows x1 src dst hE e]
      exact hE.1 e
    have key := Cert.Rgcn.Lib.gather_rows_apply (by decide : 0 < 10000)
      gather_S10000x256_S320000x1_S320000x256_1_0_n_n_0_1_1256 rfl rfl rfl rfl rfl rfl rfl
      (val_main_v15 (F := Ideal) x0 x2 x3 x4) (val_main_v43 (F := Ideal) x1) e f
    have key' : val_main_v44 (F := Ideal) x0 x1 x2 x3 x4 (ix2 e f) = _ := key
    rw [key', hhl]
    exact congrArg (fun k => hl (ix2 k f)) (clamp_node _ _ hw _)
  -- the edge's weight, broadcast along the row
  have hwt : ∀ e : Fin 320000, val_main_v46 (F := Ideal) x1 (ix2 e f) = Spec.norm src dst e := by
    intro e
    have hi : idx_main_v45 (idx_main_v46 (ix2 e f)) = ix1 e :=
      funext fun a => Fin.ext (by match a with | ⟨0, _⟩ => rfl)
    rw [val_main_v46_apply, val_main_v45_apply, hi, norm_at x1 src dst hE e]
  -- the node's own weight, broadcast along the row
  have hself : val_main_v53 (F := Ideal) x1 (ix2 n f) = Spec.dinv dst n * Spec.dinv dst n := by
    have hi : idx_main_v52 (idx_main_v53 (ix2 n f)) = ix1 n :=
      funext fun a => Fin.ext (by match a with | ⟨0, _⟩ => rfl)
    rw [val_main_v53_apply, val_main_v52_apply, hi, val_main_v51_apply, Ideal.mulf_def, dinv_at x1 src dst hE n]
  have key := Cert.Rgcn.Lib.scatterAdd_rows_apply scatter_S10000x256_S320000x1_S320000x256_1_0_0_1 rfl rfl rfl rfl
    (val_main_v48 (F := Ideal)) (val_main_v49 (F := Ideal) x1) (val_main_v47 (F := Ideal) x0 x1 x2 x3 x4) n f
  have unf : val_main_v50 (F := Ideal) x0 x1 x2 x3 x4
      = Ideal.hostScatterAdd scatter_S10000x256_S320000x1_S320000x256_1_0_0_1 (val_main_v48 (F := Ideal))
        (val_main_v49 (F := Ideal) x1) (val_main_v47 (F := Ideal) x0 x1 x2 x3 x4) := by
    unfold val_main_v50 Host.scatterAdd
    exact Ideal.hostScatterAdd_def _ _ _ _ _
  rw [val_main_v55_apply, val_main_v54_apply, unf, key, hself, hhl, val_main_v48_apply, val_main_cst_7_apply]
  simp only [val_main_v47_apply, hrow, hwt, Ideal.ofBits_def, Ideal.ofBits_zero_f32, Ideal.addf_def, Ideal.mulf_def,
    zero_add]
  unfold Spec.convAt
  refine congrArg (fun t : EReal => t + hl (ix2 n f) * (Spec.dinv dst n * Spec.dinv dst n)) ?_
  refine Finset.sum_congr (Finset.filter_congr fun e _ => ?_) (fun _ _ => rfl)
  have hi : idx_main_v49 (ix2 e (0 : Fin 1)) = ix1 e := funext fun a => Fin.ext (by match a with | ⟨0, _⟩ => rfl)
  rw [val_main_v49_apply, hi, dst_word x1 e, hE.2 e]
  exact ⟨fun h => Fin.ext (by omega), fun h => by rw [h]⟩

/-! ## The per-feature rows of layer 0, broadcast over the nodes -/

/-- The bias: row 0 of the bias stack. -/
theorem bias_row (x5 : Spec.A2 3 256) (n : Fin 10000) (f : Fin 256) :
    val_main_v57 (F := Ideal) x5 (ix2 n f) = x5 (ix2 0 f) := by
  rw [val_main_v57_apply, val_main_v56_apply, val_main_v13_apply, val_main_v12_apply]
  exact congrArg x5 (funext fun a => Fin.ext (by
    match a with
    | ⟨0, _⟩ => rfl
    | ⟨1, _⟩ => exact Nat.mod_eq_of_lt f.isLt))

/-- The mean: row 0 of the mean stack. -/
theorem mean_row (x8 : Spec.A2 3 256) (n : Fin 10000) (f : Fin 256) :
    val_main_v62 (F := Ideal) x8 (ix2 n f) = x8 (ix2 0 f) := by
  rw [val_main_v62_apply, val_main_v61_apply, val_main_v60_apply, val_main_v59_apply]
  exact congrArg x8 (funext fun a => Fin.ext (by
    match a with
    | ⟨0, _⟩ => rfl
    | ⟨1, _⟩ => exact Nat.mod_eq_of_lt f.isLt))

/-- The reciprocal square root of the guarded variance: row 0 of the variance stack plus the guard. -/
theorem var_row (x9 : Spec.A2 3 256) (n : Fin 10000) (f : Fin 256) :
    val_main_v70 (F := Ideal) x9 (ix2 n f) = Ideal.rsqrt (x9 (ix2 0 f) + Spec.eps) := by
  have hi : idx_main_v64 (idx_main_v65 (idx_main_v69 (idx_main_v70 (ix2 n f)))) = ix2 0 f :=
    funext fun a => Fin.ext (by
      match a with
      | ⟨0, _⟩ => rfl
      | ⟨1, _⟩ => exact Nat.mod_eq_of_lt f.isLt)
  rw [val_main_v70_apply, val_main_v69_apply, val_main_v68_apply, val_main_v67_apply, val_main_v65_apply,
    val_main_v64_apply, hi, val_main_v66_apply, val_main_cst_8_apply, Ideal.hostUnary_rsqrt_def, Ideal.addf_def,
    Ideal.ofBits_def]
  rfl

/-- The scale gamma: row 0 of its stack. -/
theorem gamma_row (x6 : Spec.A2 3 256) (n : Fin 10000) (f : Fin 256) :
    val_main_v75 (F := Ideal) x6 (ix2 n f) = x6 (ix2 0 f) := by
  rw [val_main_v75_apply, val_main_v74_apply, val_main_v73_apply, val_main_v72_apply]
  exact congrArg x6 (funext fun a => Fin.ext (by
    match a with
    | ⟨0, _⟩ => rfl
    | ⟨1, _⟩ => exact Nat.mod_eq_of_lt f.isLt))

/-- The shift beta: row 0 of its stack. -/
theorem beta_row (x7 : Spec.A2 3 256) (n : Fin 10000) (f : Fin 256) :
    val_main_v80 (F := Ideal) x7 (ix2 n f) = x7 (ix2 0 f) := by
  rw [val_main_v80_apply, val_main_v79_apply, val_main_v78_apply, val_main_v77_apply]
  exact congrArg x7 (funext fun a => Fin.ext (by
    match a with
    | ⟨0, _⟩ => rfl
    | ⟨1, _⟩ => exact Nat.mod_eq_of_lt f.isLt))

/-- The clamp's other operand is the zero array. -/
theorem clamp_zero (i : S10000x256.Idx) : val_main_call1_v0 (F := Ideal) i = 0 := by
  rw [val_main_call1_v0_apply, val_main_call1_cst_apply, Ideal.ofBits_def, Ideal.ofBits_zero_f32]

end Cert.Gcn.R.L1

namespace Cert.Gcn.R

open Idealize.ShloMosaic Idealize.ShloMosaic.ValueIdx
open Cert.ReferenceIdeal Cert.ReferenceIdeal.Gen Cert.ReferenceIdeal.Read Cert.Gcn

/-- Graph layer 0, over whatever its input features are. -/
theorem ref_h1 (x0 : Spec.A2 10000 2048) (x1 : (⟨2, ![2, 320000]⟩ : Shape).Idx → BitVec 32) (x2 : Spec.A2 256 2048) (x3 : Spec.A1 256)
    (x4 : Spec.A3 3 256 256) (x5 x6 x7 x8 x9 : Spec.A2 3 256)
    (src dst : Fin Spec.NE → Fin Spec.NN) (hE : Spec.EdgesAre x1 src dst)
    (hin : Spec.A2 10000 256) (hh : val_main_v9 (F := Ideal) x0 x2 x3 = hin) :
    val_main_v82 (F := Ideal) x0 x1 x2 x3 x4 x5 x6 x7 x8 x9
      = Spec.bnrelu 0 x5 x6 x7 x8 x9 (Spec.conv src dst (Spec.mmT hin (Spec.gslice 0 x4))) := by
  funext i
  obtain ⟨n, f, rfl⟩ : ∃ (n : Fin 10000) (f : Fin 256), i = ix2 n f := ⟨i 0, i 1, eq_ix2 i⟩
  rw [val_main_v82_apply, val_main_v81_apply, val_main_v76_apply, val_main_v71_apply, val_main_v63_apply,
    val_main_v58_apply, L1.agg_at x0 x1 x2 x3 x4 src dst hE _ (L1.hl_eq x0 x2 x3 x4 hin hh) n f, L1.bias_row x5 n f,
    L1.mean_row x8 n f, L1.var_row x9 n f, L1.gamma_row x6 n f, L1.beta_row x7 n f, L1.clamp_zero]
  rfl

end Cert.Gcn.R

end
-- ==== Proof.RefL2.lean ====
/-
  The reference's graph layer 1 read as a function of its input features and the arguments: the linear map, the
  degrees and edge weights recomputed from the edge list, the sparse aggregation (a gather of source rows, a product
  with the weights, an accumulating scatter to the destinations, the node's own row), the bias, the batch
  normalisation and the clamp, and the layer's input added back.
-/
import proofs.«424132_j19705309954162_2_alg».proof.Proof.Gen.ReferenceIdeal.Read
import proofs.«424132_j19705309954162_2_alg».proof.Proof.Spec
import proofs.«424132_j19705309954162_2_alg».proof.Proof.LibGather
import proofs.«424132_j19705309954162_2_alg».proof.Proof.LibScatter
import proofs.«424132_j19705309954162_2_alg».proof.Proof.LibScatter2
import Idealize.ShloMosaic.Lib.IdealHost

noncomputable section

namespace Cert.Gcn.R.L2

open Idealize.ShloMosaic Idealize.ShloMosaic.ValueIdx
open Cert.ReferenceIdeal Cert.ReferenceIdeal.Gen Cert.ReferenceIdeal.Read Cert.Gcn

/-! ## Words -/

/-- A word that is a natural number read signed is not below zero: the wrap of a negative index leaves it. -/
theorem wrap_id (w a : BitVec 32) (k : Nat) (hk : w.toInt = (k : Int)) :
    Scalar.select (IntOp.cmpi .slt w 0#32) a w = w := by
  have h : IntOp.cmpi .slt w 0#32 = 0#1 := by
    have hn : ¬ ((k : Int) < 0) := by omega
    unfold IntOp.cmpi
    simp [BitVec.slt, hk, hn]
  rw [h, select_zero]

/-- A word that is a node read signed, cut to the last node, is that node. -/
theorem clamp_id (w : BitVec 32) (k : Fin 10000) (hk : w.toInt = (k.val : Int))
    (h : min w.toInt.toNat (10000 - 1) < 10000) :
    (⟨min w.toInt.toNat (10000 - 1), h⟩ : Fin 10000) = k := by
  apply Fin.ext
  show min w.toInt.toNat (10000 - 1) = k.val
  have := k.isLt
  rw [hk]; simp; omega

/-- The edges whose destination word is the node n are the edges that end in n. -/
theorem filter_dst (dst : Fin Spec.NE → Fin Spec.NN) (wd : Fin 320000 → BitVec 32)
    (hd : ∀ e, (wd e).toInt = ((dst e).val : Int)) (n : Fin 10000) :
    Finset.univ.filter (fun e : Fin 320000 => (wd e).toInt = (n.val : Int))
      = Finset.univ.filter (fun e : Fin Spec.NE => dst e = n) := by
  refine Finset.filter_congr fun e _ => ?_
  rw [hd e]
  constructor
  · intro h; exact Fin.ext (by exact_mod_cast h)
  · intro h; rw [h]

section Graph

variable (x1 : (⟨2, ![2, 320000]⟩ : Shape).Idx → BitVec 32) (src dst : Fin Spec.NE → Fin Spec.NN)

/-! ## The edge list's two rows -/

/-- Row 0 of the edge list flattened: entry e is the source word of edge e. -/
theorem srcw (e : Fin 320000) : val_main_v1 (F := Ideal) x1 (ix1 e) = x1 (ix2 0 e) := by
  rw [val_main_v1_apply, val_main_v0_apply]
  refine congrArg x1 (funext fun a => Fin.ext ?_)
  match a with
  | ⟨0, _⟩ => rfl
  | ⟨1, _⟩ => exact Nat.mod_eq_of_lt e.isLt

/-- Row 1 of the edge list flattened: entry e is the destination word of edge e. -/
theorem dstw (e : Fin 320000) : val_main_v3 (F := Ideal) x1 (ix1 e) = x1 (ix2 1 e) := by
  rw [val_main_v3_apply, val_main_v2_apply]
  refine congrArg x1 (funext fun a => Fin.ext ?_)
  match a with
  | ⟨0, _⟩ => rfl
  | ⟨1, _⟩ => exact Nat.mod_eq_of_lt e.isLt

/-- The destination words as a column, the scatter's start words for the degrees. -/
theorem dstw_col91 (e : Fin 320000) : val_main_v91 (F := Ideal) x1 (ix2 e (0 : Fin 1)) = x1 (ix2 1 e) := by
  rw [val_main_v91_apply]
  exact (congrArg (val_main_v3 (F := Ideal) x1)
    (funext fun a => Fin.ext (by match a with | ⟨0, _⟩ => rfl))).trans (dstw x1 e)

/-- The destination words as a column, the scatter's start words for the rows. -/
theorem dstw_col122 (e : Fin 320000) : val_main_v122 (F := Ideal) x1 (ix2 e (0 : Fin 1)) = x1 (ix2 1 e) := by
  rw [val_main_v122_apply]
  exact (congrArg (val_main_v3 (F := Ideal) x1)
    (funext fun a => Fin.ext (by match a with | ⟨0, _⟩ => rfl))).trans (dstw x1 e)

variable {x1 src dst}
variable (hE : Spec.EdgesAre x1 src dst)
include hE

/-- The source word after the wrap of negative indices is itself, a node being no negative number. -/
theorem srcw_wrap100 (e : Fin 320000) : val_main_v100 (F := Ideal) x1 (ix1 e) = x1 (ix2 0 e) := by
  rw [val_main_v100_apply, val_main_v97_apply, val_main_v96_apply, val_main_c_12_apply, srcw]
  exact wrap_id _ _ _ (hE.1 e)

/-- The destination word after the wrap is itself. -/
theorem dstw_wrap107 (e : Fin 320000) : val_main_v107 (F := Ideal) x1 (ix1 e) = x1 (ix2 1 e) := by
  rw [val_main_v107_apply, val_main_v104_apply, val_main_v103_apply, val_main_c_14_apply, dstw]
  exact wrap_id _ _ _ (hE.2 e)

/-- The source word after the second wrap (the one feeding the row gather) is itself. -/
theorem srcw_wrap115 (e : Fin 320000) : val_main_v115 (F := Ideal) x1 (ix1 e) = x1 (ix2 0 e) := by
  rw [val_main_v115_apply, val_main_v112_apply, val_main_v111_apply, val_main_c_16_apply, srcw]
  exact wrap_id _ _ _ (hE.1 e)

/-- The start word of the gather of dinv at the sources, read signed, is the source node. -/
theorem start101 (e : Fin 320000) :
    (val_main_v101 (F := Ideal) x1 (ix2 e (0 : Fin 1))).toInt = ((src e).val : Int) := by
  rw [val_main_v101_apply]
  rw [show idx_main_v101 (ix2 e (0 : Fin 1)) = ix1 e from
    funext fun a => Fin.ext (by match a with | ⟨0, _⟩ => rfl)]
  rw [srcw_wrap100 hE]
  exact hE.1 e

/-- The start word of the gather of dinv at the destinations, read signed, is the destination node. -/
theorem start108 (e : Fin 320000) :
    (val_main_v108 (F := Ideal) x1 (ix2 e (0 : Fin 1))).toInt = ((dst e).val : Int) := by
  rw [val_main_v108_apply]
  rw [show idx_main_v108 (ix2 e (0 : Fin 1)) = ix1 e from
    funext fun a => Fin.ext (by match a with | ⟨0, _⟩ => rfl)]
  rw [dstw_wrap107 hE]
  exact hE.2 e

/-- The start word of the gather of rows, read signed, is the source node. -/
theorem start116 (e : Fin 320000) :
    (val_main_v116 (F := Ideal) x1 (ix2 e (0 : Fin 1))).toInt = ((src e).val : Int) := by
  rw [val_main_v116_apply]
  rw [show idx_main_v116 (ix2 e (0 : Fin 1)) = ix1 e from
    funext fun a => Fin.ext (by match a with | ⟨0, _⟩ => rfl)]
  rw [srcw_wrap115 hE]
  exact hE.1 e

/-! ## Degrees, their reciprocal square roots, the edge weights -/

/-- Ones accumulated at the destination words into zeros, and one: the degree. -/
theorem deg_eq (n : Fin 10000) : val_main_v94 (F := Ideal) x1 (ix1 n) = Spec.deg dst n := by
  have hs : val_main_v92 (F := Ideal) x1 (ix1 n)
      = val_main_v90 (F := Ideal) (ix1 n)
        + ∑ e ∈ Finset.univ.filter (fun e : Fin 320000 =>
            (val_main_v91 (F := Ideal) x1 (ix2 e (0 : Fin 1))).toInt = (n.val : Int)),
          val_main_v89 (F := Ideal) (ix1 e) := by
    have unf : val_main_v92 (F := Ideal) x1 = Ideal.hostScatterAdd scatter_S10000_S320000x1_S320000_n_0_0_1
        (val_main_v90 (F := Ideal)) (val_main_v91 (F := Ideal) x1) (val_main_v89 (F := Ideal)) := by
      unfold val_main_v92 Host.scatterAdd
      exact Ideal.hostScatterAdd_def _ _ _ _ _
    rw [unf]
    exact Cert.Rgcn.Lib.scatterAdd_vec_apply scatter_S10000_S320000x1_S320000_n_0_0_1 rfl rfl rfl rfl _ _ _ n
  rw [val_main_v94_apply, val_main_v93_apply, val_main_cst_11_apply, Ideal.addf_def, Ideal.ofBits_def,
    Ideal.ofBits_one_f32, hs, val_main_v90_apply, val_main_cst_10_apply, Ideal.ofBits_def, Ideal.ofBits_zero_f32,
    zero_add]
  have hsum : (∑ e ∈ Finset.univ.filter (fun e : Fin 320000 =>
        (val_main_v91 (F := Ideal) x1 (ix2 e (0 : Fin 1))).toInt = (n.val : Int)), val_main_v89 (F := Ideal) (ix1 e))
      = ∑ _e ∈ Finset.univ.filter (fun e : Fin Spec.NE => dst e = n), (1 : EReal) := by
    refine Finset.sum_congr (filter_dst dst _ (fun e => ?_) n) (fun e _ => ?_)
    · rw [dstw_col91]; exact hE.2 e
    · rw [val_main_v89_apply, val_main_cst_9_apply, Ideal.ofBits_def, Ideal.ofBits_one_f32]
  rw [hsum]
  rfl

/-- The reciprocal square root of the degree. -/
theorem dinv_eq (n : Fin 10000) : val_main_v95 (F := Ideal) x1 (ix1 n) = Spec.dinv dst n := by
  rw [val_main_v95_apply, Ideal.hostUnary_rsqrt_def, deg_eq hE n]
  rfl

/-- dinv gathered at the source words. -/
theorem dinv_src (e : Fin 320000) : val_main_v102 (F := Ideal) x1 (ix1 e) = Spec.dinv dst (src e) := by
  unfold val_main_v102
  rw [Cert.Gcn.Lib.gather_vec_apply (by omega) gather_S10000_S320000x1_S320000_n_0_n_n_0_1_1 rfl rfl rfl rfl rfl rfl rfl,
    clamp_id _ (src e) (start101 hE e), dinv_eq hE]

/-- dinv gathered at the destination words. -/
theorem dinv_dst (e : Fin 320000) : val_main_v109 (F := Ideal) x1 (ix1 e) = Spec.dinv dst (dst e) := by
  unfold val_main_v109
  rw [Cert.Gcn.Lib.gather_vec_apply (by omega) gather_S10000_S320000x1_S320000_n_0_n_n_0_1_1 rfl rfl rfl rfl rfl rfl rfl,
    clamp_id _ (dst e) (start108 hE e), dinv_eq hE]

/-- The edge weight: the product of dinv at the two ends. -/
theorem norm_eq (e : Fin 320000) : val_main_v110 (F := Ideal) x1 (ix1 e) = Spec.norm src dst e := by
  rw [val_main_v110_apply, Ideal.mulf_def, dinv_src hE, dinv_dst hE]
  rfl

/-- The weights broadcast along the rows. -/
theorem norm_bc (e : Fin 320000) (f : Fin 256) :
    val_main_v119 (F := Ideal) x1 (ix2 e f) = Spec.norm src dst e := by
  rw [val_main_v119_apply, val_main_v118_apply]
  exact (congrArg (val_main_v110 (F := Ideal) x1)
    (funext fun a => Fin.ext (by match a with | ⟨0, _⟩ => rfl))).trans (norm_eq hE e)

/-- dinv squared broadcast along the rows. -/
theorem dinv2_bc (n : Fin 10000) (f : Fin 256) :
    val_main_v126 (F := Ideal) x1 (ix2 n f) = Spec.dinv dst n * Spec.dinv dst n := by
  rw [val_main_v126_apply, val_main_v125_apply]
  rw [show idx_main_v125 (idx_main_v126 (ix2 n f)) = ix1 n from
    funext fun a => Fin.ext (by match a with | ⟨0, _⟩ => rfl)]
  rw [val_main_v124_apply, Ideal.mulf_def, dinv_eq hE]

end Graph

/-! ## The linear map, the aggregation, the normalisation -/

section Layer

variable (x0 : Spec.A2 10000 2048) (x1 : (⟨2, ![2, 320000]⟩ : Shape).Idx → BitVec 32) (x2 : Spec.A2 256 2048)
  (x3 : Spec.A1 256) (x4 : Spec.A3 3 256 256) (x5 x6 x7 x8 x9 : Spec.A2 3 256)

/-- The layer's linear map: its input against the transpose of layer 1's slice of the weight stack. -/
theorem mm_eq (hin : Spec.A2 10000 256) (hh : val_main_v82 (F := Ideal) x0 x1 x2 x3 x4 x5 x6 x7 x8 x9 = hin) :
    val_main_v88 (F := Ideal) x0 x1 x2 x3 x4 x5 x6 x7 x8 x9 = Spec.mmT hin (Spec.gslice 1 x4) := by
  funext i
  obtain ⟨n, f, rfl⟩ : ∃ (n : Fin 10000) (f : Fin 256), i = ix2 n f := ⟨i 0, i 1, eq_ix2 i⟩
  rw [val_main_v88_apply, hh]
  show _ = ∑ k : Fin 256, hin (ix2 n k) * x4 (ix3 1 f k)
  refine Finset.sum_congr rfl fun k _ => ?_
  congr 1
  · exact congrArg hin (funext fun a => Fin.ext (by match a with | ⟨0, _⟩ => rfl | ⟨1, _⟩ => rfl))
  · rw [val_main_v87_apply, val_main_v84_apply, val_main_v83_apply]
    refine congrArg x4 (funext fun a => Fin.ext ?_)
    have hf := f.isLt
    have hk := k.isLt
    match a with
    | ⟨0, _⟩ => rfl
    | ⟨1, _⟩ =>
      show (f.val * 256 + k.val) / 256 % 256 = f.val
      omega
    | ⟨2, _⟩ =>
      show (f.val * 256 + k.val) % 256 = k.val
      omega

variable {x1} {src dst : Fin Spec.NE → Fin Spec.NN} (hE : Spec.EdgesAre x1 src dst)
include hE

/-- The source rows of the linear map's result. -/
theorem rows_src (hl : Spec.A2 10000 256) (h88 : val_main_v88 (F := Ideal) x0 x1 x2 x3 x4 x5 x6 x7 x8 x9 = hl) (e : Fin 320000)
    (f : Fin 256) : val_main_v117 (F := Ideal) x0 x1 x2 x3 x4 x5 x6 x7 x8 x9 (ix2 e f) = hl (ix2 (src e) f) := by
  unfold val_main_v117
  rw [h88, Cert.Rgcn.Lib.gather_rows_apply (by omega) gather_S10000x256_S320000x1_S320000x256_1_0_n_n_0_1_1256
    rfl rfl rfl rfl rfl rfl rfl, clamp_id _ (src e) (start116 hE e)]

/-- The sparse aggregation: weighted source rows accumulated at the destinations, and the node's own row. -/
theorem agg_eq (hl : Spec.A2 10000 256) (h88 : val_main_v88 (F := Ideal) x0 x1 x2 x3 x4 x5 x6 x7 x8 x9 = hl) (n : Fin 10000)
    (f : Fin 256) : val_main_v128 (F := Ideal) x0 x1 x2 x3 x4 x5 x6 x7 x8 x9 (ix2 n f) = Spec.convAt src dst hl n f := by
  have hs : val_main_v123 (F := Ideal) x0 x1 x2 x3 x4 x5 x6 x7 x8 x9 (ix2 n f)
      = val_main_v121 (F := Ideal) (ix2 n f)
        + ∑ e ∈ Finset.univ.filter (fun e : Fin 320000 =>
            (val_main_v122 (F := Ideal) x1 (ix2 e (0 : Fin 1))).toInt = (n.val : Int)),
          val_main_v120 (F := Ideal) x0 x1 x2 x3 x4 x5 x6 x7 x8 x9 (ix2 e f) := by
    have unf : val_main_v123 (F := Ideal) x0 x1 x2 x3 x4 x5 x6 x7 x8 x9
        = Ideal.hostScatterAdd scatter_S10000x256_S320000x1_S320000x256_1_0_0_1 (val_main_v121 (F := Ideal))
          (val_main_v122 (F := Ideal) x1) (val_main_v120 (F := Ideal) x0 x1 x2 x3 x4 x5 x6 x7 x8 x9) := by
      unfold val_main_v123 Host.scatterAdd
      exact Ideal.hostScatterAdd_def _ _ _ _ _
    rw [unf]
    exact Cert.Rgcn.Lib.scatterAdd_rows_apply scatter_S10000x256_S320000x1_S320000x256_1_0_0_1 rfl rfl rfl rfl
      _ _ _ n f
  rw [val_main_v128_apply, val_main_v127_apply, Ideal.addf_def, Ideal.mulf_def, h88, hs, val_main_v121_apply,
    val_main_cst_18_apply, Ideal.ofBits_def, Ideal.ofBits_zero_f32, zero_add, dinv2_bc hE]
  have hsum : (∑ e ∈ Finset.univ.filter (fun e : Fin 320000 =>
        (val_main_v122 (F := Ideal) x1 (ix2 e (0 : Fin 1))).toInt = (n.val : Int)),
        val_main_v120 (F := Ideal) x0 x1 x2 x3 x4 x5 x6 x7 x8 x9 (ix2 e f))
      = ∑ e ∈ Finset.univ.filter (fun e : Fin Spec.NE => dst e = n), hl (ix2 (src e) f) * Spec.norm src dst e := by
    refine Finset.sum_congr (filter_dst dst _ (fun e => ?_) n) (fun e _ => ?_)
    · rw [dstw_col122]; exact hE.2 e
    · rw [val_main_v120_apply, Ideal.mulf_def, rows_src x0 x2 x3 x4 x5 x6 x7 x8 x9 hE hl h88, norm_bc hE]
  rw [hsum]
  rfl

end Layer

/-! ## The per-feature rows of layer 1: bias, mean, guarded variance, gamma, beta -/

section Rows

variable (n : Fin 10000) (f : Fin 256)

/-- The bias row of layer 1 broadcast over the nodes. -/
theorem bias_bc (x5 : Spec.A2 3 256) : val_main_v130 (F := Ideal) x5 (ix2 n f) = x5 (ix2 1 f) := by
  rw [val_main_v130_apply, val_main_v129_apply, val_main_v86_apply, val_main_v85_apply]
  refine congrArg x5 (funext fun a => Fin.ext ?_)
  match a with
  | ⟨0, _⟩ => rfl
  | ⟨1, _⟩ => exact Nat.mod_eq_of_lt f.isLt

/-- The mean row of layer 1 broadcast over the nodes. -/
theorem mean_bc (x8 : Spec.A2 3 256) : val_main_v135 (F := Ideal) x8 (ix2 n f) = x8 (ix2 1 f) := by
  rw [val_main_v135_apply, val_main_v134_apply, val_main_v133_apply, val_main_v132_apply]
  refine congrArg x8 (funext fun a => Fin.ext ?_)
  match a with
  | ⟨0, _⟩ => rfl
  | ⟨1, _⟩ => exact Nat.mod_eq_of_lt f.isLt

/-- The reciprocal square root of layer 1's guarded variance, broadcast over the nodes. -/
theorem rstd_bc (x9 : Spec.A2 3 256) :
    val_main_v143 (F := Ideal) x9 (ix2 n f) = Ideal.rsqrt (x9 (ix2 1 f) + Spec.eps) := by
  rw [val_main_v143_apply, val_main_v142_apply, val_main_v141_apply, Ideal.hostUnary_rsqrt_def, val_main_v140_apply,
    Ideal.addf_def, val_main_v139_apply, val_main_cst_19_apply, Ideal.ofBits_def, val_main_v138_apply,
    val_main_v137_apply]
  unfold Spec.eps
  refine congrArg (fun t => Ideal.rsqrt (x9 t + Ideal.ofBits .f32 0x3727C5AC#32)) (funext fun a => Fin.ext ?_)
  match a with
  | ⟨0, _⟩ => rfl
  | ⟨1, _⟩ => exact Nat.mod_eq_of_lt f.isLt

/-- The gamma row of layer 1 broadcast over the nodes. -/
theorem gamma_bc (x6 : Spec.A2 3 256) : val_main_v148 (F := Ideal) x6 (ix2 n f) = x6 (ix2 1 f) := by
  rw [val_main_v148_apply, val_main_v147_apply, val_main_v146_apply, val_main_v145_apply]
  refine congrArg x6 (funext fun a => Fin.ext ?_)
  match a with
  | ⟨0, _⟩ => rfl
  | ⟨1, _⟩ => exact Nat.mod_eq_of_lt f.isLt

/-- The beta row of layer 1 broadcast over the nodes. -/
theorem beta_bc (x7 : Spec.A2 3 256) : val_main_v153 (F := Ideal) x7 (ix2 n f) = x7 (ix2 1 f) := by
  rw [val_main_v153_apply, val_main_v152_apply, val_main_v151_apply, val_main_v150_apply]
  refine congrArg x7 (funext fun a => Fin.ext ?_)
  match a with
  | ⟨0, _⟩ => rfl
  | ⟨1, _⟩ => exact Nat.mod_eq_of_lt f.isLt

/-- The clamp's zero. -/
theorem zero_bc : val_main_call2_v0 (F := Ideal) (ix2 n f) = 0 := by
  rw [val_main_call2_v0_apply, val_main_call2_cst_apply, Ideal.ofBits_def, Ideal.ofBits_zero_f32]

end Rows

end Cert.Gcn.R.L2

namespace Cert.Gcn.R

open Idealize.ShloMosaic Idealize.ShloMosaic.ValueIdx
open Cert.ReferenceIdeal Cert.ReferenceIdeal.Gen Cert.ReferenceIdeal.Read Cert.Gcn

/-- Graph layer 1, over whatever its input features are. -/
theorem ref_h2 (x0 : Spec.A2 10000 2048) (x1 : (⟨2, ![2, 320000]⟩ : Shape).Idx → BitVec 32) (x2 : Spec.A2 256 2048) (x3 : Spec.A1 256)
    (x4 : Spec.A3 3 256 256) (x5 x6 x7 x8 x9 : Spec.A2 3 256)
    (src dst : Fin Spec.NE → Fin Spec.NN) (hE : Spec.EdgesAre x1 src dst)
    (hin : Spec.A2 10000 256) (hh : val_main_v82 (F := Ideal) x0 x1 x2 x3 x4 x5 x6 x7 x8 x9 = hin) :
    val_main_v156 (F := Ideal) x0 x1 x2 x3 x4 x5 x6 x7 x8 x9
      = fun i => Spec.bnrelu 1 x5 x6 x7 x8 x9 (Spec.conv src dst (Spec.mmT hin (Spec.gslice 1 x4))) i + hin i := by
  funext i
  obtain ⟨n, f, rfl⟩ : ∃ (n : Fin 10000) (f : Fin 256), i = ix2 n f := ⟨i 0, i 1, eq_ix2 i⟩
  have h88 := L2.mm_eq x0 x1 x2 x3 x4 x5 x6 x7 x8 x9 hin hh
  rw [val_main_v156_apply, val_main_v155_apply, val_main_v154_apply, val_main_v149_apply, val_main_v144_apply,
    val_main_v136_apply, val_main_v131_apply, hh, L2.agg_eq x0 x2 x3 x4 x5 x6 x7 x8 x9 hE _ h88 n f,
    L2.bias_bc, L2.mean_bc, L2.rstd_bc, L2.gamma_bc, L2.beta_bc, L2.zero_bc]
  simp only [Ideal.addf_def, Ideal.maximumf_def, Ideal.mulf_def, Ideal.subf_def]
  rfl

end Cert.Gcn.R

end
-- ==== Proof.RefL3.lean ====
/-
  The reference's graph layer 2 read as a function of its input features and the arguments: the linear map, the
  degrees and edge weights recomputed from the edge list, the sparse aggregation (a gather of source rows, a product
  with the weights, an accumulating scatter to the destinations, the node's own row), the bias, the batch
  normalisation and the clamp, and the layer's input added back.
-/
import proofs.«424132_j19705309954162_2_alg».proof.Proof.Gen.ReferenceIdeal.Read
import proofs.«424132_j19705309954162_2_alg».proof.Proof.Spec
import proofs.«424132_j19705309954162_2_alg».proof.Proof.LibGather
import proofs.«424132_j19705309954162_2_alg».proof.Proof.LibScatter
import proofs.«424132_j19705309954162_2_alg».proof.Proof.LibScatter2
import Idealize.ShloMosaic.Lib.IdealHost

noncomputable section

namespace Cert.Gcn.R

open Idealize.ShloMosaic Idealize.ShloMosaic.ValueIdx
open Cert.ReferenceIdeal Cert.ReferenceIdeal.Gen Cert.ReferenceIdeal.Read Cert.Gcn

/-! ## Words: an edge's two ends, the wrap of negative indices, the clamp to the last node -/

/-- A word that reads signed as a natural number is not negative, so the wrap (add 10000 to a negative word) returns it. -/
theorem l3_wrap (w : BitVec 32) (k : Nat) (hw : w.toInt = (k : Int)) :
    Scalar.select (IntOp.cmpi .slt w 0#32) (IntOp.addi w 10000#32) w = w := by
  have h0 : IntOp.cmpi .slt w 0#32 = 0#1 := by
    unfold IntOp.cmpi
    have hk : ¬ ((k : Int) < 0) := by omega
    simp [BitVec.slt, hw, hk]
  rw [h0, select_zero]

/-- A word that reads signed as the node k, cut to the last node, is k. -/
theorem l3_clamp (w : BitVec 32) (k : Fin 10000) (hw : w.toInt = ((k.val : Nat) : Int))
    (h : min w.toInt.toNat (10000 - 1) < 10000) :
    (⟨min w.toInt.toNat (10000 - 1), h⟩ : Fin 10000) = k := by
  apply Fin.ext
  show min w.toInt.toNat (10000 - 1) = k.val
  have := k.isLt
  rw [hw]
  omega

section Layer

variable (x0 : Spec.A2 10000 2048) (x1 : (⟨2, ![2, 320000]⟩ : Shape).Idx → BitVec 32) (x2 : Spec.A2 256 2048)
  (x3 : Spec.A1 256) (x4 : Spec.A3 3 256 256) (x5 x6 x7 x8 x9 : Spec.A2 3 256) (src dst : Fin Spec.NE → Fin Spec.NN)

/-- Row 0 of the edge list, flattened, at edge e. -/
theorem l3_src_word (e : Fin 320000) : val_main_v1 (F := Ideal) x1 (ix1 e) = x1 (ix2 0 e) := by
  rw [val_main_v1_apply, val_main_v0_apply]
  exact congrArg x1 (funext fun a => Fin.ext (by
    match a with
    | ⟨0, _⟩ => rfl
    | ⟨1, _⟩ => exact Nat.mod_eq_of_lt e.isLt))

/-- Row 1 of the edge list, flattened, at edge e. -/
theorem l3_dst_word (e : Fin 320000) : val_main_v3 (F := Ideal) x1 (ix1 e) = x1 (ix2 1 e) := by
  rw [val_main_v3_apply, val_main_v2_apply]
  exact congrArg x1 (funext fun a => Fin.ext (by
    match a with
    | ⟨0, _⟩ => rfl
    | ⟨1, _⟩ => exact Nat.mod_eq_of_lt e.isLt))

/-- The start word of the degree's scatter at edge e is the destination. -/
theorem l3_w165 (hE : Spec.EdgesAre x1 src dst) (e : Fin 320000) :
    (val_main_v165 (F := Ideal) x1 (ix2 e (0 : Fin 1))).toInt = ((dst e).val : Int) := by
  have hi : idx_main_v165 (ix2 e (0 : Fin 1)) = ix1 e := funext fun a => Fin.ext (by match a with | ⟨0, _⟩ => rfl)
  rw [val_main_v165_apply, hi, l3_dst_word]
  exact hE.2 e

/-- The start word of the rows' scatter at edge e is the destination. -/
theorem l3_w196 (hE : Spec.EdgesAre x1 src dst) (e : Fin 320000) :
    (val_main_v196 (F := Ideal) x1 (ix2 e (0 : Fin 1))).toInt = ((dst e).val : Int) := by
  have hi : idx_main_v196 (ix2 e (0 : Fin 1)) = ix1 e := funext fun a => Fin.ext (by match a with | ⟨0, _⟩ => rfl)
  rw [val_main_v196_apply, hi, l3_dst_word]
  exact hE.2 e

/-- The start word of the first gather of the reciprocal roots at edge e: the source, the wrap undone. -/
theorem l3_w175 (hE : Spec.EdgesAre x1 src dst) (e : Fin 320000) :
    (val_main_v175 (F := Ideal) x1 (ix2 e (0 : Fin 1))).toInt = ((src e).val : Int) := by
  have hi : idx_main_v175 (ix2 e (0 : Fin 1)) = ix1 e := funext fun a => Fin.ext (by match a with | ⟨0, _⟩ => rfl)
  rw [val_main_v175_apply, hi, val_main_v174_apply, val_main_v171_apply, val_main_v173_apply, val_main_v170_apply,
    val_main_v172_apply, val_main_c_23_apply, val_main_c_24_apply, l3_src_word, l3_wrap _ _ (hE.1 e)]
  exact hE.1 e

/-- The start word of the second gather of the reciprocal roots at edge e: the destination, the wrap undone. -/
theorem l3_w182 (hE : Spec.EdgesAre x1 src dst) (e : Fin 320000) :
    (val_main_v182 (F := Ideal) x1 (ix2 e (0 : Fin 1))).toInt = ((dst e).val : Int) := by
  have hi : idx_main_v182 (ix2 e (0 : Fin 1)) = ix1 e := funext fun a => Fin.ext (by match a with | ⟨0, _⟩ => rfl)
  rw [val_main_v182_apply, hi, val_main_v181_apply, val_main_v178_apply, val_main_v180_apply, val_main_v177_apply,
    val_main_v179_apply, val_main_c_25_apply, val_main_c_26_apply, l3_dst_word, l3_wrap _ _ (hE.2 e)]
  exact hE.2 e

/-- The start word of the gather of rows at edge e: the source, the wrap undone. -/
theorem l3_w190 (hE : Spec.EdgesAre x1 src dst) (e : Fin 320000) :
    (val_main_v190 (F := Ideal) x1 (ix2 e (0 : Fin 1))).toInt = ((src e).val : Int) := by
  have hi : idx_main_v190 (ix2 e (0 : Fin 1)) = ix1 e := funext fun a => Fin.ext (by match a with | ⟨0, _⟩ => rfl)
  rw [val_main_v190_apply, hi, val_main_v189_apply, val_main_v186_apply, val_main_v188_apply, val_main_v185_apply,
    val_main_v187_apply, val_main_c_27_apply, val_main_c_28_apply, l3_src_word, l3_wrap _ _ (hE.1 e)]
  exact hE.1 e

/-! ## The graph's normalisation, functions of the edge list alone -/

/-- Ones accumulated at the destination words into zeros, plus one: the degree. -/
theorem l3_deg (hE : Spec.EdgesAre x1 src dst) (n : Fin 10000) :
    val_main_v168 (F := Ideal) x1 (ix1 n) = Spec.deg dst n := by
  have unf : val_main_v166 (F := Ideal) x1 = Ideal.hostScatterAdd scatter_S10000_S320000x1_S320000_n_0_0_1
      (val_main_v164 (F := Ideal)) (val_main_v165 (F := Ideal) x1) (val_main_v163 (F := Ideal)) := by
    unfold val_main_v166 Host.scatterAdd
    exact Ideal.hostScatterAdd_def _ _ _ _ _
  rw [val_main_v168_apply, Ideal.addf_def, unf, Cert.Rgcn.Lib.scatterAdd_vec_apply _ rfl rfl rfl rfl]
  have hz : val_main_v164 (F := Ideal) (ix1 n) = 0 := by
    rw [val_main_v164_apply, val_main_cst_21_apply, Ideal.ofBits_def, Ideal.ofBits_zero_f32]
  have h1 : val_main_v167 (F := Ideal) (ix1 n) = 1 := by
    rw [val_main_v167_apply, val_main_cst_22_apply, Ideal.ofBits_def, Ideal.ofBits_one_f32]
  have hu : ∀ e : Fin 320000, val_main_v163 (F := Ideal) (ix1 e) = 1 := fun e => by
    rw [val_main_v163_apply, val_main_cst_20_apply, Ideal.ofBits_def, Ideal.ofBits_one_f32]
  rw [hz, h1, zero_add]
  unfold Spec.deg
  refine congrArg (fun t : EReal => t + 1) ?_
  refine Finset.sum_congr (Finset.filter_congr fun e _ => ?_) fun e _ => hu e
  rw [l3_w165 x1 src dst hE e]
  exact ⟨fun h => Fin.ext (by exact_mod_cast h), fun h => by rw [h]⟩

/-- Its reciprocal square root. -/
theorem l3_dinv (hE : Spec.EdgesAre x1 src dst) (n : Fin 10000) :
    val_main_v169 (F := Ideal) x1 (ix1 n) = Spec.dinv dst n := by
  unfold Spec.dinv
  rw [val_main_v169_apply, Ideal.hostUnary_rsqrt_def, l3_deg x1 src dst hE n]

/-- The reciprocal root gathered at an edge's source. -/
theorem l3_dinv_src (hE : Spec.EdgesAre x1 src dst) (e : Fin 320000) :
    val_main_v176 (F := Ideal) x1 (ix1 e) = Spec.dinv dst (src e) := by
  unfold val_main_v176
  rw [Cert.Gcn.Lib.gather_vec_apply (by decide) _ rfl rfl rfl rfl rfl rfl rfl,
    l3_clamp _ (src e) (l3_w175 x1 src dst hE e)]
  exact l3_dinv x1 src dst hE (src e)

/-- The reciprocal root gathered at an edge's destination. -/
theorem l3_dinv_dst (hE : Spec.EdgesAre x1 src dst) (e : Fin 320000) :
    val_main_v183 (F := Ideal) x1 (ix1 e) = Spec.dinv dst (dst e) := by
  unfold val_main_v183
  rw [Cert.Gcn.Lib.gather_vec_apply (by decide) _ rfl rfl rfl rfl rfl rfl rfl,
    l3_clamp _ (dst e) (l3_w182 x1 src dst hE e)]
  exact l3_dinv x1 src dst hE (dst e)

/-- Their product: the edge's weight. -/
theorem l3_norm (hE : Spec.EdgesAre x1 src dst) (e : Fin 320000) :
    val_main_v184 (F := Ideal) x1 (ix1 e) = Spec.norm src dst e := by
  rw [val_main_v184_apply, l3_dinv_src x1 src dst hE e, l3_dinv_dst x1 src dst hE e]
  rfl

/-! ## The linear map and the aggregation -/

/-- The layer's weights sliced out of the stack and transposed, contracted with the input's rows. -/
theorem l3_lin (hin : Spec.A2 10000 256) (hh : val_main_v156 (F := Ideal) x0 x1 x2 x3 x4 x5 x6 x7 x8 x9 = hin) :
    val_main_v162 (F := Ideal) x0 x1 x2 x3 x4 x5 x6 x7 x8 x9 = Spec.mmT hin (Spec.gslice 2 x4) := by
  funext i
  obtain ⟨n, f, rfl⟩ : ∃ (n : Fin 10000) (f : Fin 256), i = ix2 n f := ⟨i 0, i 1, eq_ix2 i⟩
  rw [val_main_v162_apply, hh]
  unfold Spec.mmT
  refine Finset.sum_congr rfl fun k _ => ?_
  -- the left operand is read at (n, k); the right one, through the transpose, the reshape and the slice, at (2, f, k)
  have hl : lidx_main_v162 (ix2 n f) k = ix2 n k :=
    funext fun a => Fin.ext (by match a with | ⟨0, _⟩ => rfl | ⟨1, _⟩ => rfl)
  have hr : idx_main_v157 (idx_main_v158 (idx_main_v161 (ridx_main_v162 (ix2 n f) k))) = ix3 2 f k :=
    funext fun a => Fin.ext (by
      match a with
      | ⟨0, _⟩ => rfl
      | ⟨1, _⟩ => show (f.val * 256 + k.val) / 256 % 256 = f.val; have := f.isLt; have := k.isLt; omega
      | ⟨2, _⟩ => show (f.val * 256 + k.val) % 256 = k.val; have := f.isLt; have := k.isLt; omega)
  rw [val_main_v161_apply, val_main_v158_apply, val_main_v157_apply, hl, hr]
  rfl

/-- The source rows gathered, weighted, accumulated at the destination words into zeros, plus the node's own row times
    its squared reciprocal root: the sparse aggregation of whatever the linear map gave. -/
theorem l3_conv (hE : Spec.EdgesAre x1 src dst) (n : Fin 10000) (f : Fin 256) :
    val_main_v202 (F := Ideal) x0 x1 x2 x3 x4 x5 x6 x7 x8 x9 (ix2 n f)
      = Spec.convAt src dst (val_main_v162 (F := Ideal) x0 x1 x2 x3 x4 x5 x6 x7 x8 x9) n f := by
  have unf : val_main_v197 (F := Ideal) x0 x1 x2 x3 x4 x5 x6 x7 x8 x9
      = Ideal.hostScatterAdd scatter_S10000x256_S320000x1_S320000x256_1_0_0_1 (val_main_v195 (F := Ideal))
        (val_main_v196 (F := Ideal) x1)
        (mulf (F := Ideal) (Host.gather gather_S10000x256_S320000x1_S320000x256_1_0_n_n_0_1_1256
            (val_main_v162 (F := Ideal) x0 x1 x2 x3 x4 x5 x6 x7 x8 x9) (val_main_v190 (F := Ideal) x1))
          (val_main_v193 (F := Ideal) x1) : FVec Ideal S320000x256 .f32) := by
    unfold val_main_v197 val_main_v194 val_main_v191 Host.scatterAdd
    exact Ideal.hostScatterAdd_def _ _ _ _ _
  rw [val_main_v202_apply, val_main_v201_apply, Ideal.addf_def, Ideal.mulf_def, unf]
  generalize val_main_v162 (F := Ideal) x0 x1 x2 x3 x4 x5 x6 x7 x8 x9 = hl
  rw [Cert.Rgcn.Lib.scatterAdd_rows_apply _ rfl rfl rfl rfl]
  have hz : val_main_v195 (F := Ideal) (ix2 n f) = 0 := by
    rw [val_main_v195_apply, val_main_cst_29_apply, Ideal.ofBits_def, Ideal.ofBits_zero_f32]
  have hd : val_main_v200 (F := Ideal) x1 (ix2 n f) = Spec.dinv dst n * Spec.dinv dst n := by
    have hi : idx_main_v199 (idx_main_v200 (ix2 n f)) = ix1 n :=
      funext fun a => Fin.ext (by match a with | ⟨0, _⟩ => rfl)
    rw [val_main_v200_apply, val_main_v199_apply, hi, val_main_v198_apply, Ideal.mulf_def, l3_dinv x1 src dst hE n]
  rw [hz, hd, zero_add]
  unfold Spec.convAt
  refine congrArg (fun t : EReal => t + hl (ix2 n f) * (Spec.dinv dst n * Spec.dinv dst n)) ?_
  refine Finset.sum_congr (Finset.filter_congr fun e _ => ?_) fun e _ => ?_
  · rw [l3_w196 x1 src dst hE e]
    exact ⟨fun h => Fin.ext (by exact_mod_cast h), fun h => by rw [h]⟩
  · have hi : idx_main_v192 (idx_main_v193 (ix2 e f)) = ix1 e :=
      funext fun a => Fin.ext (by match a with | ⟨0, _⟩ => rfl)
    rw [mulf_apply, Cert.Rgcn.Lib.gather_rows_apply (by decide) _ rfl rfl rfl rfl rfl rfl rfl,
      l3_clamp _ (src e) (l3_w190 x1 src dst hE e), val_main_v193_apply, val_main_v192_apply, hi,
      l3_norm x1 src dst hE e]

/-! ## The bias and the batch normalisation's rows, broadcast along the nodes -/

/-- The layer's bias row. -/
theorem l3_bias (n : Fin 10000) (f : Fin 256) : val_main_v204 (F := Ideal) x5 (ix2 n f) = x5 (ix2 2 f) := by
  rw [val_main_v204_apply, val_main_v203_apply, val_main_v160_apply, val_main_v159_apply]
  exact congrArg x5 (funext fun a => Fin.ext (by
    match a with
    | ⟨0, _⟩ => rfl
    | ⟨1, _⟩ => exact Nat.mod_eq_of_lt f.isLt))

/-- The layer's running mean. -/
theorem l3_mean (n : Fin 10000) (f : Fin 256) : val_main_v209 (F := Ideal) x8 (ix2 n f) = x8 (ix2 2 f) := by
  rw [val_main_v209_apply, val_main_v208_apply, val_main_v207_apply, val_main_v206_apply]
  exact congrArg x8 (funext fun a => Fin.ext (by
    match a with
    | ⟨0, _⟩ => rfl
    | ⟨1, _⟩ => exact Nat.mod_eq_of_lt f.isLt))

/-- The reciprocal root of the layer's guarded variance. -/
theorem l3_istd (n : Fin 10000) (f : Fin 256) :
    val_main_v217 (F := Ideal) x9 (ix2 n f) = Ideal.rsqrt (x9 (ix2 2 f) + Spec.eps) := by
  have hi : idx_main_v211 (idx_main_v212 (idx_main_v216 (idx_main_v217 (ix2 n f)))) = ix2 2 f :=
    funext fun a => Fin.ext (by
      match a with
      | ⟨0, _⟩ => rfl
      | ⟨1, _⟩ => exact Nat.mod_eq_of_lt f.isLt)
  rw [val_main_v217_apply, val_main_v216_apply, val_main_v215_apply, val_main_v214_apply, val_main_v212_apply,
    val_main_v211_apply, hi, val_main_v213_apply, val_main_cst_30_apply, Ideal.hostUnary_rsqrt_def, Ideal.addf_def,
    Ideal.ofBits_def]
  unfold Spec.eps
  rfl

/-- The layer's scale. -/
theorem l3_gamma (n : Fin 10000) (f : Fin 256) : val_main_v222 (F := Ideal) x6 (ix2 n f) = x6 (ix2 2 f) := by
  rw [val_main_v222_apply, val_main_v221_apply, val_main_v220_apply, val_main_v219_apply]
  exact congrArg x6 (funext fun a => Fin.ext (by
    match a with
    | ⟨0, _⟩ => rfl
    | ⟨1, _⟩ => exact Nat.mod_eq_of_lt f.isLt))

/-- The layer's shift. -/
theorem l3_beta (n : Fin 10000) (f : Fin 256) : val_main_v227 (F := Ideal) x7 (ix2 n f) = x7 (ix2 2 f) := by
  rw [val_main_v227_apply, val_main_v226_apply, val_main_v225_apply, val_main_v224_apply]
  exact congrArg x7 (funext fun a => Fin.ext (by
    match a with
    | ⟨0, _⟩ => rfl
    | ⟨1, _⟩ => exact Nat.mod_eq_of_lt f.isLt))

end Layer

/-- Graph layer 2, over whatever its input features are. -/
theorem ref_h3 (x0 : Spec.A2 10000 2048) (x1 : (⟨2, ![2, 320000]⟩ : Shape).Idx → BitVec 32) (x2 : Spec.A2 256 2048) (x3 : Spec.A1 256)
    (x4 : Spec.A3 3 256 256) (x5 x6 x7 x8 x9 : Spec.A2 3 256)
    (src dst : Fin Spec.NE → Fin Spec.NN) (hE : Spec.EdgesAre x1 src dst)
    (hin : Spec.A2 10000 256) (hh : val_main_v156 (F := Ideal) x0 x1 x2 x3 x4 x5 x6 x7 x8 x9 = hin) :
    val_main_v230 (F := Ideal) x0 x1 x2 x3 x4 x5 x6 x7 x8 x9
      = fun i => Spec.bnrelu 2 x5 x6 x7 x8 x9 (Spec.conv src dst (Spec.mmT hin (Spec.gslice 2 x4))) i + hin i := by
  funext i
  obtain ⟨n, f, rfl⟩ : ∃ (n : Fin 10000) (f : Fin 256), i = ix2 n f := ⟨i 0, i 1, eq_ix2 i⟩
  have hz : val_main_call3_v0 (F := Ideal) (ix2 n f) = 0 := by
    rw [val_main_call3_v0_apply, val_main_call3_cst_apply, Ideal.ofBits_def, Ideal.ofBits_zero_f32]
  -- outermost first: the residual add, the clamp, the shift, the scale, the reciprocal root, the mean, the bias
  rw [val_main_v230_apply, val_main_v229_apply, val_main_v228_apply, val_main_v223_apply, val_main_v218_apply,
    val_main_v210_apply, val_main_v205_apply, l3_conv x0 x1 x2 x3 x4 x5 x6 x7 x8 x9 src dst hE n f,
    l3_lin x0 x1 x2 x3 x4 x5 x6 x7 x8 x9 hin hh, hh, l3_bias, l3_mean, l3_istd, l3_gamma, l3_beta, hz]
  rfl

end Cert.Gcn.R

end
-- ==== Proof.RefValue.lean ====
/-
  The reference's result read back from its run is the network `Spec.rnet` of the launch memory's argument arrays:
  the input projection, the three graph layers each over the one before, and the head, chained.
-/
import proofs.«424132_j19705309954162_2_alg».proof.Proof.Gen.ReferenceIdeal.Read
import proofs.«424132_j19705309954162_2_alg».proof.Proof.Spec
import proofs.«424132_j19705309954162_2_alg».proof.Proof.RefEnds
import proofs.«424132_j19705309954162_2_alg».proof.Proof.RefL1
import proofs.«424132_j19705309954162_2_alg».proof.Proof.RefL2
import proofs.«424132_j19705309954162_2_alg».proof.Proof.RefL3

noncomputable section

namespace Cert.Gcn.R

open Idealize.ShloMosaic Idealize.ShloMosaic.TcCoe Idealize.SL.Sem Idealize.ShloMosaic.ValueIdx
open Cert.ReferenceIdeal Cert.ReferenceIdeal.Gen Cert.Gcn

variable (m : (ℓ : Loc nD τ sig) → Buf (Elt Ideal) ℓ)

/-- The run's result term is the sparse, textbook network of the argument arrays. -/
theorem ref_value (c : Dev nD) (src dst : Fin Spec.NE → Fin Spec.NN)
    (hE : Spec.EdgesAre (m ((c.tc : Thread nD τ).loc main_arg1)) src dst) :
    Cert.ReferenceIdeal.Value.res_main_v247 (F := Ideal) m c
      = Spec.rnet src dst (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [Cert.ReferenceIdeal.Read.val_main_v247_eq]
  have e0 := ref_h0 (m ((c.tc : Thread nD τ).loc main_arg0)) (m ((c.tc : Thread nD τ).loc main_arg2)) (m ((c.tc : Thread nD τ).loc main_arg3))
  have e1 := ref_h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) src dst hE _ e0
  have e2 := ref_h2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) src dst hE _ e1
  have e3 := ref_h3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) src dst hE _ e2
  exact ref_head (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) _ e3

end Cert.Gcn.R

end
-- ==== Proof.PreFacts.lean ====
/-
  What the precondition says of the launch memory: every float argument array is real (its absolute values are below
  +∞), every index word of the edge list is a node (0 ≤ word < 10000, read signed), and no variance is negative.

  The printed predicate is one conjunction, and-ed left to right: for each float array x the test all(|x| < +∞), then
  all(edges ≥ 0), all(edges < 10000) and all(var ≥ 0). A conjunction of bits is 1 only if both bits are (so the chain
  is peeled from its last conjunct back to its first); an "all" that is 1 had a 1 at every index; and a compare that is
  1 at an index is the order fact about the two entries there.
-/
import proofs.«424132_j19705309954162_2_alg».proof.Defs
import proofs.«424132_j19705309954162_2_alg».proof.Proof.Spec
import Idealize.ShloMosaic.Lib.ReduceAll
import Idealize.ShloMosaic.Lib.StableHlo.Predicate

noncomputable section

namespace Cert.Gcn.P

open Idealize.ShloMosaic Idealize.ShloMosaic.TcCoe Idealize.SL.Sem Idealize.ShloMosaic.ValueIdx Cert.Gcn
open Cert.Pre_finite_inputs

/-! ## One entry -/

/-- The scalar shape has one index. -/
instance scalarIdx_subsingleton : Subsingleton S_.Idx := ⟨fun a b => funext fun d => d.elim0⟩

/-- The single-precision word 0x7F800000 (exponent all ones, fraction zero, sign clear) denotes +∞. -/
theorem inf_word : Ideal.ofBits .f32 0x7F800000#32 = ⊤ := by simp [Ideal.ofBits, Ideal.ieee]

/-- The single-precision word of all zeros denotes 0. -/
theorem zero_word : Ideal.ofBits .f32 0x00000000#32 = 0 := by simp [Ideal.ofBits, Ideal.ieee]

/-- An extended real whose absolute value max x (−x) is below +∞ is a real number: of ⊤ and ⊥ the absolute value is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- A compare bit is 1 exactly when the comparison holds. -/
theorem ofBool_decide_eq_one {p : Prop} [Decidable p] (h : BitVec.ofBool (decide p) = 1#1) : p := by
  by_cases hp : p
  · exact hp
  · simp [hp] at h

/-! ## One conjunct: an "all" over an array of any shape -/

section All
variable {s : Shape} {axes : List (Fin s.rank)}

/-- |x| < +∞ at every index: every entry of x is real. -/
theorem isReal_of_cmp (x : FVec Ideal s .f32) (hb : S_.BroadcastsInDim s (![] : Fin 0 → Fin s.rank))
    (h : ∀ i, cmpf .olt (Host.absf x) (broadcastInDim s ![] hb (constant (F := Ideal) S_ .f32 0x7F800000#32)) i = 1#1) :
    Spec.IsReal x := by
  intro i
  have e : Ideal.cmp .olt (max (x i) (-(x i))) (Ideal.ofBits .f32 0x7F800000#32) = 1#1 := h i
  rw [inf_word] at e
  exact real_of_abs_lt_top _ (ofBool_decide_eq_one e)

/-- all(|x| < +∞) is 1: every entry of x is real. -/
theorem isReal_of_all (x : FVec Ideal s .f32) (hb : S_.BroadcastsInDim s (![] : Fin 0 → Fin s.rank))
    (hr : s.ReducesTo axes S_) (h0 : 0 < S_.numel) (init : IVec S_ 1)
    (h : Host.reduce IntOp.andi
        (cmpf .olt (Host.absf x) (broadcastInDim s ![] hb (constant (F := Ideal) S_ .f32 0x7F800000#32))) init hr h0 ix0 = 1#1) :
    Spec.IsReal x :=
  isReal_of_cmp x hb (Host.reduce_andi_all _ init hr h0 ix0 h)

/-- all(w ≥ 0), signed, is 1: every word is non-negative. -/
theorem nonneg_of_all (w : IVec s 32) (hb : S_.BroadcastsInDim s (![] : Fin 0 → Fin s.rank))
    (hr : s.ReducesTo axes S_) (h0 : 0 < S_.numel) (init : IVec S_ 1)
    (h : Host.reduce IntOp.andi (cmpi .sge w (broadcastInDim s ![] hb (constantI S_ 32 0#32))) init hr h0 ix0 = 1#1) :
    ∀ i, 0 ≤ (w i).toInt := by
  intro i
  have e : IntOp.cmpi .sge (w i) 0#32 = 1#1 := Host.reduce_andi_all _ init hr h0 ix0 h i
  have := IntOp.cmpi_sge.1 e
  simpa using this

/-- all(w < 10000), signed, is 1: every word is below 10000. -/
theorem lt_of_all (w : IVec s 32) (hb : S_.BroadcastsInDim s (![] : Fin 0 → Fin s.rank))
    (hr : s.ReducesTo axes S_) (h0 : 0 < S_.numel) (init : IVec S_ 1)
    (h : Host.reduce IntOp.andi (cmpi .slt w (broadcastInDim s ![] hb (constantI S_ 32 10000#32))) init hr h0 ix0 = 1#1) :
    ∀ i, (w i).toInt < 10000 := by
  intro i
  have e : IntOp.cmpi .slt (w i) 10000#32 = 1#1 := Host.reduce_andi_all _ init hr h0 ix0 h i
  have := IntOp.cmpi_slt.1 e
  have h1 : (10000#32 : BitVec 32).toInt = 10000 := by decide
  rwa [h1] at this

/-- v ≥ 0 at every index, against the word of zero: no entry of v is negative. -/
theorem nonneg_of_cmp (v : FVec Ideal s .f32) (hb : S_.BroadcastsInDim s (![] : Fin 0 → Fin s.rank))
    (h : ∀ i, cmpf .oge v (broadcastInDim s ![] hb (constant (F := Ideal) S_ .f32 0x00000000#32)) i = 1#1) :
    ∀ i, 0 ≤ v i := by
  intro i
  have e : Ideal.cmp .oge (v i) (Ideal.ofBits .f32 0x00000000#32) = 1#1 := h i
  rw [zero_word] at e
  exact ofBool_decide_eq_one e

end All

/-! ## The chain, from its last conjunct back to its first

Each stretch of the printed chain takes the running conjunction (a bit) and a few arrays, and-s further conjuncts on
and hands the result to the next stretch. Read backwards: if the end result is 1, the running conjunction a stretch
was handed is 1, and each conjunct it and-ed on says its fact. -/

section Chain
variable [Facts]

/-- A conjunction of two scalar bit arrays, at the one index. -/
theorem and_split (x y : IVec S_ 1) (h : andi x y ix0 = 1#1) : x ix0 = 1#1 ∧ y ix0 = 1#1 := IntOp.andi_eq_one.1 h

/-- The last stretch and-s all(p) on, for a bit array p handed to it. -/
theorem last_stretch (c : IVec S_ 1) (p : IVec S3x256 1) (init : IVec S_ 1)
    (h : fn_part5 (F := Ideal) c p init ix0 = 1#1) : c ix0 = 1#1 ∧ ∀ i, p i = 1#1 := by
  unfold fn_part5 at h
  dsimp only at h
  obtain ⟨h1, h2⟩ := and_split _ _ h
  exact ⟨h1, Host.reduce_andi_all _ _ _ _ ix0 h2⟩

/-- What the fourth stretch and the last say: the last bias vector real, the edge words in [0, 10000), the variances
    non-negative. -/
abbrev Tail4 (ei : IVec S2x320000 32) (var : FVec Ideal S3x256 .f32) (c3b : FVec Ideal S10 .f32) : Prop :=
  Spec.IsReal c3b ∧ (∀ i, 0 ≤ (ei i).toInt) ∧ (∀ i, (ei i).toInt < 10000) ∧ ∀ i, 0 ≤ var i

theorem fourth_stretch (ei : IVec S2x320000 32) (var : FVec Ideal S3x256 .f32) (c3b : FVec Ideal S10 .f32) (c d : IVec S_ 1)
    (h : fn_part4 (F := Ideal) ei var c3b c d ix0 = 1#1) : c ix0 = 1#1 ∧ d ix0 = 1#1 ∧ Tail4 ei var c3b := by
  unfold fn_part4 at h
  dsimp only at h
  obtain ⟨h81, h83⟩ := last_stretch _ _ _ h
  obtain ⟨h77, h80⟩ := and_split _ _ h81
  obtain ⟨h73, h76⟩ := and_split _ _ h77
  obtain ⟨h68, h72⟩ := and_split _ _ h73
  obtain ⟨h63, h67⟩ := and_split _ _ h68
  exact ⟨h63, h67, isReal_of_all _ _ _ _ _ h72, nonneg_of_all _ _ _ _ _ h76, lt_of_all _ _ _ _ _ h80, nonneg_of_cmp _ _ h83⟩

/-- What the third stretch adds: the second and third head layers' arrays real. -/
abbrev Tail3 (ei : IVec S2x320000 32) (var : FVec Ideal S3x256 .f32) (c2W : FVec Ideal S64x128 .f32)
    (c2b : FVec Ideal S64 .f32) (c3W : FVec Ideal S10x64 .f32) (c3b : FVec Ideal S10 .f32) : Prop :=
  Spec.IsReal c2W ∧ Spec.IsReal c2b ∧ Spec.IsReal c3W ∧ Tail4 ei var c3b

/-- The third stretch is handed the compare's two operands of a conjunct begun before it (p, q), whose "all" it and-s on
    first. -/
theorem third_stretch (ei : IVec S2x320000 32) (var : FVec Ideal S3x256 .f32) (c2W : FVec Ideal S64x128 .f32)
    (c2b : FVec Ideal S64 .f32) (c3W : FVec Ideal S10x64 .f32) (c3b : FVec Ideal S10 .f32) (c : IVec S_ 1)
    (p q : FVec Ideal S128 .f32)
    (h : fn_part3 (F := Ideal) ei var c2W c2b c3W c3b c p q ix0 = 1#1) :
    c ix0 = 1#1 ∧ (∀ i, cmpf .olt p q i = 1#1) ∧ Tail3 ei var c2W c2b c3W c3b := by
  unfold fn_part3 at h
  dsimp only at h
  obtain ⟨h63, h67, t4⟩ := fourth_stretch _ _ _ _ _ h
  obtain ⟨h58, h62⟩ := and_split _ _ h63
  obtain ⟨h53, h57⟩ := and_split _ _ h58
  obtain ⟨h48, h52⟩ := and_split _ _ h53
  exact ⟨h48, Host.reduce_andi_all _ _ _ _ ix0 h52, isReal_of_all _ _ _ _ _ h57, isReal_of_all _ _ _ _ _ h62,
    isReal_of_all _ _ _ _ _ h67, t4⟩

/-- What the second stretch adds: the means, the variances and the first head layer's arrays real. -/
abbrev Tail2 (ei : IVec S2x320000 32) (mean var : FVec Ideal S3x256 .f32) (c1W : FVec Ideal S128x256 .f32)
    (c1b : FVec Ideal S128 .f32) (c2W : FVec Ideal S64x128 .f32) (c2b : FVec Ideal S64 .f32) (c3W : FVec Ideal S10x64 .f32)
    (c3b : FVec Ideal S10 .f32) : Prop :=
  Spec.IsReal mean ∧ Spec.IsReal var ∧ Spec.IsReal c1W ∧ Spec.IsReal c1b ∧ Tail3 ei var c2W c2b c3W c3b

theorem second_stretch (ei : IVec S2x320000 32) (mean var : FVec Ideal S3x256 .f32) (c1W : FVec Ideal S128x256 .f32)
    (c1b : FVec Ideal S128 .f32) (c2W : FVec Ideal S64x128 .f32) (c2b : FVec Ideal S64 .f32) (c3W : FVec Ideal S10x64 .f32)
    (c3b : FVec Ideal S10 .f32) (c : IVec S_ 1)
    (h : fn_part2 (F := Ideal) ei mean var c1W c1b c2W c2b c3W c3b c ix0 = 1#1) :
    c ix0 = 1#1 ∧ Tail2 ei mean var c1W c1b c2W c2b c3W c3b := by
  unfold fn_part2 at h
  dsimp only at h
  obtain ⟨h48, h51, t3⟩ := third_stretch _ _ _ _ _ _ _ _ _ h
  obtain ⟨h43, h47⟩ := and_split _ _ h48
  obtain ⟨h38, h42⟩ := and_split _ _ h43
  obtain ⟨h33, h37⟩ := and_split _ _ h38
  exact ⟨h33, isReal_of_all _ _ _ _ _ h37, isReal_of_all _ _ _ _ _ h42, isReal_of_all _ _ _ _ _ h47,
    isReal_of_cmp _ _ h51, t3⟩

/-- What the first stretch adds: the layers' biases, scales and shifts real. -/
abbrev Tail1 (ei : IVec S2x320000 32) (gb gamma beta mean var : FVec Ideal S3x256 .f32) (c1W : FVec Ideal S128x256 .f32)
    (c1b : FVec Ideal S128 .f32) (c2W : FVec Ideal S64x128 .f32) (c2b : FVec Ideal S64 .f32) (c3W : FVec Ideal S10x64 .f32)
    (c3b : FVec Ideal S10 .f32) : Prop :=
  Spec.IsReal gb ∧ Spec.IsReal gamma ∧ Spec.IsReal beta ∧ Tail2 ei mean var c1W c1b c2W c2b c3W c3b

/-- The first stretch is handed the bit array p of a conjunct begun before it, whose "all" it and-s on first. -/
theorem first_stretch (ei : IVec S2x320000 32) (gb gamma beta mean var : FVec Ideal S3x256 .f32)
    (c1W : FVec Ideal S128x256 .f32) (c1b : FVec Ideal S128 .f32) (c2W : FVec Ideal S64x128 .f32) (c2b : FVec Ideal S64 .f32)
    (c3W : FVec Ideal S10x64 .f32) (c3b : FVec Ideal S10 .f32) (c : IVec S_ 1) (p : IVec S3x256x256 1)
    (h : fn_part1 (F := Ideal) ei gb gamma beta mean var c1W c1b c2W c2b c3W c3b c p ix0 = 1#1) :
    c ix0 = 1#1 ∧ (∀ i, p i = 1#1) ∧ Tail1 ei gb gamma beta mean var c1W c1b c2W c2b c3W c3b := by
  unfold fn_part1 at h
  dsimp only at h
  obtain ⟨h33, t2⟩ := second_stretch _ _ _ _ _ _ _ _ _ _ h
  obtain ⟨h28, h32⟩ := and_split _ _ h33
  obtain ⟨h23, h27⟩ := and_split _ _ h28
  obtain ⟨h18, h22⟩ := and_split _ _ h23
  obtain ⟨h13, h17⟩ := and_split _ _ h18
  exact ⟨h13, Host.reduce_andi_all _ _ _ _ ix0 h17, isReal_of_all _ _ _ _ _ h22, isReal_of_all _ _ _ _ _ h27,
    isReal_of_all _ _ _ _ _ h32, t2⟩

end Chain

/-! ## The edge list -/

/-- Index words all in [0, 10000), read signed, are nodes: the node of a word is its value. -/
theorem edges_of_range (ei : IVec S2x320000 32) (h0 : ∀ i, 0 ≤ (ei i).toInt) (h1 : ∀ i, (ei i).toInt < 10000) :
    ∃ src dst : Fin Spec.NE → Fin Spec.NN, Spec.EdgesAre ei src dst := by
  refine ⟨fun e => ⟨(ei (ix2 0 e)).toInt.toNat, ?_⟩, fun e => ⟨(ei (ix2 1 e)).toInt.toNat, ?_⟩, fun e => ?_, fun e => ?_⟩
  · have a := h0 (ix2 0 e); have b := h1 (ix2 0 e); show _ < 10000; omega
  · have a := h0 (ix2 1 e); have b := h1 (ix2 1 e); show _ < 10000; omega
  · exact (Int.toNat_of_nonneg (h0 (ix2 0 e))).symm
  · exact (Int.toNat_of_nonneg (h0 (ix2 1 e))).symm

/-! ## The whole predicate -/

/-- The predicate all ones on sixteen arrays makes them admissible. -/
theorem admissible_of_fn [Facts] (x : FVec Ideal S10000x2048 .f32) (ei : IVec S2x320000 32) (inW : FVec Ideal S256x2048 .f32)
    (inb : FVec Ideal S256 .f32) (gW : FVec Ideal S3x256x256 .f32) (gb gamma beta mean var : FVec Ideal S3x256 .f32)
    (c1W : FVec Ideal S128x256 .f32) (c1b : FVec Ideal S128 .f32) (c2W : FVec Ideal S64x128 .f32) (c2b : FVec Ideal S64 .f32)
    (c3W : FVec Ideal S10x64 .f32) (c3b : FVec Ideal S10 .f32)
    (h : fn (F := Ideal) x ei inW inb gW gb gamma beta mean var c1W c1b c2W c2b c3W c3b = fun _ => 1#1) :
    Spec.Admissible x ei inW inb gW gb gamma beta mean var c1W c1b c2W c2b c3W c3b := by
  have h0 := congrFun h ix0
  unfold fn at h0
  dsimp only at h0
  obtain ⟨h13, h16, rgb, rgamma, rbeta, rmean, rvar, rc1W, rc1b, rc2W, rc2b, rc3W, rc3b, e0, e1, v0⟩ :=
    first_stretch _ _ _ _ _ _ _ _ _ _ _ _ _ _ h0
  obtain ⟨h8, h12⟩ := and_split _ _ h13
  obtain ⟨h3, h7⟩ := and_split _ _ h8
  exact
    { x_real := isReal_of_all _ _ _ _ _ h3
      inW_real := isReal_of_all _ _ _ _ _ h7
      inb_real := isReal_of_all _ _ _ _ _ h12
      gW_real := isReal_of_cmp _ _ h16
      gb_real := rgb
      gamma_real := rgamma
      beta_real := rbeta
      mean_real := rmean
      var_real := rvar
      c1W_real := rc1W
      c1b_real := rc1b
      c2W_real := rc2W
      c2b_real := rc2b
      c3W_real := rc3W
      c3b_real := rc3b
      var_nonneg := v0
      edges := edges_of_range ei e0 e1 }

/-- The precondition on the idealized kernel's launch memory makes its argument arrays admissible. -/
theorem admissible_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.Admissible
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)) :=
  admissible_of_fn _ _ _ _ _ _ _ _ _ _ _ _ _ _ _ _ (h c)

end Cert.Gcn.P

end
-- ==== Proof.MathAdj.lean ====
/-
  The dense adjacency product is the sparse aggregation.

  Row n of the adjacency matrix times a feature column: entry (n, k) is the sum of the weights of the edges k → n, plus
  dinv n ² when k = n. Every weight is non-negative (dinv is the reciprocal square root of a degree that is at least
  one), so the product distributes over those sums on the extended reals whatever the features are; summing over k
  regroups the edges k → n by their source into all the edges that end in n, and the diagonal term is the node's own
  row.
-/
import proofs.«424132_j19705309954162_2_alg».proof.Proof.Spec

noncomputable section

namespace Cert.Gcn.M

open Idealize.ShloMosaic Idealize.ShloMosaic.ValueIdx Cert.Gcn

/-! ## Three facts about finite sums, over abstract index types -/

/-- A sum of ones over a finite set is the set's size, as a real number. -/
theorem sum_one_eq_card {α : Type} (s : Finset α) : (∑ _e ∈ s, (1 : EReal)) = ((s.card : ℝ) : EReal) := by
  rw [Finset.sum_const, ← EReal.coe_one, ← EReal.coe_nsmul, nsmul_eq_mul, mul_one]

/-- On the extended reals a sum of NON-NEGATIVE terms times any factor is the sum of the products. (For terms of
    both signs this fails: (1 + -1) * ⊤ = 0 while 1 * ⊤ + -1 * ⊤ = ⊤ + ⊥ = ⊥.) The induction keeps the partial sum
    non-negative, which is what the two-term law asks. -/
theorem sum_mul_of_nonneg {α : Type} (s : Finset α) (a : α → EReal) (ha : ∀ i ∈ s, 0 ≤ a i) (c : EReal) :
    (∑ i ∈ s, a i) * c = ∑ i ∈ s, a i * c := by
  classical
  induction s using Finset.induction_on with
  | empty => simp
  | insert i s hi ih =>
    rw [Finset.sum_insert hi, Finset.sum_insert hi,
      EReal.right_distrib_of_nonneg (ha i (Finset.mem_insert_self i s))
        (Finset.sum_nonneg fun j hj => ha j (Finset.mem_insert_of_mem hj)),
      ih fun j hj => ha j (Finset.mem_insert_of_mem hj)]

/-- Regrouping by fibres: summing, over every value k, the terms of the elements e with p e whose image g e is k
    is summing over all the elements with p e, each at its own image. -/
theorem sum_fibres {α β M : Type} [Fintype α] [Fintype β] [DecidableEq β] [AddCommMonoid M]
    (p : α → Prop) [DecidablePred p] (g : α → β) (F : α → β → M) :
    (∑ k : β, ∑ e ∈ Finset.univ.filter (fun e => p e ∧ g e = k), F e k)
      = ∑ e ∈ Finset.univ.filter p, F e (g e) := by
  have h : ∀ k : β, (∑ e ∈ Finset.univ.filter (fun e => p e ∧ g e = k), F e k)
      = ∑ e ∈ Finset.univ.filter p, if g e = k then F e k else 0 := by
    intro k
    rw [← Finset.filter_filter, Finset.sum_filter]
  rw [Finset.sum_congr rfl fun k _ => h k, Finset.sum_comm]
  refine Finset.sum_congr rfl fun e _ => ?_
  rw [Finset.sum_ite_eq, if_pos (Finset.mem_univ _)]

/-! ## The graph's weights are positive reals -/

variable (src dst : Fin Spec.NE → Fin Spec.NN)

/-- The reciprocal square root of a degree is a positive real. -/
theorem dinv_pos_real (n : Fin Spec.NN) : ∃ r : ℝ, 0 < r ∧ Spec.dinv dst n = (r : EReal) := by
  -- the degree is the real number c + 1, c the number of edges that end in n
  have hdeg : Spec.deg dst n
      = (((((Finset.univ.filter (fun e : Fin Spec.NE => dst e = n)).card : ℝ) + 1 : ℝ)) : EReal) := by
    unfold Spec.deg
    rw [sum_one_eq_card, EReal.coe_add, EReal.coe_one]
  have hpos : (0 : ℝ) < ((Finset.univ.filter (fun e : Fin Spec.NE => dst e = n)).card : ℝ) + 1 :=
    add_pos_of_nonneg_of_pos (Nat.cast_nonneg _) one_pos
  refine ⟨(Real.sqrt (((Finset.univ.filter (fun e : Fin Spec.NE => dst e = n)).card : ℝ) + 1))⁻¹,
    inv_pos.mpr (Real.sqrt_pos.mpr hpos), ?_⟩
  unfold Spec.dinv
  rw [hdeg, Ideal.rsqrt_coe, if_neg (not_lt.mpr hpos.le), if_neg hpos.ne']

/-- An edge's weight is a positive real. -/
theorem norm_pos_real (e : Fin Spec.NE) : ∃ r : ℝ, 0 < r ∧ Spec.norm src dst e = (r : EReal) := by
  obtain ⟨a, ha, ea⟩ := dinv_pos_real dst (src e)
  obtain ⟨b, hb, eb⟩ := dinv_pos_real dst (dst e)
  refine ⟨a * b, mul_pos ha hb, ?_⟩
  unfold Spec.norm
  rw [ea, eb, EReal.coe_mul]

/-- Row n of the adjacency matrix against feature column f is the sparse aggregation at (n, f). -/
theorem adj_mul (H : Spec.A2 10000 256) (n : Fin 10000) (f : Fin 256) :
    (∑ k : Fin 10000, Spec.adj src dst (ix2 n k) * H (ix2 k f)) = Spec.convAt src dst H n f := by
  have hnorm : ∀ e, 0 ≤ Spec.norm src dst e := fun e => by
    obtain ⟨r, hr, he⟩ := norm_pos_real src dst e
    rw [he]; exact_mod_cast hr.le
  have hdd : ∀ j, 0 ≤ Spec.dinv dst j * Spec.dinv dst j := fun j => by
    obtain ⟨r, hr, he⟩ := dinv_pos_real dst j
    rw [he, ← EReal.coe_mul]; exact_mod_cast (mul_pos hr hr).le
  -- one entry of the matrix times a feature: the product goes inside both sums, all of whose terms are ≥ 0
  have hterm : ∀ k : Fin 10000, Spec.adj src dst (ix2 n k) * H (ix2 k f)
      = (∑ e ∈ Finset.univ.filter (fun e : Fin Spec.NE => dst e = n ∧ src e = k),
            Spec.norm src dst e * H (ix2 k f))
        + ∑ j ∈ Finset.univ.filter (fun j : Fin Spec.NN => j = n ∧ j = k),
            Spec.dinv dst j * Spec.dinv dst j * H (ix2 k f) := by
    intro k
    show Spec.adjAt src dst n k * H (ix2 k f) = _
    unfold Spec.adjAt
    rw [EReal.right_distrib_of_nonneg (Finset.sum_nonneg fun e _ => hnorm e)
        (Finset.sum_nonneg fun j _ => hdd j),
      sum_mul_of_nonneg _ _ (fun e _ => hnorm e), sum_mul_of_nonneg _ _ (fun j _ => hdd j)]
  rw [Finset.sum_congr rfl fun k _ => hterm k, Finset.sum_add_distrib,
    -- the edges k → n, over all k, are the edges that end in n, each at its own source
    sum_fibres (fun e : Fin Spec.NE => dst e = n) src (fun e k => Spec.norm src dst e * H (ix2 k f)),
    -- the diagonal: j = n and j = k leaves the single term j = k = n
    sum_fibres (fun j : Fin Spec.NN => j = n) (fun j => j)
      (fun j k => Spec.dinv dst j * Spec.dinv dst j * H (ix2 k f)),
    Finset.filter_eq' Finset.univ n, if_pos (Finset.mem_univ n), Finset.sum_singleton]
  unfold Spec.convAt
  refine congrArg₂ (· + ·) ?_ ?_
  · exact Finset.sum_congr rfl fun e _ => mul_comm _ _
  · exact mul_comm _ _

end Cert.Gcn.M

end
-- ==== Proof.MathLayer.lean ====
/-
  One graph layer in its two spellings, on real inputs with non-negative variances.

  With every quantity a real number and the guarded variance positive, the folded form
  agg · scale + (bias · scale + beta − mean · scale), scale = gamma / √(var + eps), is the textbook form
  ((agg + bias) − mean) / √(var + eps) · gamma + beta by the field laws; the aggregate is the sparse aggregation by
  the adjacency identity; and the layer's output is again real.
-/
import proofs.«424132_j19705309954162_2_alg».proof.Proof.Spec
import proofs.«424132_j19705309954162_2_alg».proof.Proof.MathAdj
import Mathlib.Data.EReal.Operations
import Mathlib.Analysis.Real.Sqrt
import Mathlib.Algebra.BigOperators.Group.Finset.Basic
import Mathlib.Tactic.Ring
import Mathlib.Tactic.Linarith

noncomputable section

namespace Cert.Gcn.M

open Idealize.ShloMosaic Idealize.ShloMosaic.ValueIdx Cert.Gcn

/-- The variance's guard is a positive real. -/
theorem eps_pos_real : ∃ r : ℝ, 0 < r ∧ Spec.eps = (r : EReal) := by
  -- the word's sign bit is clear and its exponent field is neither zero nor all ones: a normal positive number
  simp [Spec.eps, Ideal.ofBits, Ideal.ieee, -EReal.coe_mul]

/-! ## Real numbers inside the extended reals

An extended real is "real" when it is the image of a real number. The image is closed under the field operations
that keep away from the infinities, under finite sums and under the maximum, because the inclusion commutes with
each of them. -/

/-- The inclusion of the reals commutes with finite sums. -/
theorem coe_sum {ι : Type} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The inclusion of the reals is monotone, so it commutes with the maximum. -/
theorem coe_max (a b : ℝ) : ((max a b : ℝ) : EReal) = max (a : EReal) (b : EReal) :=
  EReal.coe_strictMono.monotone.map_max

/-- A real array is the image of an array of reals. -/
theorem isReal_fun {ι : Type} {f : ι → EReal} (hf : Spec.IsReal f) : ∃ r : ι → ℝ, f = fun i => (r i : EReal) := by
  choose r hr using hf
  exact ⟨r, funext hr⟩

theorem real_zero : ∃ r : ℝ, (0 : EReal) = (r : EReal) := ⟨0, rfl⟩

theorem real_add {a b : EReal} (ha : ∃ r : ℝ, a = (r : EReal)) (hb : ∃ r : ℝ, b = (r : EReal)) :
    ∃ r : ℝ, a + b = (r : EReal) := by
  obtain ⟨x, rfl⟩ := ha
  obtain ⟨y, rfl⟩ := hb
  exact ⟨x + y, (EReal.coe_add x y).symm⟩

theorem real_sub {a b : EReal} (ha : ∃ r : ℝ, a = (r : EReal)) (hb : ∃ r : ℝ, b = (r : EReal)) :
    ∃ r : ℝ, a - b = (r : EReal) := by
  obtain ⟨x, rfl⟩ := ha
  obtain ⟨y, rfl⟩ := hb
  exact ⟨x - y, (EReal.coe_sub x y).symm⟩

theorem real_mul {a b : EReal} (ha : ∃ r : ℝ, a = (r : EReal)) (hb : ∃ r : ℝ, b = (r : EReal)) :
    ∃ r : ℝ, a * b = (r : EReal) := by
  obtain ⟨x, rfl⟩ := ha
  obtain ⟨y, rfl⟩ := hb
  exact ⟨x * y, (EReal.coe_mul x y).symm⟩

/-- Clamping a real below at zero leaves a real. -/
theorem real_max0 {a : EReal} (ha : ∃ r : ℝ, a = (r : EReal)) : ∃ r : ℝ, max a 0 = (r : EReal) := by
  obtain ⟨x, rfl⟩ := ha
  exact ⟨max x 0, by rw [coe_max, EReal.coe_zero]⟩

/-- A finite sum of reals is real. -/
theorem real_sum {ι : Type} (s : Finset ι) {f : ι → EReal} (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact real_add (hf a (Finset.mem_insert_self a s)) (ih fun i hi => hf i (Finset.mem_insert_of_mem hi))

/-- The reciprocal square root of a non-negative real plus a positive real is a positive real. -/
theorem rsqrt_pos_real {v e : ℝ} (hv : 0 ≤ v) (he : 0 < e) :
    ∃ s : ℝ, 0 < s ∧ Ideal.rsqrt ((v : EReal) + (e : EReal)) = (s : EReal) := by
  have hpos : 0 < v + e := by linarith
  refine ⟨(Real.sqrt (v + e))⁻¹, inv_pos.mpr (Real.sqrt_pos.mpr hpos), ?_⟩
  rw [← EReal.coe_add, Ideal.rsqrt_coe, if_neg (not_lt.mpr hpos.le), if_neg hpos.ne']

/-! ## The pieces of a layer on real arrays -/

/-- One matrix out of a real stack is real. -/
theorem gslice_real (l : Fin 3) {G : Spec.A3 3 256 256} (hG : Spec.IsReal G) : Spec.IsReal (Spec.gslice l G) :=
  fun _ => hG _

/-- A product of real matrices is real: each entry is a finite sum of products of reals. -/
theorem mmT_real {K J : Nat} {X : Spec.A2 10000 K} {W : Spec.A2 J K} (hX : Spec.IsReal X) (hW : Spec.IsReal W) :
    Spec.IsReal (Spec.mmT X W) :=
  fun _ => real_sum _ fun _ _ => real_mul (hX _) (hW _)

/-- The sparse aggregation of a real array is real: the weights are real. -/
theorem convAt_real (src dst : Fin Spec.NE → Fin Spec.NN) {hl : Spec.A2 10000 256} (hhl : Spec.IsReal hl)
    (n : Fin Spec.NN) (f : Fin 256) : ∃ r : ℝ, Spec.convAt src dst hl n f = (r : EReal) := by
  obtain ⟨d, _, hd⟩ := dinv_pos_real dst n
  refine real_add (real_sum _ fun e _ => real_mul (hhl _) ?_) (real_mul (hhl _) (real_mul ⟨d, hd⟩ ⟨d, hd⟩))
  obtain ⟨w, _, hw⟩ := norm_pos_real src dst e
  exact ⟨w, hw⟩

/-- An affine map against a transposed slice with the zero bias row is the product against the slice: the transpose
    swaps the two coordinates back, and adding zero changes nothing. -/
theorem rLin_zrow (l : Fin 3) (h : Spec.A2 10000 256) (gW : Spec.A3 3 256 256) :
    Spec.rLin h (Spec.transp (Spec.gslice l gW)) Spec.zrow = Spec.mmT h (Spec.gslice l gW) := by
  funext j
  show (∑ k : Fin 256, h (ix2 (j 0) k) * gW (ix3 l (j 1) k)) + 0 = ∑ k : Fin 256, h (ix2 (j 0) k) * gW (ix3 l (j 1) k)
  rw [add_zero]

/-- The folded normalisation is the textbook one, on reals: both sides are (y + b − μ) · s · g + β. -/
theorem fold_eq (y g b β μ s : ℝ) :
    (y : EReal) * ((g : EReal) * (s : EReal)) + (((b : EReal) * ((g : EReal) * (s : EReal)) + (β : EReal))
        - (μ : EReal) * ((g : EReal) * (s : EReal)))
      = ((((y : EReal) + (b : EReal)) - (μ : EReal)) * (s : EReal)) * (g : EReal) + (β : EReal) := by
  simp only [← EReal.coe_mul, ← EReal.coe_add, ← EReal.coe_sub]
  congr 1
  ring

section Layer
variable (l : Fin 3) (src dst : Fin Spec.NE → Fin Spec.NN) (h : Spec.A2 10000 256) (gW : Spec.A3 3 256 256)
  (gb gamma beta mean var : Spec.A2 3 256)
  (hh : Spec.IsReal h) (hgW : Spec.IsReal gW) (hgb : Spec.IsReal gb) (hgamma : Spec.IsReal gamma)
  (hbeta : Spec.IsReal beta) (hmean : Spec.IsReal mean) (hvar : Spec.IsReal var) (hvar0 : ∀ i, 0 ≤ var i)

include hh hgW hgb hgamma hbeta hmean hvar hvar0

/-- The layer at node n and feature f, with the features already multiplied by the slice: the adjacency row against
    the feature column is the sparse aggregation, a real y; the guarded variance is a positive real, so its reciprocal
    square root is a real s; and the two normalisations agree on reals. -/
theorem layer_at (n : Fin 10000) (f : Fin 256) :
    max ((∑ k : Fin 10000, Spec.adj src dst (ix2 n k) * Spec.mmT h (Spec.gslice l gW) (ix2 k f))
          * (gamma (ix2 l f) * Ideal.rsqrt (var (ix2 l f) + Spec.eps))
        + ((gb (ix2 l f) * (gamma (ix2 l f) * Ideal.rsqrt (var (ix2 l f) + Spec.eps)) + beta (ix2 l f))
            - mean (ix2 l f) * (gamma (ix2 l f) * Ideal.rsqrt (var (ix2 l f) + Spec.eps)))) 0
      = max ((((Spec.convAt src dst (Spec.mmT h (Spec.gslice l gW)) n f + gb (ix2 l f)) - mean (ix2 l f))
            * Ideal.rsqrt (var (ix2 l f) + Spec.eps)) * gamma (ix2 l f) + beta (ix2 l f)) 0 := by
  rw [adj_mul src dst (Spec.mmT h (Spec.gslice l gW)) n f]
  obtain ⟨y, hy⟩ := convAt_real src dst (mmT_real hh (gslice_real l hgW)) n f
  obtain ⟨g, hg⟩ := hgamma (ix2 l f)
  obtain ⟨b, hb⟩ := hgb (ix2 l f)
  obtain ⟨β, hβ⟩ := hbeta (ix2 l f)
  obtain ⟨μ, hμ⟩ := hmean (ix2 l f)
  obtain ⟨v, hv⟩ := hvar (ix2 l f)
  obtain ⟨e, he0, he⟩ := eps_pos_real
  have hv0 : 0 ≤ v := by
    have h0 := hvar0 (ix2 l f)
    rw [hv] at h0
    exact EReal.coe_nonneg.mp h0
  obtain ⟨s, _, hs⟩ := rsqrt_pos_real hv0 he0
  rw [hy, hg, hb, hβ, hμ, hv, he, hs, fold_eq]

/-- The layer with the dense adjacency and the folded normalisation is the layer with the sparse aggregation and the
    textbook normalisation. -/
theorem layer_eq :
    Spec.rAgg (Spec.adj src dst) (Spec.rLin h (Spec.transp (Spec.gslice l gW)) Spec.zrow) (Spec.scaleK l gamma var)
        (Spec.shiftK l gb gamma beta mean var)
      = Spec.bnrelu l gb gamma beta mean var (Spec.conv src dst (Spec.mmT h (Spec.gslice l gW))) := by
  rw [rLin_zrow]
  funext i
  exact layer_at l src dst h gW gb gamma beta mean var hh hgW hgb hgamma hbeta hmean hvar hvar0 (i 0) (i 1)

/-- The layer's output is real. -/
theorem layer_real :
    Spec.IsReal (Spec.bnrelu l gb gamma beta mean var (Spec.conv src dst (Spec.mmT h (Spec.gslice l gW)))) := by
  intro i
  obtain ⟨e, he0, he⟩ := eps_pos_real
  obtain ⟨v, hv⟩ := hvar (ix2 l (i 1))
  have hv0 : 0 ≤ v := by
    have h0 := hvar0 (ix2 l (i 1))
    rw [hv] at h0
    exact EReal.coe_nonneg.mp h0
  obtain ⟨s, _, hs⟩ := rsqrt_pos_real hv0 he0
  have hs' : ∃ r : ℝ, Ideal.rsqrt (var (ix2 l (i 1)) + Spec.eps) = (r : EReal) := ⟨s, by rw [hv, he, hs]⟩
  exact real_max0 (real_add (real_mul (real_mul (real_sub (real_add
    (convAt_real src dst (mmT_real hh (gslice_real l hgW)) (i 0) (i 1)) (hgb _)) (hmean _)) hs') (hgamma _)) (hbeta _))

end Layer

end Cert.Gcn.M

end
-- ==== Proof.MathNet.lean ====
/-
  The two spellings of the whole network agree on admissible arguments.

  The input projection and the head differ only in how the transposed weights and the bias rows are indexed; each graph
  layer is `layer_eq`, its input real by `layer_real` of the layer before (the input projection of real arguments is
  real, and a real layer output plus a real residual is real).
-/
import proofs.«424132_j19705309954162_2_alg».proof.Proof.Spec
import proofs.«424132_j19705309954162_2_alg».proof.Proof.MathLayer

noncomputable section

namespace Cert.Gcn.M

open Idealize.ShloMosaic Idealize.ShloMosaic.ValueIdx Cert.Gcn

/-! ## The real numbers inside the extended reals are closed under sum, product and clamp -/

/-- The sum of two reals is real. -/
theorem net_real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

/-- The product of two reals is real. -/
theorem net_real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

/-- A real clamped below at zero is real: the embedding of the reals is monotone, so it commutes with `max`. -/
theorem net_real_max_zero {a : EReal} (ha : ∃ r : ℝ, a = (r : EReal)) : ∃ r : ℝ, max a 0 = (r : EReal) := by
  obtain ⟨r, rfl⟩ := ha
  refine ⟨max r 0, ?_⟩
  rw [EReal.coe_strictMono.monotone.map_max]
  rfl

/-- A finite sum of reals is real. -/
theorem net_real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    rw [Finset.sum_insert ha]
    exact net_real_add (h a (Finset.mem_insert_self a s)) (ih fun i hi => h i (Finset.mem_insert_of_mem hi))

/-! ## The input projection and the head: the same sums with the weights' two coordinates exchanged -/

/-- The input projection: entry (k, j) of the transposed weight matrix is entry (j, k) of the matrix, and entry (0, j) of
    the one-row bias is entry j of the bias. -/
theorem kh0_eq (x : Spec.A2 10000 2048) (inW : Spec.A2 256 2048) (inb : Spec.A1 256) :
    Spec.kh0 x inW inb = Spec.rh0 x inW inb := by
  funext i
  rfl

/-- The head, for any input rows: the three affine layers against transposed weights and one-row biases are the three
    affine layers against the weights' transposes as `mmT` spells them. -/
theorem head_eq (h3 : Spec.A2 10000 256) (c1W : Spec.A2 128 256) (c1b : Spec.A1 128) (c2W : Spec.A2 64 128)
    (c2b : Spec.A1 64) (c3W : Spec.A2 10 64) (c3b : Spec.A1 10) :
    Spec.rMlp h3 (Spec.transp c1W) (Spec.row1 c1b) (Spec.transp c2W) (Spec.row1 c2b) (Spec.transp c3W) (Spec.row1 c3b)
      = fun i => Spec.mmT (Spec.affRelu (Spec.affRelu h3 c1W c1b) c2W c2b) c3W i + c3b (ix1 (i 1)) := by
  funext i
  rfl

/-- The input projection of real arguments is real. -/
theorem rh0_real (x : Spec.A2 10000 2048) (inW : Spec.A2 256 2048) (inb : Spec.A1 256) (hx : Spec.IsReal x)
    (hW : Spec.IsReal inW) (hb : Spec.IsReal inb) : Spec.IsReal (Spec.rh0 x inW inb) := by
  intro i
  show ∃ r : ℝ, max ((∑ k : Fin 2048, x (ix2 (i 0) k) * inW (ix2 (i 1) k)) + inb (ix1 (i 1))) 0 = (r : EReal)
  exact net_real_max_zero (net_real_add (net_real_sum _ _ fun k _ => net_real_mul (hx _) (hW _)) (hb _))

/-! ## The graph layers, one after the other -/

section Net
variable {x : Spec.A2 10000 2048} {ei : (⟨2, ![2, 320000]⟩ : Shape).Idx → BitVec 32} {inW : Spec.A2 256 2048}
  {inb : Spec.A1 256} {gW : Spec.A3 3 256 256} {gb gamma beta mean var : Spec.A2 3 256} {c1W : Spec.A2 128 256}
  {c1b : Spec.A1 128} {c2W : Spec.A2 64 128} {c2b : Spec.A1 64} {c3W : Spec.A2 10 64} {c3b : Spec.A1 10}
  (hA : Spec.Admissible x ei inW inb gW gb gamma beta mean var c1W c1b c2W c2b c3W c3b)
  (src dst : Fin Spec.NE → Fin Spec.NN)

include hA

/-- The first layer: its input is the input projection, which is real. -/
theorem kh1_eq :
    Spec.kh1 src dst x inW inb gW gb gamma beta mean var = Spec.rh1 src dst x inW inb gW gb gamma beta mean var := by
  unfold Spec.kh1 Spec.rh1
  rw [kh0_eq]
  exact layer_eq 0 src dst (Spec.rh0 x inW inb) gW gb gamma beta mean var
    (rh0_real x inW inb hA.x_real hA.inW_real hA.inb_real) hA.gW_real hA.gb_real hA.gamma_real hA.beta_real
    hA.mean_real hA.var_real hA.var_nonneg

/-- The first layer's output is real. -/
theorem rh1_real : Spec.IsReal (Spec.rh1 src dst x inW inb gW gb gamma beta mean var) := by
  unfold Spec.rh1
  exact layer_real 0 src dst (Spec.rh0 x inW inb) gW gb gamma beta mean var
    (rh0_real x inW inb hA.x_real hA.inW_real hA.inb_real) hA.gW_real hA.gb_real hA.gamma_real hA.beta_real
    hA.mean_real hA.var_real hA.var_nonneg

/-- The second layer: the layer of the first layer's output, plus that output. -/
theorem kh2_eq :
    Spec.kh2 src dst x inW inb gW gb gamma beta mean var = Spec.rh2 src dst x inW inb gW gb gamma beta mean var := by
  unfold Spec.kh2 Spec.rh2
  rw [kh1_eq hA src dst]
  funext i
  rw [← layer_eq 1 src dst (Spec.rh1 src dst x inW inb gW gb gamma beta mean var) gW gb gamma beta mean var
    (rh1_real hA src dst) hA.gW_real hA.gb_real hA.gamma_real hA.beta_real hA.mean_real hA.var_real hA.var_nonneg]
  rfl

/-- The second layer's output is real: a real layer output plus a real residual. -/
theorem rh2_real : Spec.IsReal (Spec.rh2 src dst x inW inb gW gb gamma beta mean var) := by
  intro i
  unfold Spec.rh2
  exact net_real_add
    (layer_real 1 src dst (Spec.rh1 src dst x inW inb gW gb gamma beta mean var) gW gb gamma beta mean var
      (rh1_real hA src dst) hA.gW_real hA.gb_real hA.gamma_real hA.beta_real hA.mean_real hA.var_real hA.var_nonneg i)
    (rh1_real hA src dst i)

/-- The third layer: the layer of the second layer's output, plus that output. -/
theorem kh3_eq :
    Spec.kh3 src dst x inW inb gW gb gamma beta mean var = Spec.rh3 src dst x inW inb gW gb gamma beta mean var := by
  unfold Spec.kh3 Spec.rh3
  rw [kh2_eq hA src dst]
  funext i
  rw [← layer_eq 2 src dst (Spec.rh2 src dst x inW inb gW gb gamma beta mean var) gW gb gamma beta mean var
    (rh2_real hA src dst) hA.gW_real hA.gb_real hA.gamma_real hA.beta_real hA.mean_real hA.var_real hA.var_nonneg]
  rfl

end Net

/-- The dense, folded network is the sparse, textbook network on admissible arguments. -/
theorem knet_eq_rnet (x : Spec.A2 10000 2048) (ei : (⟨2, ![2, 320000]⟩ : Shape).Idx → BitVec 32) (inW : Spec.A2 256 2048)
    (inb : Spec.A1 256) (gW : Spec.A3 3 256 256) (gb gamma beta mean var : Spec.A2 3 256) (c1W : Spec.A2 128 256)
    (c1b : Spec.A1 128) (c2W : Spec.A2 64 128) (c2b : Spec.A1 64) (c3W : Spec.A2 10 64) (c3b : Spec.A1 10)
    (hA : Spec.Admissible x ei inW inb gW gb gamma beta mean var c1W c1b c2W c2b c3W c3b)
    (src dst : Fin Spec.NE → Fin Spec.NN) :
    Spec.knet src dst x inW inb gW gb gamma beta mean var c1W c1b c2W c2b c3W c3b = Spec.rnet src dst x inW inb gW gb gamma beta mean var c1W c1b c2W c2b c3W c3b := by
  unfold Spec.knet Spec.rnet
  rw [kh3_eq hA src dst]
  exact head_eq _ c1W c1b c2W c2b c3W c3b

end Cert.Gcn.M

end
-- ==== Proof.lean ====
/-
  The proof of the claim: a three-layer graph-convolution network with a dense, pre-normalised adjacency matrix and the
  batch normalisation folded into one scale and shift per feature, against the textbook spelling with sparse
  aggregation over the edge list — equal over the extended reals when every float input is real, every edge end is a
  node and no variance is negative.

  The three frames are the generated frame certificates (the reference's: its generated run with the result dropped).
  The idealization ledger is empty. For the value claim, the kernel program's result is read off its run as
  `Spec.knet` of the arguments (the launches' region functions and the host stretches, composed), the reference's as
  `Spec.rnet` (its run read one operation at a time), and the two networks agree on admissible arguments: the dense
  adjacency product is the sparse aggregation because the edge weights are non-negative, and the folded normalisation
  is the textbook one by the field laws once every quantity is real and the guarded variance positive.
-/
import proofs.«424132_j19705309954162_2_alg».proof.Defs
import proofs.«424132_j19705309954162_2_alg».proof.Proof.Gen.Kernel
import proofs.«424132_j19705309954162_2_alg».proof.Proof.Gen.Kernel.Frame
import proofs.«424132_j19705309954162_2_alg».proof.Proof.Gen.KernelIdeal
import proofs.«424132_j19705309954162_2_alg».proof.Proof.Gen.KernelIdeal.Frame
import proofs.«424132_j19705309954162_2_alg».proof.Proof.Gen.ReferenceIdeal
import proofs.«424132_j19705309954162_2_alg».proof.Proof.Gen.Pre_finite_inputs
import proofs.«424132_j19705309954162_2_alg».proof.Proof.Gen.ReferenceIdeal.Run
import proofs.«424132_j19705309954162_2_alg».proof.Proof.Gen.ReferenceIdeal.Read
import proofs.«424132_j19705309954162_2_alg».proof.Proof.Spec
import proofs.«424132_j19705309954162_2_alg».proof.Proof.KRun
import proofs.«424132_j19705309954162_2_alg».proof.Proof.KChain
import proofs.«424132_j19705309954162_2_alg».proof.Proof.RefValue
import proofs.«424132_j19705309954162_2_alg».proof.Proof.PreFacts
import proofs.«424132_j19705309954162_2_alg».proof.Proof.MathNet
import Idealize.ShloMosaic.Adequacy
import Idealize.ShloMosaic.Init

noncomputable section

namespace Cert.Proof

open Idealize.ShloMosaic Idealize.ShloMosaic.TcCoe Idealize.SL.Sem Cert.Gcn

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ledger is empty. -/
theorem preserves : Cert.preserves_Kernel_KernelIdeal := trivial

/-- Both programs end with the same network of the arguments: the kernel program's run gives `Spec.knet`, the reference's
    `Spec.rnet`, and the two agree on what the precondition admits. -/
theorem algebraic : Cert.algebraic_KernelIdeal_ReferenceIdeal := by
  intro m ρ m' ρ' hpre hagree
  have hA := fun c => Cert.Gcn.P.admissible_of_pre m hpre c
  choose src dst hE using fun c => (hA c).edges
  refine ⟨fun c => Spec.knet (src c) (dst c) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.Gcn.K.w16_value m ρ c (src c) (dst c) (hE c)), (h c).2⟩)
      (Cert.KernelIdeal.Gen.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11, a12, a13, a14, a15⟩ := hagree c
    rw [Cert.Gcn.R.ref_value m' c (src c) (dst c) (by rw [a1]; exact hE c)]
    rw [a0, a2, a3, a4, a5, a6, a7, a8, a9, a10, a11, a12, a13, a14, a15]
    exact (Cert.Gcn.M.knet_eq_rnet _ _ _ _ _ _ _ _ _ _ _ _ _ _ _ _ (hA c) (src c) (dst c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
